-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![128, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![512, 256]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 128]⟩ ⟨2, ![256, 512]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![512, 256]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![256, 512]⟩ 1 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![128, 256]⟩ ⟨2, ![512, 256]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![256, 512]⟩ 1 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 128]⟩ ⟨2, ![128, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S128x128 : Shape := ⟨2, ![128, 128]⟩
abbrev S128x256 : Shape := ⟨2, ![128, 256]⟩
abbrev S256x128 : Shape := ⟨2, ![256, 128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .f32) (main_arg5 : FVec F S128x256 .f32) (main_arg6 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S128x128 .f32) (main_arg1 : FVec F S128x256 .f32) (main_arg2 : FVec F S256x128 .f32) (main_arg3 : FVec F S128x256 .f32) (main_arg4 : FVec F S256x128 .f32) (main_arg5 : FVec F S128x256 .f32) (main_arg6 : FVec F S256x128 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Pre_finite_inputs_ReferenceIdeal.lean ====
abbrev S128x512 : Shape := ⟨2, ![128, 512]⟩
abbrev S512x256 : Shape := ⟨2, ![512, 256]⟩
abbrev S256x512 : Shape := ⟨2, ![256, 512]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S256x512 .f32) (main_arg5 : FVec F S512x256 .f32) (main_arg6 : FVec F S256x512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  main_v33

def fn {F : FTy → Type} [FloatOps F] (main_arg0 : FVec F S128x512 .f32) (main_arg1 : FVec F S512x256 .f32) (main_arg2 : FVec F S256x512 .f32) (main_arg3 : FVec F S512x256 .f32) (main_arg4 : FVec F S256x512 .f32) (main_arg5 : FVec F S512x256 .f32) (main_arg6 : FVec F S256x512 .f32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S128x128 : Shape := ⟨2, ![128, 128]⟩
abbrev S128x256 : Shape := ⟨2, ![128, 256]⟩
abbrev S256x128 : Shape := ⟨2, ![256, 128]⟩
abbrev S48x32x256 : Shape := ⟨3, ![48, 32, 256]⟩
abbrev S36 : Shape := ⟨1, ![36]⟩
abbrev S_ : Shape := ⟨0, ![]⟩
abbrev S32x128 : Shape := ⟨2, ![32, 128]⟩
abbrev S32x256 : Shape := ⟨2, ![32, 256]⟩
abbrev S1x32x256 : Shape := ⟨3, ![1, 32, 256]⟩
abbrev S1 : Shape := ⟨1, ![1]⟩

abbrev nBuf : Space → Nat
  | .hbm => 8
  | .vmem => 9
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S256x128, .f32⟩
  | .hbm, ⟨3, _⟩ => ⟨S128x256, .f32⟩
  | .hbm, ⟨4, _⟩ => ⟨S256x128, .f32⟩
  | .hbm, ⟨5, _⟩ => ⟨S128x256, .f32⟩
  | .hbm, ⟨6, _⟩ => ⟨S256x128, .f32⟩
  | .hbm, ⟨7, _⟩ => ⟨S128x128, .f32⟩
  | .local _ .vmem, ⟨0, _⟩ => ⟨S128x128, .f32⟩
  | .local _ .vmem, ⟨1, _⟩ => ⟨S128x256, .f32⟩
  | .local _ .vmem, ⟨2, _⟩ => ⟨S256x128, .f32⟩
  | .local _ .vmem, ⟨3, _⟩ => ⟨S128x256, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S128x128, .f32⟩
  | .local _ .vmem, ⟨8, _⟩ => ⟨S48x32x256, .bf16⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_19 : BitVec 32 := 2#32
  let v27 : BitVec 32 := Scalar.addi v2 c2_i32_19
  let c4_i32_20 : BitVec 32 := 4#32
  let v28 : BitVec 32 := Scalar.remsi v27 c4_i32_20
  let c1_i32_25 : BitVec 32 := 1#32
  let v29 : BitVec 32 := Scalar.muli v28 c1_i32_25
  let v30 : BitVec 32 := Scalar.addi c0_i32_26 v29
  v30.toNat
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v39 : BitVec 32 := Scalar.addi v2 c1_i32_31
  let c4_i32_32 : BitVec 32 := 4#32
  let v40 : BitVec 32 := Scalar.remsi v39 c4_i32_32
  let c1_i32_37 : BitVec 32 := 1#32
  let v41 : BitVec 32 := Scalar.muli v40 c1_i32_37
  let v42 : BitVec 32 := Scalar.addi c0_i32_38 v41
  v42.toNat
def k0_dev6 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_43 : BitVec 32 := 3#32
  let v51 : BitVec 32 := Scalar.addi v2 c3_i32_43
  let c4_i32_44 : BitVec 32 := 4#32
  let v52 : BitVec 32 := Scalar.remsi v51 c4_i32_44
  let c1_i32_49 : BitVec 32 := 1#32
  let v53 : BitVec 32 := Scalar.muli v52 c1_i32_49
  let v54 : BitVec 32 := Scalar.addi c0_i32_50 v53
  v54.toNat
def k0_dev7 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_61 : BitVec 32 := 2#32
  let v74 : BitVec 32 := Scalar.addi v2 c2_i32_61
  let c4_i32_62 : BitVec 32 := 4#32
  let v75 : BitVec 32 := Scalar.remsi v74 c4_i32_62
  let c1_i32_66 : BitVec 32 := 1#32
  let v76 : BitVec 32 := Scalar.muli v75 c1_i32_66
  let v77 : BitVec 32 := Scalar.addi c0_i32_67 v76
  v77.toNat
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_72 : BitVec 32 := 1#32
  let v86 : BitVec 32 := Scalar.addi v2 c1_i32_72
  let c4_i32_73 : BitVec 32 := 4#32
  let v87 : BitVec 32 := Scalar.remsi v86 c4_i32_73
  let c1_i32_77 : BitVec 32 := 1#32
  let v88 : BitVec 32 := Scalar.muli v87 c1_i32_77
  let v89 : BitVec 32 := Scalar.addi c0_i32_78 v88
  v89.toNat
def k0_dev9 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_83 : BitVec 32 := 3#32
  let v98 : BitVec 32 := Scalar.addi v2 c3_i32_83
  let c4_i32_84 : BitVec 32 := 4#32
  let v99 : BitVec 32 := Scalar.remsi v98 c4_i32_84
  let c1_i32_88 : BitVec 32 := 1#32
  let v100 : BitVec 32 := Scalar.muli v99 c1_i32_88
  let v101 : BitVec 32 := Scalar.addi c0_i32_89 v100
  v101.toNat
def k0_dev10 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_100 : BitVec 32 := 2#32
  let v121 : BitVec 32 := Scalar.addi v2 c2_i32_100
  let c4_i32_101 : BitVec 32 := 4#32
  let v122 : BitVec 32 := Scalar.remsi v121 c4_i32_101
  let c1_i32_104 : BitVec 32 := 1#32
  let v123 : BitVec 32 := Scalar.muli v122 c1_i32_104
  let v124 : BitVec 32 := Scalar.addi c0_i32_105 v123
  v124.toNat
def k0_dev11 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_110 : BitVec 32 := 1#32
  let v133 : BitVec 32 := Scalar.addi v2 c1_i32_110
  let c4_i32_111 : BitVec 32 := 4#32
  let v134 : BitVec 32 := Scalar.remsi v133 c4_i32_111
  let c1_i32_115 : BitVec 32 := 1#32
  let v135 : BitVec 32 := Scalar.muli v134 c1_i32_115
  let v136 : BitVec 32 := Scalar.addi c0_i32_116 v135
  v136.toNat
def k0_dev12 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_121 : BitVec 32 := 3#32
  let v145 : BitVec 32 := Scalar.addi v2 c3_i32_121
  let c4_i32_122 : BitVec 32 := 4#32
  let v146 : BitVec 32 := Scalar.remsi v145 c4_i32_122
  let c1_i32_126 : BitVec 32 := 1#32
  let v147 : BitVec 32 := Scalar.muli v146 c1_i32_126
  let v148 : BitVec 32 := Scalar.addi c0_i32_127 v147
  v148.toNat
def k0_dev13 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_138 : BitVec 32 := 2#32
  let v168 : BitVec 32 := Scalar.addi v2 c2_i32_138
  let c4_i32_139 : BitVec 32 := 4#32
  let v169 : BitVec 32 := Scalar.remsi v168 c4_i32_139
  let c1_i32_142 : BitVec 32 := 1#32
  let v170 : BitVec 32 := Scalar.muli v169 c1_i32_142
  let v171 : BitVec 32 := Scalar.addi c0_i32_143 v170
  v171.toNat
def k0_dev14 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_148 : BitVec 32 := 1#32
  let v180 : BitVec 32 := Scalar.addi v2 c1_i32_148
  let c4_i32_149 : BitVec 32 := 4#32
  let v181 : BitVec 32 := Scalar.remsi v180 c4_i32_149
  let c1_i32_153 : BitVec 32 := 1#32
  let v182 : BitVec 32 := Scalar.muli v181 c1_i32_153
  let v183 : BitVec 32 := Scalar.addi c0_i32_154 v182
  v183.toNat
def k0_dev15 (d0 : Dev nD) : Nat :=
  let c0_i32_165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_159 : BitVec 32 := 3#32
  let v192 : BitVec 32 := Scalar.addi v2 c3_i32_159
  let c4_i32_160 : BitVec 32 := 4#32
  let v193 : BitVec 32 := Scalar.remsi v192 c4_i32_160
  let c1_i32_164 : BitVec 32 := 1#32
  let v194 : BitVec 32 := Scalar.muli v193 c1_i32_164
  let v195 : BitVec 32 := Scalar.addi c0_i32_165 v194
  v195.toNat
def k0_dev16 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_215 : BitVec 32 := 2#32
  let v256 : BitVec 32 := Scalar.addi v2 c2_i32_215
  let c4_i32_216 : BitVec 32 := 4#32
  let v257 : BitVec 32 := Scalar.remsi v256 c4_i32_216
  let c1_i32_219 : BitVec 32 := 1#32
  let v258 : BitVec 32 := Scalar.muli v257 c1_i32_219
  let v259 : BitVec 32 := Scalar.addi c0_i32_220 v258
  v259.toNat
def k0_dev17 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_225 : BitVec 32 := 1#32
  let v268 : BitVec 32 := Scalar.addi v2 c1_i32_225
  let c4_i32_226 : BitVec 32 := 4#32
  let v269 : BitVec 32 := Scalar.remsi v268 c4_i32_226
  let c1_i32_230 : BitVec 32 := 1#32
  let v270 : BitVec 32 := Scalar.muli v269 c1_i32_230
  let v271 : BitVec 32 := Scalar.addi c0_i32_231 v270
  v271.toNat
def k0_dev18 (d0 : Dev nD) : Nat :=
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_236 : BitVec 32 := 3#32
  let v280 : BitVec 32 := Scalar.addi v2 c3_i32_236
  let c4_i32_237 : BitVec 32 := 4#32
  let v281 : BitVec 32 := Scalar.remsi v280 c4_i32_237
  let c1_i32_241 : BitVec 32 := 1#32
  let v282 : BitVec 32 := Scalar.muli v281 c1_i32_241
  let v283 : BitVec 32 := Scalar.addi c0_i32_242 v282
  v283.toNat
def k0_dev19 (d0 : Dev nD) : Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_292 : BitVec 32 := 2#32
  let v344 : BitVec 32 := Scalar.addi v2 c2_i32_292
  let c4_i32_293 : BitVec 32 := 4#32
  let v345 : BitVec 32 := Scalar.remsi v344 c4_i32_293
  let c1_i32_296 : BitVec 32 := 1#32
  let v346 : BitVec 32 := Scalar.muli v345 c1_i32_296
  let v347 : BitVec 32 := Scalar.addi c0_i32_297 v346
  v347.toNat
def k0_dev20 (d0 : Dev nD) : Nat :=
  let c0_i32_308 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_302 : BitVec 32 := 1#32
  let v356 : BitVec 32 := Scalar.addi v2 c1_i32_302
  let c4_i32_303 : BitVec 32 := 4#32
  let v357 : BitVec 32 := Scalar.remsi v356 c4_i32_303
  let c1_i32_307 : BitVec 32 := 1#32
  let v358 : BitVec 32 := Scalar.muli v357 c1_i32_307
  let v359 : BitVec 32 := Scalar.addi c0_i32_308 v358
  v359.toNat
def k0_dev21 (d0 : Dev nD) : Nat :=
  let c0_i32_319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_313 : BitVec 32 := 3#32
  let v368 : BitVec 32 := Scalar.addi v2 c3_i32_313
  let c4_i32_314 : BitVec 32 := 4#32
  let v369 : BitVec 32 := Scalar.remsi v368 c4_i32_314
  let c1_i32_318 : BitVec 32 := 1#32
  let v370 : BitVec 32 := Scalar.muli v369 c1_i32_318
  let v371 : BitVec 32 := Scalar.addi c0_i32_319 v370
  v371.toNat
def k0_dev22 (d0 : Dev nD) : Nat :=
  let c0_i32_374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_369 : BitVec 32 := 2#32
  let v432 : BitVec 32 := Scalar.addi v2 c2_i32_369
  let c4_i32_370 : BitVec 32 := 4#32
  let v433 : BitVec 32 := Scalar.remsi v432 c4_i32_370
  let c1_i32_373 : BitVec 32 := 1#32
  let v434 : BitVec 32 := Scalar.muli v433 c1_i32_373
  let v435 : BitVec 32 := Scalar.addi c0_i32_374 v434
  v435.toNat
def k0_dev23 (d0 : Dev nD) : Nat :=
  let c0_i32_385 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_379 : BitVec 32 := 1#32
  let v444 : BitVec 32 := Scalar.addi v2 c1_i32_379
  let c4_i32_380 : BitVec 32 := 4#32
  let v445 : BitVec 32 := Scalar.remsi v444 c4_i32_380
  let c1_i32_384 : BitVec 32 := 1#32
  let v446 : BitVec 32 := Scalar.muli v445 c1_i32_384
  let v447 : BitVec 32 := Scalar.addi c0_i32_385 v446
  v447.toNat
def k0_dev24 (d0 : Dev nD) : Nat :=
  let c0_i32_396 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_390 : BitVec 32 := 3#32
  let v456 : BitVec 32 := Scalar.addi v2 c3_i32_390
  let c4_i32_391 : BitVec 32 := 4#32
  let v457 : BitVec 32 := Scalar.remsi v456 c4_i32_391
  let c1_i32_395 : BitVec 32 := 1#32
  let v458 : BitVec 32 := Scalar.muli v457 c1_i32_395
  let v459 : BitVec 32 := Scalar.addi c0_i32_396 v458
  v459.toNat
def k0_dev25 (d0 : Dev nD) : Nat :=
  let c0_i32_451 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_446 : BitVec 32 := 2#32
  let v520 : BitVec 32 := Scalar.addi v2 c2_i32_446
  let c4_i32_447 : BitVec 32 := 4#32
  let v521 : BitVec 32 := Scalar.remsi v520 c4_i32_447
  let c1_i32_450 : BitVec 32 := 1#32
  let v522 : BitVec 32 := Scalar.muli v521 c1_i32_450
  let v523 : BitVec 32 := Scalar.addi c0_i32_451 v522
  v523.toNat
def k0_dev26 (d0 : Dev nD) : Nat :=
  let c0_i32_462 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_456 : BitVec 32 := 1#32
  let v532 : BitVec 32 := Scalar.addi v2 c1_i32_456
  let c4_i32_457 : BitVec 32 := 4#32
  let v533 : BitVec 32 := Scalar.remsi v532 c4_i32_457
  let c1_i32_461 : BitVec 32 := 1#32
  let v534 : BitVec 32 := Scalar.muli v533 c1_i32_461
  let v535 : BitVec 32 := Scalar.addi c0_i32_462 v534
  v535.toNat
def k0_dev27 (d0 : Dev nD) : Nat :=
  let c0_i32_473 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_467 : BitVec 32 := 3#32
  let v544 : BitVec 32 := Scalar.addi v2 c3_i32_467
  let c4_i32_468 : BitVec 32 := 4#32
  let v545 : BitVec 32 := Scalar.remsi v544 c4_i32_468
  let c1_i32_472 : BitVec 32 := 1#32
  let v546 : BitVec 32 := Scalar.muli v545 c1_i32_472
  let v547 : BitVec 32 := Scalar.addi c0_i32_473 v546
  v547.toNat
def k0_dev28 (d0 : Dev nD) : Nat :=
  let c0_i32_529 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_524 : BitVec 32 := 2#32
  let v608 : BitVec 32 := Scalar.addi v2 c2_i32_524
  let c4_i32_525 : BitVec 32 := 4#32
  let v609 : BitVec 32 := Scalar.remsi v608 c4_i32_525
  let c1_i32_528 : BitVec 32 := 1#32
  let v610 : BitVec 32 := Scalar.muli v609 c1_i32_528
  let v611 : BitVec 32 := Scalar.addi c0_i32_529 v610
  v611.toNat
def k0_dev29 (d0 : Dev nD) : Nat :=
  let c0_i32_540 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_534 : BitVec 32 := 1#32
  let v620 : BitVec 32 := Scalar.addi v2 c1_i32_534
  let c4_i32_535 : BitVec 32 := 4#32
  let v621 : BitVec 32 := Scalar.remsi v620 c4_i32_535
  let c1_i32_539 : BitVec 32 := 1#32
  let v622 : BitVec 32 := Scalar.muli v621 c1_i32_539
  let v623 : BitVec 32 := Scalar.addi c0_i32_540 v622
  v623.toNat
def k0_dev30 (d0 : Dev nD) : Nat :=
  let c0_i32_551 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_545 : BitVec 32 := 3#32
  let v632 : BitVec 32 := Scalar.addi v2 c3_i32_545
  let c4_i32_546 : BitVec 32 := 4#32
  let v633 : BitVec 32 := Scalar.remsi v632 c4_i32_546
  let c1_i32_550 : BitVec 32 := 1#32
  let v634 : BitVec 32 := Scalar.muli v633 c1_i32_550
  let v635 : BitVec 32 := Scalar.addi c0_i32_551 v634
  v635.toNat
def k0_dev31 (d0 : Dev nD) : Nat :=
  let c0_i32_606 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_601 : BitVec 32 := 2#32
  let v696 : BitVec 32 := Scalar.addi v2 c2_i32_601
  let c4_i32_602 : BitVec 32 := 4#32
  let v697 : BitVec 32 := Scalar.remsi v696 c4_i32_602
  let c1_i32_605 : BitVec 32 := 1#32
  let v698 : BitVec 32 := Scalar.muli v697 c1_i32_605
  let v699 : BitVec 32 := Scalar.addi c0_i32_606 v698
  v699.toNat
def k0_dev32 (d0 : Dev nD) : Nat :=
  let c0_i32_617 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_611 : BitVec 32 := 1#32
  let v708 : BitVec 32 := Scalar.addi v2 c1_i32_611
  let c4_i32_612 : BitVec 32 := 4#32
  let v709 : BitVec 32 := Scalar.remsi v708 c4_i32_612
  let c1_i32_616 : BitVec 32 := 1#32
  let v710 : BitVec 32 := Scalar.muli v709 c1_i32_616
  let v711 : BitVec 32 := Scalar.addi c0_i32_617 v710
  v711.toNat
def k0_dev33 (d0 : Dev nD) : Nat :=
  let c0_i32_628 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_622 : BitVec 32 := 3#32
  let v720 : BitVec 32 := Scalar.addi v2 c3_i32_622
  let c4_i32_623 : BitVec 32 := 4#32
  let v721 : BitVec 32 := Scalar.remsi v720 c4_i32_623
  let c1_i32_627 : BitVec 32 := 1#32
  let v722 : BitVec 32 := Scalar.muli v721 c1_i32_627
  let v723 : BitVec 32 := Scalar.addi c0_i32_628 v722
  v723.toNat
def k0_dev34 (d0 : Dev nD) : Nat :=
  let c0_i32_683 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_678 : BitVec 32 := 2#32
  let v784 : BitVec 32 := Scalar.addi v2 c2_i32_678
  let c4_i32_679 : BitVec 32 := 4#32
  let v785 : BitVec 32 := Scalar.remsi v784 c4_i32_679
  let c1_i32_682 : BitVec 32 := 1#32
  let v786 : BitVec 32 := Scalar.muli v785 c1_i32_682
  let v787 : BitVec 32 := Scalar.addi c0_i32_683 v786
  v787.toNat
def k0_dev35 (d0 : Dev nD) : Nat :=
  let c0_i32_694 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_688 : BitVec 32 := 1#32
  let v796 : BitVec 32 := Scalar.addi v2 c1_i32_688
  let c4_i32_689 : BitVec 32 := 4#32
  let v797 : BitVec 32 := Scalar.remsi v796 c4_i32_689
  let c1_i32_693 : BitVec 32 := 1#32
  let v798 : BitVec 32 := Scalar.muli v797 c1_i32_693
  let v799 : BitVec 32 := Scalar.addi c0_i32_694 v798
  v799.toNat
def k0_dev36 (d0 : Dev nD) : Nat :=
  let c0_i32_705 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_699 : BitVec 32 := 3#32
  let v808 : BitVec 32 := Scalar.addi v2 c3_i32_699
  let c4_i32_700 : BitVec 32 := 4#32
  let v809 : BitVec 32 := Scalar.remsi v808 c4_i32_700
  let c1_i32_704 : BitVec 32 := 1#32
  let v810 : BitVec 32 := Scalar.muli v809 c1_i32_704
  let v811 : BitVec 32 := Scalar.addi c0_i32_705 v810
  v811.toNat
def k0_dev37 (d0 : Dev nD) : Nat :=
  let c0_i32_760 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_755 : BitVec 32 := 2#32
  let v872 : BitVec 32 := Scalar.addi v2 c2_i32_755
  let c4_i32_756 : BitVec 32 := 4#32
  let v873 : BitVec 32 := Scalar.remsi v872 c4_i32_756
  let c1_i32_759 : BitVec 32 := 1#32
  let v874 : BitVec 32 := Scalar.muli v873 c1_i32_759
  let v875 : BitVec 32 := Scalar.addi c0_i32_760 v874
  v875.toNat
def k0_dev38 (d0 : Dev nD) : Nat :=
  let c0_i32_771 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_765 : BitVec 32 := 1#32
  let v884 : BitVec 32 := Scalar.addi v2 c1_i32_765
  let c4_i32_766 : BitVec 32 := 4#32
  let v885 : BitVec 32 := Scalar.remsi v884 c4_i32_766
  let c1_i32_770 : BitVec 32 := 1#32
  let v886 : BitVec 32 := Scalar.muli v885 c1_i32_770
  let v887 : BitVec 32 := Scalar.addi c0_i32_771 v886
  v887.toNat
def k0_dev39 (d0 : Dev nD) : Nat :=
  let c0_i32_782 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_776 : BitVec 32 := 3#32
  let v896 : BitVec 32 := Scalar.addi v2 c3_i32_776
  let c4_i32_777 : BitVec 32 := 4#32
  let v897 : BitVec 32 := Scalar.remsi v896 c4_i32_777
  let c1_i32_781 : BitVec 32 := 1#32
  let v898 : BitVec 32 := Scalar.muli v897 c1_i32_781
  let v899 : BitVec 32 := Scalar.addi c0_i32_782 v898
  v899.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  hamt_1 : (1#32 : BitVec 32).msb = false
  inb_S128x128_S32x128_0_0 : ∀ a, (![0, 0] : Fin 2 → Nat) a + S32x128.size a ≤ S128x128.size a
  h_S32x128 : 0 < S32x128.numel
  shapeCasts_S32x128_S32x128 : S32x128.ShapeCasts S32x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S48x32x256_S1x32x256_0_0_0 : ∀ a, (![0, 0, 0] : Fin 3 → Nat) a + S1x32x256.size a ≤ S48x32x256.size a
  h_S1x32x256 : 0 < S1x32x256.numel
  shapeCasts_S1x32x256_S32x256 : S1x32x256.ShapeCasts S32x256
  shapeCasts_S32x256_S1x32x256 : S32x256.ShapeCasts S1x32x256
  packedbf16_S48x32x256_S1x32x256_0_0_0 : (Rect.unit (s := S48x32x256) ![0, 0, 0] S1x32x256.size inb_S48x32x256_S1x32x256_0_0_0).PackedRows (EltTy.packing .bf16)
  hamt_3 : (3#32 : BitVec 32).msb = false
  inb_S36_S1_1 : ∀ a, (![1] : Fin 1 → Nat) a + S1.size a ≤ S36.size a
  squeezes_S1_S_ : S1.Squeezes S_
  inb_S48x32x256_S1x32x256_2_0_0 : ∀ a, (![2, 0, 0] : Fin 3 → Nat) a + S1x32x256.size a ≤ S48x32x256.size a
  squeezes_S1x32x256_S32x256 : S1x32x256.Squeezes S32x256
  wordsbf16_S48x32x256_S1x32x256_0_0_0 : (Rect.unit (s := S48x32x256) ![0, 0, 0] S1x32x256.size inb_S48x32x256_S1x32x256_0_0_0).WholeWords (EltTy.packing .bf16)
  wordsbf16_S48x32x256_S1x32x256_2_0_0 : (Rect.unit (s := S48x32x256) ![2, 0, 0] S1x32x256.size inb_S48x32x256_S1x32x256_2_0_0).WholeWords (EltTy.packing .bf16)
  inb_S36_S1_0 : ∀ a, (![0] : Fin 1 → Nat) a + S1.size a ≤ S36.size a
  inb_S48x32x256_S1x32x256_1_0_0 : ∀ a, (![1, 0, 0] : Fin 3 → Nat) a + S1x32x256.size a ≤ S48x32x256.size a
  wordsbf16_S48x32x256_S1x32x256_1_0_0 : (Rect.unit (s := S48x32x256) ![1, 0, 0] S1x32x256.size inb_S48x32x256_S1x32x256_1_0_0).WholeWords (EltTy.packing .bf16)
  inb_S36_S1_2 : ∀ a, (![2] : Fin 1 → Nat) a + S1.size a ≤ S36.size a
  inb_S48x32x256_S1x32x256_3_0_0 : ∀ a, (![3, 0, 0] : Fin 3 → Nat) a + S1x32x256.size a ≤ S48x32x256.size a
  wordsbf16_S48x32x256_S1x32x256_3_0_0 : (Rect.unit (s := S48x32x256) ![3, 0, 0] S1x32x256.size inb_S48x32x256_S1x32x256_3_0_0).WholeWords (EltTy.packing .bf16)
  inb_S128x128_S32x128_32_0 : ∀ a, (![32, 0] : Fin 2 → Nat) a + S32x128.size a ≤ S128x128.size a
  inb_S48x32x256_S1x32x256_4_0_0 : ∀ a, (![4, 0, 0] : Fin 3 → Nat) a + S1x32x256.size a ≤ S48x32x256.size a
  packedbf16_S48x32x256_S1x32x256_4_0_0 : (Rect.unit (s := S48x32x256) ![4, 0, 0] S1x32x256.size inb_S48x32x256_S1x32x256_4_0_0).PackedRows (EltTy.packing .bf16)
  inb_S36_S1_4 : ∀ a, (![4] : Fin 1 → Nat) a + S1.size a ≤ S36.size a
  inb_S48x32x256_S1x32x256_6_0_0 : ∀ a, (![6, 0, 0] : Fin 3 → Nat) a + S1x32x256.size a ≤ S48x32x256.size a
  wordsbf16_S48x32x256_S1x32x256_4_0_0 : (Rect.unit (s := S48x32x256) ![4, 0, 0] S1x32x256.size inb_S48x32x256_S1x32x256_4_0_0).WholeWords (EltTy.packing .bf16)
  wordsbf16_S48x32x256_S1x32x256_6_0_0 : (Rect.unit (s := S48x32x256) ![6, 0, 0] S1x32x256.size inb_S48x32x256_S1x32x256_6_0_0).WholeWords (EltTy.packing .bf16)
  inb_S36_S1_3 : ∀ a, (![3] : Fin 1 → Nat) a + S1.size a ≤ S36.size a
  inb_S48x32x256_S1x32x256_5_0_0 : ∀ a, (![5, 0, 0] : Fin 3 → Nat) a + S1x32x256.size a ≤ S48x32x256.size a
  wordsbf16_S48x32x256_S1x32x256_5_0_0 : (Rect.unit (s := S48x32x256) ![5, 0, 0] S1x32x256.size inb_S48x32x256_S1x32x256_5_0_0).WholeWords (EltTy.packing .bf16)
  inb_S36_S1_5 : ∀ a, (![5] : Fin 1 → Nat) a + S1.size a ≤ S36.size a
  inb_S48x32x256_S1x32x256_7_0_0 : ∀ a, (![7, 0, 0] : Fin 3 → Nat) a + S1x32x256.size a ≤ S48x32x256.size a
  wordsbf16_S48x32x256_S1x32x256_7_0_0 : (Rect.unit (s := S48x32x256) ![7, 0, 0] S1x32x256.size inb_S48x32x256_S1x32x256_7_0_0).WholeWords (EltTy.packing .bf16)
  inb_S128x128_S32x128_64_0 : ∀ a, (![64, 0] : Fin 2 → Nat) a + S32x128.size a ≤ S128x128.size a
  inb_S48x32x256_S1x32x256_8_0_0 : ∀ a, (![8, 0, 0] : Fin 3 → Nat) a + S1x32x256.size a ≤ S48x32x256.size a
  packedbf16_S48x32x256_S1x32x256_8_0_0 : (Rect.unit (s := S48x32x256) ![8, 0, 0] S1x32x256.size inb_S48x32x256_S1x32x256_8_0_0).PackedRows (EltTy.packing .bf16)
  inb_S36_S1_7 : ∀ a, (![7] : Fin 1 → Nat) a + S1.size a ≤ S36.size a
  inb_S48x32x256_S1x32x256_10_0_0 : ∀ a, (![10, 0, 0] : Fin 3 → Nat) a + S1x32x256.size a ≤ S48x32x256.size a
  wordsbf16_S48x32x256_S1x32x256_8_0_0 : (Rect.unit (s := S48x32x256) ![8, 0, 0] S1x32x256.size inb_S48x32x256_S1x32x256_8_0_0).WholeWords (EltTy.packing .bf16)
  wordsbf16_S48x32x256_S1x32x256_10_0_0 : (Rect.unit (s := S48x32x256) ![10, 0, 0] S1x32x256.size inb_S48x32x256_S1x32x256_10_0_0).WholeWords (EltTy.packing .bf16)
  inb_S36_S1_6 : ∀ a, (![6] : Fin 1 → Nat) a + S1.size a ≤ S36.size a
  inb_S48x32x256_S1x32x256_9_0_0 : ∀ a, (![9, 0, 0] : Fin 3 → Nat) a + S1x32x256.size a ≤ S48x32x256.size a
  wordsbf16_S48x32x256_S1x32x256_9_0_0 : (Rect.unit (s := S48x32x256) ![9, 0, 0] S1x32x256.size inb_S48x32x256_S1x32x256_9_0_0).WholeWords (EltTy.packing .bf16)
  inb_S36_S1_8 : ∀ a, (![8] : Fin 1 → Nat) a + S1.size a ≤ S36.size a
  inb_S48x32x256_S1x32x256_11_0_0 : ∀ a, (![11, 0, 0] : Fin 3 → Nat) a + S1x32x256.size a ≤ S48x32x256.size a
  wordsbf16_S48x32x256_S1x32x256_11_0_0 : (Rect.unit (s := S48x32x256) ![11, 0, 0] S1x32x256.size inb_S48x32x256_S1x32x256_11_0_0).WholeWords (EltTy.packing .bf16)
  inb_S128x128_S32x128_96_0 : ∀ a, (![96, 0] : Fin 2 → Nat) a + S32x128.size a ≤ S128x128.size a
  inb_S48x32x256_S1x32x256_12_0_0 : ∀ a, (![12, 0, 0] : Fin 3 → Nat) a + S1x32x256.size a ≤ S48x32x256.size a
  packedbf16_S48x32x256_S1x32x256_12_0_0 : (Rect.unit (s := S48x32x256) ![12, 0, 0] S1x32x256.size inb_S48x32x256_S1x32x256_12_0_0).PackedRows (EltTy.packing .bf16)
  inb_S36_S1_10 : ∀ a, (![10] : Fin 1 → Nat) a + S1.size a ≤ S36.size a
  inb_S48x32x256_S1x32x256_14_0_0 : ∀ a, (![14, 0, 0] : Fin 3 → Nat) a + S1x32x256.size a ≤ S48x32x256.size a
  wordsbf16_S48x32x256_S1x32x256_12_0_0 : (Rect.unit (s := S48x32x256) ![12, 0, 0] S1x32x256.size inb_S48x32x256_S1x32x256_12_0_0).WholeWords (EltTy.packing .bf16)
  wordsbf16_S48x32x256_S1x32x256_14_0_0 : (Rect.unit (s := S48x32x256) ![14, 0, 0] S1x32x256.size inb_S48x32x256_S1x32x256_14_0_0).WholeWords (EltTy.packing .bf16)
  inb_S36_S1_9 : ∀ a, (![9] : Fin 1 → Nat) a + S1.size a ≤ S36.size a
  inb_S48x32x256_S1x32x256_13_0_0 : ∀ a, (![13, 0, 0] : Fin 3 → Nat) a + S1x32x256.size a ≤ S48x32x256.size a
  wordsbf16_S48x32x256_S1x32x256_13_0_0 : (Rect.unit (s := S48x32x256) ![13, 0, 0] S1x32x256.size inb_S48x32x256_S1x32x256_13_0_0).WholeWords (EltTy.packing .bf16)
  inb_S36_S1_11 : ∀ a, (![11] : Fin 1 → Nat) a + S1.size a ≤ S36.size a
  inb_S48x32x256_S1x32x256_15_0_0 : ∀ a, (![15, 0, 0] : Fin 3 → Nat) a + S1x32x256.size a ≤ S48x32x256.size a
  wordsbf16_S48x32x256_S1x32x256_15_0_0 : (Rect.unit (s := S48x32x256) ![15, 0, 0] S1x32x256.size inb_S48x32x256_S1x32x256_15_0_0).WholeWords (EltTy.packing .bf16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S48x32x256_S1x32x256_16_0_0 : ∀ a, (![16, 0, 0] : Fin 3 → Nat) a + S1x32x256.size a ≤ S48x32x256.size a
  packedbf16_S48x32x256_S1x32x256_16_0_0 : (Rect.unit (s := S48x32x256) ![16, 0, 0] S1x32x256.size inb_S48x32x256_S1x32x256_16_0_0).PackedRows (EltTy.packing .bf16)
  inb_S36_S1_13 : ∀ a, (![13] : Fin 1 → Nat) a + S1.size a ≤ S36.size a
  inb_S48x32x256_S1x32x256_18_0_0 : ∀ a, (![18, 0, 0] : Fin 3 → Nat) a + S1x32x256.size a ≤ S48x32x256.size a
  wordsbf16_S48x32x256_S1x32x256_16_0_0 : (Rect.unit (s := S48x32x256) ![16, 0, 0] S1x32x256.size inb_S48x32x256_S1x32x256_16_0_0).WholeWords (EltTy.packing .bf16)
  wordsbf16_S48x32x256_S1x32x256_18_0_0 : (Rect.unit (s := S48x32x256) ![18, 0, 0] S1x32x256.size inb_S48x32x256_S1x32x256_18_0_0).WholeWords (EltTy.packing .bf16)
  inb_S36_S1_12 : ∀ a, (![12] : Fin 1 → Nat) a + S1.size a ≤ S36.size a
  inb_S48x32x256_S1x32x256_17_0_0 : ∀ a, (![17, 0, 0] : Fin 3 → Nat) a + S1x32x256.size a ≤ S48x32x256.size a
  wordsbf16_S48x32x256_S1x32x256_17_0_0 : (Rect.unit (s := S48x32x256) ![17, 0, 0] S1x32x256.size inb_S48x32x256_S1x32x256_17_0_0).WholeWords (EltTy.packing .bf16)
  inb_S36_S1_14 : ∀ a, (![14] : Fin 1 → Nat) a + S1.size a ≤ S36.size a
  inb_S48x32x256_S1x32x256_19_0_0 : ∀ a, (![19, 0, 0] : Fin 3 → Nat) a + S1x32x256.size a ≤ S48x32x256.size a
  wordsbf16_S48x32x256_S1x32x256_19_0_0 : (Rect.unit (s := S48x32x256) ![19, 0, 0] S1x32x256.size inb_S48x32x256_S1x32x256_19_0_0).WholeWords (EltTy.packing .bf16)
  inb_S48x32x256_S1x32x256_20_0_0 : ∀ a, (![20, 0, 0] : Fin 3 → Nat) a + S1x32x256.size a ≤ S48x32x256.size a
  packedbf16_S48x32x256_S1x32x256_20_0_0 : (Rect.unit (s := S48x32x256) ![20, 0, 0] S1x32x256.size inb_S48x32x256_S1x32x256_20_0_0).PackedRows (EltTy.packing .bf16)
  inb_S36_S1_16 : ∀ a, (![16] : Fin 1 → Nat) a + S1.size a ≤ S36.size a
  inb_S48x32x256_S1x32x256_22_0_0 : ∀ a, (![22, 0, 0] : Fin 3 → Nat) a + S1x32x256.size a ≤ S48x32x256.size a
  wordsbf16_S48x32x256_S1x32x256_20_0_0 : (Rect.unit (s := S48x32x256) ![20, 0, 0] S1x32x256.size inb_S48x32x256_S1x32x256_20_0_0).WholeWords (EltTy.packing .bf16)
  wordsbf16_S48x32x256_S1x32x256_22_0_0 : (Rect.unit (s := S48x32x256) ![22, 0, 0] S1x32x256.size inb_S48x32x256_S1x32x256_22_0_0).WholeWords (EltTy.packing .bf16)
  inb_S36_S1_15 : ∀ a, (![15] : Fin 1 → Nat) a + S1.size a ≤ S36.size a
  inb_S48x32x256_S1x32x256_21_0_0 : ∀ a, (![21, 0, 0] : Fin 3 → Nat) a + S1x32x256.size a ≤ S48x32x256.size a
  wordsbf16_S48x32x256_S1x32x256_21_0_0 : (Rect.unit (s := S48x32x256) ![21, 0, 0] S1x32x256.size inb_S48x32x256_S1x32x256_21_0_0).WholeWords (EltTy.packing .bf16)
  inb_S36_S1_17 : ∀ a, (![17] : Fin 1 → Nat) a + S1.size a ≤ S36.size a
  inb_S48x32x256_S1x32x256_23_0_0 : ∀ a, (![23, 0, 0] : Fin 3 → Nat) a + S1x32x256.size a ≤ S48x32x256.size a
  wordsbf16_S48x32x256_S1x32x256_23_0_0 : (Rect.unit (s := S48x32x256) ![23, 0, 0] S1x32x256.size inb_S48x32x256_S1x32x256_23_0_0).WholeWords (EltTy.packing .bf16)
  inb_S48x32x256_S1x32x256_24_0_0 : ∀ a, (![24, 0, 0] : Fin 3 → Nat) a + S1x32x256.size a ≤ S48x32x256.size a
  packedbf16_S48x32x256_S1x32x256_24_0_0 : (Rect.unit (s := S48x32x256) ![24, 0, 0] S1x32x256.size inb_S48x32x256_S1x32x256_24_0_0).PackedRows (EltTy.packing .bf16)
  inb_S36_S1_19 : ∀ a, (![19] : Fin 1 → Nat) a + S1.size a ≤ S36.size a
  inb_S48x32x256_S1x32x256_26_0_0 : ∀ a, (![26, 0, 0] : Fin 3 → Nat) a + S1x32x256.size a ≤ S48x32x256.size a
  wordsbf16_S48x32x256_S1x32x256_24_0_0 : (Rect.unit (s := S48x32x256) ![24, 0, 0] S1x32x256.size inb_S48x32x256_S1x32x256_24_0_0).WholeWords (EltTy.packing .bf16)
  wordsbf16_S48x32x256_S1x32x256_26_0_0 : (Rect.unit (s := S48x32x256) ![26, 0, 0] S1x32x256.size inb_S48x32x256_S1x32x256_26_0_0).WholeWords (EltTy.packing .bf16)
  inb_S36_S1_18 : ∀ a, (![18] : Fin 1 → Nat) a + S1.size a ≤ S36.size a
  inb_S48x32x256_S1x32x256_25_0_0 : ∀ a, (![25, 0, 0] : Fin 3 → Nat) a + S1x32x256.size a ≤ S48x32x256.size a
  wordsbf16_S48x32x256_S1x32x256_25_0_0 : (Rect.unit (s := S48x32x256) ![25, 0, 0] S1x32x256.size inb_S48x32x256_S1x32x256_25_0_0).WholeWords (EltTy.packing .bf16)
  inb_S36_S1_20 : ∀ a, (![20] : Fin 1 → Nat) a + S1.size a ≤ S36.size a
  inb_S48x32x256_S1x32x256_27_0_0 : ∀ a, (![27, 0, 0] : Fin 3 → Nat) a + S1x32x256.size a ≤ S48x32x256.size a
  wordsbf16_S48x32x256_S1x32x256_27_0_0 : (Rect.unit (s := S48x32x256) ![27, 0, 0] S1x32x256.size inb_S48x32x256_S1x32x256_27_0_0).WholeWords (EltTy.packing .bf16)
  inb_S48x32x256_S1x32x256_28_0_0 : ∀ a, (![28, 0, 0] : Fin 3 → Nat) a + S1x32x256.size a ≤ S48x32x256.size a
  packedbf16_S48x32x256_S1x32x256_28_0_0 : (Rect.unit (s := S48x32x256) ![28, 0, 0] S1x32x256.size inb_S48x32x256_S1x32x256_28_0_0).PackedRows (EltTy.packing .bf16)
  inb_S36_S1_22 : ∀ a, (![22] : Fin 1 → Nat) a + S1.size a ≤ S36.size a
  inb_S48x32x256_S1x32x256_30_0_0 : ∀ a, (![30, 0, 0] : Fin 3 → Nat) a + S1x32x256.size a ≤ S48x32x256.size a
  wordsbf16_S48x32x256_S1x32x256_28_0_0 : (Rect.unit (s := S48x32x256) ![28, 0, 0] S1x32x256.size inb_S48x32x256_S1x32x256_28_0_0).WholeWords (EltTy.packing .bf16)
  wordsbf16_S48x32x256_S1x32x256_30_0_0 : (Rect.unit (s := S48x32x256) ![30, 0, 0] S1x32x256.size inb_S48x32x256_S1x32x256_30_0_0).WholeWords (EltTy.packing .bf16)
  inb_S36_S1_21 : ∀ a, (![21] : Fin 1 → Nat) a + S1.size a ≤ S36.size a
  inb_S48x32x256_S1x32x256_29_0_0 : ∀ a, (![29, 0, 0] : Fin 3 → Nat) a + S1x32x256.size a ≤ S48x32x256.size a
  wordsbf16_S48x32x256_S1x32x256_29_0_0 : (Rect.unit (s := S48x32x256) ![29, 0, 0] S1x32x256.size inb_S48x32x256_S1x32x256_29_0_0).WholeWords (EltTy.packing .bf16)
  inb_S36_S1_23 : ∀ a, (![23] : Fin 1 → Nat) a + S1.size a ≤ S36.size a
  inb_S48x32x256_S1x32x256_31_0_0 : ∀ a, (![31, 0, 0] : Fin 3 → Nat) a + S1x32x256.size a ≤ S48x32x256.size a
  wordsbf16_S48x32x256_S1x32x256_31_0_0 : (Rect.unit (s := S48x32x256) ![31, 0, 0] S1x32x256.size inb_S48x32x256_S1x32x256_31_0_0).WholeWords (EltTy.packing .bf16)
  inb_S48x32x256_S1x32x256_32_0_0 : ∀ a, (![32, 0, 0] : Fin 3 → Nat) a + S1x32x256.size a ≤ S48x32x256.size a
  packedbf16_S48x32x256_S1x32x256_32_0_0 : (Rect.unit (s := S48x32x256) ![32, 0, 0] S1x32x256.size inb_S48x32x256_S1x32x256_32_0_0).PackedRows (EltTy.packing .bf16)
  inb_S36_S1_25 : ∀ a, (![25] : Fin 1 → Nat) a + S1.size a ≤ S36.size a
  inb_S48x32x256_S1x32x256_34_0_0 : ∀ a, (![34, 0, 0] : Fin 3 → Nat) a + S1x32x256.size a ≤ S48x32x256.size a
  wordsbf16_S48x32x256_S1x32x256_32_0_0 : (Rect.unit (s := S48x32x256) ![32, 0, 0] S1x32x256.size inb_S48x32x256_S1x32x256_32_0_0).WholeWords (EltTy.packing .bf16)
  wordsbf16_S48x32x256_S1x32x256_34_0_0 : (Rect.unit (s := S48x32x256) ![34, 0, 0] S1x32x256.size inb_S48x32x256_S1x32x256_34_0_0).WholeWords (EltTy.packing .bf16)
  inb_S36_S1_24 : ∀ a, (![24] : Fin 1 → Nat) a + S1.size a ≤ S36.size a
  inb_S48x32x256_S1x32x256_33_0_0 : ∀ a, (![33, 0, 0] : Fin 3 → Nat) a + S1x32x256.size a ≤ S48x32x256.size a
  wordsbf16_S48x32x256_S1x32x256_33_0_0 : (Rect.unit (s := S48x32x256) ![33, 0, 0] S1x32x256.size inb_S48x32x256_S1x32x256_33_0_0).WholeWords (EltTy.packing .bf16)
  inb_S36_S1_26 : ∀ a, (![26] : Fin 1 → Nat) a + S1.size a ≤ S36.size a
  inb_S48x32x256_S1x32x256_35_0_0 : ∀ a, (![35, 0, 0] : Fin 3 → Nat) a + S1x32x256.size a ≤ S48x32x256.size a
  wordsbf16_S48x32x256_S1x32x256_35_0_0 : (Rect.unit (s := S48x32x256) ![35, 0, 0] S1x32x256.size inb_S48x32x256_S1x32x256_35_0_0).WholeWords (EltTy.packing .bf16)
  inb_S48x32x256_S1x32x256_36_0_0 : ∀ a, (![36, 0, 0] : Fin 3 → Nat) a + S1x32x256.size a ≤ S48x32x256.size a
  packedbf16_S48x32x256_S1x32x256_36_0_0 : (Rect.unit (s := S48x32x256) ![36, 0, 0] S1x32x256.size inb_S48x32x256_S1x32x256_36_0_0).PackedRows (EltTy.packing .bf16)
  inb_S36_S1_28 : ∀ a, (![28] : Fin 1 → Nat) a + S1.size a ≤ S36.size a
  inb_S48x32x256_S1x32x256_38_0_0 : ∀ a, (![38, 0, 0] : Fin 3 → Nat) a + S1x32x256.size a ≤ S48x32x256.size a
  wordsbf16_S48x32x256_S1x32x256_36_0_0 : (Rect.unit (s := S48x32x256) ![36, 0, 0] S1x32x256.size inb_S48x32x256_S1x32x256_36_0_0).WholeWords (EltTy.packing .bf16)
  wordsbf16_S48x32x256_S1x32x256_38_0_0 : (Rect.unit (s := S48x32x256) ![38, 0, 0] S1x32x256.size inb_S48x32x256_S1x32x256_38_0_0).WholeWords (EltTy.packing .bf16)
  inb_S36_S1_27 : ∀ a, (![27] : Fin 1 → Nat) a + S1.size a ≤ S36.size a
  inb_S48x32x256_S1x32x256_37_0_0 : ∀ a, (![37, 0, 0] : Fin 3 → Nat) a + S1x32x256.size a ≤ S48x32x256.size a
  wordsbf16_S48x32x256_S1x32x256_37_0_0 : (Rect.unit (s := S48x32x256) ![37, 0, 0] S1x32x256.size inb_S48x32x256_S1x32x256_37_0_0).WholeWords (EltTy.packing .bf16)
  inb_S36_S1_29 : ∀ a, (![29] : Fin 1 → Nat) a + S1.size a ≤ S36.size a
  inb_S48x32x256_S1x32x256_39_0_0 : ∀ a, (![39, 0, 0] : Fin 3 → Nat) a + S1x32x256.size a ≤ S48x32x256.size a
  wordsbf16_S48x32x256_S1x32x256_39_0_0 : (Rect.unit (s := S48x32x256) ![39, 0, 0] S1x32x256.size inb_S48x32x256_S1x32x256_39_0_0).WholeWords (EltTy.packing .bf16)
  inb_S48x32x256_S1x32x256_40_0_0 : ∀ a, (![40, 0, 0] : Fin 3 → Nat) a + S1x32x256.size a ≤ S48x32x256.size a
  packedbf16_S48x32x256_S1x32x256_40_0_0 : (Rect.unit (s := S48x32x256) ![40, 0, 0] S1x32x256.size inb_S48x32x256_S1x32x256_40_0_0).PackedRows (EltTy.packing .bf16)
  inb_S36_S1_31 : ∀ a, (![31] : Fin 1 → Nat) a + S1.size a ≤ S36.size a
  inb_S48x32x256_S1x32x256_42_0_0 : ∀ a, (![42, 0, 0] : Fin 3 → Nat) a + S1x32x256.size a ≤ S48x32x256.size a
  wordsbf16_S48x32x256_S1x32x256_40_0_0 : (Rect.unit (s := S48x32x256) ![40, 0, 0] S1x32x256.size inb_S48x32x256_S1x32x256_40_0_0).WholeWords (EltTy.packing .bf16)
  wordsbf16_S48x32x256_S1x32x256_42_0_0 : (Rect.unit (s := S48x32x256) ![42, 0, 0] S1x32x256.size inb_S48x32x256_S1x32x256_42_0_0).WholeWords (EltTy.packing .bf16)
  inb_S36_S1_30 : ∀ a, (![30] : Fin 1 → Nat) a + S1.size a ≤ S36.size a
  inb_S48x32x256_S1x32x256_41_0_0 : ∀ a, (![41, 0, 0] : Fin 3 → Nat) a + S1x32x256.size a ≤ S48x32x256.size a
  wordsbf16_S48x32x256_S1x32x256_41_0_0 : (Rect.unit (s := S48x32x256) ![41, 0, 0] S1x32x256.size inb_S48x32x256_S1x32x256_41_0_0).WholeWords (EltTy.packing .bf16)
  inb_S36_S1_32 : ∀ a, (![32] : Fin 1 → Nat) a + S1.size a ≤ S36.size a
  inb_S48x32x256_S1x32x256_43_0_0 : ∀ a, (![43, 0, 0] : Fin 3 → Nat) a + S1x32x256.size a ≤ S48x32x256.size a
  wordsbf16_S48x32x256_S1x32x256_43_0_0 : (Rect.unit (s := S48x32x256) ![43, 0, 0] S1x32x256.size inb_S48x32x256_S1x32x256_43_0_0).WholeWords (EltTy.packing .bf16)
  inb_S48x32x256_S1x32x256_44_0_0 : ∀ a, (![44, 0, 0] : Fin 3 → Nat) a + S1x32x256.size a ≤ S48x32x256.size a
  packedbf16_S48x32x256_S1x32x256_44_0_0 : (Rect.unit (s := S48x32x256) ![44, 0, 0] S1x32x256.size inb_S48x32x256_S1x32x256_44_0_0).PackedRows (EltTy.packing .bf16)
  inb_S36_S1_34 : ∀ a, (![34] : Fin 1 → Nat) a + S1.size a ≤ S36.size a
  inb_S48x32x256_S1x32x256_46_0_0 : ∀ a, (![46, 0, 0] : Fin 3 → Nat) a + S1x32x256.size a ≤ S48x32x256.size a
  wordsbf16_S48x32x256_S1x32x256_44_0_0 : (Rect.unit (s := S48x32x256) ![44, 0, 0] S1x32x256.size inb_S48x32x256_S1x32x256_44_0_0).WholeWords (EltTy.packing .bf16)
  wordsbf16_S48x32x256_S1x32x256_46_0_0 : (Rect.unit (s := S48x32x256) ![46, 0, 0] S1x32x256.size inb_S48x32x256_S1x32x256_46_0_0).WholeWords (EltTy.packing .bf16)
  inb_S36_S1_33 : ∀ a, (![33] : Fin 1 → Nat) a + S1.size a ≤ S36.size a
  inb_S48x32x256_S1x32x256_45_0_0 : ∀ a, (![45, 0, 0] : Fin 3 → Nat) a + S1x32x256.size a ≤ S48x32x256.size a
  wordsbf16_S48x32x256_S1x32x256_45_0_0 : (Rect.unit (s := S48x32x256) ![45, 0, 0] S1x32x256.size inb_S48x32x256_S1x32x256_45_0_0).WholeWords (EltTy.packing .bf16)
  inb_S36_S1_35 : ∀ a, (![35] : Fin 1 → Nat) a + S1.size a ≤ S36.size a
  inb_S48x32x256_S1x32x256_47_0_0 : ∀ a, (![47, 0, 0] : Fin 3 → Nat) a + S1x32x256.size a ≤ S48x32x256.size a
  wordsbf16_S48x32x256_S1x32x256_47_0_0 : (Rect.unit (s := S48x32x256) ![47, 0, 0] S1x32x256.size inb_S48x32x256_S1x32x256_47_0_0).WholeWords (EltTy.packing .bf16)
  dot_S32x128_S128x256_S32x256_1_0_0_1_n_n_wf : DotDims.WF S32x128 S128x256 S32x256 [1] [0] [0] [1] [] []
  dot_S32x256_S256x128_S32x128_1_0_0_1_n_n_wf : DotDims.WF S32x256 S256x128 S32x128 [1] [0] [0] [1] [] []
  hcc0_scratch1 : 8 + S36.numel ≤ 80
  hcc0_scratch2 : 44 + S36.numel ≤ 80
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

abbrev cc0_scratch1 : DmaSems sig S36 := SemArray.consecutive 8 S36 hcc0_scratch1
abbrev cc0_scratch2 : DmaSems sig S36 := SemArray.consecutive 44 S36 hcc0_scratch2
def dot_S32x128_S128x256_S32x256_1_0_0_1_n_n : DotDims S32x128 S128x256 S32x256 where
  lhsContracting := [1]
  rhsContracting := [0]
  lhsNonContracting := [0]
  rhsNonContracting := [1]
  lhsBatch := []
  rhsBatch := []
  wf := dot_S32x128_S128x256_S32x256_1_0_0_1_n_n_wf
def dot_S32x256_S256x128_S32x128_1_0_0_1_n_n : DotDims S32x256 S256x128 S32x128 where
  lhsContracting := [1]
  rhsContracting := [0]
  lhsNonContracting := [0]
  rhsNonContracting := [1]
  lhsBatch := []
  rhsBatch := []
  wf := dot_S32x256_S256x128_S32x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v1) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S128x512 : Shape := ⟨2, ![128, 512]⟩
abbrev S512x256 : Shape := ⟨2, ![512, 256]⟩
abbrev S256x512 : Shape := ⟨2, ![256, 512]⟩
abbrev S128x256 : Shape := ⟨2, ![128, 256]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S512x256, .f32⟩
  | .hbm, ⟨2, _⟩ => ⟨S256x512, .f32⟩
  | .hbm, ⟨3, _⟩ => ⟨S512x256, .f32⟩
  | .hbm, ⟨4, _⟩ => ⟨S256x512, .f32⟩
  | .hbm, ⟨5, _⟩ => ⟨S512x256, .f32⟩
  | .hbm, ⟨6, _⟩ => ⟨S256x512, .f32⟩
  | .hbm, ⟨7, _⟩ => ⟨S128x256, .f32⟩
  | .hbm, ⟨8, _⟩ => ⟨S_, .f32⟩
  | .hbm, ⟨9, _⟩ => ⟨S128x256, .f32⟩
  | .hbm, ⟨10, _⟩ => ⟨S128x256, .f32⟩
  | .hbm, ⟨11, _⟩ => ⟨S128x512, .f32⟩
  | .hbm, ⟨12, _⟩ => ⟨S128x256, .f32⟩
  | .hbm, ⟨13, _⟩ => ⟨S_, .f32⟩
  | .hbm, ⟨14, _⟩ => ⟨S128x256, .f32⟩
  | .hbm, ⟨15, _⟩ => ⟨S128x256, .f32⟩
  | .hbm, ⟨16, _⟩ => ⟨S128x512, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S128x256 : S_.BroadcastsInDim S128x256 (![] : Fin 0 → Fin S128x256.rank)
  dot_S128x512_S512x256_S128x256_1_0_0_1_n_n_wf : DotDims.WF S128x512 S512x256 S128x256 [1] [0] [0] [1] [] []
  dot_S128x256_S256x512_S128x512_1_0_0_1_n_n_wf : DotDims.WF S128x256 S256x512 S128x512 [1] [0] [0] [1] [] []

variable [Facts₀]

def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf

class Facts : Prop extends Facts₀ where

variable [Facts]
-- ==== Proof.Protocol.lean ====
import proofs.«900970_g7700000000000971_dist_mlpseq_tp1dT_cs_cs_b128_d128_h256_v7x_i4_f32_1_alg».proof.Proof.Gen.KernelIdeal
import proofs.«900970_g7700000000000971_dist_mlpseq_tp1dT_cs_cs_b128_d128_h256_v7x_i4_f32_1_alg».proof.Proof.Gen.KernelIdeal.Skeleton
import proofs.«900970_g7700000000000971_dist_mlpseq_tp1dT_cs_cs_b128_d128_h256_v7x_i4_f32_1_alg».proof.Proof.Gen.KernelIdeal.Launch
import Idealize.ShloMosaic.Lib.Pipeline.Launch
import Idealize.ShloMosaic.Lib.Pipeline.Kit
import Idealize.ShloMosaic.Lib.Tactic

/-!
The cross-device protocol of the tensor-parallel MLP on four devices.

Every device owns one barrier cell, 36 send cells and 36 receive cells. Transfer number `s = 3 L + (k - 1)`
(`L = 4 l + p` the layer and row piece, `k = 1, 2, 3` the offset of the addressed device) copies slot `4 L` of the
sender's communication buffer into slot `4 L + k` of device `c + k`, crediting the sender's send cell `s` and the
receiver's receive cell `s`. At entry each device signals the three others' barrier cells one unit and waits for three:
the unit device `d` sends device `c = d + i` carries the 12 slots `4 L + (4 - i)` of `d`'s buffer, the ones `c` writes.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh: device `c + k` -/

def pr (c : Dev nD) (k : ℕ) : Dev nD := ⟨(c.val + k) % 4, Nat.mod_lt _ (by decide)⟩

theorem pr_pr (c : Dev nD) (i : Fin 3) : pr (pr c (i.val + 1)) (3 - i.val) = c := by revert c i; decide

/-! ## Memrefs and cells -/

abbrev commM : Memref sig .tc .vmem S48x32x256 .bf16 := Memref.whole cc0_scratch0

theorem slot_inb (j : Fin 48) : ∀ a, (![j.val, 0, 0] : Fin 3 → Nat) a + S1x32x256.size a ≤ S48x32x256.size a := by
  intro a; fin_cases a
  · show j.val + 1 ≤ 48; omega
  · show 0 + 32 ≤ 32; omega
  · show 0 + 256 ≤ 256; omega

/-- Slot `j` of the communication buffer, as the transfers see it: a `[32, 256]` view. -/
abbrev slotM (j : Fin 48) : Memref sig .tc .vmem S32x256 .bf16 :=
  ((commM.slice (Rect.unit (s := S48x32x256) ![j.val, 0, 0] S1x32x256.size (slot_inb j)) (fun _ => rfl)).squeeze S32x256 squeezes_S1x32x256_S32x256)

abbrev barS : Sem sig := (SemArray.scalar (sig.barrier 0 rfl) : Sems sig S_).sem
def sendSem (s : Fin 36) : DmaSem sig := ⟨8 + s.val, by have := s.isLt; show 8 + s.val < 80; omega⟩
def recvSem (s : Fin 36) : DmaSem sig := ⟨44 + s.val, by have := s.isLt; show 44 + s.val < 80; omega⟩

abbrev barCell (c : Dev nD) : GSem nD τ sig := ((c : Thread nD τ), .reg barS)
abbrev sendCell (c : Dev nD) (s : Fin 36) : GSem nD τ sig := ((c : Thread nD τ), .dma (sendSem s))
abbrev recvCell (c : Dev nD) (s : Fin 36) : GSem nD τ sig := ((c : Thread nD τ), .dma (recvSem s))

/-- Transfer `s` reads slot `4 (s / 3)` and writes slot `4 (s / 3) + s % 3 + 1` of the device `s % 3 + 1` further on. -/
def srcSlot (s : Fin 36) : Fin 48 := ⟨4 * (s.val / 3), by have := s.isLt; omega⟩
def dstSlot (s : Fin 36) : Fin 48 := ⟨4 * (s.val / 3) + s.val % 3 + 1, by have := s.isLt; omega⟩
def offs (s : Fin 36) : ℕ := s.val % 3 + 1
/-- The transfer number of slot `4 L + e + 1`. -/
def semOf (L : Fin 12) (e : Fin 3) : Fin 36 := ⟨3 * L.val + e.val, by have := L.isLt; have := e.isLt; omega⟩
def slotOf (L : Fin 12) (e : Fin 3) : Fin 48 := ⟨4 * L.val + e.val + 1, by have := L.isLt; have := e.isLt; omega⟩

abbrev N : ℕ := (slotM 0).view.dmaCredit
theorem N_pos : 0 < N := View.dmaCredit_pos _ (by decide)

/-- The three shares the source slot is lent at to its three transfers. -/
def shareOf (s : Fin 36) : PosShare TreeShare :=
  if s.val % 3 = 0 then fullShare.left else if s.val % 3 = 1 then fullShare.right.left else fullShare.right.right

/-! ## The buffer's pieces -/

def slotPts (c : Dev nD) (j : Fin 48) (q : PosShare TreeShare) (f : Buf (Elt F) ((commM : Memref sig .tc .vmem S48x32x256 .bf16).view.loc (c : Thread nD τ))) : sProp 𝕄 :=
  (slotM j).view.loc (c : Thread nD τ) ↦[(slotM j).view.set]{q} f

/-! ## The schedule -/

/-- What kind of cell a semaphore location is in this protocol. -/
inductive CK where
  | bar | snd (s : Fin 36) | rcv (s : Fin 36) | other
deriving DecidableEq

def ck : SemLoc sig → CK
  | .reg r => if r = barS then .bar else .other
  | .dma q =>
    if h : 8 ≤ q.val ∧ q.val < 44 then .snd ⟨q.val - 8, by omega⟩
    else if h' : 44 ≤ q.val then .rcv ⟨q.val - 44, by have : q.val < 80 := q.isLt; omega⟩ else .other

theorem ck_bar : ck (.reg barS) = .bar := by
  show (if barS = barS then CK.bar else CK.other) = CK.bar
  exact if_pos rfl
theorem ck_send (s : Fin 36) : ck (.dma (sendSem s)) = .snd s := by
  have := s.isLt
  unfold ck sendSem
  dsimp only
  rw [dif_pos ⟨by show 8 ≤ 8 + s.val; omega, by show 8 + s.val < 44; omega⟩]
  exact congrArg CK.snd (Fin.ext (by show 8 + s.val - 8 = s.val; omega))
theorem ck_recv (s : Fin 36) : ck (.dma (recvSem s)) = .rcv s := by
  have := s.isLt
  unfold ck recvSem
  dsimp only
  rw [dif_neg (fun h => by have : 44 + s.val < 44 := h.2; omega), dif_pos (by show 44 ≤ 44 + s.val; omega)]
  exact congrArg CK.rcv (Fin.ext (by show 44 + s.val - 44 = s.val; omega))

variable (cf : (c : Dev nD) → Buf (Elt F) ((commM : Memref sig .tc .vmem S48x32x256 .bf16).view.loc (c : Thread nD τ)))

/-- What the unit device `c + e + 1` signals device `c`'s barrier cell hands over: its 12 slots `4 L + e + 1`, which
    `c` writes, and that it stands at round 0 of the 12 receive cells those transfers credit. -/
def barPay (c : Dev nD) (e : Fin 3) : sProp 𝕄 :=
  bigSep Finset.univ fun L : Fin 12 =>
    iprop((∃ f, slotPts (pr c (e.val + 1)) (slotOf L e) fullShare f) ∗ reached ER (recvCell (pr c (e.val + 1)) (semOf L e)) 0)

/-- One round: a barrier cell has three duties of one unit; a send or receive cell one duty of a slot's credit, handing
    back the lent share of the source slot, resp. the written destination slot at the buffer's final contents. -/
def sched : Rounds.Schedule (GSem nD τ sig) (Fin 3) 𝕄 where
  duties g r := if r = 0 ∧ g.1.2 = .tc then (match ck g.2 with | .bar => Finset.univ | .snd _ => {0} | .rcv _ => {0} | .other => ∅) else ∅
  unitless _ := False
  amount g _ _ := match ck g.2 with | .bar => 1 | _ => N
  payload g _ d := match ck g.2 with
    | .bar => barPay g.1.1 d
    | .snd s => slotPts g.1.1 (srcSlot s) (shareOf s) (cf g.1.1)
    | .rcv s => slotPts g.1.1 (dstSlot s) fullShare (cf g.1.1)
    | .other => iprop(emp)
  amount_pos g _ _ _ := by
    cases ck g.2 <;> first | exact Nat.one_pos | exact N_pos

instance sched_payload_storable (g : GSem nD τ sig) (r : ℕ) (d : Fin 3) :
    BI.Storable (upEmb : UEmb _ 𝕄) ((sched (F := F) cf).payload g r d) := by
  show BI.Storable upEmb (match ck g.2 with
    | .bar => barPay g.1.1 d
    | .snd s => slotPts g.1.1 (srcSlot s) (shareOf s) (cf g.1.1)
    | .rcv s => slotPts g.1.1 (dstSlot s) fullShare (cf g.1.1)
    | .other => iprop(emp))
  unfold barPay slotPts
  split <;> infer_instance

section Tables
variable (c : Dev nD) (s : Fin 36)

theorem duties_bar : (sched (F := F) cf).duties (barCell c) 0 = Finset.univ := by
  dsimp only [sched]; rw [if_pos ⟨rfl, rfl⟩, ck_bar]
theorem duties_send : (sched (F := F) cf).duties (sendCell c s) 0 = {0} := by
  dsimp only [sched]; rw [if_pos ⟨rfl, rfl⟩, ck_send]
theorem duties_recv : (sched (F := F) cf).duties (recvCell c s) 0 = {0} := by
  dsimp only [sched]; rw [if_pos ⟨rfl, rfl⟩, ck_recv]
theorem duties_later (g : GSem nD τ sig) : ∀ r, 1 ≤ r → (sched (F := F) cf).duties g r = ∅ :=
  fun r hr => by dsimp only [sched]; rw [if_neg fun h => by omega]

theorem amount_bar (d : Fin 3) : (sched (F := F) cf).amount (barCell c) 0 d = 1 := by dsimp only [sched]; rw [ck_bar]
theorem amount_send (d : Fin 3) : (sched (F := F) cf).amount (sendCell c s) 0 d = N := by dsimp only [sched]; rw [ck_send]
theorem amount_recv (d : Fin 3) : (sched (F := F) cf).amount (recvCell c s) 0 d = N := by dsimp only [sched]; rw [ck_recv]

theorem expect_bar : (sched (F := F) cf).expect (barCell c) 0 = 3 := by
  unfold Schedule.expect Schedule.amountOf
  rw [duties_bar, Finset.sum_congr rfl fun d _ => amount_bar cf c d, Finset.sum_const, Finset.card_univ, Fintype.card_fin, smul_eq_mul]
theorem expect_send : (sched (F := F) cf).expect (sendCell c s) 0 = N := by
  unfold Schedule.expect Schedule.amountOf; rw [duties_send, Finset.sum_singleton, amount_send]
theorem expect_recv : (sched (F := F) cf).expect (recvCell c s) 0 = N := by
  unfold Schedule.expect Schedule.amountOf; rw [duties_recv, Finset.sum_singleton, amount_recv]

theorem payload_bar (e : Fin 3) : (sched (F := F) cf).payload (barCell c) 0 e = barPay c e := by dsimp only [sched]; rw [ck_bar]
theorem payload_send (d : Fin 3) : (sched (F := F) cf).payload (sendCell c s) 0 d = slotPts c (srcSlot s) (shareOf s) (cf c) := by
  dsimp only [sched]; rw [ck_send]
theorem payload_recv (d : Fin 3) : (sched (F := F) cf).payload (recvCell c s) 0 d = slotPts c (dstSlot s) fullShare (cf c) := by
  dsimp only [sched]; rw [ck_recv]

end Tables

/-! ## What each device owes at launch; the levels -/

/-- The order the three transfers of a stage are started in: offsets 2, 1, 3. -/
def sendOrd (n : ℕ) : Fin 3 := if n % 3 = 0 then 1 else if n % 3 = 1 then 0 else 2

/-- The cell of the device's `i`-th payment in program order: three signals, then the 36 transfers stage by stage. -/
def stepCell (c : Dev nD) (i : ℕ) : GSem nD τ sig :=
  if i < 3 then barCell (pr c (i + 1))
  else recvCell (pr c ((sendOrd (i - 3)).val + 1)) ⟨(3 * ((i - 3) / 3) + (sendOrd (i - 3)).val) % 36, Nat.mod_lt _ (by decide)⟩
/-- and its units. -/
def stepAmt (i : ℕ) : ℕ := if i < 3 then 1 else N

/-- What is still owed when `r` payments remain: the last `r` of the 39, summed so that the next payment is the last summand. -/
def owedRem (c : Dev nD) : ℕ → CellTallies nD τ sig Unit
  | 0 => 0
  | r + 1 => owedRem c r + tallyAt (stepCell c (38 - r)) () (stepAmt (38 - r))

def O₀ (c : Dev nD) : CellTallies nD τ sig Unit := owedRem c 39

def Lset (g : GSem nD τ sig) : Finset Unit := if g.1.2 = .tc then {()} else ∅
/-- Barrier cells at 1, the receive cells of stage `L` at `L + 2`, everything else (staging, send) at 0. -/
def lv (g : GSem nD τ sig) (_ : Unit) : ℕ := match ck g.2 with | .bar => 1 | .rcv s => s.val / 3 + 2 | _ => 0

theorem Lset_of_ne (g : GSem nD τ sig) (h : g.1.2 ≠ .tc) : Lset g = ∅ := if_neg h
theorem Lset_tc (c : Dev nD) (sm : SemLoc sig) : Lset ((c : Thread nD τ), sm) = {()} := if_pos rfl

theorem stepCell_tc (c : Dev nD) (i : ℕ) : (stepCell c i).1.2 = .tc := by unfold stepCell; split <;> rfl

theorem lv_bar (c : Dev nD) : lv (barCell c) () = 1 := by
  show (match ck (.reg barS) with | .bar => 1 | .rcv s => s.val / 3 + 2 | _ => 0) = 1
  rw [ck_bar]
theorem lv_recv (c : Dev nD) (s : Fin 36) : lv (recvCell c s) () = s.val / 3 + 2 := by
  show (match ck (.dma (recvSem s)) with | .bar => 1 | .rcv s => s.val / 3 + 2 | _ => 0) = _
  rw [ck_recv]
theorem lv_send (c : Dev nD) (s : Fin 36) : lv (sendCell c s) () = 0 := by
  show (match ck (.dma (sendSem s)) with | .bar => 1 | .rcv s => s.val / 3 + 2 | _ => 0) = _
  rw [ck_send]

theorem lv_step (c : Dev nD) (i : ℕ) (hi : i ≤ 38) : lv (stepCell c i) () = if i < 3 then 1 else (i - 3) / 3 + 2 := by
  by_cases h : i < 3
  · rw [if_pos h]; unfold stepCell; rw [if_pos h, lv_bar]
  · rw [if_neg h]; unfold stepCell; rw [if_neg h, lv_recv]
    have he := (sendOrd (i - 3)).isLt
    show (3 * ((i - 3) / 3) + (sendOrd (i - 3)).val) % 36 / 3 + 2 = (i - 3) / 3 + 2
    omega

theorem owedRem_pos (c : Dev nD) : ∀ (r : ℕ) (g : GSem nD τ sig) (u : Unit), r ≤ 39 → 0 < owedRem c r g u →
    ∃ i, 39 - r ≤ i ∧ i ≤ 38 ∧ g = stepCell c i
  | 0, g, u, _, h => absurd h (Nat.lt_irrefl 0)
  | r + 1, g, u, hr, h => by
    unfold owedRem at h
    rw [Pi.add_apply, Finsupp.add_apply, tallyAt_apply] at h
    by_cases hg : g = stepCell c (38 - r) ∧ u = ()
    · exact ⟨38 - r, by omega, by omega, hg.1⟩
    · rw [if_neg hg, Nat.add_zero] at h
      obtain ⟨i, h1, h2, h3⟩ := owedRem_pos c r g u (by omega) h
      exact ⟨i, by omega, h2, h3⟩

/-- With `r` payments left a device may wait on a cell of its own at level at most `b` when every payment left lies above `b`. -/
theorem mayWait_of (c : Dev nD) (sm : SemLoc sig) (r b : ℕ) (hr : r ≤ 39) (hb : lv ((c : Thread nD τ), sm) () ≤ b)
    (hcut : ∀ i, 39 - r ≤ i → i ≤ 38 → b < (if i < 3 then 1 else (i - 3) / 3 + 2)) :
    (levAts Lset lv : sProp 𝕄) ⊢ MayWait (c : Thread nD τ) sm () (owedRem c r) :=
  MayOwe.of_cut (L := Lset) (lev := lv) b
    (fun p hp => by rw [Finset.mem_singleton.mp hp, Lset_tc]; exact Finset.mem_singleton_self _)
    (fun g u hg => by
      obtain ⟨i, _, _, rfl⟩ := owedRem_pos c r g u hr hg
      unfold Lset; rw [if_pos (stepCell_tc c i)]; exact Finset.mem_singleton_self _)
    (fun p hp => by rw [Finset.mem_singleton.mp hp]; exact hb)
    (fun g u hg => by
      obtain ⟨i, h1, h2, rfl⟩ := owedRem_pos c r g u hr hg
      rw [lv_step c i h2]; exact hcut i h1 h2)

/-! ## Cells by number, and the ghost state a device's body starts from -/

/-- A device's 73 cells: the barrier's, the 36 send cells, the 36 receive cells. -/
def csem (i : Fin 73) : SemLoc sig :=
  if h : i.val = 0 then .reg barS
  else if h' : i.val ≤ 36 then .dma (sendSem ⟨i.val - 1, by omega⟩)
  else .dma (recvSem ⟨i.val - 37, by have := i.isLt; omega⟩)
abbrev kcell (ck : Dev nD × Fin 73) : GSem nD τ sig := ((ck.1 : Thread nD τ), csem ck.2)
def bIdx : Fin 73 := ⟨0, by decide⟩
def sIdx (s : Fin 36) : Fin 73 := ⟨s.val + 1, by have := s.isLt; omega⟩
def rIdx (s : Fin 36) : Fin 73 := ⟨s.val + 37, by have := s.isLt; omega⟩

theorem csem_b : csem bIdx = .reg barS := by unfold csem bIdx; rw [dif_pos rfl]
theorem csem_s (s : Fin 36) : csem (sIdx s) = .dma (sendSem s) := by
  have := s.isLt
  unfold csem sIdx
  rw [dif_neg (by show ¬ (s.val + 1 = 0); omega), dif_pos (by show s.val + 1 ≤ 36; omega)]
  exact congrArg (fun x => SemLoc.dma (sendSem x)) (Fin.ext (by show s.val + 1 - 1 = s.val; omega))
theorem csem_r (s : Fin 36) : csem (rIdx s) = .dma (recvSem s) := by
  have := s.isLt
  unfold csem rIdx
  rw [dif_neg (by show ¬ (s.val + 37 = 0); omega), dif_neg (by show ¬ (s.val + 37 ≤ 36); omega)]
  exact congrArg (fun x => SemLoc.dma (recvSem x)) (Fin.ext (by show s.val + 37 - 37 = s.val; omega))

theorem kcell_b (c : Dev nD) : kcell (c, bIdx) = barCell c := by show ((c : Thread nD τ), csem bIdx) = _; rw [csem_b]
theorem kcell_s (c : Dev nD) (s : Fin 36) : kcell (c, sIdx s) = sendCell c s := by show ((c : Thread nD τ), csem (sIdx s)) = _; rw [csem_s]
theorem kcell_r (c : Dev nD) (s : Fin 36) : kcell (c, rIdx s) = recvCell c s := by show ((c : Thread nD τ), csem (rIdx s)) = _; rw [csem_r]

/-- Every cell's invariant, under the names the launch allocated them at, and that every cell has reached round 0:
    persistent, so every device holds all of it. -/
def records (K : Dev nD × Fin 73 → ℕ) : sProp 𝕄 :=
  iprop((bigSep Finset.univ fun ck : Dev nD × Fin 73 => cellInv ER (sched cf) (K ck) (kcell ck))
    ∗ bigSep Finset.univ fun ck : Dev nD × Fin 73 => reached ER (kcell ck) 0)

instance records_persistent (K : Dev nD × Fin 73 → ℕ) : BI.Persistent (records (F := F) cf K) := by unfold records; infer_instance

/-- The tokens of the duties device `c` pays: signal `i + 1` (to `c + i + 1`) pays duty `2 - i` of that barrier cell;
    transfer `s` pays the receive cell `s` of the addressed device and its own send cell `s`. -/
def payToks (c : Dev nD) : sProp 𝕄 :=
  iprop((bigSep Finset.univ fun i : Fin 3 => dutyTok ER (barCell (pr c (i.val + 1))) 0 (⟨2 - i.val, by omega⟩ : Fin 3))
    ∗ bigSep Finset.univ fun s : Fin 36 => iprop(dutyTok ER (recvCell (pr c (offs s)) s) 0 (0 : Fin 3) ∗ dutyTok ER (sendCell c s) 0 (0 : Fin 3)))

/-- What is device `c`'s alone: its position at round 0 of each of its cells, and the tokens it pays with. -/
def linear (c : Dev nD) : sProp 𝕄 :=
  iprop((bigSep Finset.univ fun i : Fin 73 => atPos ER (kcell (c, i)) 0 ∅ 0) ∗ payToks c)

def ghost (K : Dev nD × Fin 73 → ℕ) (c : Dev nD) : sProp 𝕄 := iprop(records cf K ∗ linear c)

/-- What device `c`'s body starts from: the ghost state at some names, the credit for the three units of its barrier
    cell and for each of its 36 receive cells, and the level facts. -/
def start (c : Dev nD) : sProp 𝕄 :=
  iprop((∃ K, ghost cf K c) ∗ cred (tallyAt (barCell c) () 3)
    ∗ (bigSep Finset.univ fun s : Fin 36 => cred (tallyAt (recvCell c s) () N)) ∗ levAts Lset lv)

def commPts (c : Dev nD) (f : Buf (Elt F) ((commM : Memref sig .tc .vmem S48x32x256 .bf16).view.loc (c : Thread nD τ))) : sProp 𝕄 :=
  (commM : Memref sig .tc .vmem S48x32x256 .bf16).view.loc (c : Thread nD τ) ↦[(commM : Memref sig .tc .vmem S48x32x256 .bf16).view.set]{fullShare} f

/-- Before the body: the start and the communication buffer at whatever it holds. -/
def Φ₀ (c : Dev nD) : sProp 𝕄 := iprop(start cf c ∗ ∃ f, commPts c f)
/-- After it: the buffer whole again at its final contents, and the 72 own cells at zero, closed. -/
def Φ₁ (c : Dev nD) : sProp 𝕄 :=
  iprop(commPts c (cf c) ∗ bigSep Finset.univ fun s : Fin 36 => iprop(semVal (sendCell c s) 0 ∗ semVal (recvCell c s) 0))

end Cert.KernelIdeal.Proto

end
-- ==== Proof.LaunchDat.lean ====
import proofs.«900970_g7700000000000971_dist_mlpseq_tp1dT_cs_cs_b128_d128_h256_v7x_i4_f32_1_alg».proof.Proof.Protocol
import proofs.«900970_g7700000000000971_dist_mlpseq_tp1dT_cs_cs_b128_d128_h256_v7x_i4_f32_1_alg».proof.Proof.Gen.KernelIdeal.Frame

/-!
The pipeline's proof data of the tensor-parallel MLP's one region, on each of the four devices: the seven argument
windows stay at their arrays' blocks, the result window ends at the given contents; before the one grid point a device
holds the protocol's start and owes its 39 payments, after it the communication buffer is whole again and nothing is owed.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (cf : (c : Dev nD) → Buf (Elt F) ((commM : Memref sig .tc .vmem S48x32x256 .bf16).view.loc (c : Thread nD τ)))
  (m : (ℓ : Loc nD τ sig) → Buf (Elt F) ℓ) (ρ : Dev nD → PrngReg)
  (outv : (c : Dev nD) → (cc0_stg7_0 : Ref sig .tc).ty.Contents (Elt F))

/-- The initial state: the memory `m`, every counter at zero, the generator registers `ρ`. -/
def s₀ : MemSt nD τ sig (Elt F) := ⟨m, fun _ => 0, ρ⟩

/-- The proof data of device `c`. -/
def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outv c
    | ⟨_ + 8, h⟩ => absurd h (Nat.not_lt.2 (Nat.le_add_left _ _))
  Φ t := match t with
    | ⟨0, _⟩ => Φ₀ cf c
    | ⟨_ + 1, _⟩ => Φ₁ cf c
  q _ := fullShare
  owed t := match t with
    | ⟨0, _⟩ => O₀ c
    | ⟨_ + 1, _⟩ => 0

theorem dats_A (c : Dev nD) (w : Fin cfg0.W) : (dats cf m outv 0 c).A w = m ((cfg0.win w).arr.view.loc (c : Thread nD τ)) := rfl
theorem dats_Φ_zero (c : Dev nD) : (dats cf m outv 0 c).Φ 0 = Φ₀ cf c := rfl
theorem dats_Φ_last (c : Dev nD) : (dats cf m outv 0 c).Φ (Fin.last cfg0.N) = Φ₁ cf c := rfl
theorem dats_owed_zero (c : Dev nD) : (dats cf m outv 0 c).owed 0 = O₀ c := rfl
theorem dats_owed_last (c : Dev nD) : (dats cf m outv 0 c).owed (Fin.last cfg0.N) = 0 := rfl

theorem share_eq (c : Dev nD) (w : Fin cfg0.W) : (dats cf m outv 0 c).share w = fullShare := by unfold Dat.share; split <;> rfl

end Cert.KernelIdeal.Proto

end
-- ==== Proof.LaunchGhost.lean ====
import proofs.«900970_g7700000000000971_dist_mlpseq_tp1dT_cs_cs_b128_d128_h256_v7x_i4_f32_1_alg».proof.Proof.Protocol

/-!
The ghost state of the launch: the protocol's cells by number, the duty tokens minted with them, the launch element,
what it funds on each device, the allocation of every cell's invariant, and the dealing of the tokens to the devices
that pay the duties (a barrier duty to the device that signals it, a receive duty to the device that sends the transfer).
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (cf : (c : Dev nD) → Buf (Elt F) ((commM : Memref sig .tc .vmem S48x32x256 .bf16).view.loc (c : Thread nD τ)))

/-! ## Cells by number -/

theorem csem_zero : csem (0 : Fin 73) = .reg barS := csem_b

theorem csem_pos (i : Fin 73) (h : i.val ≠ 0) :
    csem i = .dma (⟨i.val + 7, by have := i.isLt; show i.val + 7 < 80; omega⟩ : DmaSem sig) := by
  have := i.isLt
  unfold csem
  rw [dif_neg h]
  split
  · exact congrArg SemLoc.dma (Fin.ext (by show 8 + (i.val - 1) = i.val + 7; omega))
  · exact congrArg SemLoc.dma (Fin.ext (by show 44 + (i.val - 37) = i.val + 7; omega))

theorem csem_injective : Function.Injective csem := fun i j h => by
  by_cases hi : i.val = 0 <;> by_cases hj : j.val = 0
  · exact Fin.ext (hi.trans hj.symm)
  · have h0 : csem i = .reg barS := by unfold csem; rw [dif_pos hi]
    rw [h0, csem_pos j hj] at h; cases h
  · have h0 : csem j = .reg barS := by unfold csem; rw [dif_pos hj]
    rw [h0, csem_pos i hi] at h; cases h
  · rw [csem_pos i hi, csem_pos j hj] at h
    have h' : i.val + 7 = j.val + 7 := congrArg Fin.val (SemLoc.dma.inj h)
    exact Fin.ext (by omega)

theorem kcell_injective : Function.Injective (kcell : Dev nD × Fin 73 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- Every cell of the protocol: 73 on each device. -/
def allCells : Finset (GSem nD τ sig) := Finset.univ.map ⟨kcell, kcell_injective⟩

/-- The kernel's own semaphores: the 72 transfer cells, the cells numbered 1 to 72. -/
def osem (k : Fin 72) : SemLoc sig := csem k.succ

theorem osem_eq (k : Fin 72) : osem k = .dma (⟨k.val + 8, by have := k.isLt; show k.val + 8 < 80; omega⟩ : DmaSem sig) := by
  unfold osem
  rw [csem_pos k.succ (by show k.val + 1 ≠ 0; omega)]
  exact congrArg SemLoc.dma (Fin.ext (by show k.val + 1 + 7 = k.val + 8; omega))

theorem stage_sem_lt : ∀ (w : Fin 8) (s : Fin (cfg0.spec w).nbuf), ((cfg0.spec w).sem s).val < 8 := by decide

theorem ownSemFacts : Pipeline.OwnSemFacts cfg0.spec osem where
  isScoped := by decide
  inj := fun a b h => Fin.succ_injective _ (csem_injective h)
  disj := fun k w s h => by
    rw [osem_eq] at h
    have h' : k.val + 8 = ((cfg0.spec w).sem s).val := congrArg Fin.val (SemLoc.dma.inj h)
    have := stage_sem_lt w s
    omega

/-! ## The minted tokens -/

/-- A number for each kind of semaphore location, to tell the cells apart. -/
def semNo : SemLoc sig → ℕ
  | .reg _ => 0
  | .dma q => q.val + 1

/-- The duties minted on a device's own cells: its barrier cell's three, its 36 send cells' and its 36 receive cells' one each. -/
def tokOf (cj : Dev nD × (Fin 3 ⊕ (Fin 36 ⊕ Fin 36))) : GSem nD τ sig × ℕ × Fin 3 := match cj.2 with
  | .inl i => (barCell cj.1, 0, ⟨2 - i.val, by omega⟩)
  | .inr (.inl s) => (sendCell cj.1 s, 0, 0)
  | .inr (.inr s) => (recvCell cj.1 s, 0, 0)

theorem tokOf_injective : Function.Injective (tokOf : Dev nD × (Fin 3 ⊕ (Fin 36 ⊕ Fin 36)) → GSem nD τ sig × ℕ × Fin 3) := by
  rintro ⟨c, j⟩ ⟨c', j'⟩ h
  have h1 : c = c' := by
    have := congrArg (fun x : GSem nD τ sig × ℕ × Fin 3 => x.1.1.1) h
    rcases j with i | s | s <;> rcases j' with i' | s' | s' <;> exact this
  subst h1
  have hs := congrArg (fun x : GSem nD τ sig × ℕ × Fin 3 => semNo x.1.2) h
  have hd := congrArg (fun x : GSem nD τ sig × ℕ × Fin 3 => x.2.2.val) h
  rcases j with i | s | s <;> rcases j' with i' | s' | s'
  · have hd' : 2 - i.val = 2 - i'.val := hd
    have := i.isLt; have := i'.isLt
    have : i = i' := Fin.ext (by omega)
    subst this; rfl
  · have hs' : 0 = 8 + s'.val + 1 := hs
    omega
  · have hs' : 0 = 44 + s'.val + 1 := hs
    omega
  · have hs' : 8 + s.val + 1 = 0 := hs
    omega
  · have hs' : 8 + s.val + 1 = 8 + s'.val + 1 := hs
    have : s = s' := Fin.ext (by omega)
    subst this; rfl
  · have hs' : 8 + s.val + 1 = 44 + s'.val + 1 := hs
    have := s.isLt; omega
  · have hs' : 44 + s.val + 1 = 0 := hs
    omega
  · have hs' : 44 + s.val + 1 = 8 + s'.val + 1 := hs
    have := s'.isLt; omega
  · have hs' : 44 + s.val + 1 = 44 + s'.val + 1 := hs
    have : s = s' := Fin.ext (by omega)
    subst this; rfl

def mintToks : Finset (GSem nD τ sig × ℕ × Fin 3) := Finset.univ.map ⟨tokOf, tokOf_injective⟩

/-- The launch element: the pipeline's copy at its staging cells, the protocol's at every cell with the minted tokens. -/
def u₀ : UU :=
  (initOf (Pipeline.cells cfgs cellOf_inj) (Pipeline.launchToks cfgs cellOf_inj), initOf allCells mintToks)

/-- The duty tokens of device `c`'s own cells. -/
def toks (c : Dev nD) : sProp 𝕄 :=
  iprop((bigSep Finset.univ fun i : Fin 3 => dutyTok ER (barCell c) 0 (⟨2 - i.val, by omega⟩ : Fin 3))
    ∗ (bigSep Finset.univ fun s : Fin 36 => dutyTok ER (sendCell c s) 0 (0 : Fin 3))
    ∗ bigSep Finset.univ fun s : Fin 36 => dutyTok ER (recvCell c s) 0 (0 : Fin 3))

/-- What the launch element deals device `c`. -/
def G (c : Dev nD) : sProp 𝕄 :=
  iprop((bigSep Finset.univ fun k : Fin 73 => roundState ER (sched cf) (kcell (c, k)) 0)
    ∗ (bigSep Finset.univ fun k : Fin 73 => iprop(atPos ER (kcell (c, k)) 0 ∅ 0 ∗ reached ER (kcell (c, k)) 0)) ∗ toks c)

/-- What the global step makes of it. -/
def G' (c : Dev nD) : sProp 𝕄 := iprop(∃ K, ghost cf K c)

omit [FloatOps F] in
theorem fund_all : BI.own (ER (initOf allCells mintToks)) ⊢ (|==> bigSep Finset.univ (G cf) : sProp 𝕄) := by
  have hX (Φ : GSem nD τ sig → sProp 𝕄) : bigSep allCells Φ = bigSep Finset.univ fun c : Dev nD => bigSep Finset.univ fun k : Fin 73 => Φ (kcell (c, k)) := by
    unfold allCells; rw [bigSep_map, bigSep_univ_prod]; rfl
  have hT : bigSep mintToks (fun x => (dutyTok ER x.1 x.2.1 x.2.2 : sProp 𝕄)) = bigSep Finset.univ fun c : Dev nD => toks c := by
    unfold mintToks; rw [bigSep_map, bigSep_univ_prod]
    exact bigSep_congr fun c _ => by unfold toks; rw [bigSep_univ_sum, bigSep_univ_sum]; rfl
  iintro HX
  imod (Rounds.fund ER (sched cf) allCells mintToks) $$ HX with ⟨Hst, Hr, Hat, Htok⟩
  imodintro
  ihave Hst' := (Entails.of_eq (hX fun g => roundState ER (sched cf) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp [Fin.succ_ne_zero]), bigSep_map]; rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Fin 72 => semVal (kcell (c, k.succ)) 0 := rfl

omit [FloatOps F] in
/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 73 => semVal (kcell (c, k)) 0 : sProp 𝕄) := by
  rw [ownSems0_eq, unscopedSems0_eq, bigSep_fin_succ (fun k : Fin 73 => (semVal (kcell (c, k)) 0 : sProp 𝕄)), show kcell (c, (0 : Fin 73)) = barCell c from kcell_b c]
  iintro ⟨Hos, HB⟩
  isplitl [HB]; · iexact HB
  iexact Hos

omit [FloatOps F] in
theorem core_alloc (c : Dev nD) :
    iprop(Pipeline.ownSems0 (Ix := Unit) (Name := ℕ) (U := UU) (Lvl := ℕ) (Val := Elt F) (τ := τ) osem c ∗ unscopedSems0 c ∗ G cf c)
      ⊢ |={Set.univ}=> iprop((bigSep Finset.univ fun k => iprop(∃ κ : ℕ, cellInv ER (sched cf) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 73 => semVal (kcell (c, k)) 0) ∗ bigSep Finset.univ fun k : Fin 73 => roundState ER (sched cf) (kcell (c, k)) 0)
      ⊢ (|={Set.univ}=> bigSep Finset.univ fun k => iprop(∃ κ : ℕ, cellInv ER (sched cf) κ (kcell (c, k))) : sProp 𝕄) from by
        rw [← bigSep_sep']
        exact (bigSep_mono fun k _ => (Rounds.body_intro ER (sched cf) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

/-- The rotation of the mesh by `k` places. -/
def rotE (k : ℕ) : Dev nD ≃ Dev nD where
  toFun c := pr c k
  invFun c := pr c (4 - k % 4)
  left_inv c := Fin.ext (by have : c.val < 4 := c.isLt; show ((c.val + k) % 4 + (4 - k % 4)) % 4 = c.val; omega)
  right_inv c := Fin.ext (by have : c.val < 4 := c.isLt; show ((c.val + (4 - k % 4)) % 4 + k) % 4 = c.val; omega)

omit [FloatOps F] in
theorem rot_bigSep (k : ℕ) (Φ : Dev nD → sProp 𝕄) : bigSep Finset.univ Φ = bigSep Finset.univ fun c => Φ (pr c k) :=
  bigSep_univ_equiv (rotE k) Φ

omit [FloatOps F] in
/-- Tokens indexed by (device, duty) dealt so that device `c` gets duty `j` of the device `k j` places on. -/
theorem deal {J : Type} [Fintype J] (k : J → ℕ) (Φ : Dev nD → J → sProp 𝕄) :
    (bigSep Finset.univ fun c : Dev nD => bigSep Finset.univ fun j : J => Φ c j)
      = bigSep Finset.univ fun c : Dev nD => bigSep Finset.univ fun j : J => Φ (pr c (k j)) j := by
  rw [bigSep_univ_comm, bigSep_univ_comm (fun (c : Dev nD) (j : J) => Φ (pr c (k j)) j)]
  exact bigSep_congr fun j _ => rot_bigSep (k j) (fun c => Φ c j)

omit [FloatOps F] in
theorem toks_around : (bigSep Finset.univ fun c : Dev nD => (toks c : sProp 𝕄)) ⊢ bigSep Finset.univ fun c : Dev nD => payToks c := by
  have hL : (bigSep Finset.univ fun c : Dev nD => (toks c : sProp 𝕄))
      = iprop((bigSep Finset.univ fun c : Dev nD => bigSep Finset.univ fun i : Fin 3 => dutyTok ER (barCell c) 0 (⟨2 - i.val, by omega⟩ : Fin 3))
        ∗ (bigSep Finset.univ fun c : Dev nD => bigSep Finset.univ fun s : Fin 36 => dutyTok ER (sendCell c s) 0 (0 : Fin 3))
        ∗ (bigSep Finset.univ fun c : Dev nD => bigSep Finset.univ fun s : Fin 36 => dutyTok ER (recvCell c s) 0 (0 : Fin 3))) := by
    unfold toks; rw [bigSep_sep', bigSep_sep']
  have hR : (bigSep Finset.univ fun c : Dev nD => (payToks c : sProp 𝕄))
      = iprop((bigSep Finset.univ fun c : Dev nD => bigSep Finset.univ fun i : Fin 3 => dutyTok ER (barCell (pr c (i.val + 1))) 0 (⟨2 - i.val, by omega⟩ : Fin 3))
        ∗ (bigSep Finset.univ fun c : Dev nD => bigSep Finset.univ fun s : Fin 36 => dutyTok ER (recvCell (pr c (offs s)) s) 0 (0 : Fin 3))
        ∗ (bigSep Finset.univ fun c : Dev nD => bigSep Finset.univ fun s : Fin 36 => dutyTok ER (sendCell c s) 0 (0 : Fin 3))) := by
    unfold payToks
    rw [bigSep_sep', bigSep_congr (s := Finset.univ) (fun (c : Dev nD) _ => bigSep_sep' Finset.univ
      (fun s : Fin 36 => (dutyTok ER (recvCell (pr c (offs s)) s) 0 (0 : Fin 3) : sProp 𝕄)) (fun s : Fin 36 => dutyTok ER (sendCell c s) 0 (0 : Fin 3))), bigSep_sep']
  rw [hL, hR, deal (fun i : Fin 3 => i.val + 1) (fun c i => (dutyTok ER (barCell c) 0 (⟨2 - i.val, by omega⟩ : Fin 3) : sProp 𝕄)),
    deal (fun s : Fin 36 => offs s) (fun c s => (dutyTok ER (recvCell c s) 0 (0 : Fin 3) : sProp 𝕄))]
  iintro ⟨H1, H2, H3⟩
  isplitl [H1]; · iexact H1
  isplitl [H3]; · iexact H3
  iexact H2

/-! ## The global step -/

omit [FloatOps F] in
theorem ghost_intro (K : Dev nD × Fin 73 → ℕ) (c : Dev nD) : iprop(records cf K ∗ linear c) ⊢ G' cf c := by
  unfold G' ghost
  iintro H
  iexists K
  iexact H

omit [FloatOps F] in
theorem regroup :
    (bigSep Finset.univ fun c : Dev nD => iprop((bigSep Finset.univ fun k => iprop(∃ κ : ℕ, cellInv ER (sched cf) κ (kcell (c, k))))
          ∗ (bigSep Finset.univ fun k => iprop(atPos ER (kcell (c, k)) 0 ∅ 0 ∗ reached ER (kcell (c, k)) 0)) ∗ toks c) : sProp 𝕄)
      ⊢ bigSep Finset.univ (G' cf) := by
  rw [bigSep_sep', bigSep_sep', ← bigSep_univ_prod (fun ck : Dev nD × Fin 73 => iprop(∃ κ : ℕ, cellInv ER (sched cf) κ (kcell ck))),
    bigSep_congr (s := Finset.univ) (fun (c : Dev nD) _ => bigSep_sep' Finset.univ (fun k : Fin 73 => (atPos ER (kcell (c, k)) 0 ∅ 0 : sProp 𝕄)) (fun k => reached ER (kcell (c, k)) 0)),
    bigSep_sep', ← bigSep_univ_prod (fun ck : Dev nD × Fin 73 => (reached ER (kcell ck) 0 : sProp 𝕄))]
  iintro ⟨HI, ⟨Hat, #HR⟩, Htok⟩
  ihave HK := (BI.bigSep_exists_pi Finset.univ (fun (ck : Dev nD × Fin 73) (κ : ℕ) => (cellInv ER (sched cf) κ (kcell ck) : sProp 𝕄))) $$ HI
  icases HK with ⟨%K, #HI⟩
  ihave Htk := (toks_around (F := F)) $$ Htok
  iapply (bigSep_with_persistent (R := records cf K) fun c _ => ghost_intro cf K c)
  isplitr
  · unfold records; isplitl; · iexact HI
    iexact HR
  · iapply ((Entails.of_eq (bigSep_sep' Finset.univ (fun c : Dev nD => bigSep Finset.univ fun k : Fin 73 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G cf c) : sProp 𝕄)
    ⊢ |={Set.univ}=> bigSep Finset.univ (G' cf) :=
  ((bigSep_mono fun c _ => core_alloc cf c).trans (bigSep_fupd _ _)).trans (BI.fupd_mono (regroup cf))

end Cert.KernelIdeal.Proto

end
-- ==== Proof.LaunchCred.lean ====
import proofs.«900970_g7700000000000971_dist_mlpseq_tp1dT_cs_cs_b128_d128_h256_v7x_i4_f32_1_alg».proof.Proof.LaunchGhost
import Mathlib.Algebra.BigOperators.Intervals
import Mathlib.Algebra.BigOperators.Fin

/-!
The launch credit: what the four devices owe, summed, is on each device three units of its barrier cell and one slot's
credit of each of its 36 receive cells, so the launch deals each device exactly the credit its body waits with.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device owes, as a sum over its 39 payments -/

omit [FloatOps F] in
theorem owedRem_eq_sum (c : Dev nD) : ∀ r : ℕ, owedRem c r = ∑ i ∈ Finset.range r, tallyAt (stepCell c (38 - i)) () (stepAmt (38 - i))
  | 0 => by rw [Finset.range_zero, Finset.sum_empty]; rfl
  | r + 1 => by rw [Finset.sum_range_succ, ← owedRem_eq_sum c r]; rfl

omit [FloatOps F] in
theorem O₀_eq (c : Dev nD) : O₀ c = ∑ i ∈ Finset.range (3 + 36), tallyAt (stepCell c i) () (stepAmt i) := by
  unfold O₀; rw [owedRem_eq_sum]
  exact Finset.sum_range_reflect (fun i => (tallyAt (stepCell c i) () (stepAmt i) : CellTallies nD τ sig Unit)) 39

/-- The transfer started `j`-th in program order. -/
def xfer (j : Fin 36) : Fin 36 :=
  ⟨3 * (j.val / 3) + (sendOrd j.val).val, by have := j.isLt; have := (sendOrd j.val).isLt; omega⟩

theorem xfer_xfer : ∀ j : Fin 36, xfer (xfer j) = j := by decide
theorem offs_xfer : ∀ j : Fin 36, offs (xfer j) = (sendOrd j.val).val + 1 := by decide
theorem xfer_bijective : Function.Bijective xfer := (show Function.Involutive xfer from xfer_xfer).bijective

omit [FloatOps F] in
theorem stepCell_lt (c : Dev nD) (i : ℕ) (h : i < 3) : stepCell c i = barCell (pr c (i + 1)) := by unfold stepCell; rw [if_pos h]

omit [FloatOps F] in
theorem recvCell_congr {a a' : Dev nD} {s s' : Fin 36} (ha : a = a') (hs : s = s') : recvCell a s = recvCell a' s' := by
  subst ha hs; rfl

omit [FloatOps F] in
theorem stepCell_ge (c : Dev nD) (j : Fin 36) : stepCell c (3 + j.val) = recvCell (pr c (offs (xfer j))) (xfer j) := by
  have hj := j.isLt
  have ho := (sendOrd j.val).isLt
  have e : 3 + j.val - 3 = j.val := by omega
  unfold stepCell
  rw [if_neg (by omega), offs_xfer]
  exact recvCell_congr (by rw [e])
    (Fin.ext (by
      show (3 * ((3 + j.val - 3) / 3) + (sendOrd (3 + j.val - 3)).val) % 36 = 3 * (j.val / 3) + (sendOrd j.val).val
      rw [e]; omega))

omit [FloatOps F] in
theorem stepAmt_lt (i : ℕ) (h : i < 3) : stepAmt i = 1 := if_pos h
omit [FloatOps F] in
theorem stepAmt_ge (j : ℕ) : stepAmt (3 + j) = N := if_neg (by omega)

omit [FloatOps F] in
theorem O₀_split (c : Dev nD) :
    O₀ c = (∑ i : Fin 3, tallyAt (barCell (pr c (i.val + 1))) () 1) + ∑ s : Fin 36, tallyAt (recvCell (pr c (offs s)) s) () N := by
  have h1 : (∑ i ∈ Finset.range 3, (tallyAt (stepCell c i) () (stepAmt i) : CellTallies nD τ sig Unit))
      = ∑ i : Fin 3, tallyAt (barCell (pr c (i.val + 1))) () 1 :=
    (Finset.sum_range _).trans (Finset.sum_congr rfl fun i _ => by rw [stepCell_lt c i.val i.isLt, stepAmt_lt i.val i.isLt])
  have h2 : (∑ j ∈ Finset.range 36, (tallyAt (stepCell c (3 + j)) () (stepAmt (3 + j)) : CellTallies nD τ sig Unit))
      = ∑ s : Fin 36, tallyAt (recvCell (pr c (offs s)) s) () N :=
    ((Finset.sum_range _).trans (Finset.sum_congr rfl fun j _ => by rw [stepCell_ge c j, stepAmt_ge])).trans
      (xfer_bijective.sum_comp (fun s : Fin 36 => (tallyAt (recvCell (pr c (offs s)) s) () N : CellTallies nD τ sig Unit)))
  rw [O₀_eq, Finset.sum_range_add, h1, h2]

/-! ## Summed over the devices -/

/-- What device `c` waits for: three units on its barrier cell, a slot's credit on each receive cell. -/
def due (c : Dev nD) : CellTallies nD τ sig Unit := tallyAt (barCell c) () 3 + ∑ s : Fin 36, tallyAt (recvCell c s) () N

omit [FloatOps F] in
theorem sum_bar : (∑ d : Dev nD, ∑ i : Fin 3, (tallyAt (barCell (pr d (i.val + 1))) () 1 : CellTallies nD τ sig Unit))
    = ∑ d : Dev nD, tallyAt (barCell d) () 3 := by
  have h1 : ∀ i : Fin 3, (∑ d : Dev nD, (tallyAt (barCell (pr d (i.val + 1))) () 1 : CellTallies nD τ sig Unit)) = ∑ d : Dev nD, tallyAt (barCell d) () 1 :=
    fun i => (rotE (i.val + 1)).sum_comp (fun d : Dev nD => (tallyAt (barCell d) () 1 : CellTallies nD τ sig Unit))
  calc (∑ d : Dev nD, ∑ i : Fin 3, (tallyAt (barCell (pr d (i.val + 1))) () 1 : CellTallies nD τ sig Unit))
      = ∑ i : Fin 3, ∑ d : Dev nD, tallyAt (barCell (pr d (i.val + 1))) () 1 := Finset.sum_comm
    _ = ∑ i : Fin 3, ∑ d : Dev nD, tallyAt (barCell d) () 1 := Finset.sum_congr rfl fun i _ => h1 i
    _ = ∑ d : Dev nD, ∑ i : Fin 3, tallyAt (barCell d) () 1 := Finset.sum_comm
    _ = ∑ d : Dev nD, tallyAt (barCell d) () 3 := Finset.sum_congr rfl fun d _ => by rw [Fin.sum_univ_three, tallyAt_add, tallyAt_add]

omit [FloatOps F] in
theorem sum_recv : (∑ d : Dev nD, ∑ s : Fin 36, (tallyAt (recvCell (pr d (offs s)) s) () N : CellTallies nD τ sig Unit))
    = ∑ d : Dev nD, ∑ s : Fin 36, tallyAt (recvCell d s) () N := by
  have h1 : ∀ s : Fin 36, (∑ d : Dev nD, (tallyAt (recvCell (pr d (offs s)) s) () N : CellTallies nD τ sig Unit)) = ∑ d : Dev nD, tallyAt (recvCell d s) () N :=
    fun s => (rotE (offs s)).sum_comp (fun d : Dev nD => (tallyAt (recvCell d s) () N : CellTallies nD τ sig Unit))
  calc (∑ d : Dev nD, ∑ s : Fin 36, (tallyAt (recvCell (pr d (offs s)) s) () N : CellTallies nD τ sig Unit))
      = ∑ s : Fin 36, ∑ d : Dev nD, tallyAt (recvCell (pr d (offs s)) s) () N := Finset.sum_comm
    _ = ∑ s : Fin 36, ∑ d : Dev nD, tallyAt (recvCell d s) () N := Finset.sum_congr rfl fun s _ => h1 s
    _ = ∑ d : Dev nD, ∑ s : Fin 36, tallyAt (recvCell d s) () N := Finset.sum_comm

omit [FloatOps F] in
theorem sum_O₀ : (∑ d : Dev nD, O₀ d) = ∑ d : Dev nD, due d := by
  rw [Finset.sum_congr rfl fun d _ => O₀_split d, Finset.sum_add_distrib, sum_bar, sum_recv, ← Finset.sum_add_distrib]
  rfl

omit [FloatOps F] in
theorem due_own (d : Dev nD) (g : GSem nD τ sig) (h : due d g ≠ 0) : g.1 = (d : Thread nD τ) := by
  by_contra hne
  apply h
  unfold due
  rw [Pi.add_apply, Finset.sum_apply, tallyAt_ne_cell (fun e => hne (congrArg Prod.fst e)),
    Finset.sum_eq_zero (fun s _ => tallyAt_ne_cell (fun e => hne (congrArg Prod.fst e)) () N), add_zero]

omit [FloatOps F] in
/-- The launch deals device `c` the credit of its barrier cell's three units and of each receive cell's slot. -/
theorem creds (c : Dev nD) :
    (Pipeline.launchCred O₀ c : sProp 𝕄) ⊢ iprop(cred (tallyAt (barCell c) () 3) ∗ bigSep Finset.univ fun s : Fin 36 => cred (tallyAt (recvCell c s) () N)) := by
  rw [Pipeline.launchCred_of_sum O₀ due sum_O₀ due_own c]
  unfold due
  refine (cred_add _ _).1.trans (sep_mono_right ?_)
  rw [Pipeline.cred_finsetSum]

end Cert.KernelIdeal.Proto

end
-- ==== Proof.Launch.lean ====
import proofs.«900970_g7700000000000971_dist_mlpseq_tp1dT_cs_cs_b128_d128_h256_v7x_i4_f32_1_alg».proof.Proof.LaunchDat
import proofs.«900970_g7700000000000971_dist_mlpseq_tp1dT_cs_cs_b128_d128_h256_v7x_i4_f32_1_alg».proof.Proof.LaunchCred

/-!
The launch of the tensor-parallel MLP on four devices: from the body obligation of each device, every weakly fair
execution of the program terminates and leaves each windowed array at the proof data's final contents; the argument
arrays end as they were launched and the result array holds the result window's contents.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (cf : (c : Dev nD) → Buf (Elt F) ((commM : Memref sig .tc .vmem S48x32x256 .bf16).view.loc (c : Thread nD τ)))
  (m : (ℓ : Loc nD τ sig) → Buf (Elt F) ℓ) (ρ : Dev nD → PrngReg)
  (outv : (c : Dev nD) → (cc0_stg7_0 : Ref sig .tc).ty.Contents (Elt F))

/-! ## The communication buffer and the own semaphores -/

omit [FloatOps F] in
theorem commPts_eq (c : Dev nD) (f : Buf (Elt F) ((c : Thread nD τ).loc cc0_scratch0)) :
    commPts c f = (((c : Thread nD τ).loc cc0_scratch0) ↦{fullShare} f : sProp 𝕄) := by
  unfold commPts; rw [View.set_whole]

omit [FloatOps F] in
theorem osem_send (s : Fin 36) : osem (Fin.castAdd 36 s) = .dma (sendSem s) := by
  unfold osem
  rw [show (Fin.castAdd 36 s).succ = sIdx s from Fin.ext rfl, csem_s]

omit [FloatOps F] in
theorem osem_recv (s : Fin 36) : osem (Fin.natAdd 36 s) = .dma (recvSem s) := by
  unfold osem
  rw [show (Fin.natAdd 36 s).succ = rIdx s from Fin.ext (by show 36 + s.val + 1 = s.val + 37; omega), csem_r]

omit [FloatOps F] in
/-- The kernel's own semaphores at zero are the 36 send and the 36 receive cells at zero. -/
theorem ownSems0_split (c : Dev nD) :
    (Pipeline.ownSems0 (Ix := Unit) (Name := ℕ) (U := UU) (Lvl := ℕ) (Val := Elt F) (τ := τ) osem c : sProp 𝕄)
      = bigSep Finset.univ fun s : Fin 36 => iprop(semVal (sendCell c s) 0 ∗ semVal (recvCell c s) 0) := by
  show (bigSep Finset.univ fun k : Fin (36 + 36) => (semVal ((c : Thread nD τ), osem k) 0 : sProp 𝕄)) = _
  rw [bigSep_univ_equiv finSumFinEquiv (fun k : Fin (36 + 36) => (semVal ((c : Thread nD τ), osem k) 0 : sProp 𝕄)), bigSep_univ_sum, bigSep_sep']
  congr 1

/-! ## The theorem's side conditions -/

omit [FloatOps F] in
theorem start_intro (c : Dev nD) :
    iprop(Pipeline.unscopedRestP Pipeline.Prefetch.none cfg0.spec c (fun b => m ((c : Thread nD τ).loc b)) ∗ levAts Lset lv
        ∗ Pipeline.launchCred O₀ c ∗ prngReg c (ρ c) ∗ G' cf c)
      ⊢ |={Set.univ}=> iprop(start cf c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start cf c ∗ Pipeline.prefHeld Pipeline.Prefetch.none c (fun _ => fullShare.right) (fun k => k.elim0) ∗ Pipeline.scopedRest cfg0.spec c)
      ⊢ (dats cf m outv 0 c).Φ 0 := by
  rw [dats_Φ_zero, scopedRest0_eq]
  unfold Φ₀
  iintro ⟨Hs, -, ⟨%f, Hr⟩⟩
  isplitl [Hs]; · iexact Hs
  iexists f; rw [commPts_eq]; iexact Hr

theorem phi1_exit (c : Dev nD) :
    (dats cf m outv 0 c).Φ (Fin.last cfg0.N) ⊢ iprop(emp ∗ Pipeline.ownSems0 osem c ∗ Pipeline.scopedRest cfg0.spec c) := by
  rw [dats_Φ_last, scopedRest0_eq, ownSems0_split]
  unfold Φ₁
  iintro ⟨Hr, Hz⟩
  isplitr; · iempintro
  isplitl [Hz]; · iexact Hz
  iexists (cf c); rw [← commPts_eq]; iexact Hr

omit [FloatOps F] in
/-- The staging cells sit at level 0. -/
theorem stage_lv (c : Dev nD) (w : Fin cfg0.W) (s : Fin (cfg0.win w).nbuf) : lv ((c : Thread nD τ), .dma ((cfg0.win w).sem s)) () = 0 := by
  have h : ∀ (w : Fin 8) (s : Fin (cfg0.win w).nbuf), ck (.dma ((cfg0.win w).sem s)) = .other := by decide
  show (match ck (.dma ((cfg0.win w).sem s)) with | .bar => 1 | .rcv s => s.val / 3 + 2 | _ => 0) = 0
  rw [h]

theorem waits (c : Dev nD) : (levAts Lset lv : sProp 𝕄) ⊢ Pipeline.cellsWaits cfgs (dats cf m outv) () 0 c :=
  Pipeline.cellsWaits_intro cfgs (dats cf m outv) () 0 c fun w s t => by
    rcases t with ⟨_ | _, ht⟩
    · exact mayWait_of c _ 39 0 (Nat.le_refl _) (Nat.le_of_eq (stage_lv c w s)) (fun i _ _ => by split <;> omega)
    · exact mayWait_of c _ 0 0 (Nat.zero_le _) (Nat.le_of_eq (stage_lv c w s)) (fun i h1 h2 => by omega)

/-! ## The run -/

set_option maxRecDepth 100000 in
/-- At the compiled mesh of four devices, for any float values, from any memory with zero counters: given each device's
    body obligation, every weakly fair execution of the program terminates, and every final state has each windowed
    array at the proof data's final contents. -/
theorem run_main (hbody : ∀ c, BodyObligation (dats cf m outv 0 c) (defs₀ (F := F)) Variants.none () Set.univ) :
    θ_run defs (onTc (τ := τ) (main (F := F))) (s₀ m ρ)
      (fun r => ∀ (c : Dev nD) (w : Fin cfg0.W), r.2.mem ((cfg0.win w).arr.view.loc (c : Thread nD τ)) = (dats cf m outv 0 c).arrAt w cfg0.N) :=
  Pipeline.θ_run_region_owing_glob_pf (fun p => (cfgs p).toPCfg) (fun p => (cfgs p).toPCfg_adm) (dats cf m outv) () cellOf_inj (0 : Fin 1)
    winFacts0.to₀ ownSemFacts (Pipeline.PreFacts.none _) EP defs₀ Variants.none m ρ main
    (hmain := fun _ => rfl)
    (hbody := hbody) (hne := block_pos0) (harr := arr_whole0) (hstage := stage_whole0) (hshare := share_eq cf m outv)
    (hdistinct := winFacts0.arr_inj)
    (O₀ := O₀) (howed₀ := fun _ => rfl) (howedN := fun _ => rfl)
    (L := Lset) (lv := lv) (hL := Lset_of_ne) (hwaits := waits cf m outv)
    (G := G cf) (G' := G' cf) (u₀ := u₀)
    (hu₀ := by
      unfold u₀
      iintro Hu
      ihave H := (ownU_pair _ _) $$ Hu
      icases H with ⟨HP, HX⟩
      imod (fund_all cf) $$ HX with HG
      imodintro
      isplitl [HP] <;> iassumption)
    (hglob := glob cf)
    (hA := fun _ _ => rfl) (hpf := fun _ k => k.elim0)
    (X := start cf) (Y := fun _ => iprop(emp)) (Z := fun _ => iprop(emp))
    (hX := start_intro cf m ρ) (hin := phi0_intro cf m outv) (hout := phi1_exit cf m outv)
    (QY := fun _ _ => True)
    (hY := fun c s' => by
      iintro ⟨-, -, HSI⟩
      imodintro
      isplitr; · ipureintro; trivial
      iexact HSI)
    (hQ := fun _ h c w => (h c).1 w)

/-- info: 'Cert.KernelIdeal.Proto.run_main' depends on axioms: [propext, Classical.choice, Quot.sound] -/
#guard_msgs in #print axioms run_main

/-! ## The final arrays -/

/-- An argument array ends as it was launched. -/
theorem finalA_in (c : Dev nD) (w : Fin cfg0.W) (hin : (cfg0.win w).isOut = false) :
    (dats cf m outv 0 c).arrAt w cfg0.N = m ((cfg0.win w).arr.view.loc (c : Thread nD τ)) :=
  (dats cf m outv 0 c).arrAt_in w hin _

omit [FloatOps F] in
/-- The one block of the result window is the whole result array. -/
theorem read_blk_out (f : (main_v1 : Ref sig .tc).ty.Contents (Elt F)) : ((cfg0.win 7).blk t0_0).view.read (Elt F) f = f :=
  Memref.read_access_unit_zero (Elt F) main_v1 (funext fun a => Nat.zero_mul _) _ f

/-- The result array ends at the result window's contents. -/
theorem finalA_out (c : Dev nD) : (dats cf m outv 0 c).arrAt 7 cfg0.N = outv c := by
  have h := (dats cf m outv 0 c).arrAt_succ 7 t0_0
  rw [show (cfg0.win 7).flush t0_0 = true from by decide, if_pos rfl] at h
  calc (dats cf m outv 0 c).arrAt 7 cfg0.N
      = ((cfg0.win 7).blk t0_0).view.write (Elt F) ((dats cf m outv 0 c).arrAt 7 t0_0.val) ((dats cf m outv 0 c).flushed 7 t0_0) Finset.univ := h
    _ = ((cfg0.win 7).blk t0_0).view.read (Elt F)
          (((cfg0.win 7).blk t0_0).view.write (Elt F) ((dats cf m outv 0 c).arrAt 7 t0_0.val) ((dats cf m outv 0 c).flushed 7 t0_0) Finset.univ) := (read_blk_out _).symm
    _ = (dats cf m outv 0 c).flushed 7 t0_0 := View.read_write_univ _ _
    _ = outv c := rfl

/-- The run's post in the claims' words: the result array at the result window's contents, the seven arguments unchanged. -/
theorem value_of_run (hbody : ∀ c, BodyObligation (dats cf m outv 0 c) (defs₀ (F := F)) Variants.none () Set.univ) :
    θ_run defs (onTc (τ := τ) (main (F := F))) ⟨m, fun _ => 0, ρ⟩ (fun r => ∀ c : Dev nD,
      r.2.mem ((c.tc : Thread nD τ).loc main_v1) = outv c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c 7).trans (finalA_out cf m outv c),
      (h c 0).trans (finalA_in cf m outv c 0 rfl), (h c 1).trans (finalA_in cf m outv c 1 rfl), (h c 2).trans (finalA_in cf m outv c 2 rfl),
      (h c 3).trans (finalA_in cf m outv c 3 rfl), (h c 4).trans (finalA_in cf m outv c 4 rfl), (h c 5).trans (finalA_in cf m outv c 5 rfl),
      (h c 6).trans (finalA_in cf m outv c 6 rfl)⟩) (run_main cf m ρ outv hbody)

/-- The frame claim's post: the run with the result dropped. -/
theorem frame_of_run (hbody : ∀ c, BodyObligation (dats cf m outv 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (value_of_run cf m ρ outv hbody)

/-- info: 'Cert.KernelIdeal.Proto.value_of_run' depends on axioms: [propext, Classical.choice, Quot.sound] -/
#guard_msgs in #print axioms value_of_run

end Cert.KernelIdeal.Proto

end
-- ==== Proof.Spec.lean ====
/-
  The value each device computes, as pure terms over the devices' blocks of the inputs.

  Device `c` holds column block `c` of the activations `x` (`X c`), row block `c` of each input
  weight matrix (`W l c`) and column block `c` of each output weight matrix (`O l c`).  A layer
  is: every device multiplies its column block of the activations by its row block of the input
  weights (a partial product over its 128 of the 512 contracted columns), the four partial products
  are added on every device (the three received ones after a round trip through the narrow format),
  the sum is rectified and multiplied by the device's column block of the output weights.  The work
  is done in four row pieces of 32 rows.
-/
import proofs.«900970_g7700000000000971_dist_mlpseq_tp1dT_cs_cs_b128_d128_h256_v7x_i4_f32_1_alg».proof.Proof.Gen.KernelIdeal
import Idealize.ShloMosaic.Lib.ValueIdx

noncomputable section

namespace Cert.KernelIdeal.Spec

open Idealize.ShloMosaic Idealize.SL.Sem Idealize.ShloMosaic.ValueIdx
open Cert.KernelIdeal.Gen

variable {F : FTy → Type} [FloatOps F]

/-- The device `k` places further round the ring of four. -/
def peer (c : Dev nD) (k : ℕ) : Dev nD := ⟨(c.val + k) % 4, Nat.mod_lt _ (by decide)⟩

theorem peer_val (c : Dev nD) (k : ℕ) : (peer c k).val = (c.val + k) % 4 := rfl

/-- Row `r` of piece `p` is row `32 p + r` of the 128. -/
theorem row_lt (p : Fin 4) (r : ℕ) (hr : r < 32) : 32 * p.val + r < 128 := by omega

/-- Rows `32 p … 32 p + 31` of device `c`'s block of the activations. -/
def xrows (X : Dev nD → Vec F S128x128 .f32) (c : Dev nD) (p : Fin 4) : Vec F S32x128 .f32 :=
  fun i => X c (ix2 (n0 := 128) (n1 := 128) ⟨32 * p.val + (i 0).val, row_lt p _ (idx2_lt0 i)⟩ (i 1))

/-- The product of a 32-row piece, already in the narrow format, with a row block of input weights
    (narrowed), accumulated from zero. -/
def mmCore (a : FVec F S32x128 .bf16) (w : Vec F S128x256 .f32) : FVec F S32x256 .f32 :=
  matmul dot_S32x128_S128x256_S32x256_1_0_0_1_n_n none a
    (truncf .bf16 (shapeCast S128x256 w shapeCasts_S128x256_S128x256) bitsLt_bf16_f32)
    (constant S32x256 .f32 0x00000000#32)

/-- A loaded piece of the activations times a row block of input weights: the device's partial
    product for the first layer. -/
def mmIn (a : Vec F S32x128 .f32) (w : Vec F S128x256 .f32) : FVec F S32x256 .f32 :=
  mmCore (truncf .bf16 (shapeCast S32x128 a shapeCasts_S32x128_S32x128) bitsLt_bf16_f32) w

/-- A computed piece of the next activations times a row block of input weights: the device's
    partial product for a later layer. -/
def mmNext (a : FVec F S32x128 .f32) (w : Vec F S128x256 .f32) : FVec F S32x256 .f32 :=
  mmCore (truncf .bf16 a bitsLt_bf16_f32) w

/-- A partial product as it is put in a slot of the exchange buffer: narrowed, with a leading unit axis. -/
def slot (a : FVec F S32x256 .f32) : FVec F S1x32x256 .bf16 :=
  shapeCast S1x32x256 (truncf .bf16 a bitsLt_bf16_f32) shapeCasts_S32x256_S1x32x256

/-- A slot of the exchange buffer as it is read back: the unit axis dropped, widened. -/
def unslot (s : Vec F S1x32x256 .bf16) : FVec F S32x256 .f32 :=
  extf .f32 (shapeCast S32x256 s shapeCasts_S1x32x256_S32x256) bitsLt_bf16_f32

/-- One received slot added to a running sum. -/
def add1 (a : FVec F S32x256 .f32) (s : Vec F S1x32x256 .bf16) : FVec F S32x256 .f32 :=
  addf a (unslot s)

/-- The rectifier: the maximum with zero. -/
def relu (a : FVec F S32x256 .f32) : FVec F S32x256 .f32 :=
  maximumf a (broadcast S32x256 (Scalar.ofBits .f32 0x00000000#32))

/-- The rectified sum (narrowed) times a column block of output weights (narrowed), accumulated from zero. -/
def mmOut (h : FVec F S32x256 .f32) (o : Vec F S256x128 .f32) : FVec F S32x128 .f32 :=
  matmul dot_S32x256_S256x128_S32x128_1_0_0_1_n_n none
    (truncf .bf16 (relu h) bitsLt_bf16_f32)
    (truncf .bf16 (shapeCast S256x128 o shapeCasts_S256x128_S256x128) bitsLt_bf16_f32)
    (constant S32x128 .f32 0x00000000#32)

/-- The sum of the four devices' partial products of piece `p` as device `c` forms it: its own, then
    what the device one place back, three places back and two places back sent, in this order. -/
def accOf (P : Dev nD → Fin 4 → FVec F S32x256 .f32) (c : Dev nD) (p : Fin 4) : FVec F S32x256 .f32 :=
  add1 (add1 (add1 (P c p) (slot (P (peer c 3) p))) (slot (P (peer c 1) p))) (slot (P (peer c 2) p))

variable (X : Dev nD → Vec F S128x128 .f32) (W : ℕ → Dev nD → Vec F S128x256 .f32)
  (O : ℕ → Dev nD → Vec F S256x128 .f32)

/-- Device `c`'s column block of piece `p` of layer `l`'s output, from the partial products `P`. -/
def xnOf (P : Dev nD → Fin 4 → FVec F S32x256 .f32) (l : ℕ) (c : Dev nD) (p : Fin 4) : FVec F S32x128 .f32 :=
  mmOut (accOf P c p) (O l c)

/-- Device `c`'s partial product of piece `p` in layer `l`. -/
def partL : ℕ → Dev nD → Fin 4 → FVec F S32x256 .f32
  | 0, c, p => mmIn (xrows X c p) (W 0 c)
  | l + 1, c, p => mmNext (xnOf O (partL l) l c p) (W (l + 1) c)

theorem partL_zero (c : Dev nD) (p : Fin 4) : partL X W O 0 c p = mmIn (xrows X c p) (W 0 c) := rfl

theorem partL_succ (l : ℕ) (c : Dev nD) (p : Fin 4) :
    partL X W O (l + 1) c p = mmNext (xnOf O (partL X W O l) l c p) (W (l + 1) c) := rfl

/-- Piece `p` of device `c`'s block of the result: the third layer's output. -/
def outPiece (c : Dev nD) (p : Fin 4) : FVec F S32x128 .f32 := xnOf O (partL X W O 2) 2 c p

theorem piece_lt (r : ℕ) (hr : r < 128) : r / 32 < 4 := by omega

/-- Device `c`'s block of the result: rows `32 p … 32 p + 31` are piece `p`. -/
def outAt (c : Dev nD) : Vec F S128x128 .f32 :=
  fun i => outPiece X W O c ⟨(i 0).val / 32, piece_lt _ (idx2_lt0 i)⟩
    (ix2 (n0 := 32) (n1 := 128) ⟨(i 0).val % 32, Nat.mod_lt _ (by decide)⟩ (i 1))

/-- Row `32 p + r` of the block is row `r` of piece `p`. -/
theorem outAt_piece (c : Dev nD) (p : Fin 4) (i : S32x128.Idx) (j : S128x128.Idx)
    (h0 : (j 0).val = 32 * p.val + (i 0).val) (h1 : (j 1).val = (i 1).val) :
    outAt X W O c j = outPiece X W O c p i := by
  have hi := idx2_lt0 i
  have hp : (⟨(j 0).val / 32, piece_lt _ (idx2_lt0 j)⟩ : Fin 4) = p :=
    Fin.ext (by show (j 0).val / 32 = p.val; rw [h0]; omega)
  unfold outAt
  rw [hp]
  congr 1
  funext a
  match a with
  | ⟨0, _⟩ => exact Fin.ext (by show (j 0).val % 32 = (i 0).val; rw [h0]; omega)
  | ⟨1, _⟩ => exact Fin.ext h1

/-- The piece of the activations read through any indexing that lands where `xrows` does. -/
theorem xrows_eq (c : Dev nD) (p : Fin 4) (g : S32x128.Idx → S128x128.Idx)
    (h0 : ∀ i, (g i 0).val = 32 * p.val + (i 0).val) (h1 : ∀ i, (g i 1).val = (i 1).val) :
    (fun i => X c (g i)) = xrows X c p := by
  funext i
  unfold xrows
  congr 1
  funext a
  match a with
  | ⟨0, _⟩ => exact Fin.ext (h0 i)
  | ⟨1, _⟩ => exact Fin.ext (h1 i)

end Cert.KernelIdeal.Spec

end
-- ==== Proof.Contents.lean ====
import proofs.«900970_g7700000000000971_dist_mlpseq_tp1dT_cs_cs_b128_d128_h256_v7x_i4_f32_1_alg».proof.Proof.Protocol
import proofs.«900970_g7700000000000971_dist_mlpseq_tp1dT_cs_cs_b128_d128_h256_v7x_i4_f32_1_alg».proof.Proof.Spec

/-!
What the buffers hold. Device `c`'s staging buffers hold its blocks of the seven argument arrays; slot `4 L + k` of its
communication buffer ends holding the bf16 partial product of stage `L = 4 l + p` of device `c - k` (its own for `k = 0`);
its result block is, row piece by row piece, the last layer's product.
-/

noncomputable section

namespace Cert.KernelIdeal.Proto

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- Device `c`'s block of `x`, of `Win_l`, of `Wout_l`, as its staging buffers hold them. -/
def xin (c : Dev nD) : Vec F S128x128 .f32 := (win0_0.blk (0 : Fin 1)).view.read (Elt F) (m ((c : Thread nD τ).loc main_arg0))
def win : ℕ → Dev nD → Vec F S128x256 .f32
  | 0, c => (win0_1.blk (0 : Fin 1)).view.read (Elt F) (m ((c : Thread nD τ).loc main_arg1))
  | 1, c => (win0_3.blk (0 : Fin 1)).view.read (Elt F) (m ((c : Thread nD τ).loc main_arg3))
  | _, c => (win0_5.blk (0 : Fin 1)).view.read (Elt F) (m ((c : Thread nD τ).loc main_arg5))
def wout : ℕ → Dev nD → Vec F S256x128 .f32
  | 0, c => (win0_2.blk (0 : Fin 1)).view.read (Elt F) (m ((c : Thread nD τ).loc main_arg2))
  | 1, c => (win0_4.blk (0 : Fin 1)).view.read (Elt F) (m ((c : Thread nD τ).loc main_arg4))
  | _, c => (win0_6.blk (0 : Fin 1)).view.read (Elt F) (m ((c : Thread nD τ).loc main_arg6))

/-- The partial product of layer `l`, row piece `p`, on device `c`. -/
abbrev part (l : ℕ) (c : Dev nD) (p : Fin 4) : FVec F S32x256 .f32 := Spec.partL (xin m) (win m) (wout m) l c p

/-- What slot `j = 4 (4 l + p) + k` of device `c`'s communication buffer ends holding: device `c - k`'s partial product
    of layer `l`, piece `p`, as bf16. -/
def slotVal (c : Dev nD) (j : ℕ) : FVec F S1x32x256 .bf16 :=
  Spec.slot (part m (j / 16) (Spec.peer c ((4 - j % 4) % 4)) ⟨j / 4 % 4, Nat.mod_lt _ (by decide)⟩)

/-- The communication buffer's final contents. -/
def cfin (c : Dev nD) : Buf (Elt F) ((commM : Memref sig .tc .vmem S48x32x256 .bf16).view.loc (c : Thread nD τ)) :=
  fun i => slotVal m c (i 0).val (ix3 (0 : Fin 1) (i 1) (i 2))

/-- The result block of device `c`. -/
def outv (c : Dev nD) : (cc0_stg7_0 : Ref sig .tc).ty.Contents (Elt F) := Spec.outAt (xin m) (win m) (wout m) c

end Cert.KernelIdeal.Proto

end
-- ==== Proof.BodyDefs.lean ====
import proofs.«900970_g7700000000000971_dist_mlpseq_tp1dT_cs_cs_b128_d128_h256_v7x_i4_f32_1_alg».proof.Proof.LaunchDat
import proofs.«900970_g7700000000000971_dist_mlpseq_tp1dT_cs_cs_b128_d128_h256_v7x_i4_f32_1_alg».proof.Proof.Contents

/-! What a device's body starts from and what it leaves, over the buffers' named contents. -/

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The proof data at the protocol's final buffer contents and the result's value. -/
abbrev kdats (p : Fin 1) (c : Dev nD) : Dat τ (Elt F) Unit ℕ UU ℕ cfg0 c := dats (cfin m) m (outv m) p c

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Before the body: the protocol's ghost state at names `K`, the launch credit, the levels, the communication buffer at
    whatever it holds, what the device owes, the seven argument blocks staged, the result's staging buffer. -/
def bodyPre (K : Dev nD × Fin 73 → ℕ) (c : Dev nD) : sProp 𝕄 :=
  iprop((ghost (cfin m) K c ∗ cred (tallyAt (barCell c) () 3)
      ∗ (bigSep Finset.univ fun s : Fin 36 => cred (tallyAt (recvCell c s) () N)) ∗ levAts Lset lv ∗ ∃ f, commPts c f)
    ∗ (kdats m 0 c).owesAt () t₀.castSucc
    ∗ stg c cc0_stg0_0 (iblk m c 0 t₀) ∗ stg c cc0_stg1_0 (iblk m c 1 t₀) ∗ stg c cc0_stg2_0 (iblk m c 2 t₀)
    ∗ stg c cc0_stg3_0 (iblk m c 3 t₀) ∗ stg c cc0_stg4_0 (iblk m c 4 t₀) ∗ stg c cc0_stg5_0 (iblk m c 5 t₀)
    ∗ stg c cc0_stg6_0 (iblk m c 6 t₀) ∗ (∃ X, stg c cc0_stg7_0 X))

/-- After it: the buffer whole at its final contents and the own cells closed, nothing owed, the argument blocks as
    staged, the result's staging buffer at the result block. -/
def bodyPost (c : Dev nD) : sProp 𝕄 :=
  iprop(Φ₁ (cfin m) c ∗ (kdats m 0 c).owesAt () t₀.succ
    ∗ stg c cc0_stg0_0 (iblk m c 0 t₀) ∗ stg c cc0_stg1_0 (iblk m c 1 t₀) ∗ stg c cc0_stg2_0 (iblk m c 2 t₀)
    ∗ stg c cc0_stg3_0 (iblk m c 3 t₀) ∗ stg c cc0_stg4_0 (iblk m c 4 t₀) ∗ stg c cc0_stg5_0 (iblk m c 5 t₀)
    ∗ stg c cc0_stg6_0 (iblk m c 6 t₀) ∗ stg c cc0_stg7_0 (outv m c))

/-- The statement of a device's body: from `bodyPre` the printed body runs to `bodyPost`. -/
def SoundBody : Prop :=
  ∀ (K : Dev nD × Fin 73 → ℕ) (c : Dev nD) (Kt : PUnit → sProp 𝕄),
    iprop(bodyPre m K c ∗ (bodyPost m c -∗ Kt ⟨⟩))
      ⊢ wp frame (wpE (defs₀ (F := F)) Variants.none c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_scratch0) (Memref.isWhole_whole _) cc0_scratch1 cc0_scratch2) Kt

end Cert.KernelIdeal.Proto

end
-- ==== Proof.KArgs.lean ====
/-
  A memory's argument buffers on each device, as the inputs of the specification: device `c`'s
  block of the activations, and by layer its blocks of the input and of the output weights.
-/
import proofs.«900970_g7700000000000971_dist_mlpseq_tp1dT_cs_cs_b128_d128_h256_v7x_i4_f32_1_alg».proof.Proof.Spec

noncomputable section

namespace Cert.KernelIdeal.Spec

open Idealize.ShloMosaic Idealize.SL.Sem

variable {F : FTy → Type} [FloatOps F]

/-- Three things listed by layer. -/
def byLayer {α : Type} (a b c : α) : ℕ → α
  | 0 => a
  | 1 => b
  | _ => c

@[simp] theorem byLayer_zero {α : Type} (a b c : α) : byLayer a b c 0 = a := rfl
@[simp] theorem byLayer_one {α : Type} (a b c : α) : byLayer a b c 1 = b := rfl
@[simp] theorem byLayer_two {α : Type} (a b c : α) : byLayer a b c 2 = c := rfl

variable (m : (ℓ : Loc nD τ sig) → Buf (Elt F) ℓ)

/-- Device `c`'s block of the activations. -/
def xOf (c : Dev nD) : Vec F S128x128 .f32 := m ((c.tc : Thread nD τ).loc main_arg0)

/-- Device `c`'s block of layer `l`'s input weights. -/
def wOf (l : ℕ) (c : Dev nD) : Vec F S128x256 .f32 :=
  byLayer (m ((c.tc : Thread nD τ).loc main_arg1)) (m ((c.tc : Thread nD τ).loc main_arg3))
    (m ((c.tc : Thread nD τ).loc main_arg5)) l

/-- Device `c`'s block of layer `l`'s output weights. -/
def oOf (l : ℕ) (c : Dev nD) : Vec F S256x128 .f32 :=
  byLayer (m ((c.tc : Thread nD τ).loc main_arg2)) (m ((c.tc : Thread nD τ).loc main_arg4))
    (m ((c.tc : Thread nD τ).loc main_arg6)) l

/-- What the kernel's run is to establish, for any float values: on every device the result buffer
    ends as the specification's value of that device's argument buffers, the arguments unchanged. -/
def RunPost (r : PUnit × MemSt nD τ sig (Elt F)) : Prop :=
  ∀ c : Dev nD,
    r.2.mem ((c.tc : Thread nD τ).loc main_v1) = outAt (xOf m) (wOf m) (oOf m) c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)

end Cert.KernelIdeal.Spec

end
-- ==== Proof.ContentsEq.lean ====
/-
  A device's staged blocks are its argument buffers: each argument is staged whole, and a whole
  array read through the block at index zero of its own sizes is the array.  So the result block
  named over the staged blocks is the specification's value of the argument buffers.
-/
import proofs.«900970_g7700000000000971_dist_mlpseq_tp1dT_cs_cs_b128_d128_h256_v7x_i4_f32_1_alg».proof.Proof.Contents
import proofs.«900970_g7700000000000971_dist_mlpseq_tp1dT_cs_cs_b128_d128_h256_v7x_i4_f32_1_alg».proof.Proof.KArgs

noncomputable section

namespace Cert.KernelIdeal.Proto

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem xin_eq (c : Dev nD) : xin m c = Spec.xOf m c :=
  Memref.read_access_unit_zero (Elt F) main_arg0 (funext fun _ => Nat.zero_mul _) _ _

theorem win_eq (l : ℕ) (c : Dev nD) : win m l c = Spec.wOf m l c := by
  match l with
  | 0 => exact Memref.read_access_unit_zero (Elt F) main_arg1 (funext fun _ => Nat.zero_mul _) _ _
  | 1 => exact Memref.read_access_unit_zero (Elt F) main_arg3 (funext fun _ => Nat.zero_mul _) _ _
  | _ + 2 => exact Memref.read_access_unit_zero (Elt F) main_arg5 (funext fun _ => Nat.zero_mul _) _ _

theorem wout_eq (l : ℕ) (c : Dev nD) : wout m l c = Spec.oOf m l c := by
  match l with
  | 0 => exact Memref.read_access_unit_zero (Elt F) main_arg2 (funext fun _ => Nat.zero_mul _) _ _
  | 1 => exact Memref.read_access_unit_zero (Elt F) main_arg4 (funext fun _ => Nat.zero_mul _) _ _
  | _ + 2 => exact Memref.read_access_unit_zero (Elt F) main_arg6 (funext fun _ => Nat.zero_mul _) _ _

/-- The result block over the staged blocks is the specification's value of the argument buffers. -/
theorem outv_eq (c : Dev nD) : outv m c = Spec.outAt (Spec.xOf m) (Spec.wOf m) (Spec.oOf m) c := by
  have hx : xin m = Spec.xOf m := funext (xin_eq m)
  have hw : win m = Spec.wOf m := funext fun l => funext (win_eq m l)
  have ho : wout m = Spec.oOf m := funext fun l => funext (wout_eq m l)
  unfold outv
  rw [hx, hw, ho]

end Cert.KernelIdeal.Proto

end
-- ==== Proof.Run.lean ====
/-
  The kernel's run with its result named: from each device's body statement, every weakly fair
  execution of the four devices' threads ends, nothing faulting, with each device's result array
  holding the specification's value of that device's argument buffers and the arguments unchanged.
-/
import proofs.«900970_g7700000000000971_dist_mlpseq_tp1dT_cs_cs_b128_d128_h256_v7x_i4_f32_1_alg».proof.Proof.Launch
import proofs.«900970_g7700000000000971_dist_mlpseq_tp1dT_cs_cs_b128_d128_h256_v7x_i4_f32_1_alg».proof.Proof.BodyDefs
import proofs.«900970_g7700000000000971_dist_mlpseq_tp1dT_cs_cs_b128_d128_h256_v7x_i4_f32_1_alg».proof.Proof.ContentsEq

noncomputable section

namespace Cert.KernelIdeal.Proto

open Cert.KernelIdeal Cert.KernelIdeal.Gen
open Idealize.ShloMosaic Idealize.ShloMosaic.TcCoe Idealize.SL.Sem
open Idealize.ShloMosaic.Pipeline (BodyObligation)

variable {F : FTy → Type} [FloatOps F]

/-- From the four body obligations at the protocol's final contents and the specification's result. -/
theorem run_post_of (m : (ℓ : Loc nD τ sig) → Buf (Elt F) ℓ) (ρ : Dev nD → PrngReg)
    (hbody : ∀ c, BodyObligation (kdats m 0 c) (defs₀ (F := F)) Variants.none () Set.univ) :
    θ_run defs (onTc (τ := τ) (main (F := F))) ⟨m, fun _ => 0, ρ⟩ (Spec.RunPost m) :=
  (θ_run defs _ _).mono (fun _ h c => ⟨(h c).1.trans (outv_eq m c), (h c).2⟩)
    (value_of_run (cfin m) m ρ (outv m) hbody)

/-- The same run with the result forgotten: the arguments end as they were launched. -/
theorem frame_post_of (m : (ℓ : Loc nD τ sig) → Buf (Elt F) ℓ) (ρ : Dev nD → PrngReg)
    (hbody : ∀ c, BodyObligation (kdats m 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_run (cfin m) m ρ (outv m) hbody

end Cert.KernelIdeal.Proto

end
-- ==== Proof.BodyGlue.lean ====
import proofs.«900970_g7700000000000971_dist_mlpseq_tp1dT_cs_cs_b128_d128_h256_v7x_i4_f32_1_alg».proof.Proof.BodyDefs
import Idealize.ShloMosaic.Lib.Pipeline.FrameBody

/-!
The body lemma in the form the launch asks for: at the one grid point, from the invariant before it, what the device
owes and the eight windows' staging buffers, the printed body runs to the invariant after it, nothing owed, and the
buffers at what the body leaves.
-/

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- The eight windows, one by one. -/
theorem bigSep_W (Φ : Fin cfg0.W → sProp 𝕄) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_W0 Φ

omit [FloatOps F] in
/-- Owning a whole buffer and reading `X` through it is holding it whole at contents `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = stg c b X := by
  unfold owns; simp only [Memref.view_whole, View.read_whole, View.set_whole]

/-- Argument window 0's staging buffer holds its block of the array when the body is handed it: the window is an
    input, never idle, uncut, and the body leaves the block in place. -/
theorem before_0 (c : Dev nD) (t : Fin cfg0.N) (d) : (kdats m 0 c).before 0 t d = iblk m c 0 t :=
  ((kdats m 0 c).before_in_eq_fetched 0 rfl (fun _ => rfl) (fun _ _ _ => rfl) (fun t => rfl) t d).trans rfl

/-- Argument window 1's staging buffer holds its block of the array when the body is handed it: the window is an
    input, never idle, uncut, and the body leaves the block in place. -/
theorem before_1 (c : Dev nD) (t : Fin cfg0.N) (d) : (kdats m 0 c).before 1 t d = iblk m c 1 t :=
  ((kdats m 0 c).before_in_eq_fetched 1 rfl (fun _ => rfl) (fun _ _ _ => rfl) (fun t => rfl) t d).trans rfl

/-- Argument window 2's staging buffer holds its block of the array when the body is handed it: the window is an
    input, never idle, uncut, and the body leaves the block in place. -/
theorem before_2 (c : Dev nD) (t : Fin cfg0.N) (d) : (kdats m 0 c).before 2 t d = iblk m c 2 t :=
  ((kdats m 0 c).before_in_eq_fetched 2 rfl (fun _ => rfl) (fun _ _ _ => rfl) (fun t => rfl) t d).trans rfl

/-- Argument window 3's staging buffer holds its block of the array when the body is handed it: the window is an
    input, never idle, uncut, and the body leaves the block in place. -/
theorem before_3 (c : Dev nD) (t : Fin cfg0.N) (d) : (kdats m 0 c).before 3 t d = iblk m c 3 t :=
  ((kdats m 0 c).before_in_eq_fetched 3 rfl (fun _ => rfl) (fun _ _ _ => rfl) (fun t => rfl) t d).trans rfl

/-- Argument window 4's staging buffer holds its block of the array when the body is handed it: the window is an
    input, never idle, uncut, and the body leaves the block in place. -/
theorem before_4 (c : Dev nD) (t : Fin cfg0.N) (d) : (kdats m 0 c).before 4 t d = iblk m c 4 t :=
  ((kdats m 0 c).before_in_eq_fetched 4 rfl (fun _ => rfl) (fun _ _ _ => rfl) (fun t => rfl) t d).trans rfl

/-- Argument window 5's staging buffer holds its block of the array when the body is handed it: the window is an
    input, never idle, uncut, and the body leaves the block in place. -/
theorem before_5 (c : Dev nD) (t : Fin cfg0.N) (d) : (kdats m 0 c).before 5 t d = iblk m c 5 t :=
  ((kdats m 0 c).before_in_eq_fetched 5 rfl (fun _ => rfl) (fun _ _ _ => rfl) (fun t => rfl) t d).trans rfl

/-- Argument window 6's staging buffer holds its block of the array when the body is handed it: the window is an
    input, never idle, uncut, and the body leaves the block in place. -/
theorem before_6 (c : Dev nD) (t : Fin cfg0.N) (d) : (kdats m 0 c).before 6 t d = iblk m c 6 t :=
  ((kdats m 0 c).before_in_eq_fetched 6 rfl (fun _ => rfl) (fun _ _ _ => rfl) (fun t => rfl) t d).trans rfl

/-- What the launch hands the body at the one grid point: the invariant before it, what the device owes, and each
    window's staging buffer at what it then holds. -/
def bodyPre' (c : Dev nD) : sProp 𝕄 :=
  iprop(Φ₀ (cfin m) c ∗ (kdats m 0 c).owesAt () t₀.castSucc
    ∗ (∃ d, stg c cc0_stg0_0 ((kdats m 0 c).before (0 : Fin 8) t₀ d))
    ∗ (∃ d, stg c cc0_stg1_0 ((kdats m 0 c).before (1 : Fin 8) t₀ d))
    ∗ (∃ d, stg c cc0_stg2_0 ((kdats m 0 c).before (2 : Fin 8) t₀ d))
    ∗ (∃ d, stg c cc0_stg3_0 ((kdats m 0 c).before (3 : Fin 8) t₀ d))
    ∗ (∃ d, stg c cc0_stg4_0 ((kdats m 0 c).before (4 : Fin 8) t₀ d))
    ∗ (∃ d, stg c cc0_stg5_0 ((kdats m 0 c).before (5 : Fin 8) t₀ d))
    ∗ (∃ d, stg c cc0_stg6_0 ((kdats m 0 c).before (6 : Fin 8) t₀ d))
    ∗ (∃ d, stg c cc0_stg7_0 ((kdats m 0 c).before (7 : Fin 8) t₀ d)))

set_option maxRecDepth 16384 in
/-- The body obligation of device `c`, from the body lemma. -/
theorem body_obligation (hS : SoundBody m) (c : Dev nD) :
    BodyObligation (kdats (F := F) m 0 c) (defs₀ (F := F)) Variants.none () Set.univ := fun t => by
  rw [fin_N t]
  rw [bigSep_W, bigSep_W]
  simp only [owns_whole_eq]
  show bodyPre' m c ⊢ wp frame (wpE (defs₀ (F := F)) Variants.none c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) cc0_scratch1 cc0_scratch2) (fun _ => bodyPost m c)
  unfold bodyPre' Φ₀ start
  simp only [before_0, before_1, before_2, before_3, before_4, before_5, before_6]
  iintro ⟨⟨⟨⟨%K, Hg⟩, Hc1, Hc2, Hlev⟩, Hcomm⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (hS K c fun _ => bodyPost m c)
  unfold bodyPre
  isplitr []
  · isplitl [Hg Hc1 Hc2 Hlev Hcomm]
    · isplitl [Hg]; · iexact Hg
      isplitl [Hc1]; · iexact Hc1
      isplitl [Hc2]; · iexact Hc2
      isplitl [Hlev]; · iexact Hlev
      iexact Hcomm
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · iintro H; iexact H

/-- info: 'Cert.KernelIdeal.Proto.body_obligation' depends on axioms: [propext, Classical.choice, Quot.sound] -/
#guard_msgs in #print axioms body_obligation

end Cert.KernelIdeal.Proto

end
-- ==== Proof.RunBody.lean ====
/-
  The kernel's run from the statement of one device's body.
-/
import proofs.«900970_g7700000000000971_dist_mlpseq_tp1dT_cs_cs_b128_d128_h256_v7x_i4_f32_1_alg».proof.Proof.Run
import proofs.«900970_g7700000000000971_dist_mlpseq_tp1dT_cs_cs_b128_d128_h256_v7x_i4_f32_1_alg».proof.Proof.BodyGlue

noncomputable section

namespace Cert.KernelIdeal.Proto

open Cert.KernelIdeal Cert.KernelIdeal.Gen
open Idealize.ShloMosaic Idealize.ShloMosaic.TcCoe Idealize.SL.Sem

variable {F : FTy → Type} [FloatOps F]

/-- Every fair execution ends with each device's result at the specification's value, the arguments unchanged. -/
theorem run_post (m : (ℓ : Loc nD τ sig) → Buf (Elt F) ℓ) (ρ : Dev nD → PrngReg) (hS : SoundBody m) :
    θ_run defs (onTc (τ := τ) (main (F := F))) ⟨m, fun _ => 0, ρ⟩ (Spec.RunPost m) :=
  run_post_of m ρ fun c => body_obligation m hS c

/-- The same with the result forgotten. -/
theorem frame_post (m : (ℓ : Loc nD τ sig) → Buf (Elt F) ℓ) (ρ : Dev nD → PrngReg) (hS : SoundBody m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_post_of m ρ fun c => body_obligation m hS c

end Cert.KernelIdeal.Proto

end
-- ==== Proof.KProtocol.lean ====
import proofs.«900970_g7700000000000971_dist_mlpseq_tp1dT_cs_cs_b128_d128_h256_v7x_i4_f32_1_alg».proof.Proof.Gen.Kernel
import proofs.«900970_g7700000000000971_dist_mlpseq_tp1dT_cs_cs_b128_d128_h256_v7x_i4_f32_1_alg».proof.Proof.Gen.Kernel.Skeleton
import proofs.«900970_g7700000000000971_dist_mlpseq_tp1dT_cs_cs_b128_d128_h256_v7x_i4_f32_1_alg».proof.Proof.Gen.Kernel.Launch
import Idealize.ShloMosaic.Lib.Pipeline.Launch
import Idealize.ShloMosaic.Lib.Pipeline.Kit
import Idealize.ShloMosaic.Lib.Tactic

/-!
The cross-device protocol of the tensor-parallel MLP on four devices.

Every device owns one barrier cell, 36 send cells and 36 receive cells. Transfer number `s = 3 L + (k - 1)`
(`L = 4 l + p` the layer and row piece, `k = 1, 2, 3` the offset of the addressed device) copies slot `4 L` of the
sender's communication buffer into slot `4 L + k` of device `c + k`, crediting the sender's send cell `s` and the
receiver's receive cell `s`. At entry each device signals the three others' barrier cells one unit and waits for three:
the unit device `d` sends device `c = d + i` carries the 12 slots `4 L + (4 - i)` of `d`'s buffer, the ones `c` writes.
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh: device `c + k` -/

def pr (c : Dev nD) (k : ℕ) : Dev nD := ⟨(c.val + k) % 4, Nat.mod_lt _ (by decide)⟩

theorem pr_pr (c : Dev nD) (i : Fin 3) : pr (pr c (i.val + 1)) (3 - i.val) = c := by revert c i; decide

/-! ## Memrefs and cells -/

abbrev commM : Memref sig .tc .vmem S48x32x256 .bf16 := Memref.whole cc0_scratch0

theorem slot_inb (j : Fin 48) : ∀ a, (![j.val, 0, 0] : Fin 3 → Nat) a + S1x32x256.size a ≤ S48x32x256.size a := by
  intro a; fin_cases a
  · show j.val + 1 ≤ 48; omega
  · show 0 + 32 ≤ 32; omega
  · show 0 + 256 ≤ 256; omega

/-- Slot `j` of the communication buffer, as the transfers see it: a `[32, 256]` view. -/
abbrev slotM (j : Fin 48) : Memref sig .tc .vmem S32x256 .bf16 :=
  ((commM.slice (Rect.unit (s := S48x32x256) ![j.val, 0, 0] S1x32x256.size (slot_inb j)) (fun _ => rfl)).squeeze S32x256 squeezes_S1x32x256_S32x256)

abbrev barS : Sem sig := (SemArray.scalar (sig.barrier 0 rfl) : Sems sig S_).sem
def sendSem (s : Fin 36) : DmaSem sig := ⟨8 + s.val, by have := s.isLt; show 8 + s.val < 80; omega⟩
def recvSem (s : Fin 36) : DmaSem sig := ⟨44 + s.val, by have := s.isLt; show 44 + s.val < 80; omega⟩

abbrev barCell (c : Dev nD) : GSem nD τ sig := ((c : Thread nD τ), .reg barS)
abbrev sendCell (c : Dev nD) (s : Fin 36) : GSem nD τ sig := ((c : Thread nD τ), .dma (sendSem s))
abbrev recvCell (c : Dev nD) (s : Fin 36) : GSem nD τ sig := ((c : Thread nD τ), .dma (recvSem s))

/-- Transfer `s` reads slot `4 (s / 3)` and writes slot `4 (s / 3) + s % 3 + 1` of the device `s % 3 + 1` further on. -/
def srcSlot (s : Fin 36) : Fin 48 := ⟨4 * (s.val / 3), by have := s.isLt; omega⟩
def dstSlot (s : Fin 36) : Fin 48 := ⟨4 * (s.val / 3) + s.val % 3 + 1, by have := s.isLt; omega⟩
def offs (s : Fin 36) : ℕ := s.val % 3 + 1
/-- The transfer number of slot `4 L + e + 1`. -/
def semOf (L : Fin 12) (e : Fin 3) : Fin 36 := ⟨3 * L.val + e.val, by have := L.isLt; have := e.isLt; omega⟩
def slotOf (L : Fin 12) (e : Fin 3) : Fin 48 := ⟨4 * L.val + e.val + 1, by have := L.isLt; have := e.isLt; omega⟩

abbrev N : ℕ := (slotM 0).view.dmaCredit
theorem N_pos : 0 < N := View.dmaCredit_pos _ (by decide)

/-- The three shares the source slot is lent at to its three transfers. -/
def shareOf (s : Fin 36) : PosShare TreeShare :=
  if s.val % 3 = 0 then fullShare.left else if s.val % 3 = 1 then fullShare.right.left else fullShare.right.right

/-! ## The buffer's pieces -/

def slotPts (c : Dev nD) (j : Fin 48) (q : PosShare TreeShare) (f : Buf (Elt F) ((commM : Memref sig .tc .vmem S48x32x256 .bf16).view.loc (c : Thread nD τ))) : sProp 𝕄 :=
  (slotM j).view.loc (c : Thread nD τ) ↦[(slotM j).view.set]{q} f

/-! ## The schedule -/

/-- What kind of cell a semaphore location is in this protocol. -/
inductive CK where
  | bar | snd (s : Fin 36) | rcv (s : Fin 36) | other
deriving DecidableEq

def ck : SemLoc sig → CK
  | .reg r => if r = barS then .bar else .other
  | .dma q =>
    if h : 8 ≤ q.val ∧ q.val < 44 then .snd ⟨q.val - 8, by omega⟩
    else if h' : 44 ≤ q.val then .rcv ⟨q.val - 44, by have : q.val < 80 := q.isLt; omega⟩ else .other

theorem ck_bar : ck (.reg barS) = .bar := by
  show (if barS = barS then CK.bar else CK.other) = CK.bar
  exact if_pos rfl
theorem ck_send (s : Fin 36) : ck (.dma (sendSem s)) = .snd s := by
  have := s.isLt
  unfold ck sendSem
  dsimp only
  rw [dif_pos ⟨by show 8 ≤ 8 + s.val; omega, by show 8 + s.val < 44; omega⟩]
  exact congrArg CK.snd (Fin.ext (by show 8 + s.val - 8 = s.val; omega))
theorem ck_recv (s : Fin 36) : ck (.dma (recvSem s)) = .rcv s := by
  have := s.isLt
  unfold ck recvSem
  dsimp only
  rw [dif_neg (fun h => by have : 44 + s.val < 44 := h.2; omega), dif_pos (by show 44 ≤ 44 + s.val; omega)]
  exact congrArg CK.rcv (Fin.ext (by show 44 + s.val - 44 = s.val; omega))

variable (cf : (c : Dev nD) → Buf (Elt F) ((commM : Memref sig .tc .vmem S48x32x256 .bf16).view.loc (c : Thread nD τ)))

/-- What the unit device `c + e + 1` signals device `c`'s barrier cell hands over: its 12 slots `4 L + e + 1`, which
    `c` writes, and that it stands at round 0 of the 12 receive cells those transfers credit. -/
def barPay (c : Dev nD) (e : Fin 3) : sProp 𝕄 :=
  bigSep Finset.univ fun L : Fin 12 =>
    iprop((∃ f, slotPts (pr c (e.val + 1)) (slotOf L e) fullShare f) ∗ reached ER (recvCell (pr c (e.val + 1)) (semOf L e)) 0)

/-- One round: a barrier cell has three duties of one unit; a send or receive cell one duty of a slot's credit, handing
    back the lent share of the source slot, resp. the written destination slot at the buffer's final contents. -/
def sched : Rounds.Schedule (GSem nD τ sig) (Fin 3) 𝕄 where
  duties g r := if r = 0 ∧ g.1.2 = .tc then (match ck g.2 with | .bar => Finset.univ | .snd _ => {0} | .rcv _ => {0} | .other => ∅) else ∅
  unitless _ := False
  amount g _ _ := match ck g.2 with | .bar => 1 | _ => N
  payload g _ d := match ck g.2 with
    | .bar => barPay g.1.1 d
    | .snd s => slotPts g.1.1 (srcSlot s) (shareOf s) (cf g.1.1)
    | .rcv s => slotPts g.1.1 (dstSlot s) fullShare (cf g.1.1)
    | .other => iprop(emp)
  amount_pos g _ _ _ := by
    cases ck g.2 <;> first | exact Nat.one_pos | exact N_pos

instance sched_payload_storable (g : GSem nD τ sig) (r : ℕ) (d : Fin 3) :
    BI.Storable (upEmb : UEmb _ 𝕄) ((sched (F := F) cf).payload g r d) := by
  show BI.Storable upEmb (match ck g.2 with
    | .bar => barPay g.1.1 d
    | .snd s => slotPts g.1.1 (srcSlot s) (shareOf s) (cf g.1.1)
    | .rcv s => slotPts g.1.1 (dstSlot s) fullShare (cf g.1.1)
    | .other => iprop(emp))
  unfold barPay slotPts
  split <;> infer_instance

section Tables
variable (c : Dev nD) (s : Fin 36)

theorem duties_bar : (sched (F := F) cf).duties (barCell c) 0 = Finset.univ := by
  dsimp only [sched]; rw [if_pos ⟨rfl, rfl⟩, ck_bar]
theorem duties_send : (sched (F := F) cf).duties (sendCell c s) 0 = {0} := by
  dsimp only [sched]; rw [if_pos ⟨rfl, rfl⟩, ck_send]
theorem duties_recv : (sched (F := F) cf).duties (recvCell c s) 0 = {0} := by
  dsimp only [sched]; rw [if_pos ⟨rfl, rfl⟩, ck_recv]
theorem duties_later (g : GSem nD τ sig) : ∀ r, 1 ≤ r → (sched (F := F) cf).duties g r = ∅ :=
  fun r hr => by dsimp only [sched]; rw [if_neg fun h => by omega]

theorem amount_bar (d : Fin 3) : (sched (F := F) cf).amount (barCell c) 0 d = 1 := by dsimp only [sched]; rw [ck_bar]
theorem amount_send (d : Fin 3) : (sched (F := F) cf).amount (sendCell c s) 0 d = N := by dsimp only [sched]; rw [ck_send]
theorem amount_recv (d : Fin 3) : (sched (F := F) cf).amount (recvCell c s) 0 d = N := by dsimp only [sched]; rw [ck_recv]

theorem expect_bar : (sched (F := F) cf).expect (barCell c) 0 = 3 := by
  unfold Schedule.expect Schedule.amountOf
  rw [duties_bar, Finset.sum_congr rfl fun d _ => amount_bar cf c d, Finset.sum_const, Finset.card_univ, Fintype.card_fin, smul_eq_mul]
theorem expect_send : (sched (F := F) cf).expect (sendCell c s) 0 = N := by
  unfold Schedule.expect Schedule.amountOf; rw [duties_send, Finset.sum_singleton, amount_send]
theorem expect_recv : (sched (F := F) cf).expect (recvCell c s) 0 = N := by
  unfold Schedule.expect Schedule.amountOf; rw [duties_recv, Finset.sum_singleton, amount_recv]

theorem payload_bar (e : Fin 3) : (sched (F := F) cf).payload (barCell c) 0 e = barPay c e := by dsimp only [sched]; rw [ck_bar]
theorem payload_send (d : Fin 3) : (sched (F := F) cf).payload (sendCell c s) 0 d = slotPts c (srcSlot s) (shareOf s) (cf c) := by
  dsimp only [sched]; rw [ck_send]
theorem payload_recv (d : Fin 3) : (sched (F := F) cf).payload (recvCell c s) 0 d = slotPts c (dstSlot s) fullShare (cf c) := by
  dsimp only [sched]; rw [ck_recv]

end Tables

/-! ## What each device owes at launch; the levels -/

/-- The order the three transfers of a stage are started in: offsets 2, 1, 3. -/
def sendOrd (n : ℕ) : Fin 3 := if n % 3 = 0 then 1 else if n % 3 = 1 then 0 else 2

/-- The cell of the device's `i`-th payment in program order: three signals, then the 36 transfers stage by stage. -/
def stepCell (c : Dev nD) (i : ℕ) : GSem nD τ sig :=
  if i < 3 then barCell (pr c (i + 1))
  else recvCell (pr c ((sendOrd (i - 3)).val + 1)) ⟨(3 * ((i - 3) / 3) + (sendOrd (i - 3)).val) % 36, Nat.mod_lt _ (by decide)⟩
/-- and its units. -/
def stepAmt (i : ℕ) : ℕ := if i < 3 then 1 else N

/-- What is still owed when `r` payments remain: the last `r` of the 39, summed so that the next payment is the last summand. -/
def owedRem (c : Dev nD) : ℕ → CellTallies nD τ sig Unit
  | 0 => 0
  | r + 1 => owedRem c r + tallyAt (stepCell c (38 - r)) () (stepAmt (38 - r))

def O₀ (c : Dev nD) : CellTallies nD τ sig Unit := owedRem c 39

def Lset (g : GSem nD τ sig) : Finset Unit := if g.1.2 = .tc then {()} else ∅
/-- Barrier cells at 1, the receive cells of stage `L` at `L + 2`, everything else (staging, send) at 0. -/
def lv (g : GSem nD τ sig) (_ : Unit) : ℕ := match ck g.2 with | .bar => 1 | .rcv s => s.val / 3 + 2 | _ => 0

theorem Lset_of_ne (g : GSem nD τ sig) (h : g.1.2 ≠ .tc) : Lset g = ∅ := if_neg h
theorem Lset_tc (c : Dev nD) (sm : SemLoc sig) : Lset ((c : Thread nD τ), sm) = {()} := if_pos rfl

theorem stepCell_tc (c : Dev nD) (i : ℕ) : (stepCell c i).1.2 = .tc := by unfold stepCell; split <;> rfl

theorem lv_bar (c : Dev nD) : lv (barCell c) () = 1 := by
  show (match ck (.reg barS) with | .bar => 1 | .rcv s => s.val / 3 + 2 | _ => 0) = 1
  rw [ck_bar]
theorem lv_recv (c : Dev nD) (s : Fin 36) : lv (recvCell c s) () = s.val / 3 + 2 := by
  show (match ck (.dma (recvSem s)) with | .bar => 1 | .rcv s => s.val / 3 + 2 | _ => 0) = _
  rw [ck_recv]
theorem lv_send (c : Dev nD) (s : Fin 36) : lv (sendCell c s) () = 0 := by
  show (match ck (.dma (sendSem s)) with | .bar => 1 | .rcv s => s.val / 3 + 2 | _ => 0) = _
  rw [ck_send]

theorem lv_step (c : Dev nD) (i : ℕ) (hi : i ≤ 38) : lv (stepCell c i) () = if i < 3 then 1 else (i - 3) / 3 + 2 := by
  by_cases h : i < 3
  · rw [if_pos h]; unfold stepCell; rw [if_pos h, lv_bar]
  · rw [if_neg h]; unfold stepCell; rw [if_neg h, lv_recv]
    have he := (sendOrd (i - 3)).isLt
    show (3 * ((i - 3) / 3) + (sendOrd (i - 3)).val) % 36 / 3 + 2 = (i - 3) / 3 + 2
    omega

theorem owedRem_pos (c : Dev nD) : ∀ (r : ℕ) (g : GSem nD τ sig) (u : Unit), r ≤ 39 → 0 < owedRem c r g u →
    ∃ i, 39 - r ≤ i ∧ i ≤ 38 ∧ g = stepCell c i
  | 0, g, u, _, h => absurd h (Nat.lt_irrefl 0)
  | r + 1, g, u, hr, h => by
    unfold owedRem at h
    rw [Pi.add_apply, Finsupp.add_apply, tallyAt_apply] at h
    by_cases hg : g = stepCell c (38 - r) ∧ u = ()
    · exact ⟨38 - r, by omega, by omega, hg.1⟩
    · rw [if_neg hg, Nat.add_zero] at h
      obtain ⟨i, h1, h2, h3⟩ := owedRem_pos c r g u (by omega) h
      exact ⟨i, by omega, h2, h3⟩

/-- With `r` payments left a device may wait on a cell of its own at level at most `b` when every payment left lies above `b`. -/
theorem mayWait_of (c : Dev nD) (sm : SemLoc sig) (r b : ℕ) (hr : r ≤ 39) (hb : lv ((c : Thread nD τ), sm) () ≤ b)
    (hcut : ∀ i, 39 - r ≤ i → i ≤ 38 → b < (if i < 3 then 1 else (i - 3) / 3 + 2)) :
    (levAts Lset lv : sProp 𝕄) ⊢ MayWait (c : Thread nD τ) sm () (owedRem c r) :=
  MayOwe.of_cut (L := Lset) (lev := lv) b
    (fun p hp => by rw [Finset.mem_singleton.mp hp, Lset_tc]; exact Finset.mem_singleton_self _)
    (fun g u hg => by
      obtain ⟨i, _, _, rfl⟩ := owedRem_pos c r g u hr hg
      unfold Lset; rw [if_pos (stepCell_tc c i)]; exact Finset.mem_singleton_self _)
    (fun p hp => by rw [Finset.mem_singleton.mp hp]; exact hb)
    (fun g u hg => by
      obtain ⟨i, h1, h2, rfl⟩ := owedRem_pos c r g u hr hg
      rw [lv_step c i h2]; exact hcut i h1 h2)

/-! ## Cells by number, and the ghost state a device's body starts from -/

/-- A device's 73 cells: the barrier's, the 36 send cells, the 36 receive cells. -/
def csem (i : Fin 73) : SemLoc sig :=
  if h : i.val = 0 then .reg barS
  else if h' : i.val ≤ 36 then .dma (sendSem ⟨i.val - 1, by omega⟩)
  else .dma (recvSem ⟨i.val - 37, by have := i.isLt; omega⟩)
abbrev kcell (ck : Dev nD × Fin 73) : GSem nD τ sig := ((ck.1 : Thread nD τ), csem ck.2)
def bIdx : Fin 73 := ⟨0, by decide⟩
def sIdx (s : Fin 36) : Fin 73 := ⟨s.val + 1, by have := s.isLt; omega⟩
def rIdx (s : Fin 36) : Fin 73 := ⟨s.val + 37, by have := s.isLt; omega⟩

theorem csem_b : csem bIdx = .reg barS := by unfold csem bIdx; rw [dif_pos rfl]
theorem csem_s (s : Fin 36) : csem (sIdx s) = .dma (sendSem s) := by
  have := s.isLt
  unfold csem sIdx
  rw [dif_neg (by show ¬ (s.val + 1 = 0); omega), dif_pos (by show s.val + 1 ≤ 36; omega)]
  exact congrArg (fun x => SemLoc.dma (sendSem x)) (Fin.ext (by show s.val + 1 - 1 = s.val; omega))
theorem csem_r (s : Fin 36) : csem (rIdx s) = .dma (recvSem s) := by
  have := s.isLt
  unfold csem rIdx
  rw [dif_neg (by show ¬ (s.val + 37 = 0); omega), dif_neg (by show ¬ (s.val + 37 ≤ 36); omega)]
  exact congrArg (fun x => SemLoc.dma (recvSem x)) (Fin.ext (by show s.val + 37 - 37 = s.val; omega))

theorem kcell_b (c : Dev nD) : kcell (c, bIdx) = barCell c := by show ((c : Thread nD τ), csem bIdx) = _; rw [csem_b]
theorem kcell_s (c : Dev nD) (s : Fin 36) : kcell (c, sIdx s) = sendCell c s := by show ((c : Thread nD τ), csem (sIdx s)) = _; rw [csem_s]
theorem kcell_r (c : Dev nD) (s : Fin 36) : kcell (c, rIdx s) = recvCell c s := by show ((c : Thread nD τ), csem (rIdx s)) = _; rw [csem_r]

/-- Every cell's invariant, under the names the launch allocated them at, and that every cell has reached round 0:
    persistent, so every device holds all of it. -/
def records (K : Dev nD × Fin 73 → ℕ) : sProp 𝕄 :=
  iprop((bigSep Finset.univ fun ck : Dev nD × Fin 73 => cellInv ER (sched cf) (K ck) (kcell ck))
    ∗ bigSep Finset.univ fun ck : Dev nD × Fin 73 => reached ER (kcell ck) 0)

instance records_persistent (K : Dev nD × Fin 73 → ℕ) : BI.Persistent (records (F := F) cf K) := by unfold records; infer_instance

/-- The tokens of the duties device `c` pays: signal `i + 1` (to `c + i + 1`) pays duty `2 - i` of that barrier cell;
    transfer `s` pays the receive cell `s` of the addressed device and its own send cell `s`. -/
def payToks (c : Dev nD) : sProp 𝕄 :=
  iprop((bigSep Finset.univ fun i : Fin 3 => dutyTok ER (barCell (pr c (i.val + 1))) 0 (⟨2 - i.val, by omega⟩ : Fin 3))
    ∗ bigSep Finset.univ fun s : Fin 36 => iprop(dutyTok ER (recvCell (pr c (offs s)) s) 0 (0 : Fin 3) ∗ dutyTok ER (sendCell c s) 0 (0 : Fin 3)))

/-- What is device `c`'s alone: its position at round 0 of each of its cells, and the tokens it pays with. -/
def linear (c : Dev nD) : sProp 𝕄 :=
  iprop((bigSep Finset.univ fun i : Fin 73 => atPos ER (kcell (c, i)) 0 ∅ 0) ∗ payToks c)

def ghost (K : Dev nD × Fin 73 → ℕ) (c : Dev nD) : sProp 𝕄 := iprop(records cf K ∗ linear c)

/-- What device `c`'s body starts from: the ghost state at some names, the credit for the three units of its barrier
    cell and for each of its 36 receive cells, and the level facts. -/
def start (c : Dev nD) : sProp 𝕄 :=
  iprop((∃ K, ghost cf K c) ∗ cred (tallyAt (barCell c) () 3)
    ∗ (bigSep Finset.univ fun s : Fin 36 => cred (tallyAt (recvCell c s) () N)) ∗ levAts Lset lv)

def commPts (c : Dev nD) (f : Buf (Elt F) ((commM : Memref sig .tc .vmem S48x32x256 .bf16).view.loc (c : Thread nD τ))) : sProp 𝕄 :=
  (commM : Memref sig .tc .vmem S48x32x256 .bf16).view.loc (c : Thread nD τ) ↦[(commM : Memref sig .tc .vmem S48x32x256 .bf16).view.set]{fullShare} f

/-- Before the body: the start and the communication buffer at whatever it holds. -/
def Φ₀ (c : Dev nD) : sProp 𝕄 := iprop(start cf c ∗ ∃ f, commPts c f)
/-- After it: the buffer whole again at its final contents, and the 72 own cells at zero, closed. -/
def Φ₁ (c : Dev nD) : sProp 𝕄 :=
  iprop(commPts c (cf c) ∗ bigSep Finset.univ fun s : Fin 36 => iprop(semVal (sendCell c s) 0 ∗ semVal (recvCell c s) 0))

end Cert.Kernel.Proto

end
-- ==== Proof.KLaunchDat.lean ====
import proofs.«900970_g7700000000000971_dist_mlpseq_tp1dT_cs_cs_b128_d128_h256_v7x_i4_f32_1_alg».proof.Proof.KProtocol
import proofs.«900970_g7700000000000971_dist_mlpseq_tp1dT_cs_cs_b128_d128_h256_v7x_i4_f32_1_alg».proof.Proof.Gen.Kernel.Frame

/-!
The pipeline's proof data of the tensor-parallel MLP's one region, on each of the four devices: the seven argument
windows stay at their arrays' blocks, the result window ends at the given contents; before the one grid point a device
holds the protocol's start and owes its 39 payments, after it the communication buffer is whole again and nothing is owed.
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (cf : (c : Dev nD) → Buf (Elt F) ((commM : Memref sig .tc .vmem S48x32x256 .bf16).view.loc (c : Thread nD τ)))
  (m : (ℓ : Loc nD τ sig) → Buf (Elt F) ℓ) (ρ : Dev nD → PrngReg)
  (outv : (c : Dev nD) → (cc0_stg7_0 : Ref sig .tc).ty.Contents (Elt F))

/-- The initial state: the memory `m`, every counter at zero, the generator registers `ρ`. -/
def s₀ : MemSt nD τ sig (Elt F) := ⟨m, fun _ => 0, ρ⟩

/-- The proof data of device `c`. -/
def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outv c
    | ⟨_ + 8, h⟩ => absurd h (Nat.not_lt.2 (Nat.le_add_left _ _))
  Φ t := match t with
    | ⟨0, _⟩ => Φ₀ cf c
    | ⟨_ + 1, _⟩ => Φ₁ cf c
  q _ := fullShare
  owed t := match t with
    | ⟨0, _⟩ => O₀ c
    | ⟨_ + 1, _⟩ => 0

theorem dats_A (c : Dev nD) (w : Fin cfg0.W) : (dats cf m outv 0 c).A w = m ((cfg0.win w).arr.view.loc (c : Thread nD τ)) := rfl
theorem dats_Φ_zero (c : Dev nD) : (dats cf m outv 0 c).Φ 0 = Φ₀ cf c := rfl
theorem dats_Φ_last (c : Dev nD) : (dats cf m outv 0 c).Φ (Fin.last cfg0.N) = Φ₁ cf c := rfl
theorem dats_owed_zero (c : Dev nD) : (dats cf m outv 0 c).owed 0 = O₀ c := rfl
theorem dats_owed_last (c : Dev nD) : (dats cf m outv 0 c).owed (Fin.last cfg0.N) = 0 := rfl

theorem share_eq (c : Dev nD) (w : Fin cfg0.W) : (dats cf m outv 0 c).share w = fullShare := by unfold Dat.share; split <;> rfl

end Cert.Kernel.Proto

end
-- ==== Proof.KLaunchGhost.lean ====
import proofs.«900970_g7700000000000971_dist_mlpseq_tp1dT_cs_cs_b128_d128_h256_v7x_i4_f32_1_alg».proof.Proof.KProtocol

/-!
The ghost state of the launch: the protocol's cells by number, the duty tokens minted with them, the launch element,
what it funds on each device, the allocation of every cell's invariant, and the dealing of the tokens to the devices
that pay the duties (a barrier duty to the device that signals it, a receive duty to the device that sends the transfer).
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (cf : (c : Dev nD) → Buf (Elt F) ((commM : Memref sig .tc .vmem S48x32x256 .bf16).view.loc (c : Thread nD τ)))

/-! ## Cells by number -/

theorem csem_zero : csem (0 : Fin 73) = .reg barS := csem_b

theorem csem_pos (i : Fin 73) (h : i.val ≠ 0) :
    csem i = .dma (⟨i.val + 7, by have := i.isLt; show i.val + 7 < 80; omega⟩ : DmaSem sig) := by
  have := i.isLt
  unfold csem
  rw [dif_neg h]
  split
  · exact congrArg SemLoc.dma (Fin.ext (by show 8 + (i.val - 1) = i.val + 7; omega))
  · exact congrArg SemLoc.dma (Fin.ext (by show 44 + (i.val - 37) = i.val + 7; omega))

theorem csem_injective : Function.Injective csem := fun i j h => by
  by_cases hi : i.val = 0 <;> by_cases hj : j.val = 0
  · exact Fin.ext (hi.trans hj.symm)
  · have h0 : csem i = .reg barS := by unfold csem; rw [dif_pos hi]
    rw [h0, csem_pos j hj] at h; cases h
  · have h0 : csem j = .reg barS := by unfold csem; rw [dif_pos hj]
    rw [h0, csem_pos i hi] at h; cases h
  · rw [csem_pos i hi, csem_pos j hj] at h
    have h' : i.val + 7 = j.val + 7 := congrArg Fin.val (SemLoc.dma.inj h)
    exact Fin.ext (by omega)

theorem kcell_injective : Function.Injective (kcell : Dev nD × Fin 73 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- Every cell of the protocol: 73 on each device. -/
def allCells : Finset (GSem nD τ sig) := Finset.univ.map ⟨kcell, kcell_injective⟩

/-- The kernel's own semaphores: the 72 transfer cells, the cells numbered 1 to 72. -/
def osem (k : Fin 72) : SemLoc sig := csem k.succ

theorem osem_eq (k : Fin 72) : osem k = .dma (⟨k.val + 8, by have := k.isLt; show k.val + 8 < 80; omega⟩ : DmaSem sig) := by
  unfold osem
  rw [csem_pos k.succ (by show k.val + 1 ≠ 0; omega)]
  exact congrArg SemLoc.dma (Fin.ext (by show k.val + 1 + 7 = k.val + 8; omega))

theorem stage_sem_lt : ∀ (w : Fin 8) (s : Fin (cfg0.spec w).nbuf), ((cfg0.spec w).sem s).val < 8 := by decide

theorem ownSemFacts : Pipeline.OwnSemFacts cfg0.spec osem where
  isScoped := by decide
  inj := fun a b h => Fin.succ_injective _ (csem_injective h)
  disj := fun k w s h => by
    rw [osem_eq] at h
    have h' : k.val + 8 = ((cfg0.spec w).sem s).val := congrArg Fin.val (SemLoc.dma.inj h)
    have := stage_sem_lt w s
    omega

/-! ## The minted tokens -/

/-- A number for each kind of semaphore location, to tell the cells apart. -/
def semNo : SemLoc sig → ℕ
  | .reg _ => 0
  | .dma q => q.val + 1

/-- The duties minted on a device's own cells: its barrier cell's three, its 36 send cells' and its 36 receive cells' one each. -/
def tokOf (cj : Dev nD × (Fin 3 ⊕ (Fin 36 ⊕ Fin 36))) : GSem nD τ sig × ℕ × Fin 3 := match cj.2 with
  | .inl i => (barCell cj.1, 0, ⟨2 - i.val, by omega⟩)
  | .inr (.inl s) => (sendCell cj.1 s, 0, 0)
  | .inr (.inr s) => (recvCell cj.1 s, 0, 0)

theorem tokOf_injective : Function.Injective (tokOf : Dev nD × (Fin 3 ⊕ (Fin 36 ⊕ Fin 36)) → GSem nD τ sig × ℕ × Fin 3) := by
  rintro ⟨c, j⟩ ⟨c', j'⟩ h
  have h1 : c = c' := by
    have := congrArg (fun x : GSem nD τ sig × ℕ × Fin 3 => x.1.1.1) h
    rcases j with i | s | s <;> rcases j' with i' | s' | s' <;> exact this
  subst h1
  have hs := congrArg (fun x : GSem nD τ sig × ℕ × Fin 3 => semNo x.1.2) h
  have hd := congrArg (fun x : GSem nD τ sig × ℕ × Fin 3 => x.2.2.val) h
  rcases j with i | s | s <;> rcases j' with i' | s' | s'
  · have hd' : 2 - i.val = 2 - i'.val := hd
    have := i.isLt; have := i'.isLt
    have : i = i' := Fin.ext (by omega)
    subst this; rfl
  · have hs' : 0 = 8 + s'.val + 1 := hs
    omega
  · have hs' : 0 = 44 + s'.val + 1 := hs
    omega
  · have hs' : 8 + s.val + 1 = 0 := hs
    omega
  · have hs' : 8 + s.val + 1 = 8 + s'.val + 1 := hs
    have : s = s' := Fin.ext (by omega)
    subst this; rfl
  · have hs' : 8 + s.val + 1 = 44 + s'.val + 1 := hs
    have := s.isLt; omega
  · have hs' : 44 + s.val + 1 = 0 := hs
    omega
  · have hs' : 44 + s.val + 1 = 8 + s'.val + 1 := hs
    have := s'.isLt; omega
  · have hs' : 44 + s.val + 1 = 44 + s'.val + 1 := hs
    have : s = s' := Fin.ext (by omega)
    subst this; rfl

def mintToks : Finset (GSem nD τ sig × ℕ × Fin 3) := Finset.univ.map ⟨tokOf, tokOf_injective⟩

/-- The launch element: the pipeline's copy at its staging cells, the protocol's at every cell with the minted tokens. -/
def u₀ : UU :=
  (initOf (Pipeline.cells cfgs cellOf_inj) (Pipeline.launchToks cfgs cellOf_inj), initOf allCells mintToks)

/-- The duty tokens of device `c`'s own cells. -/
def toks (c : Dev nD) : sProp 𝕄 :=
  iprop((bigSep Finset.univ fun i : Fin 3 => dutyTok ER (barCell c) 0 (⟨2 - i.val, by omega⟩ : Fin 3))
    ∗ (bigSep Finset.univ fun s : Fin 36 => dutyTok ER (sendCell c s) 0 (0 : Fin 3))
    ∗ bigSep Finset.univ fun s : Fin 36 => dutyTok ER (recvCell c s) 0 (0 : Fin 3))

/-- What the launch element deals device `c`. -/
def G (c : Dev nD) : sProp 𝕄 :=
  iprop((bigSep Finset.univ fun k : Fin 73 => roundState ER (sched cf) (kcell (c, k)) 0)
    ∗ (bigSep Finset.univ fun k : Fin 73 => iprop(atPos ER (kcell (c, k)) 0 ∅ 0 ∗ reached ER (kcell (c, k)) 0)) ∗ toks c)

/-- What the global step makes of it. -/
def G' (c : Dev nD) : sProp 𝕄 := iprop(∃ K, ghost cf K c)

omit [FloatOps F] in
theorem fund_all : BI.own (ER (initOf allCells mintToks)) ⊢ (|==> bigSep Finset.univ (G cf) : sProp 𝕄) := by
  have hX (Φ : GSem nD τ sig → sProp 𝕄) : bigSep allCells Φ = bigSep Finset.univ fun c : Dev nD => bigSep Finset.univ fun k : Fin 73 => Φ (kcell (c, k)) := by
    unfold allCells; rw [bigSep_map, bigSep_univ_prod]; rfl
  have hT : bigSep mintToks (fun x => (dutyTok ER x.1 x.2.1 x.2.2 : sProp 𝕄)) = bigSep Finset.univ fun c : Dev nD => toks c := by
    unfold mintToks; rw [bigSep_map, bigSep_univ_prod]
    exact bigSep_congr fun c _ => by unfold toks; rw [bigSep_univ_sum, bigSep_univ_sum]; rfl
  iintro HX
  imod (Rounds.fund ER (sched cf) allCells mintToks) $$ HX with ⟨Hst, Hr, Hat, Htok⟩
  imodintro
  ihave Hst' := (Entails.of_eq (hX fun g => roundState ER (sched cf) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp [Fin.succ_ne_zero]), bigSep_map]; rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Fin 72 => semVal (kcell (c, k.succ)) 0 := rfl

omit [FloatOps F] in
/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 73 => semVal (kcell (c, k)) 0 : sProp 𝕄) := by
  rw [ownSems0_eq, unscopedSems0_eq, bigSep_fin_succ (fun k : Fin 73 => (semVal (kcell (c, k)) 0 : sProp 𝕄)), show kcell (c, (0 : Fin 73)) = barCell c from kcell_b c]
  iintro ⟨Hos, HB⟩
  isplitl [HB]; · iexact HB
  iexact Hos

omit [FloatOps F] in
theorem core_alloc (c : Dev nD) :
    iprop(Pipeline.ownSems0 (Ix := Unit) (Name := ℕ) (U := UU) (Lvl := ℕ) (Val := Elt F) (τ := τ) osem c ∗ unscopedSems0 c ∗ G cf c)
      ⊢ |={Set.univ}=> iprop((bigSep Finset.univ fun k => iprop(∃ κ : ℕ, cellInv ER (sched cf) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 73 => semVal (kcell (c, k)) 0) ∗ bigSep Finset.univ fun k : Fin 73 => roundState ER (sched cf) (kcell (c, k)) 0)
      ⊢ (|={Set.univ}=> bigSep Finset.univ fun k => iprop(∃ κ : ℕ, cellInv ER (sched cf) κ (kcell (c, k))) : sProp 𝕄) from by
        rw [← bigSep_sep']
        exact (bigSep_mono fun k _ => (Rounds.body_intro ER (sched cf) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

/-- The rotation of the mesh by `k` places. -/
def rotE (k : ℕ) : Dev nD ≃ Dev nD where
  toFun c := pr c k
  invFun c := pr c (4 - k % 4)
  left_inv c := Fin.ext (by have : c.val < 4 := c.isLt; show ((c.val + k) % 4 + (4 - k % 4)) % 4 = c.val; omega)
  right_inv c := Fin.ext (by have : c.val < 4 := c.isLt; show ((c.val + (4 - k % 4)) % 4 + k) % 4 = c.val; omega)

omit [FloatOps F] in
theorem rot_bigSep (k : ℕ) (Φ : Dev nD → sProp 𝕄) : bigSep Finset.univ Φ = bigSep Finset.univ fun c => Φ (pr c k) :=
  bigSep_univ_equiv (rotE k) Φ

omit [FloatOps F] in
/-- Tokens indexed by (device, duty) dealt so that device `c` gets duty `j` of the device `k j` places on. -/
theorem deal {J : Type} [Fintype J] (k : J → ℕ) (Φ : Dev nD → J → sProp 𝕄) :
    (bigSep Finset.univ fun c : Dev nD => bigSep Finset.univ fun j : J => Φ c j)
      = bigSep Finset.univ fun c : Dev nD => bigSep Finset.univ fun j : J => Φ (pr c (k j)) j := by
  rw [bigSep_univ_comm, bigSep_univ_comm (fun (c : Dev nD) (j : J) => Φ (pr c (k j)) j)]
  exact bigSep_congr fun j _ => rot_bigSep (k j) (fun c => Φ c j)

omit [FloatOps F] in
theorem toks_around : (bigSep Finset.univ fun c : Dev nD => (toks c : sProp 𝕄)) ⊢ bigSep Finset.univ fun c : Dev nD => payToks c := by
  have hL : (bigSep Finset.univ fun c : Dev nD => (toks c : sProp 𝕄))
      = iprop((bigSep Finset.univ fun c : Dev nD => bigSep Finset.univ fun i : Fin 3 => dutyTok ER (barCell c) 0 (⟨2 - i.val, by omega⟩ : Fin 3))
        ∗ (bigSep Finset.univ fun c : Dev nD => bigSep Finset.univ fun s : Fin 36 => dutyTok ER (sendCell c s) 0 (0 : Fin 3))
        ∗ (bigSep Finset.univ fun c : Dev nD => bigSep Finset.univ fun s : Fin 36 => dutyTok ER (recvCell c s) 0 (0 : Fin 3))) := by
    unfold toks; rw [bigSep_sep', bigSep_sep']
  have hR : (bigSep Finset.univ fun c : Dev nD => (payToks c : sProp 𝕄))
      = iprop((bigSep Finset.univ fun c : Dev nD => bigSep Finset.univ fun i : Fin 3 => dutyTok ER (barCell (pr c (i.val + 1))) 0 (⟨2 - i.val, by omega⟩ : Fin 3))
        ∗ (bigSep Finset.univ fun c : Dev nD => bigSep Finset.univ fun s : Fin 36 => dutyTok ER (recvCell (pr c (offs s)) s) 0 (0 : Fin 3))
        ∗ (bigSep Finset.univ fun c : Dev nD => bigSep Finset.univ fun s : Fin 36 => dutyTok ER (sendCell c s) 0 (0 : Fin 3))) := by
    unfold payToks
    rw [bigSep_sep', bigSep_congr (s := Finset.univ) (fun (c : Dev nD) _ => bigSep_sep' Finset.univ
      (fun s : Fin 36 => (dutyTok ER (recvCell (pr c (offs s)) s) 0 (0 : Fin 3) : sProp 𝕄)) (fun s : Fin 36 => dutyTok ER (sendCell c s) 0 (0 : Fin 3))), bigSep_sep']
  rw [hL, hR, deal (fun i : Fin 3 => i.val + 1) (fun c i => (dutyTok ER (barCell c) 0 (⟨2 - i.val, by omega⟩ : Fin 3) : sProp 𝕄)),
    deal (fun s : Fin 36 => offs s) (fun c s => (dutyTok ER (recvCell c s) 0 (0 : Fin 3) : sProp 𝕄))]
  iintro ⟨H1, H2, H3⟩
  isplitl [H1]; · iexact H1
  isplitl [H3]; · iexact H3
  iexact H2

/-! ## The global step -/

omit [FloatOps F] in
theorem ghost_intro (K : Dev nD × Fin 73 → ℕ) (c : Dev nD) : iprop(records cf K ∗ linear c) ⊢ G' cf c := by
  unfold G' ghost
  iintro H
  iexists K
  iexact H

omit [FloatOps F] in
theorem regroup :
    (bigSep Finset.univ fun c : Dev nD => iprop((bigSep Finset.univ fun k => iprop(∃ κ : ℕ, cellInv ER (sched cf) κ (kcell (c, k))))
          ∗ (bigSep Finset.univ fun k => iprop(atPos ER (kcell (c, k)) 0 ∅ 0 ∗ reached ER (kcell (c, k)) 0)) ∗ toks c) : sProp 𝕄)
      ⊢ bigSep Finset.univ (G' cf) := by
  rw [bigSep_sep', bigSep_sep', ← bigSep_univ_prod (fun ck : Dev nD × Fin 73 => iprop(∃ κ : ℕ, cellInv ER (sched cf) κ (kcell ck))),
    bigSep_congr (s := Finset.univ) (fun (c : Dev nD) _ => bigSep_sep' Finset.univ (fun k : Fin 73 => (atPos ER (kcell (c, k)) 0 ∅ 0 : sProp 𝕄)) (fun k => reached ER (kcell (c, k)) 0)),
    bigSep_sep', ← bigSep_univ_prod (fun ck : Dev nD × Fin 73 => (reached ER (kcell ck) 0 : sProp 𝕄))]
  iintro ⟨HI, ⟨Hat, #HR⟩, Htok⟩
  ihave HK := (BI.bigSep_exists_pi Finset.univ (fun (ck : Dev nD × Fin 73) (κ : ℕ) => (cellInv ER (sched cf) κ (kcell ck) : sProp 𝕄))) $$ HI
  icases HK with ⟨%K, #HI⟩
  ihave Htk := (toks_around (F := F)) $$ Htok
  iapply (bigSep_with_persistent (R := records cf K) fun c _ => ghost_intro cf K c)
  isplitr
  · unfold records; isplitl; · iexact HI
    iexact HR
  · iapply ((Entails.of_eq (bigSep_sep' Finset.univ (fun c : Dev nD => bigSep Finset.univ fun k : Fin 73 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G cf c) : sProp 𝕄)
    ⊢ |={Set.univ}=> bigSep Finset.univ (G' cf) :=
  ((bigSep_mono fun c _ => core_alloc cf c).trans (bigSep_fupd _ _)).trans (BI.fupd_mono (regroup cf))

end Cert.Kernel.Proto

end
-- ==== Proof.KLaunchCred.lean ====
import proofs.«900970_g7700000000000971_dist_mlpseq_tp1dT_cs_cs_b128_d128_h256_v7x_i4_f32_1_alg».proof.Proof.KLaunchGhost
import Mathlib.Algebra.BigOperators.Intervals
import Mathlib.Algebra.BigOperators.Fin

/-!
The launch credit: what the four devices owe, summed, is on each device three units of its barrier cell and one slot's
credit of each of its 36 receive cells, so the launch deals each device exactly the credit its body waits with.
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device owes, as a sum over its 39 payments -/

omit [FloatOps F] in
theorem owedRem_eq_sum (c : Dev nD) : ∀ r : ℕ, owedRem c r = ∑ i ∈ Finset.range r, tallyAt (stepCell c (38 - i)) () (stepAmt (38 - i))
  | 0 => by rw [Finset.range_zero, Finset.sum_empty]; rfl
  | r + 1 => by rw [Finset.sum_range_succ, ← owedRem_eq_sum c r]; rfl

omit [FloatOps F] in
theorem O₀_eq (c : Dev nD) : O₀ c = ∑ i ∈ Finset.range (3 + 36), tallyAt (stepCell c i) () (stepAmt i) := by
  unfold O₀; rw [owedRem_eq_sum]
  exact Finset.sum_range_reflect (fun i => (tallyAt (stepCell c i) () (stepAmt i) : CellTallies nD τ sig Unit)) 39

/-- The transfer started `j`-th in program order. -/
def xfer (j : Fin 36) : Fin 36 :=
  ⟨3 * (j.val / 3) + (sendOrd j.val).val, by have := j.isLt; have := (sendOrd j.val).isLt; omega⟩

theorem xfer_xfer : ∀ j : Fin 36, xfer (xfer j) = j := by decide
theorem offs_xfer : ∀ j : Fin 36, offs (xfer j) = (sendOrd j.val).val + 1 := by decide
theorem xfer_bijective : Function.Bijective xfer := (show Function.Involutive xfer from xfer_xfer).bijective

omit [FloatOps F] in
theorem stepCell_lt (c : Dev nD) (i : ℕ) (h : i < 3) : stepCell c i = barCell (pr c (i + 1)) := by unfold stepCell; rw [if_pos h]

omit [FloatOps F] in
theorem recvCell_congr {a a' : Dev nD} {s s' : Fin 36} (ha : a = a') (hs : s = s') : recvCell a s = recvCell a' s' := by
  subst ha hs; rfl

omit [FloatOps F] in
theorem stepCell_ge (c : Dev nD) (j : Fin 36) : stepCell c (3 + j.val) = recvCell (pr c (offs (xfer j))) (xfer j) := by
  have hj := j.isLt
  have ho := (sendOrd j.val).isLt
  have e : 3 + j.val - 3 = j.val := by omega
  unfold stepCell
  rw [if_neg (by omega), offs_xfer]
  exact recvCell_congr (by rw [e])
    (Fin.ext (by
      show (3 * ((3 + j.val - 3) / 3) + (sendOrd (3 + j.val - 3)).val) % 36 = 3 * (j.val / 3) + (sendOrd j.val).val
      rw [e]; omega))

omit [FloatOps F] in
theorem stepAmt_lt (i : ℕ) (h : i < 3) : stepAmt i = 1 := if_pos h
omit [FloatOps F] in
theorem stepAmt_ge (j : ℕ) : stepAmt (3 + j) = N := if_neg (by omega)

omit [FloatOps F] in
theorem O₀_split (c : Dev nD) :
    O₀ c = (∑ i : Fin 3, tallyAt (barCell (pr c (i.val + 1))) () 1) + ∑ s : Fin 36, tallyAt (recvCell (pr c (offs s)) s) () N := by
  have h1 : (∑ i ∈ Finset.range 3, (tallyAt (stepCell c i) () (stepAmt i) : CellTallies nD τ sig Unit))
      = ∑ i : Fin 3, tallyAt (barCell (pr c (i.val + 1))) () 1 :=
    (Finset.sum_range _).trans (Finset.sum_congr rfl fun i _ => by rw [stepCell_lt c i.val i.isLt, stepAmt_lt i.val i.isLt])
  have h2 : (∑ j ∈ Finset.range 36, (tallyAt (stepCell c (3 + j)) () (stepAmt (3 + j)) : CellTallies nD τ sig Unit))
      = ∑ s : Fin 36, tallyAt (recvCell (pr c (offs s)) s) () N :=
    ((Finset.sum_range _).trans (Finset.sum_congr rfl fun j _ => by rw [stepCell_ge c j, stepAmt_ge])).trans
      (xfer_bijective.sum_comp (fun s : Fin 36 => (tallyAt (recvCell (pr c (offs s)) s) () N : CellTallies nD τ sig Unit)))
  rw [O₀_eq, Finset.sum_range_add, h1, h2]

/-! ## Summed over the devices -/

/-- What device `c` waits for: three units on its barrier cell, a slot's credit on each receive cell. -/
def due (c : Dev nD) : CellTallies nD τ sig Unit := tallyAt (barCell c) () 3 + ∑ s : Fin 36, tallyAt (recvCell c s) () N

omit [FloatOps F] in
theorem sum_bar : (∑ d : Dev nD, ∑ i : Fin 3, (tallyAt (barCell (pr d (i.val + 1))) () 1 : CellTallies nD τ sig Unit))
    = ∑ d : Dev nD, tallyAt (barCell d) () 3 := by
  have h1 : ∀ i : Fin 3, (∑ d : Dev nD, (tallyAt (barCell (pr d (i.val + 1))) () 1 : CellTallies nD τ sig Unit)) = ∑ d : Dev nD, tallyAt (barCell d) () 1 :=
    fun i => (rotE (i.val + 1)).sum_comp (fun d : Dev nD => (tallyAt (barCell d) () 1 : CellTallies nD τ sig Unit))
  calc (∑ d : Dev nD, ∑ i : Fin 3, (tallyAt (barCell (pr d (i.val + 1))) () 1 : CellTallies nD τ sig Unit))
      = ∑ i : Fin 3, ∑ d : Dev nD, tallyAt (barCell (pr d (i.val + 1))) () 1 := Finset.sum_comm
    _ = ∑ i : Fin 3, ∑ d : Dev nD, tallyAt (barCell d) () 1 := Finset.sum_congr rfl fun i _ => h1 i
    _ = ∑ d : Dev nD, ∑ i : Fin 3, tallyAt (barCell d) () 1 := Finset.sum_comm
    _ = ∑ d : Dev nD, tallyAt (barCell d) () 3 := Finset.sum_congr rfl fun d _ => by rw [Fin.sum_univ_three, tallyAt_add, tallyAt_add]

omit [FloatOps F] in
theorem sum_recv : (∑ d : Dev nD, ∑ s : Fin 36, (tallyAt (recvCell (pr d (offs s)) s) () N : CellTallies nD τ sig Unit))
    = ∑ d : Dev nD, ∑ s : Fin 36, tallyAt (recvCell d s) () N := by
  have h1 : ∀ s : Fin 36, (∑ d : Dev nD, (tallyAt (recvCell (pr d (offs s)) s) () N : CellTallies nD τ sig Unit)) = ∑ d : Dev nD, tallyAt (recvCell d s) () N :=
    fun s => (rotE (offs s)).sum_comp (fun d : Dev nD => (tallyAt (recvCell d s) () N : CellTallies nD τ sig Unit))
  calc (∑ d : Dev nD, ∑ s : Fin 36, (tallyAt (recvCell (pr d (offs s)) s) () N : CellTallies nD τ sig Unit))
      = ∑ s : Fin 36, ∑ d : Dev nD, tallyAt (recvCell (pr d (offs s)) s) () N := Finset.sum_comm
    _ = ∑ s : Fin 36, ∑ d : Dev nD, tallyAt (recvCell d s) () N := Finset.sum_congr rfl fun s _ => h1 s
    _ = ∑ d : Dev nD, ∑ s : Fin 36, tallyAt (recvCell d s) () N := Finset.sum_comm

omit [FloatOps F] in
theorem sum_O₀ : (∑ d : Dev nD, O₀ d) = ∑ d : Dev nD, due d := by
  rw [Finset.sum_congr rfl fun d _ => O₀_split d, Finset.sum_add_distrib, sum_bar, sum_recv, ← Finset.sum_add_distrib]
  rfl

omit [FloatOps F] in
theorem due_own (d : Dev nD) (g : GSem nD τ sig) (h : due d g ≠ 0) : g.1 = (d : Thread nD τ) := by
  by_contra hne
  apply h
  unfold due
  rw [Pi.add_apply, Finset.sum_apply, tallyAt_ne_cell (fun e => hne (congrArg Prod.fst e)),
    Finset.sum_eq_zero (fun s _ => tallyAt_ne_cell (fun e => hne (congrArg Prod.fst e)) () N), add_zero]

omit [FloatOps F] in
/-- The launch deals device `c` the credit of its barrier cell's three units and of each receive cell's slot. -/
theorem creds (c : Dev nD) :
    (Pipeline.launchCred O₀ c : sProp 𝕄) ⊢ iprop(cred (tallyAt (barCell c) () 3) ∗ bigSep Finset.univ fun s : Fin 36 => cred (tallyAt (recvCell c s) () N)) := by
  rw [Pipeline.launchCred_of_sum O₀ due sum_O₀ due_own c]
  unfold due
  refine (cred_add _ _).1.trans (sep_mono_right ?_)
  rw [Pipeline.cred_finsetSum]

end Cert.Kernel.Proto

end
-- ==== Proof.KLaunch.lean ====
import proofs.«900970_g7700000000000971_dist_mlpseq_tp1dT_cs_cs_b128_d128_h256_v7x_i4_f32_1_alg».proof.Proof.KLaunchDat
import proofs.«900970_g7700000000000971_dist_mlpseq_tp1dT_cs_cs_b128_d128_h256_v7x_i4_f32_1_alg».proof.Proof.KLaunchCred

/-!
The launch of the tensor-parallel MLP on four devices: from the body obligation of each device, every weakly fair
execution of the program terminates and leaves each windowed array at the proof data's final contents; the argument
arrays end as they were launched and the result array holds the result window's contents.
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (cf : (c : Dev nD) → Buf (Elt F) ((commM : Memref sig .tc .vmem S48x32x256 .bf16).view.loc (c : Thread nD τ)))
  (m : (ℓ : Loc nD τ sig) → Buf (Elt F) ℓ) (ρ : Dev nD → PrngReg)
  (outv : (c : Dev nD) → (cc0_stg7_0 : Ref sig .tc).ty.Contents (Elt F))

/-! ## The communication buffer and the own semaphores -/

omit [FloatOps F] in
theorem commPts_eq (c : Dev nD) (f : Buf (Elt F) ((c : Thread nD τ).loc cc0_scratch0)) :
    commPts c f = (((c : Thread nD τ).loc cc0_scratch0) ↦{fullShare} f : sProp 𝕄) := by
  unfold commPts; rw [View.set_whole]

omit [FloatOps F] in
theorem osem_send (s : Fin 36) : osem (Fin.castAdd 36 s) = .dma (sendSem s) := by
  unfold osem
  rw [show (Fin.castAdd 36 s).succ = sIdx s from Fin.ext rfl, csem_s]

omit [FloatOps F] in
theorem osem_recv (s : Fin 36) : osem (Fin.natAdd 36 s) = .dma (recvSem s) := by
  unfold osem
  rw [show (Fin.natAdd 36 s).succ = rIdx s from Fin.ext (by show 36 + s.val + 1 = s.val + 37; omega), csem_r]

omit [FloatOps F] in
/-- The kernel's own semaphores at zero are the 36 send and the 36 receive cells at zero. -/
theorem ownSems0_split (c : Dev nD) :
    (Pipeline.ownSems0 (Ix := Unit) (Name := ℕ) (U := UU) (Lvl := ℕ) (Val := Elt F) (τ := τ) osem c : sProp 𝕄)
      = bigSep Finset.univ fun s : Fin 36 => iprop(semVal (sendCell c s) 0 ∗ semVal (recvCell c s) 0) := by
  show (bigSep Finset.univ fun k : Fin (36 + 36) => (semVal ((c : Thread nD τ), osem k) 0 : sProp 𝕄)) = _
  rw [bigSep_univ_equiv finSumFinEquiv (fun k : Fin (36 + 36) => (semVal ((c : Thread nD τ), osem k) 0 : sProp 𝕄)), bigSep_univ_sum, bigSep_sep']
  congr 1

/-! ## The theorem's side conditions -/

omit [FloatOps F] in
theorem start_intro (c : Dev nD) :
    iprop(Pipeline.unscopedRestP Pipeline.Prefetch.none cfg0.spec c (fun b => m ((c : Thread nD τ).loc b)) ∗ levAts Lset lv
        ∗ Pipeline.launchCred O₀ c ∗ prngReg c (ρ c) ∗ G' cf c)
      ⊢ |={Set.univ}=> iprop(start cf c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start cf c ∗ Pipeline.prefHeld Pipeline.Prefetch.none c (fun _ => fullShare.right) (fun k => k.elim0) ∗ Pipeline.scopedRest cfg0.spec c)
      ⊢ (dats cf m outv 0 c).Φ 0 := by
  rw [dats_Φ_zero, scopedRest0_eq]
  unfold Φ₀
  iintro ⟨Hs, -, ⟨%f, Hr⟩⟩
  isplitl [Hs]; · iexact Hs
  iexists f; rw [commPts_eq]; iexact Hr

theorem phi1_exit (c : Dev nD) :
    (dats cf m outv 0 c).Φ (Fin.last cfg0.N) ⊢ iprop(emp ∗ Pipeline.ownSems0 osem c ∗ Pipeline.scopedRest cfg0.spec c) := by
  rw [dats_Φ_last, scopedRest0_eq, ownSems0_split]
  unfold Φ₁
  iintro ⟨Hr, Hz⟩
  isplitr; · iempintro
  isplitl [Hz]; · iexact Hz
  iexists (cf c); rw [← commPts_eq]; iexact Hr

omit [FloatOps F] in
/-- The staging cells sit at level 0. -/
theorem stage_lv (c : Dev nD) (w : Fin cfg0.W) (s : Fin (cfg0.win w).nbuf) : lv ((c : Thread nD τ), .dma ((cfg0.win w).sem s)) () = 0 := by
  have h : ∀ (w : Fin 8) (s : Fin (cfg0.win w).nbuf), ck (.dma ((cfg0.win w).sem s)) = .other := by decide
  show (match ck (.dma ((cfg0.win w).sem s)) with | .bar => 1 | .rcv s => s.val / 3 + 2 | _ => 0) = 0
  rw [h]

theorem waits (c : Dev nD) : (levAts Lset lv : sProp 𝕄) ⊢ Pipeline.cellsWaits cfgs (dats cf m outv) () 0 c :=
  Pipeline.cellsWaits_intro cfgs (dats cf m outv) () 0 c fun w s t => by
    rcases t with ⟨_ | _, ht⟩
    · exact mayWait_of c _ 39 0 (Nat.le_refl _) (Nat.le_of_eq (stage_lv c w s)) (fun i _ _ => by split <;> omega)
    · exact mayWait_of c _ 0 0 (Nat.zero_le _) (Nat.le_of_eq (stage_lv c w s)) (fun i h1 h2 => by omega)

/-! ## The run -/

set_option maxRecDepth 100000 in
/-- At the compiled mesh of four devices, for any float values, from any memory with zero counters: given each device's
    body obligation, every weakly fair execution of the program terminates, and every final state has each windowed
    array at the proof data's final contents. -/
theorem run_main (hbody : ∀ c, BodyObligation (dats cf m outv 0 c) (defs₀ (F := F)) Variants.none () Set.univ) :
    θ_run defs (onTc (τ := τ) (main (F := F))) (s₀ m ρ)
      (fun r => ∀ (c : Dev nD) (w : Fin cfg0.W), r.2.mem ((cfg0.win w).arr.view.loc (c : Thread nD τ)) = (dats cf m outv 0 c).arrAt w cfg0.N) :=
  Pipeline.θ_run_region_owing_glob_pf (fun p => (cfgs p).toPCfg) (fun p => (cfgs p).toPCfg_adm) (dats cf m outv) () cellOf_inj (0 : Fin 1)
    winFacts0.to₀ ownSemFacts (Pipeline.PreFacts.none _) EP defs₀ Variants.none m ρ main
    (hmain := fun _ => rfl)
    (hbody := hbody) (hne := block_pos0) (harr := arr_whole0) (hstage := stage_whole0) (hshare := share_eq cf m outv)
    (hdistinct := winFacts0.arr_inj)
    (O₀ := O₀) (howed₀ := fun _ => rfl) (howedN := fun _ => rfl)
    (L := Lset) (lv := lv) (hL := Lset_of_ne) (hwaits := waits cf m outv)
    (G := G cf) (G' := G' cf) (u₀ := u₀)
    (hu₀ := by
      unfold u₀
      iintro Hu
      ihave H := (ownU_pair _ _) $$ Hu
      icases H with ⟨HP, HX⟩
      imod (fund_all cf) $$ HX with HG
      imodintro
      isplitl [HP] <;> iassumption)
    (hglob := glob cf)
    (hA := fun _ _ => rfl) (hpf := fun _ k => k.elim0)
    (X := start cf) (Y := fun _ => iprop(emp)) (Z := fun _ => iprop(emp))
    (hX := start_intro cf m ρ) (hin := phi0_intro cf m outv) (hout := phi1_exit cf m outv)
    (QY := fun _ _ => True)
    (hY := fun c s' => by
      iintro ⟨-, -, HSI⟩
      imodintro
      isplitr; · ipureintro; trivial
      iexact HSI)
    (hQ := fun _ h c w => (h c).1 w)

/-- info: 'Cert.Kernel.Proto.run_main' depends on axioms: [propext, Classical.choice, Quot.sound] -/
#guard_msgs in #print axioms run_main

/-! ## The final arrays -/

/-- An argument array ends as it was launched. -/
theorem finalA_in (c : Dev nD) (w : Fin cfg0.W) (hin : (cfg0.win w).isOut = false) :
    (dats cf m outv 0 c).arrAt w cfg0.N = m ((cfg0.win w).arr.view.loc (c : Thread nD τ)) :=
  (dats cf m outv 0 c).arrAt_in w hin _

omit [FloatOps F] in
/-- The one block of the result window is the whole result array. -/
theorem read_blk_out (f : (main_v1 : Ref sig .tc).ty.Contents (Elt F)) : ((cfg0.win 7).blk t0_0).view.read (Elt F) f = f :=
  Memref.read_access_unit_zero (Elt F) main_v1 (funext fun a => Nat.zero_mul _) _ f

/-- The result array ends at the result window's contents. -/
theorem finalA_out (c : Dev nD) : (dats cf m outv 0 c).arrAt 7 cfg0.N = outv c := by
  have h := (dats cf m outv 0 c).arrAt_succ 7 t0_0
  rw [show (cfg0.win 7).flush t0_0 = true from by decide, if_pos rfl] at h
  calc (dats cf m outv 0 c).arrAt 7 cfg0.N
      = ((cfg0.win 7).blk t0_0).view.write (Elt F) ((dats cf m outv 0 c).arrAt 7 t0_0.val) ((dats cf m outv 0 c).flushed 7 t0_0) Finset.univ := h
    _ = ((cfg0.win 7).blk t0_0).view.read (Elt F)
          (((cfg0.win 7).blk t0_0).view.write (Elt F) ((dats cf m outv 0 c).arrAt 7 t0_0.val) ((dats cf m outv 0 c).flushed 7 t0_0) Finset.univ) := (read_blk_out _).symm
    _ = (dats cf m outv 0 c).flushed 7 t0_0 := View.read_write_univ _ _
    _ = outv c := rfl

/-- The run's post in the claims' words: the result array at the result window's contents, the seven arguments unchanged. -/
theorem value_of_run (hbody : ∀ c, BodyObligation (dats cf m outv 0 c) (defs₀ (F := F)) Variants.none () Set.univ) :
    θ_run defs (onTc (τ := τ) (main (F := F))) ⟨m, fun _ => 0, ρ⟩ (fun r => ∀ c : Dev nD,
      r.2.mem ((c.tc : Thread nD τ).loc main_v1) = outv c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c 7).trans (finalA_out cf m outv c),
      (h c 0).trans (finalA_in cf m outv c 0 rfl), (h c 1).trans (finalA_in cf m outv c 1 rfl), (h c 2).trans (finalA_in cf m outv c 2 rfl),
      (h c 3).trans (finalA_in cf m outv c 3 rfl), (h c 4).trans (finalA_in cf m outv c 4 rfl), (h c 5).trans (finalA_in cf m outv c 5 rfl),
      (h c 6).trans (finalA_in cf m outv c 6 rfl)⟩) (run_main cf m ρ outv hbody)

/-- The frame claim's post: the run with the result dropped. -/
theorem frame_of_run (hbody : ∀ c, BodyObligation (dats cf m outv 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (value_of_run cf m ρ outv hbody)

/-- info: 'Cert.Kernel.Proto.value_of_run' depends on axioms: [propext, Classical.choice, Quot.sound] -/
#guard_msgs in #print axioms value_of_run

end Cert.Kernel.Proto

end
-- ==== Proof.KSpec.lean ====
/-
  The value each device computes, as pure terms over the devices' blocks of the inputs.

  Device `c` holds column block `c` of the activations `x` (`X c`), row block `c` of each input
  weight matrix (`W l c`) and column block `c` of each output weight matrix (`O l c`).  A layer
  is: every device multiplies its column block of the activations by its row block of the input
  weights (a partial product over its 128 of the 512 contracted columns), the four partial products
  are added on every device (the three received ones after a round trip through the narrow format),
  the sum is rectified and multiplied by the device's column block of the output weights.  The work
  is done in four row pieces of 32 rows.
-/
import proofs.«900970_g7700000000000971_dist_mlpseq_tp1dT_cs_cs_b128_d128_h256_v7x_i4_f32_1_alg».proof.Proof.Gen.Kernel
import Idealize.ShloMosaic.Lib.ValueIdx

noncomputable section

namespace Cert.Kernel.Spec

open Idealize.ShloMosaic Idealize.SL.Sem Idealize.ShloMosaic.ValueIdx
open Cert.Kernel.Gen

variable {F : FTy → Type} [FloatOps F]

/-- The device `k` places further round the ring of four. -/
def peer (c : Dev nD) (k : ℕ) : Dev nD := ⟨(c.val + k) % 4, Nat.mod_lt _ (by decide)⟩

theorem peer_val (c : Dev nD) (k : ℕ) : (peer c k).val = (c.val + k) % 4 := rfl

/-- Row `r` of piece `p` is row `32 p + r` of the 128. -/
theorem row_lt (p : Fin 4) (r : ℕ) (hr : r < 32) : 32 * p.val + r < 128 := by omega

/-- Rows `32 p … 32 p + 31` of device `c`'s block of the activations. -/
def xrows (X : Dev nD → Vec F S128x128 .f32) (c : Dev nD) (p : Fin 4) : Vec F S32x128 .f32 :=
  fun i => X c (ix2 (n0 := 128) (n1 := 128) ⟨32 * p.val + (i 0).val, row_lt p _ (idx2_lt0 i)⟩ (i 1))

/-- The product of a 32-row piece, already in the narrow format, with a row block of input weights
    (narrowed), accumulated from zero. -/
def mmCore (a : FVec F S32x128 .bf16) (w : Vec F S128x256 .f32) : FVec F S32x256 .f32 :=
  matmul dot_S32x128_S128x256_S32x256_1_0_0_1_n_n none a
    (truncf .bf16 (shapeCast S128x256 w shapeCasts_S128x256_S128x256) bitsLt_bf16_f32)
    (constant S32x256 .f32 0x00000000#32)

/-- A loaded piece of the activations times a row block of input weights: the device's partial
    product for the first layer. -/
def mmIn (a : Vec F S32x128 .f32) (w : Vec F S128x256 .f32) : FVec F S32x256 .f32 :=
  mmCore (truncf .bf16 (shapeCast S32x128 a shapeCasts_S32x128_S32x128) bitsLt_bf16_f32) w

/-- A computed piece of the next activations times a row block of input weights: the device's
    partial product for a later layer. -/
def mmNext (a : FVec F S32x128 .f32) (w : Vec F S128x256 .f32) : FVec F S32x256 .f32 :=
  mmCore (truncf .bf16 a bitsLt_bf16_f32) w

/-- A partial product as it is put in a slot of the exchange buffer: narrowed, with a leading unit axis. -/
def slot (a : FVec F S32x256 .f32) : FVec F S1x32x256 .bf16 :=
  shapeCast S1x32x256 (truncf .bf16 a bitsLt_bf16_f32) shapeCasts_S32x256_S1x32x256

/-- A slot of the exchange buffer as it is read back: the unit axis dropped, widened. -/
def unslot (s : Vec F S1x32x256 .bf16) : FVec F S32x256 .f32 :=
  extf .f32 (shapeCast S32x256 s shapeCasts_S1x32x256_S32x256) bitsLt_bf16_f32

/-- One received slot added to a running sum. -/
def add1 (a : FVec F S32x256 .f32) (s : Vec F S1x32x256 .bf16) : FVec F S32x256 .f32 :=
  addf a (unslot s)

/-- The rectifier: the maximum with zero. -/
def relu (a : FVec F S32x256 .f32) : FVec F S32x256 .f32 :=
  maximumf a (broadcast S32x256 (Scalar.ofBits .f32 0x00000000#32))

/-- The rectified sum (narrowed) times a column block of output weights (narrowed), accumulated from zero. -/
def mmOut (h : FVec F S32x256 .f32) (o : Vec F S256x128 .f32) : FVec F S32x128 .f32 :=
  matmul dot_S32x256_S256x128_S32x128_1_0_0_1_n_n none
    (truncf .bf16 (relu h) bitsLt_bf16_f32)
    (truncf .bf16 (shapeCast S256x128 o shapeCasts_S256x128_S256x128) bitsLt_bf16_f32)
    (constant S32x128 .f32 0x00000000#32)

/-- The sum of the four devices' partial products of piece `p` as device `c` forms it: its own, then
    what the device one place back, three places back and two places back sent, in this order. -/
def accOf (P : Dev nD → Fin 4 → FVec F S32x256 .f32) (c : Dev nD) (p : Fin 4) : FVec F S32x256 .f32 :=
  add1 (add1 (add1 (P c p) (slot (P (peer c 3) p))) (slot (P (peer c 1) p))) (slot (P (peer c 2) p))

variable (X : Dev nD → Vec F S128x128 .f32) (W : ℕ → Dev nD → Vec F S128x256 .f32)
  (O : ℕ → Dev nD → Vec F S256x128 .f32)

/-- Device `c`'s column block of piece `p` of layer `l`'s output, from the partial products `P`. -/
def xnOf (P : Dev nD → Fin 4 → FVec F S32x256 .f32) (l : ℕ) (c : Dev nD) (p : Fin 4) : FVec F S32x128 .f32 :=
  mmOut (accOf P c p) (O l c)

/-- Device `c`'s partial product of piece `p` in layer `l`. -/
def partL : ℕ → Dev nD → Fin 4 → FVec F S32x256 .f32
  | 0, c, p => mmIn (xrows X c p) (W 0 c)
  | l + 1, c, p => mmNext (xnOf O (partL l) l c p) (W (l + 1) c)

theorem partL_zero (c : Dev nD) (p : Fin 4) : partL X W O 0 c p = mmIn (xrows X c p) (W 0 c) := rfl

theorem partL_succ (l : ℕ) (c : Dev nD) (p : Fin 4) :
    partL X W O (l + 1) c p = mmNext (xnOf O (partL X W O l) l c p) (W (l + 1) c) := rfl

/-- Piece `p` of device `c`'s block of the result: the third layer's output. -/
def outPiece (c : Dev nD) (p : Fin 4) : FVec F S32x128 .f32 := xnOf O (partL X W O 2) 2 c p

theorem piece_lt (r : ℕ) (hr : r < 128) : r / 32 < 4 := by omega

/-- Device `c`'s block of the result: rows `32 p … 32 p + 31` are piece `p`. -/
def outAt (c : Dev nD) : Vec F S128x128 .f32 :=
  fun i => outPiece X W O c ⟨(i 0).val / 32, piece_lt _ (idx2_lt0 i)⟩
    (ix2 (n0 := 32) (n1 := 128) ⟨(i 0).val % 32, Nat.mod_lt _ (by decide)⟩ (i 1))

/-- Row `32 p + r` of the block is row `r` of piece `p`. -/
theorem outAt_piece (c : Dev nD) (p : Fin 4) (i : S32x128.Idx) (j : S128x128.Idx)
    (h0 : (j 0).val = 32 * p.val + (i 0).val) (h1 : (j 1).val = (i 1).val) :
    outAt X W O c j = outPiece X W O c p i := by
  have hi := idx2_lt0 i
  have hp : (⟨(j 0).val / 32, piece_lt _ (idx2_lt0 j)⟩ : Fin 4) = p :=
    Fin.ext (by show (j 0).val / 32 = p.val; rw [h0]; omega)
  unfold outAt
  rw [hp]
  congr 1
  funext a
  match a with
  | ⟨0, _⟩ => exact Fin.ext (by show (j 0).val % 32 = (i 0).val; rw [h0]; omega)
  | ⟨1, _⟩ => exact Fin.ext h1

/-- The piece of the activations read through any indexing that lands where `xrows` does. -/
theorem xrows_eq (c : Dev nD) (p : Fin 4) (g : S32x128.Idx → S128x128.Idx)
    (h0 : ∀ i, (g i 0).val = 32 * p.val + (i 0).val) (h1 : ∀ i, (g i 1).val = (i 1).val) :
    (fun i => X c (g i)) = xrows X c p := by
  funext i
  unfold xrows
  congr 1
  funext a
  match a with
  | ⟨0, _⟩ => exact Fin.ext (h0 i)
  | ⟨1, _⟩ => exact Fin.ext (h1 i)

end Cert.Kernel.Spec

end
-- ==== Proof.KContents.lean ====
import proofs.«900970_g7700000000000971_dist_mlpseq_tp1dT_cs_cs_b128_d128_h256_v7x_i4_f32_1_alg».proof.Proof.KProtocol
import proofs.«900970_g7700000000000971_dist_mlpseq_tp1dT_cs_cs_b128_d128_h256_v7x_i4_f32_1_alg».proof.Proof.KSpec

/-!
What the buffers hold. Device `c`'s staging buffers hold its blocks of the seven argument arrays; slot `4 L + k` of its
communication buffer ends holding the bf16 partial product of stage `L = 4 l + p` of device `c - k` (its own for `k = 0`);
its result block is, row piece by row piece, the last layer's product.
-/

noncomputable section

namespace Cert.Kernel.Proto

open Cert.Kernel Cert.Kernel.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- Device `c`'s block of `x`, of `Win_l`, of `Wout_l`, as its staging buffers hold them. -/
def xin (c : Dev nD) : Vec F S128x128 .f32 := (win0_0.blk (0 : Fin 1)).view.read (Elt F) (m ((c : Thread nD τ).loc main_arg0))
def win : ℕ → Dev nD → Vec F S128x256 .f32
  | 0, c => (win0_1.blk (0 : Fin 1)).view.read (Elt F) (m ((c : Thread nD τ).loc main_arg1))
  | 1, c => (win0_3.blk (0 : Fin 1)).view.read (Elt F) (m ((c : Thread nD τ).loc main_arg3))
  | _, c => (win0_5.blk (0 : Fin 1)).view.read (Elt F) (m ((c : Thread nD τ).loc main_arg5))
def wout : ℕ → Dev nD → Vec F S256x128 .f32
  | 0, c => (win0_2.blk (0 : Fin 1)).view.read (Elt F) (m ((c : Thread nD τ).loc main_arg2))
  | 1, c => (win0_4.blk (0 : Fin 1)).view.read (Elt F) (m ((c : Thread nD τ).loc main_arg4))
  | _, c => (win0_6.blk (0 : Fin 1)).view.read (Elt F) (m ((c : Thread nD τ).loc main_arg6))

/-- The partial product of layer `l`, row piece `p`, on device `c`. -/
abbrev part (l : ℕ) (c : Dev nD) (p : Fin 4) : FVec F S32x256 .f32 := Spec.partL (xin m) (win m) (wout m) l c p

/-- What slot `j = 4 (4 l + p) + k` of device `c`'s communication buffer ends holding: device `c - k`'s partial product
    of layer `l`, piece `p`, as bf16. -/
def slotVal (c : Dev nD) (j : ℕ) : FVec F S1x32x256 .bf16 :=
  Spec.slot (part m (j / 16) (Spec.peer c ((4 - j % 4) % 4)) ⟨j / 4 % 4, Nat.mod_lt _ (by decide)⟩)

/-- The communication buffer's final contents. -/
def cfin (c : Dev nD) : Buf (Elt F) ((commM : Memref sig .tc .vmem S48x32x256 .bf16).view.loc (c : Thread nD τ)) :=
  fun i => slotVal m c (i 0).val (ix3 (0 : Fin 1) (i 1) (i 2))

/-- The result block of device `c`. -/
def outv (c : Dev nD) : (cc0_stg7_0 : Ref sig .tc).ty.Contents (Elt F) := Spec.outAt (xin m) (win m) (wout m) c

end Cert.Kernel.Proto

end
-- ==== Proof.KBodyDefs.lean ====
import proofs.«900970_g7700000000000971_dist_mlpseq_tp1dT_cs_cs_b128_d128_h256_v7x_i4_f32_1_alg».proof.Proof.KLaunchDat
import proofs.«900970_g7700000000000971_dist_mlpseq_tp1dT_cs_cs_b128_d128_h256_v7x_i4_f32_1_alg».proof.Proof.KContents

/-! What a device's body starts from and what it leaves, over the buffers' named contents. -/

noncomputable section

namespace Cert.Kernel.Proto

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The proof data at the protocol's final buffer contents and the result's value. -/
abbrev kdats (p : Fin 1) (c : Dev nD) : Dat τ (Elt F) Unit ℕ UU ℕ cfg0 c := dats (cfin m) m (outv m) p c

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Before the body: the protocol's ghost state at names `K`, the launch credit, the levels, the communication buffer at
    whatever it holds, what the device owes, the seven argument blocks staged, the result's staging buffer. -/
def bodyPre (K : Dev nD × Fin 73 → ℕ) (c : Dev nD) : sProp 𝕄 :=
  iprop((ghost (cfin m) K c ∗ cred (tallyAt (barCell c) () 3)
      ∗ (bigSep Finset.univ fun s : Fin 36 => cred (tallyAt (recvCell c s) () N)) ∗ levAts Lset lv ∗ ∃ f, commPts c f)
    ∗ (kdats m 0 c).owesAt () t₀.castSucc
    ∗ stg c cc0_stg0_0 (iblk m c 0 t₀) ∗ stg c cc0_stg1_0 (iblk m c 1 t₀) ∗ stg c cc0_stg2_0 (iblk m c 2 t₀)
    ∗ stg c cc0_stg3_0 (iblk m c 3 t₀) ∗ stg c cc0_stg4_0 (iblk m c 4 t₀) ∗ stg c cc0_stg5_0 (iblk m c 5 t₀)
    ∗ stg c cc0_stg6_0 (iblk m c 6 t₀) ∗ (∃ X, stg c cc0_stg7_0 X))

/-- After it: the buffer whole at its final contents and the own cells closed, nothing owed, the argument blocks as
    staged, the result's staging buffer at the result block. -/
def bodyPost (c : Dev nD) : sProp 𝕄 :=
  iprop(Φ₁ (cfin m) c ∗ (kdats m 0 c).owesAt () t₀.succ
    ∗ stg c cc0_stg0_0 (iblk m c 0 t₀) ∗ stg c cc0_stg1_0 (iblk m c 1 t₀) ∗ stg c cc0_stg2_0 (iblk m c 2 t₀)
    ∗ stg c cc0_stg3_0 (iblk m c 3 t₀) ∗ stg c cc0_stg4_0 (iblk m c 4 t₀) ∗ stg c cc0_stg5_0 (iblk m c 5 t₀)
    ∗ stg c cc0_stg6_0 (iblk m c 6 t₀) ∗ stg c cc0_stg7_0 (outv m c))

/-- The statement of a device's body: from `bodyPre` the printed body runs to `bodyPost`. -/
def SoundBody : Prop :=
  ∀ (K : Dev nD × Fin 73 → ℕ) (c : Dev nD) (Kt : PUnit → sProp 𝕄),
    iprop(bodyPre m K c ∗ (bodyPost m c -∗ Kt ⟨⟩))
      ⊢ wp frame (wpE (defs₀ (F := F)) Variants.none c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_scratch0) (Memref.isWhole_whole _) cc0_scratch1 cc0_scratch2) Kt

end Cert.Kernel.Proto

end
-- ==== Proof.KKArgs.lean ====
/-
  A memory's argument buffers on each device, as the inputs of the specification: device `c`'s
  block of the activations, and by layer its blocks of the input and of the output weights.
-/
import proofs.«900970_g7700000000000971_dist_mlpseq_tp1dT_cs_cs_b128_d128_h256_v7x_i4_f32_1_alg».proof.Proof.KSpec

noncomputable section

namespace Cert.Kernel.Spec

open Idealize.ShloMosaic Idealize.SL.Sem

variable {F : FTy → Type} [FloatOps F]

/-- Three things listed by layer. -/
def byLayer {α : Type} (a b c : α) : ℕ → α
  | 0 => a
  | 1 => b
  | _ => c

@[simp] theorem byLayer_zero {α : Type} (a b c : α) : byLayer a b c 0 = a := rfl
@[simp] theorem byLayer_one {α : Type} (a b c : α) : byLayer a b c 1 = b := rfl
@[simp] theorem byLayer_two {α : Type} (a b c : α) : byLayer a b c 2 = c := rfl

variable (m : (ℓ : Loc nD τ sig) → Buf (Elt F) ℓ)

/-- Device `c`'s block of the activations. -/
def xOf (c : Dev nD) : Vec F S128x128 .f32 := m ((c.tc : Thread nD τ).loc main_arg0)

/-- Device `c`'s block of layer `l`'s input weights. -/
def wOf (l : ℕ) (c : Dev nD) : Vec F S128x256 .f32 :=
  byLayer (m ((c.tc : Thread nD τ).loc main_arg1)) (m ((c.tc : Thread nD τ).loc main_arg3))
    (m ((c.tc : Thread nD τ).loc main_arg5)) l

/-- Device `c`'s block of layer `l`'s output weights. -/
def oOf (l : ℕ) (c : Dev nD) : Vec F S256x128 .f32 :=
  byLayer (m ((c.tc : Thread nD τ).loc main_arg2)) (m ((c.tc : Thread nD τ).loc main_arg4))
    (m ((c.tc : Thread nD τ).loc main_arg6)) l

/-- What the kernel's run is to establish, for any float values: on every device the result buffer
    ends as the specification's value of that device's argument buffers, the arguments unchanged. -/
def RunPost (r : PUnit × MemSt nD τ sig (Elt F)) : Prop :=
  ∀ c : Dev nD,
    r.2.mem ((c.tc : Thread nD τ).loc main_v1) = outAt (xOf m) (wOf m) (oOf m) c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)

end Cert.Kernel.Spec

end
-- ==== Proof.KContentsEq.lean ====
/-
  A device's staged blocks are its argument buffers: each argument is staged whole, and a whole
  array read through the block at index zero of its own sizes is the array.  So the result block
  named over the staged blocks is the specification's value of the argument buffers.
-/
import proofs.«900970_g7700000000000971_dist_mlpseq_tp1dT_cs_cs_b128_d128_h256_v7x_i4_f32_1_alg».proof.Proof.KContents
import proofs.«900970_g7700000000000971_dist_mlpseq_tp1dT_cs_cs_b128_d128_h256_v7x_i4_f32_1_alg».proof.Proof.KKArgs

noncomputable section

namespace Cert.Kernel.Proto

open Cert.Kernel Cert.Kernel.Gen
open Idealize.ShloMosaic Idealize.ShloMosaic.TcCoe Idealize.SL.Sem

variable {F : FTy → Type} [FloatOps F]
variable (m : (ℓ : Loc nD τ sig) → Buf (Elt F) ℓ)

theorem xin_eq (c : Dev nD) : xin m c = Spec.xOf m c :=
  Memref.read_access_unit_zero (Elt F) main_arg0 (funext fun _ => Nat.zero_mul _) _ _

theorem win_eq (l : ℕ) (c : Dev nD) : win m l c = Spec.wOf m l c := by
  match l with
  | 0 => exact Memref.read_access_unit_zero (Elt F) main_arg1 (funext fun _ => Nat.zero_mul _) _ _
  | 1 => exact Memref.read_access_unit_zero (Elt F) main_arg3 (funext fun _ => Nat.zero_mul _) _ _
  | _ + 2 => exact Memref.read_access_unit_zero (Elt F) main_arg5 (funext fun _ => Nat.zero_mul _) _ _

theorem wout_eq (l : ℕ) (c : Dev nD) : wout m l c = Spec.oOf m l c := by
  match l with
  | 0 => exact Memref.read_access_unit_zero (Elt F) main_arg2 (funext fun _ => Nat.zero_mul _) _ _
  | 1 => exact Memref.read_access_unit_zero (Elt F) main_arg4 (funext fun _ => Nat.zero_mul _) _ _
  | _ + 2 => exact Memref.read_access_unit_zero (Elt F) main_arg6 (funext fun _ => Nat.zero_mul _) _ _

/-- The result block over the staged blocks is the specification's value of the argument buffers. -/
theorem outv_eq (c : Dev nD) : outv m c = Spec.outAt (Spec.xOf m) (Spec.wOf m) (Spec.oOf m) c := by
  have hx : xin m = Spec.xOf m := funext (xin_eq m)
  have hw : win m = Spec.wOf m := funext fun l => funext (win_eq m l)
  have ho : wout m = Spec.oOf m := funext fun l => funext (wout_eq m l)
  unfold outv
  rw [hx, hw, ho]

end Cert.Kernel.Proto

end
-- ==== Proof.KRun.lean ====
/-
  The kernel's run with its result named: from each device's body statement, every weakly fair
  execution of the four devices' threads ends, nothing faulting, with each device's result array
  holding the specification's value of that device's argument buffers and the arguments unchanged.
-/
import proofs.«900970_g7700000000000971_dist_mlpseq_tp1dT_cs_cs_b128_d128_h256_v7x_i4_f32_1_alg».proof.Proof.KLaunch
import proofs.«900970_g7700000000000971_dist_mlpseq_tp1dT_cs_cs_b128_d128_h256_v7x_i4_f32_1_alg».proof.Proof.KBodyDefs
import proofs.«900970_g7700000000000971_dist_mlpseq_tp1dT_cs_cs_b128_d128_h256_v7x_i4_f32_1_alg».proof.Proof.KContentsEq

noncomputable section

namespace Cert.Kernel.Proto

open Cert.Kernel Cert.Kernel.Gen
open Idealize.ShloMosaic Idealize.ShloMosaic.TcCoe Idealize.SL.Sem
open Idealize.ShloMosaic.Pipeline (BodyObligation)

variable {F : FTy → Type} [FloatOps F]

/-- From the four body obligations at the protocol's final contents and the specification's result. -/
theorem run_post_of (m : (ℓ : Loc nD τ sig) → Buf (Elt F) ℓ) (ρ : Dev nD → PrngReg)
    (hbody : ∀ c, BodyObligation (kdats m 0 c) (defs₀ (F := F)) Variants.none () Set.univ) :
    θ_run defs (onTc (τ := τ) (main (F := F))) ⟨m, fun _ => 0, ρ⟩ (Spec.RunPost m) :=
  (θ_run defs _ _).mono (fun _ h c => ⟨(h c).1.trans (outv_eq m c), (h c).2⟩)
    (value_of_run (cfin m) m ρ (outv m) hbody)

/-- The same run with the result forgotten: the arguments end as they were launched. -/
theorem frame_post_of (m : (ℓ : Loc nD τ sig) → Buf (Elt F) ℓ) (ρ : Dev nD → PrngReg)
    (hbody : ∀ c, BodyObligation (kdats m 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_run (cfin m) m ρ (outv m) hbody

end Cert.Kernel.Proto

end
-- ==== Proof.KBodyGlue.lean ====
import proofs.«900970_g7700000000000971_dist_mlpseq_tp1dT_cs_cs_b128_d128_h256_v7x_i4_f32_1_alg».proof.Proof.KBodyDefs
import Idealize.ShloMosaic.Lib.Pipeline.FrameBody

/-!
The body lemma in the form the launch asks for: at the one grid point, from the invariant before it, what the device
owes and the eight windows' staging buffers, the printed body runs to the invariant after it, nothing owed, and the
buffers at what the body leaves.
-/

noncomputable section

namespace Cert.Kernel.Proto

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- The eight windows, one by one. -/
theorem bigSep_W (Φ : Fin cfg0.W → sProp 𝕄) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_W0 Φ

omit [FloatOps F] in
/-- Owning a whole buffer and reading `X` through it is holding it whole at contents `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = stg c b X := by
  unfold owns; simp only [Memref.view_whole, View.read_whole, View.set_whole]

/-- Argument window 0's staging buffer holds its block of the array when the body is handed it: the window is an
    input, never idle, uncut, and the body leaves the block in place. -/
theorem before_0 (c : Dev nD) (t : Fin cfg0.N) (d) : (kdats m 0 c).before 0 t d = iblk m c 0 t :=
  ((kdats m 0 c).before_in_eq_fetched 0 rfl (fun _ => rfl) (fun _ _ _ => rfl) (fun t => rfl) t d).trans rfl

/-- Argument window 1's staging buffer holds its block of the array when the body is handed it: the window is an
    input, never idle, uncut, and the body leaves the block in place. -/
theorem before_1 (c : Dev nD) (t : Fin cfg0.N) (d) : (kdats m 0 c).before 1 t d = iblk m c 1 t :=
  ((kdats m 0 c).before_in_eq_fetched 1 rfl (fun _ => rfl) (fun _ _ _ => rfl) (fun t => rfl) t d).trans rfl

/-- Argument window 2's staging buffer holds its block of the array when the body is handed it: the window is an
    input, never idle, uncut, and the body leaves the block in place. -/
theorem before_2 (c : Dev nD) (t : Fin cfg0.N) (d) : (kdats m 0 c).before 2 t d = iblk m c 2 t :=
  ((kdats m 0 c).before_in_eq_fetched 2 rfl (fun _ => rfl) (fun _ _ _ => rfl) (fun t => rfl) t d).trans rfl

/-- Argument window 3's staging buffer holds its block of the array when the body is handed it: the window is an
    input, never idle, uncut, and the body leaves the block in place. -/
theorem before_3 (c : Dev nD) (t : Fin cfg0.N) (d) : (kdats m 0 c).before 3 t d = iblk m c 3 t :=
  ((kdats m 0 c).before_in_eq_fetched 3 rfl (fun _ => rfl) (fun _ _ _ => rfl) (fun t => rfl) t d).trans rfl

/-- Argument window 4's staging buffer holds its block of the array when the body is handed it: the window is an
    input, never idle, uncut, and the body leaves the block in place. -/
theorem before_4 (c : Dev nD) (t : Fin cfg0.N) (d) : (kdats m 0 c).before 4 t d = iblk m c 4 t :=
  ((kdats m 0 c).before_in_eq_fetched 4 rfl (fun _ => rfl) (fun _ _ _ => rfl) (fun t => rfl) t d).trans rfl

/-- Argument window 5's staging buffer holds its block of the array when the body is handed it: the window is an
    input, never idle, uncut, and the body leaves the block in place. -/
theorem before_5 (c : Dev nD) (t : Fin cfg0.N) (d) : (kdats m 0 c).before 5 t d = iblk m c 5 t :=
  ((kdats m 0 c).before_in_eq_fetched 5 rfl (fun _ => rfl) (fun _ _ _ => rfl) (fun t => rfl) t d).trans rfl

/-- Argument window 6's staging buffer holds its block of the array when the body is handed it: the window is an
    input, never idle, uncut, and the body leaves the block in place. -/
theorem before_6 (c : Dev nD) (t : Fin cfg0.N) (d) : (kdats m 0 c).before 6 t d = iblk m c 6 t :=
  ((kdats m 0 c).before_in_eq_fetched 6 rfl (fun _ => rfl) (fun _ _ _ => rfl) (fun t => rfl) t d).trans rfl

/-- What the launch hands the body at the one grid point: the invariant before it, what the device owes, and each
    window's staging buffer at what it then holds. -/
def bodyPre' (c : Dev nD) : sProp 𝕄 :=
  iprop(Φ₀ (cfin m) c ∗ (kdats m 0 c).owesAt () t₀.castSucc
    ∗ (∃ d, stg c cc0_stg0_0 ((kdats m 0 c).before (0 : Fin 8) t₀ d))
    ∗ (∃ d, stg c cc0_stg1_0 ((kdats m 0 c).before (1 : Fin 8) t₀ d))
    ∗ (∃ d, stg c cc0_stg2_0 ((kdats m 0 c).before (2 : Fin 8) t₀ d))
    ∗ (∃ d, stg c cc0_stg3_0 ((kdats m 0 c).before (3 : Fin 8) t₀ d))
    ∗ (∃ d, stg c cc0_stg4_0 ((kdats m 0 c).before (4 : Fin 8) t₀ d))
    ∗ (∃ d, stg c cc0_stg5_0 ((kdats m 0 c).before (5 : Fin 8) t₀ d))
    ∗ (∃ d, stg c cc0_stg6_0 ((kdats m 0 c).before (6 : Fin 8) t₀ d))
    ∗ (∃ d, stg c cc0_stg7_0 ((kdats m 0 c).before (7 : Fin 8) t₀ d)))

set_option maxRecDepth 16384 in
/-- The body obligation of device `c`, from the body lemma. -/
theorem body_obligation (hS : SoundBody m) (c : Dev nD) :
    BodyObligation (kdats (F := F) m 0 c) (defs₀ (F := F)) Variants.none () Set.univ := fun t => by
  rw [fin_N t]
  rw [bigSep_W, bigSep_W]
  simp only [owns_whole_eq]
  show bodyPre' m c ⊢ wp frame (wpE (defs₀ (F := F)) Variants.none c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) cc0_scratch1 cc0_scratch2) (fun _ => bodyPost m c)
  unfold bodyPre' Φ₀ start
  simp only [before_0, before_1, before_2, before_3, before_4, before_5, before_6]
  iintro ⟨⟨⟨⟨%K, Hg⟩, Hc1, Hc2, Hlev⟩, Hcomm⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (hS K c fun _ => bodyPost m c)
  unfold bodyPre
  isplitr []
  · isplitl [Hg Hc1 Hc2 Hlev Hcomm]
    · isplitl [Hg]; · iexact Hg
      isplitl [Hc1]; · iexact Hc1
      isplitl [Hc2]; · iexact Hc2
      isplitl [Hlev]; · iexact Hlev
      iexact Hcomm
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · iintro H; iexact H

/-- info: 'Cert.Kernel.Proto.body_obligation' depends on axioms: [propext, Classical.choice, Quot.sound] -/
#guard_msgs in #print axioms body_obligation

end Cert.Kernel.Proto

end
-- ==== Proof.KRunBody.lean ====
/-
  The kernel's run from the statement of one device's body.
-/
import proofs.«900970_g7700000000000971_dist_mlpseq_tp1dT_cs_cs_b128_d128_h256_v7x_i4_f32_1_alg».proof.Proof.KRun
import proofs.«900970_g7700000000000971_dist_mlpseq_tp1dT_cs_cs_b128_d128_h256_v7x_i4_f32_1_alg».proof.Proof.KBodyGlue

noncomputable section

namespace Cert.Kernel.Proto

open Cert.Kernel Cert.Kernel.Gen
open Idealize.ShloMosaic Idealize.ShloMosaic.TcCoe Idealize.SL.Sem

variable {F : FTy → Type} [FloatOps F]

/-- Every fair execution ends with each device's result at the specification's value, the arguments unchanged. -/
theorem run_post (m : (ℓ : Loc nD τ sig) → Buf (Elt F) ℓ) (ρ : Dev nD → PrngReg) (hS : SoundBody m) :
    θ_run defs (onTc (τ := τ) (main (F := F))) ⟨m, fun _ => 0, ρ⟩ (Spec.RunPost m) :=
  run_post_of m ρ fun c => body_obligation m hS c

/-- The same with the result forgotten. -/
theorem frame_post (m : (ℓ : Loc nD τ sig) → Buf (Elt F) ℓ) (ρ : Dev nD → PrngReg) (hS : SoundBody m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_post_of m ρ fun c => body_obligation m hS c

end Cert.Kernel.Proto

end
-- ==== Proof.Steps.lean ====
import proofs.«900970_g7700000000000971_dist_mlpseq_tp1dT_cs_cs_b128_d128_h256_v7x_i4_f32_1_alg».proof.Proof.Protocol

/-!
The rules of the rounds discipline at this protocol's cells, one lemma per kind of step of a device's body:
a barrier signal, the barrier wait, a transfer, a receive wait, a send wait.
-/

noncomputable section

namespace Cert.KernelIdeal.Proto

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (cf : (c : Dev nD) → Buf (Elt F) ((commM : Memref sig .tc .vmem S48x32x256 .bf16).view.loc (c : Thread nD τ)))

/-! ## Reading the records -/

theorem inv_at0 (K : Dev nD × Fin 73 → ℕ) (ck : Dev nD × Fin 73) :
    (bigSep Finset.univ fun ck : Dev nD × Fin 73 => (cellInv ER (sched (F := F) cf) (K ck) (kcell ck) : sProp 𝕄)) ⊢ cellInv ER (sched cf) (K ck) (kcell ck) :=
  bigSep_elim (Finset.mem_univ ck)
theorem reached_at0 (ck : Dev nD × Fin 73) :
    (bigSep Finset.univ fun ck : Dev nD × Fin 73 => (reached ER (kcell ck) 0 : sProp 𝕄)) ⊢ reached ER (kcell ck) 0 :=
  bigSep_elim (Finset.mem_univ ck)
theorem inv_at (K : Dev nD × Fin 73 → ℕ) (ck : Dev nD × Fin 73) :
    (records (F := F) cf K : sProp 𝕄) ⊢ cellInv ER (sched cf) (K ck) (kcell ck) := by
  unfold records
  iintro ⟨H, -⟩
  iapply (inv_at0 cf K ck)
  iexact H
theorem reached_at (K : Dev nD × Fin 73 → ℕ) (ck : Dev nD × Fin 73) :
    (records (F := F) cf K : sProp 𝕄) ⊢ reached ER (kcell ck) 0 := by
  unfold records
  iintro ⟨-, H⟩
  iapply (reached_at0 (F := F) ck)
  iexact H

theorem inv_bar (K : Dev nD × Fin 73 → ℕ) (c : Dev nD) : (records (F := F) cf K : sProp 𝕄) ⊢ cellInv ER (sched cf) (K (c, bIdx)) (barCell c) := by
  have h := inv_at cf K (c, bIdx); rwa [kcell_b] at h
theorem inv_send (K : Dev nD × Fin 73 → ℕ) (c : Dev nD) (s : Fin 36) : (records (F := F) cf K : sProp 𝕄) ⊢ cellInv ER (sched cf) (K (c, sIdx s)) (sendCell c s) := by
  have h := inv_at cf K (c, sIdx s); rwa [kcell_s] at h
theorem inv_recv (K : Dev nD × Fin 73 → ℕ) (c : Dev nD) (s : Fin 36) : (records (F := F) cf K : sProp 𝕄) ⊢ cellInv ER (sched cf) (K (c, rIdx s)) (recvCell c s) := by
  have h := inv_at cf K (c, rIdx s); rwa [kcell_r] at h
theorem reached_bar (K : Dev nD × Fin 73 → ℕ) (c : Dev nD) : (records (F := F) cf K : sProp 𝕄) ⊢ reached ER (barCell c) 0 := by
  have h := reached_at cf K (c, bIdx); rwa [kcell_b] at h
theorem reached_send (K : Dev nD × Fin 73 → ℕ) (c : Dev nD) (s : Fin 36) : (records (F := F) cf K : sProp 𝕄) ⊢ reached ER (sendCell c s) 0 := by
  have h := reached_at cf K (c, sIdx s); rwa [kcell_s] at h
theorem reached_recv (K : Dev nD × Fin 73 → ℕ) (c : Dev nD) (s : Fin 36) : (records (F := F) cf K : sProp 𝕄) ⊢ reached ER (recvCell c s) 0 := by
  have h := reached_at cf K (c, rIdx s); rwa [kcell_r] at h

/-! ## A barrier signal -/

/-- The signal to device `n = c + i + 1`: duty `2 - i` of its barrier cell, handing over the slots it will write. -/
theorem wp_sig (c n : Dev nD) (i : Fin 3) (hn : n = pr c (i.val + 1)) (κ : ℕ)
    (O O' : CellTallies nD τ sig Unit) (hO : O' = O + tallyAt (barCell (pr c (i.val + 1))) () 1) (W : Waits sig Unit)
    {α : Type} {Q : α → sProp 𝕄} {k : PUnit → Prog (TpuEff nD τ sig (Elt F) Λ₀ .tc) α} :
    iprop(cellInv ER (sched cf) κ (barCell (pr c (i.val + 1))) ∗ owes (c : Thread nD τ) O' W
        ∗ dutyTok ER (barCell (pr c (i.val + 1))) 0 (⟨2 - i.val, by omega⟩ : Fin 3)
        ∗ barPay (pr c (i.val + 1)) (⟨2 - i.val, by omega⟩ : Fin 3)
        ∗ reached ER (barCell (pr c (i.val + 1))) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  rw [← payload_bar cf (pr c (i.val + 1)) (⟨2 - i.val, by omega⟩ : Fin 3)]
  exact Rounds.wp_signal 𝒱₀ ER (sched cf) (c : Thread nD τ) none (dst := (pr c (i.val + 1) : Thread nD τ)) (κ := κ)
    (d := (⟨2 - i.val, by omega⟩ : Fin 3)) (by rw [duties_bar]; exact Finset.mem_univ _) (amount_bar cf (pr c (i.val + 1)) _) () O hO

theorem mk_barPay1 (K : Dev nD × Fin 73 → ℕ) (c : Dev nD) (j : Fin 48) (s : Fin 36) :
    iprop(records cf K ∗ ∃ f, slotPts c j fullShare f)
      ⊢ (iprop((∃ f, slotPts c j fullShare f) ∗ reached ER (recvCell c s) 0) : sProp 𝕄) := by
  iintro ⟨#HR', H'⟩
  isplitl [H']; · iexact H'
  iapply (reached_recv cf K c s); iexact HR'

/-- Device `c`'s 12 slots `4 L + 3 - i` and its standing at round 0 of the receive cells they land on are what its
    signal number `i + 1` hands over. -/
theorem mk_barPay (K : Dev nD × Fin 73 → ℕ) (c : Dev nD) (i : Fin 3) :
    iprop(records cf K ∗ bigSep Finset.univ fun L : Fin 12 => iprop(∃ f, slotPts c (slotOf L (⟨2 - i.val, by omega⟩ : Fin 3)) fullShare f))
      ⊢ (barPay (pr c (i.val + 1)) (⟨2 - i.val, by omega⟩ : Fin 3) : sProp 𝕄) := by
  unfold barPay
  have hp : pr (pr c (i.val + 1)) ((⟨2 - i.val, by omega⟩ : Fin 3).val + 1) = c := by
    have := pr_pr c i
    show pr (pr c (i.val + 1)) (2 - i.val + 1) = c
    rwa [show 2 - i.val + 1 = 3 - i.val from by omega]
  rw [hp]
  refine (sep_mono_left (BI.bigSep_of_persistent (Finset.univ : Finset (Fin 12)) (records cf K))).trans ?_
  rw [← bigSep_sep']
  exact bigSep_mono fun L _ => mk_barPay1 cf K c _ _

/-! ## The barrier wait -/

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The wait for three units on the device's barrier cell: the three other devices' slots come with it. -/
theorem wp_bar_wait (c : Dev nD) (κ : ℕ) (O : CellTallies nD τ sig Unit) (W : Waits sig Unit)
    {α : Type} {Q : α → sProp 𝕄} {k : PUnit → Prog (TpuEff nD τ sig (Elt F) Λ₀ .tc) α} :
    iprop(cellInv ER (sched cf) κ (barCell c) ∗ cred (tallyAt (barCell c) () 3) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ reached ER (barCell c) 1
              ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  have h := Rounds.wp_wait_rest_token 𝒱₀ ER (sched cf) (c : Thread nD τ) none (κ := κ) (Q := Q) (k := k)
    (wpE_semWait_eq (defs := defs₀ (F := F)) 𝒱₀ (c : Thread nD τ) none Set.univ (sem := barS) (k := 3)) (Set.mem_univ _) () (O := O) (W := W) (R := 0) (m := 0) (T := ∅)
    (by rw [expect_bar])
  rw [Finset.sdiff_empty, duties_bar, bigSep_fin3, payload_bar, payload_bar, payload_bar] at h
  exact h

/-! ## A wait on one of the device's DMA cells -/

/-- The wait for transfer `s`'s landing: the destination slot at the buffer's final contents. -/
theorem wp_recv_wait (c : Dev nD) (s : Fin 36) (κ : ℕ) (O : CellTallies nD τ sig Unit) (W : Waits sig Unit)
    {sp' : Space} {s' : Shape} {e' : EltTy} {src : Memref sig .tc sp' s' e'} {hsrc : src.view.WordExact} {hdst : (slotM (dstSlot s)).view.WordExact}
    {α : Type} {Q : α → sProp 𝕄} {k : PUnit → Prog (TpuEff nD τ sig (Elt F) Λ₀ .tc) α} :
    iprop(cellInv ER (sched cf) κ (recvCell c s) ∗ cred (tallyAt (recvCell c s) () N) ∗ owes (c : Thread nD τ) O W
        ∗ MayWait (c : Thread nD τ) (.dma (recvSem s)) () O ∗ atPos ER (recvCell c s) 0 ∅ 0)
      ⊢ iprop(((owes (c : Thread nD τ) O (insert (SemLoc.dma (recvSem s), ()) W) ∗ atPos ER (recvCell c s) 1 ∅ 0 ∗ reached ER (recvCell c s) 1
              ∗ slotPts c (dstSlot s) fullShare (cf c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvSem s) src (slotM (dstSlot s)) hsrc hdst) k) Q) := by
  have h := Rounds.wp_wait_rest_token 𝒱₀ ER (sched cf) (c : Thread nD τ) none (κ := κ) (Q := Q) (k := k)
    (wpE_waitDma2_eq (defs := defs₀ (F := F)) 𝒱₀ (c : Thread nD τ) none Set.univ (sem := recvSem s) (src := src) (dst := slotM (dstSlot s)) (hsrc := hsrc) (hdst := hdst))
    (Set.mem_univ _) () (O := O) (W := W) (R := 0) (m := 0) (T := ∅)
    (by rw [expect_recv]; exact Nat.zero_add _)
  rw [Finset.sdiff_empty, duties_recv, bigSep_singleton, payload_recv] at h
  exact h

/-- The wait for transfer `s`'s source to be read: the lent share of the source slot back. -/
theorem wp_send_wait (c : Dev nD) (s : Fin 36) (κ : ℕ) (W : Waits sig Unit)
    {sp' : Space} {s' : Shape} {e' : EltTy} {src : Memref sig .tc sp' s' e'} {hsrc : src.view.WordExact} {j : Fin 48} {hdst : (slotM j).view.WordExact}
    {α : Type} {Q : α → sProp 𝕄} {k : PUnit → Prog (TpuEff nD τ sig (Elt F) Λ₀ .tc) α} :
    iprop(cellInv ER (sched cf) κ (sendCell c s) ∗ cred (tallyAt (sendCell c s) () N) ∗ owes (c : Thread nD τ) 0 W
        ∗ atPos ER (sendCell c s) 0 ∅ 0)
      ⊢ iprop(((owes (c : Thread nD τ) 0 (insert (SemLoc.dma (sendSem s), ()) W) ∗ atPos ER (sendCell c s) 1 ∅ 0 ∗ reached ER (sendCell c s) 1
              ∗ slotPts c (srcSlot s) (shareOf s) (cf c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendSem s) src (slotM j) hsrc hdst) k) Q) := by
  have h := Rounds.wp_wait_rest_token 𝒱₀ ER (sched cf) (c : Thread nD τ) none (κ := κ) (Q := Q) (k := k)
    (wpE_waitDma2_eq (defs := defs₀ (F := F)) 𝒱₀ (c : Thread nD τ) none Set.univ (sem := sendSem s) (src := src) (dst := slotM j) (hsrc := hsrc) (hdst := hdst))
    (Set.mem_univ _) () (O := 0) (W := W) (R := 0) (m := 0) (T := ∅)
    (by rw [expect_send]; exact Nat.zero_add _)
  rw [Finset.sdiff_empty, duties_send, bigSep_singleton, payload_send, MayWait_zero] at h
  refine BIBase.Entails.trans ?_ h
  iintro ⟨H1, H2, H3, H4⟩
  isplitl [H1]; · iexact H1
  isplitl [H2]; · iexact H2
  isplitl [H3]; · iexact H3
  isplitr; · iempintro
  iexact H4

end Cert.KernelIdeal.Proto

end
-- ==== Proof.Slots.lean ====
import proofs.«900970_g7700000000000971_dist_mlpseq_tp1dT_cs_cs_b128_d128_h256_v7x_i4_f32_1_alg».proof.Proof.Protocol
import Idealize.ShloMosaic.Lib.Ring
import Idealize.ShloMosaic.Lib.Pipeline.Value

/-!
The communication buffer held slot by slot.

The buffer has shape `[48, 32, 256]`; slot `j` is the set of its indices whose first coordinate is `j`. The 48 slots
are pairwise disjoint and cover the buffer, so the buffer held whole is the 48 slots held one by one; a slot is held
at contents that matter only on the slot, splits along shares, and a transfer landing on it leaves the source slot's
contents, coordinate by coordinate.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The buffer's index type. -/
abbrev CIdx : Type := S48x32x256.Idx

/-- The elements under slot `j` are a unit rectangle of the buffer: one step along the first axis at `j`, whole on
    the two others. -/
theorem slot_set (j : Fin 48) :
    (slotM j).view.set = (Rect.unit (s := S48x32x256) ![j.val, 0, 0] S1x32x256.size (slot_inb j)).set := by
  show ((commM.view.slice _).reshape S32x256 _).set = _
  rw [View.set_reshape]
  exact View.set_slice_whole cc0_scratch0 _

/-- An index of the buffer lies in slot `j` exactly when its first coordinate is `j`. -/
theorem mem_slot (j : Fin 48) (i : CIdx) : i ∈ (slotM j).view.set ↔ (i 0).val = j.val := by
  rw [slot_set, Rect.mem_set_unit]
  constructor
  · intro h
    have h0 := h 0
    have e0 : (![j.val, 0, 0] : Fin 3 → Nat) 0 = j.val := rfl
    have e : S1x32x256.size 0 = 1 := rfl
    rw [e0, e] at h0
    omega
  · intro h a
    fin_cases a
    · show j.val ≤ (i 0).val ∧ (i 0).val < j.val + 1
      omega
    · show 0 ≤ (i 1).val ∧ (i 1).val < 0 + 32
      have := (i 1).isLt
      have e : S48x32x256.size 1 = 32 := rfl
      omega
    · show 0 ≤ (i 2).val ∧ (i 2).val < 0 + 256
      have := (i 2).isLt
      have e : S48x32x256.size 2 = 256 := rfl
      omega

/-- Different slots share no element. -/
theorem slot_disjoint (j j' : Fin 48) (h : j ≠ j') : Disjoint (slotM j).view.set (slotM j').view.set := by
  rw [Finset.disjoint_left]
  intro i hi hi'
  have e := (mem_slot j i).mp hi
  have e' := (mem_slot j' i).mp hi'
  exact h (Fin.ext (e.symm.trans e'))

/-- Every element of the buffer is in the slot its first coordinate names. -/
theorem slot_cover : (Finset.univ : Finset (Fin 48)).biUnion (fun j => (slotM j).view.set) = (Finset.univ : Finset CIdx) := by
  ext i
  simp only [Finset.mem_biUnion, Finset.mem_univ, true_and, iff_true]
  exact ⟨⟨(i 0).val, (i 0).isLt⟩, (mem_slot _ i).mpr rfl⟩

/-- The buffer held whole is its 48 slots held one by one, at the same contents. -/
theorem comm_split (c : Dev nD) (f : Buf (Elt F) ((commM : Memref sig .tc .vmem S48x32x256 .bf16).view.loc (c : Thread nD τ))) :
    (commPts c f : sProp 𝕄) = bigSep Finset.univ fun j : Fin 48 => slotPts c j fullShare f := by
  unfold commPts slotPts
  rw [View.set_whole]
  exact Ring.pointsTo_blocks (ℓ := (commM : Memref sig .tc .vmem S48x32x256 .bf16).view.loc (c : Thread nD τ)) (q := fullShare)
    (fun j : Fin 48 => (slotM j).view.set) (fun j j' h => slot_disjoint j j' h) slot_cover f

/-- The 48 slots held at one buffer's contents are that buffer held whole. -/
theorem comm_join (c : Dev nD) (f : Buf (Elt F) ((commM : Memref sig .tc .vmem S48x32x256 .bf16).view.loc (c : Thread nD τ))) :
    bigSep Finset.univ (fun j : Fin 48 => slotPts c j fullShare f) ⊢ (commPts c f : sProp 𝕄) :=
  Entails.of_eq (comm_split c f).symm

/-- A slot held at the full share is the slot held at the three shares its three transfers borrow. -/
theorem slot_share3 (c : Dev nD) (j : Fin 48) (f : Buf (Elt F) ((commM : Memref sig .tc .vmem S48x32x256 .bf16).view.loc (c : Thread nD τ))) :
    (slotPts c j fullShare f : sProp 𝕄)
      ⊣⊢ iprop(slotPts c j fullShare.left f ∗ slotPts c j fullShare.right.left f ∗ slotPts c j fullShare.right.right f) := by
  unfold slotPts
  exact (pointsTo_share (PosShare.mem_left_op_right fullShare)).trans
    (sep_congr_right (pointsTo_share (PosShare.mem_left_op_right fullShare.right)))

/-- A slot's points-to reads its contents only at the indices of the slot. -/
theorem slot_congr (c : Dev nD) (j : Fin 48) (q : PosShare TreeShare)
    {f g : Buf (Elt F) ((commM : Memref sig .tc .vmem S48x32x256 .bf16).view.loc (c : Thread nD τ))}
    (h : ∀ i : CIdx, (i 0).val = j.val → f i = g i) : (slotPts c j q f : sProp 𝕄) = slotPts c j q g := by
  unfold slotPts
  exact pointsTo_congr fun i hi => h i ((mem_slot j i).mp hi)

/-! ## Indices of the buffer by coordinates -/

/-- The buffer's index with coordinates `j`, `a`, `b`. -/
def slotIdx (j : Fin 48) (a : Fin 32) (b : Fin 256) : CIdx := fun x =>
  ⟨if x.val = 0 then j.val else if x.val = 1 then a.val else b.val, by
    rcases x with ⟨_ | _ | _ | n, hx⟩
    · exact j.isLt
    · exact a.isLt
    · exact b.isLt
    · exact absurd hx (by simp)⟩

@[simp] theorem slotIdx_zero (j : Fin 48) (a : Fin 32) (b : Fin 256) : slotIdx j a b 0 = j := rfl
@[simp] theorem slotIdx_one (j : Fin 48) (a : Fin 32) (b : Fin 256) : slotIdx j a b 1 = a := rfl
@[simp] theorem slotIdx_two (j : Fin 48) (a : Fin 32) (b : Fin 256) : slotIdx j a b 2 = b := rfl

/-- Two indices of the buffer with the same three coordinates are equal. -/
theorem cidx_ext {x y : CIdx} (h0 : (x 0).val = (y 0).val) (h1 : (x 1).val = (y 1).val) (h2 : (x 2).val = (y 2).val) :
    x = y :=
  funext fun a => Fin.ext <| match a with | ⟨0, _⟩ => h0 | ⟨1, _⟩ => h1 | ⟨2, _⟩ => h2

/-- Every index is the one its coordinates name. -/
theorem slotIdx_eta (i : CIdx) : slotIdx (i 0) (i 1) (i 2) = i := cidx_ext rfl rfl rfl

/-- Where slot `j`'s view puts its index `y`: at `j`, then `y`'s two coordinates. -/
theorem slot_emb (j : Fin 48) (y : S32x256.Idx) : (slotM j).view.emb y = slotIdx j (y 0) (y 1) := by
  show ((commM.view.slice (Rect.unit (s := S48x32x256) ![j.val, 0, 0] S1x32x256.size (slot_inb j))).reshape S32x256 _).emb y = _
  rw [View.emb_reshape, View.emb_slice]
  show (Rect.unit (s := S48x32x256) ![j.val, 0, 0] S1x32x256.size (slot_inb j)).emb (Shape.reshapeEquiv _ y) = _
  rw [Shape.reshapeEquiv_cons_one]
  refine cidx_ext ?_ ?_ ?_
  · rw [Rect.emb_apply]; show j.val + 1 * 0 = j.val; omega
  · rw [Rect.emb_apply]; show 0 + 1 * (y 0).val = (y 0).val; omega
  · rw [Rect.emb_apply]; show 0 + 1 * (y 1).val = (y 1).val; omega

/-- An index in slot `j` is the image of the slot view's index made of its two last coordinates. -/
theorem slot_emb_of (j : Fin 48) (i : CIdx) (h : (i 0).val = j.val) : (slotM j).view.emb (Shape.pair (i 1) (i 2)) = i := by
  rw [slot_emb]
  exact cidx_ext h.symm rfl rfl

/-- What a transfer of slot `j` of one buffer leaves in slot `j'` of another: at each index of slot `j'`, the
    source's element at the same two last coordinates of slot `j`. -/
theorem slot_land (c c' : Dev nD) (j j' : Fin 48)
    (fs : Buf (Elt F) ((commM : Memref sig .tc .vmem S48x32x256 .bf16).view.loc (c : Thread nD τ)))
    (fd g : Buf (Elt F) ((commM : Memref sig .tc .vmem S48x32x256 .bf16).view.loc (c' : Thread nD τ)))
    (h : ∀ i : CIdx, (i 0).val = j'.val → g i = fs (slotIdx j (i 1) (i 2))) :
    ((slotM j').view.loc (c' : Thread nD τ) ↦[(slotM j').view.set]{fullShare}
        ((slotM j').view.write (Elt F) fd ((slotM j).view.read (Elt F) fs) Finset.univ) : sProp 𝕄)
      ⊢ slotPts c' j' fullShare g := by
  unfold slotPts
  refine Entails.of_eq (pointsTo_congr fun i hi => ?_)
  have hi0 := (mem_slot j' i).mp hi
  rw [h i hi0]
  conv_lhs => rw [← slot_emb_of j' i hi0]
  rw [View.write_emb_of_mem _ _ (Finset.mem_univ _), View.read_apply, cast_cast, cast_eq, slot_emb]
  rfl

/-! ## Loads and stores of one slot through the whole buffer -/

/-- The index `[0, a, b]` of a `[1, 32, 256]` vector. -/
def rowIdx (a : Fin 32) (b : Fin 256) : S1x32x256.Idx := fun x =>
  ⟨if x.val = 0 then 0 else if x.val = 1 then a.val else b.val, by
    rcases x with ⟨_ | _ | _ | n, hx⟩
    · exact Nat.one_pos
    · exact a.isLt
    · exact b.isLt
    · exact absurd hx (by simp)⟩

@[simp] theorem rowIdx_one (a : Fin 32) (b : Fin 256) : rowIdx a b 1 = a := rfl
@[simp] theorem rowIdx_two (a : Fin 32) (b : Fin 256) : rowIdx a b 2 = b := rfl

/-- Every index of a `[1, 32, 256]` vector is the one its two last coordinates name. -/
theorem rowIdx_eta (y : S1x32x256.Idx) : rowIdx (y 1) (y 2) = y :=
  funext fun a => Fin.ext <| match a with
    | ⟨0, _⟩ => by have := (y 0).isLt; show 0 = (y 0).val; have e : S1x32x256.size 0 = 1 := rfl; omega
    | ⟨1, _⟩ => rfl
    | ⟨2, _⟩ => rfl

/-- Where the rectangle of slot `j` puts a vector's index: at `j`, then its two last coordinates. -/
theorem rect_emb (j : Fin 48) {off : Fin 3 → Nat} (h : off = ![j.val, 0, 0])
    (inb : ∀ a, off a + S1x32x256.size a ≤ S48x32x256.size a) (y : S1x32x256.Idx) :
    (Rect.unit (s := S48x32x256) off S1x32x256.size inb).emb y = slotIdx j (y 1) (y 2) := by
  subst h
  refine cidx_ext ?_ ?_ ?_
  · rw [Rect.emb_apply]
    have := (y 0).isLt
    have e : S1x32x256.size 0 = 1 := rfl
    show j.val + 1 * (y 0).val = j.val
    omega
  · rw [Rect.emb_apply]; show 0 + 1 * (y 1).val = (y 1).val; omega
  · rw [Rect.emb_apply]; show 0 + 1 * (y 2).val = (y 2).val; omega

/-- A load of slot `j` through the whole buffer reads, at `[0, a, b]`, the buffer's element `[j, a, b]`. -/
theorem comm_readAt (c : Dev nD) (j : Fin 48) {off : Fin 3 → Nat} (h : off = ![j.val, 0, 0])
    (inb : ∀ a, off a + S1x32x256.size a ≤ S48x32x256.size a)
    (f : Buf (Elt F) ((commM : Memref sig .tc .vmem S48x32x256 .bf16).view.loc (c : Thread nD τ))) :
    (commM : Memref sig .tc .vmem S48x32x256 .bf16).view.readAt (Elt F) (Rect.unit (s := S48x32x256) off S1x32x256.size inb).toLoadRect f
      = fun y : S1x32x256.Idx => f (slotIdx j (y 1) (y 2)) := by
  funext y
  rw [View.readAt_rect, View.read_apply, View.emb_slice]
  show f ((Rect.unit (s := S48x32x256) off S1x32x256.size inb).emb y) = _
  rw [rect_emb j h inb]

/-- A store of `w` to slot `j` through the whole buffer leaves, at the buffer's element `i` of slot `j`,
    `w` at `i`'s two last coordinates; -/
theorem comm_write_slot (c : Dev nD) (j : Fin 48) {off : Fin 3 → Nat} (h : off = ![j.val, 0, 0])
    (inb : ∀ a, off a + S1x32x256.size a ≤ S48x32x256.size a)
    (f : Buf (Elt F) ((commM : Memref sig .tc .vmem S48x32x256 .bf16).view.loc (c : Thread nD τ)))
    (w : S1x32x256.Idx → Elt F .bf16) (i : CIdx) (hi : (i 0).val = j.val) :
    ((commM : Memref sig .tc .vmem S48x32x256 .bf16).access (Rect.unit (s := S48x32x256) off S1x32x256.size inb)).write (Elt F) f w Finset.univ i
      = w (rowIdx (i 1) (i 2)) := by
  have e : ((commM : Memref sig .tc .vmem S48x32x256 .bf16).access (Rect.unit (s := S48x32x256) off S1x32x256.size inb)).emb (rowIdx (i 1) (i 2)) = i := by
    show (Rect.unit (s := S48x32x256) off S1x32x256.size inb).emb (rowIdx (i 1) (i 2)) = i
    rw [rect_emb j h inb]
    exact cidx_ext hi.symm rfl rfl
  conv_lhs => rw [← e]
  rw [View.write_emb_of_mem _ _ (Finset.mem_univ _)]
  rfl

/-- and leaves every element of the other slots as it was. -/
theorem comm_write_off (c : Dev nD) (j : Fin 48) {off : Fin 3 → Nat} (h : off = ![j.val, 0, 0])
    (inb : ∀ a, off a + S1x32x256.size a ≤ S48x32x256.size a)
    (f : Buf (Elt F) ((commM : Memref sig .tc .vmem S48x32x256 .bf16).view.loc (c : Thread nD τ)))
    (w : S1x32x256.Idx → Elt F .bf16) (i : CIdx) (hi : (i 0).val ≠ j.val) :
    ((commM : Memref sig .tc .vmem S48x32x256 .bf16).access (Rect.unit (s := S48x32x256) off S1x32x256.size inb)).write (Elt F) f w Finset.univ i
      = f i := by
  refine View.write_of_not_mem _ _ _ fun hm => hi ?_
  rw [View.setOn_univ] at hm
  obtain ⟨y, hy⟩ := View.exists_emb_of_mem_set _ hm
  have e : (Rect.unit (s := S48x32x256) off S1x32x256.size inb).emb y = i := hy
  rw [rect_emb j h inb] at e
  rw [← e]
  rfl

/-- The elements a store to slot `j` through the whole buffer goes through are the slot's. -/
theorem comm_access_set (j : Fin 48) {off : Fin 3 → Nat} (h : off = ![j.val, 0, 0])
    (inb : ∀ a, off a + S1x32x256.size a ≤ S48x32x256.size a) :
    ((commM : Memref sig .tc .vmem S48x32x256 .bf16).access (Rect.unit (s := S48x32x256) off S1x32x256.size inb)).set = (slotM j).view.set := by
  subst h
  rw [slot_set]
  exact View.set_slice_whole cc0_scratch0 _

/-- info: 'Cert.KernelIdeal.Proto.mem_slot' depends on axioms: [propext, Classical.choice, Quot.sound] -/
#guard_msgs in #print axioms mem_slot
/-- info: 'Cert.KernelIdeal.Proto.comm_split' depends on axioms: [propext, Classical.choice, Quot.sound] -/
#guard_msgs in #print axioms comm_split
/-- info: 'Cert.KernelIdeal.Proto.comm_join' depends on axioms: [propext, Classical.choice, Quot.sound] -/
#guard_msgs in #print axioms comm_join
/-- info: 'Cert.KernelIdeal.Proto.slot_share3' depends on axioms: [propext, Classical.choice, Quot.sound] -/
#guard_msgs in #print axioms slot_share3
/-- info: 'Cert.KernelIdeal.Proto.slot_congr' depends on axioms: [propext, Classical.choice, Quot.sound] -/
#guard_msgs in #print axioms slot_congr
/-- info: 'Cert.KernelIdeal.Proto.slot_land' depends on axioms: [propext, Classical.choice, Quot.sound] -/
#guard_msgs in #print axioms slot_land
/-- info: 'Cert.KernelIdeal.Proto.comm_readAt' depends on axioms: [propext, Classical.choice, Quot.sound] -/
#guard_msgs in #print axioms comm_readAt
/-- info: 'Cert.KernelIdeal.Proto.comm_write_slot' depends on axioms: [propext, Classical.choice, Quot.sound] -/
#guard_msgs in #print axioms comm_write_slot
/-- info: 'Cert.KernelIdeal.Proto.comm_write_off' depends on axioms: [propext, Classical.choice, Quot.sound] -/
#guard_msgs in #print axioms comm_write_off

end Cert.KernelIdeal.Proto

end
-- ==== Proof.Send.lean ====
import proofs.«900970_g7700000000000971_dist_mlpseq_tp1dT_cs_cs_b128_d128_h256_v7x_i4_f32_1_alg».proof.Proof.Steps
import proofs.«900970_g7700000000000971_dist_mlpseq_tp1dT_cs_cs_b128_d128_h256_v7x_i4_f32_1_alg».proof.Proof.Slots

/-! A transfer at this protocol's cells: the source slot lent at its share, the destination slot rewritten. -/

noncomputable section

namespace Cert.KernelIdeal.Proto

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (cf : (c : Dev nD) → Buf (Elt F) ((commM : Memref sig .tc .vmem S48x32x256 .bf16).view.loc (c : Thread nD τ)))

/-- Transfer `s` of device `c`, addressed to `n = c + offs s`: the source slot at the final contents, lent at the
    transfer's share, the destination slot at whatever it holds; what lands there is the destination's final contents
    (`hcf`: the destination's slot of the final contents is the sender's source slot). -/
theorem wp_send_slot (c n : Dev nD) (s : Fin 36) (hn : n = pr c (offs s)) (κ₁ κ₂ : ℕ)
    (hcf : ∀ i : CIdx, (i 0).val = (dstSlot s).val → cf (pr c (offs s)) i = cf c (slotIdx (srcSlot s) (i 1) (i 2)))
    {hsc : (slotM (dstSlot s) : Memref sig (Dev.tc n : Thread nD τ).2.kind .vmem S32x256 .bf16).view.ref.isScScratch = false}
    {hsrc : (slotM (srcSlot s)).view.WordExact} {hdst : (slotM (dstSlot s)).view.WordExact}
    {hsem : DmaTarget.Typed .vmem (.dma (recvSem s)) (.remote (Dev.tc n : Thread nD τ) (slotM (dstSlot s)) (.dma (sendSem s)) hsc)}
    {α : Type} {Q : α → sProp 𝕄} {k : PUnit → Prog (TpuEff nD τ sig (Elt F) Λ₀ .tc) α}
    (fd : Buf (Elt F) ((slotM (dstSlot s)).view.loc (pr c (offs s) : Thread nD τ)))
    (O O' : CellTallies nD τ sig Unit) (hO : O' = O + tallyAt (recvCell (pr c (offs s)) s) () N) (W : Waits sig Unit) :
    iprop(cellInv ER (sched cf) κ₁ (sendCell c s) ∗ cellInv ER (sched cf) κ₂ (recvCell (pr c (offs s)) s)
        ∗ slotPts c (srcSlot s) (shareOf s) (cf c) ∗ slotPts (pr c (offs s)) (dstSlot s) fullShare fd
        ∗ owes (c : Thread nD τ) O' W
        ∗ dutyTok ER (sendCell c s) 0 (0 : Fin 3) ∗ reached ER (sendCell c s) 0
        ∗ dutyTok ER (recvCell (pr c (offs s)) s) 0 (0 : Fin 3) ∗ reached ER (recvCell (pr c (offs s)) s) 0)
      ⊢ iprop(((cred (tallyAt (sendCell c s) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM (srcSlot s)) (.remote (Dev.tc n : Thread nD τ) (slotM (dstSlot s)) (.dma (sendSem s)) hsc) (.dma (recvSem s)) hsrc hdst hsem) k) Q) := by
  subst hn
  unfold slotPts
  exact Rounds.wp_send_pointsTo 𝒱₀ ER (sched cf) (c : Thread nD τ) none (κ₁ := κ₁) (κ₂ := κ₂)
    (src := slotM (srcSlot s)) (dst := slotM (dstSlot s)) (c' := (pr c (offs s) : Thread nD τ)) (q := shareOf s) (fs := cf c)
    (r₁ := 0) (r₂ := 0) (d₁ := (0 : Fin 3)) (d₂ := (0 : Fin 3)) (fd := fd)
    (by rw [duties_send]; exact Finset.mem_singleton_self _) (by rw [duties_recv]; exact Finset.mem_singleton_self _)
    () () N rfl (amount_send cf c s 0) (amount_recv cf (pr c (offs s)) s 0) O hO (W := W)
    (by rw [payload_send]; unfold slotPts; exact BI.Entails.refl _)
    (by rw [payload_recv]; exact slot_land (pr c (offs s)) (pr c (offs s)) (srcSlot s) (dstSlot s) (cf c) fd (cf (pr c (offs s))) hcf)

end Cert.KernelIdeal.Proto

end
-- ==== Proof.Meta.lean ====
import Lean
import Idealize.ShloMosaic.Lib.Tactic

/-! Small tactic-building helpers: a literal list of the first `n` numerals, a destructuring of a hypothesis into a family
of numbered names, and a tactic text repeated over a range of numbers. -/

open Lean Elab Tactic Term
open Idealize.SL Idealize.SL.BI
open scoped Idealize.SL.BI
open Idealize.SL.BI.BIBase Idealize.SL.ProofMode

namespace Cert.KernelIdeal.Proto.Meta

/-- `finlist% n` is the list literal `[0, 1, …, n - 1]`. -/
macro "finlist% " n:num : term => do
  let elems := (List.range n.getNat).map fun i => Syntax.mkNumLit (toString i)
  `([$(elems.toArray),*])

/-- `sepfam% Φ n` is the separating conjunction `Φ 0 ∗ Φ 1 ∗ … ∗ Φ (n - 1)`, right-nested. -/
macro "sepfam% " f:term:max n:num : term => do
  let n := n.getNat
  let mk (i : Nat) : MacroM (TSyntax `term) := `($f $(Syntax.mkNumLit (toString i)))
  let mut acc ← mk (n - 1)
  for j in [0 : n - 1] do
    let a ← mk (n - 2 - j)
    acc ← `(iprop($a ∗ $acc))
  return acc

private def substAll (s : String) (subs : List (String × String)) : String :=
  subs.foldl (fun acc (k, v) => acc.replace k v) s

private def runTacticText (src : String) : TacticM Unit := do
  match Parser.runParserCategory (← getEnv) `tactic src with
  | .ok stx => evalTactic stx
  | .error e => throwError "for_i: cannot parse\n{src}\n{e}"

/-- `icases_fam H "P" n` destructures the proof-mode hypothesis `H`, a right-nested separating conjunction of `n` parts,
    into `P0 … P(n-1)`. -/
elab "icases_fam " h:ident pre:str n:num : tactic => do
  let names := (List.range n.getNat).map fun i => s!"{pre.getString}{i}"
  runTacticText s!"icases {h.getId} with ⟨{", ".intercalate names}⟩"

/-- `for_i lo hi "text"` runs the tactic `text` for `i = lo, …, hi - 1` in turn, with `⟪i⟫` replaced by `i`, `⟪L⟫` by
    `i / 3`, `⟪e⟫` by `i % 3`, `⟪k⟫` by `i % 3 + 1`, `⟪src⟫` by `4 (i / 3)` and `⟪dst⟫` by `4 (i / 3) + i % 3 + 1`. -/
elab "for_i " lo:num hi:num txt:str : tactic => do
  for i in [lo.getNat : hi.getNat] do
    runTacticText (substAll txt.getString
      [("⟪i⟫", toString i), ("⟪L⟫", toString (i / 3)), ("⟪e⟫", toString (i % 3)), ("⟪k⟫", toString (i % 3 + 1)),
       ("⟪src⟫", toString (4 * (i / 3))), ("⟪dst⟫", toString (4 * (i / 3) + i % 3 + 1)), ("⟪i+1⟫", toString (i + 1)), ("⟪4i⟫", toString (4 * i)), ("⟪36-i⟫", toString (36 - i)), ("⟪35-i⟫", toString (35 - i)), ("⟪i+4⟫", toString (i + 4))])

/-- `at_i i "text"` runs `text` once with the same replacements at the number `i`. -/
elab "at_i " i:num txt:str : tactic => do
  let i := i.getNat
  runTacticText (substAll txt.getString
    [("⟪i⟫", toString i), ("⟪L⟫", toString (i / 3)), ("⟪e⟫", toString (i % 3)), ("⟪k⟫", toString (i % 3 + 1)),
     ("⟪src⟫", toString (4 * (i / 3))), ("⟪dst⟫", toString (4 * (i / 3) + i % 3 + 1)), ("⟪i+1⟫", toString (i + 1)), ("⟪4i⟫", toString (4 * i)), ("⟪36-i⟫", toString (36 - i)), ("⟪35-i⟫", toString (35 - i)), ("⟪i+4⟫", toString (i + 4))])

end Cert.KernelIdeal.Proto.Meta
-- ==== Proof.Meta2.lean ====
import Lean

/-! A tactic text run at a number: every `⟪e⟫` in the text is replaced by the value of the arithmetic expression `e`
over the variable `i` (numerals, `+`, `-`, `*`, `/`, `%`, parentheses), then the text is parsed and run. The text
is a string literal or the name of a `String` definition. -/

open Lean Elab Tactic Term Meta

namespace Cert.KernelIdeal.Proto.Meta2

/-- The value of the arithmetic text `src` (over numerals only). -/
private def evalArith (src : String) : TacticM Nat := do
  match Parser.runParserCategory (← getEnv) `term src with
  | .error e => throwError "rep: cannot parse the expression {src}: {e}"
  | .ok stx =>
    let e ← Term.elabTermAndSynthesize stx (some (mkConst ``Nat))
    let e ← instantiateMVars e
    let v ← whnf e
    match v.rawNatLit? <|> v.nat? with
    | some n => pure n
    | none =>
      match ← (Meta.evalNat e).run with
      | some n => pure n
      | none => throwError "rep: {src} does not evaluate to a numeral"

/-- `src` with every `⟪e⟫` replaced by the value of `e` at `i`. -/
private def fill (i : Nat) (src : String) : TacticM String := do
  match src.splitOn "⟪" with
  | [] => pure ""
  | first :: rest =>
    let mut out := first
    for piece in rest do
      match piece.splitOn "⟫" with
      | inner :: after =>
        let expr := String.join (inner.toList.map fun ch => if ch == 'i' then s!"({i})" else ch.toString)
        let n ← evalArith expr
        out := out ++ toString n ++ "⟫".intercalate after
      | [] => pure ()
    pure out

private def runText (src : String) : TacticM Unit := do
  match Parser.runParserCategory (← getEnv) `tactic ("(" ++ src ++ ")") with
  | .ok stx => evalTactic stx
  | .error e => throwError "rep: cannot parse\n{src}\n{e}"

/-- The text a `rep` argument denotes: a string literal, or a `String` definition's value. -/
private def textOf (stx : Syntax) : TacticM String := do
  match stx.isStrLit? with
  | some s => pure s
  | none =>
    let e ← Term.elabTermAndSynthesize stx (some (mkConst ``String))
    let v ← whnf (← instantiateMVars e)
    match v with
    | .lit (.strVal s) => pure s
    | _ => throwError "rep: {stx} is not a string literal or a definition that unfolds to one"

/-- `rep i text` runs the tactic text once at the number `i`. -/
elab "rep " i:num txt:term : tactic => do
  runText (← fill i.getNat (← textOf txt))

/-- `rep_range lo hi text` runs it for `i = lo, …, hi - 1` in turn. -/
elab "rep_range " lo:num hi:num txt:term : tactic => do
  let t ← textOf txt
  for i in [lo.getNat : hi.getNat] do
    runText (← fill i t)

/-- `rep_nested lo hi n a b`: for `i = lo, …, hi - 1` in turn, the text `a` at `i`, then the text `b` at
    `n i, …, n i + n - 1`. -/
elab "rep_nested " lo:num hi:num n:num a:term:max b:term:max : tactic => do
  let ta ← textOf a
  let tb ← textOf b
  for i in [lo.getNat : hi.getNat] do
    runText (← fill i ta)
    for j in [n.getNat * i : n.getNat * i + n.getNat] do
      runText (← fill j tb)

end Cert.KernelIdeal.Proto.Meta2
-- ==== Proof.ExecWaits.lean ====
import proofs.«900970_g7700000000000971_dist_mlpseq_tp1dT_cs_cs_b128_d128_h256_v7x_i4_f32_1_alg».proof.Proof.Protocol

/-!
The evidence a device needs to wait on one of its own cells while it still owes payments: every payment left lies
strictly above the level of the cell waited on. A receive cell of stage `L` (level `L + 2`) may be waited on once all
transfers of the stages up to `L + 1` have been started; a send cell (level 0) at any time; the barrier cell (level 1)
once the three entry signals have been sent.
-/

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- With `r` payments left, all of them of stages after `s / 3 + 1`, device `c` may wait on its receive cell `s`. -/
theorem mayWait_recv (c : Dev nD) (s : Fin 36) (r : ℕ) (hr : r + 3 * (s.val / 3) ≤ 33) :
    (levAts Lset lv : sProp 𝕄) ⊢ MayWait (c : Thread nD τ) (.dma (recvSem s)) () (owedRem c r) :=
  mayWait_of c (.dma (recvSem s)) r (s.val / 3 + 2) (by omega) (le_of_eq (lv_recv c s)) (fun i h1 h2 => by split <;> omega)

/-- Device `c` may wait on a send cell of its own whatever it still owes. -/
theorem mayWait_send (c : Dev nD) (s : Fin 36) (r : ℕ) (hr : r ≤ 39) :
    (levAts Lset lv : sProp 𝕄) ⊢ MayWait (c : Thread nD τ) (.dma (sendSem s)) () (owedRem c r) :=
  mayWait_of c (.dma (sendSem s)) r 0 hr (le_of_eq (lv_send c s)) (fun i h1 h2 => by split <;> omega)

/-- Once its three entry signals are sent (at most 36 payments left), device `c` may wait on its barrier cell. -/
theorem mayWait_bar (c : Dev nD) (r : ℕ) (hr : r ≤ 36) :
    (levAts Lset lv : sProp 𝕄) ⊢ MayWait (c : Thread nD τ) (.reg barS) () (owedRem c r) :=
  mayWait_of c (.reg barS) r 1 (by omega) (le_of_eq (lv_bar c)) (fun i h1 h2 => by split <;> omega)

/-- info: 'Cert.KernelIdeal.Proto.mayWait_recv' depends on axioms: [propext, Classical.choice, Quot.sound] -/
#guard_msgs in #print axioms mayWait_recv

end Cert.KernelIdeal.Proto

end
-- ==== Proof.ContentsFacts.lean ====
import proofs.«900970_g7700000000000971_dist_mlpseq_tp1dT_cs_cs_b128_d128_h256_v7x_i4_f32_1_alg».proof.Proof.Contents
import proofs.«900970_g7700000000000971_dist_mlpseq_tp1dT_cs_cs_b128_d128_h256_v7x_i4_f32_1_alg».proof.Proof.Slots
import proofs.«900970_g7700000000000971_dist_mlpseq_tp1dT_cs_cs_b128_d128_h256_v7x_i4_f32_1_alg».proof.Proof.Spec

/-!
Facts about the communication buffer's final contents: the slot a transfer lands is the sender's source slot; a load of
a slot through the whole buffer reads that slot's value; a slot's value at the literal slot numbers is a device's own or
a peer's partial product; a store of a device's own slot value leaves the final contents on that slot.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-- A slot's value named by its layer, device and row piece. -/
theorem slotVal_eq (c : Dev nD) (j l : ℕ) (d : Dev nD) (p : Fin 4) (hl : j / 16 = l)
    (hd : Spec.peer c ((4 - j % 4) % 4) = d) (hp : j / 4 % 4 = p.val) :
    slotVal m c j = Spec.slot (part m l d p) := by
  unfold slotVal
  subst hl hd
  have e : (⟨j / 4 % 4, Nat.mod_lt _ (by decide)⟩ : Fin 4) = p := Fin.ext hp
  rw [e]

/-- Slot `4 L` holds the device's own partial product of stage `L`. -/
theorem slotVal_own (c : Dev nD) (L : Fin 12) :
    slotVal m c (4 * L.val) = Spec.slot (part m (L.val / 4) c ⟨L.val % 4, Nat.mod_lt _ (by decide)⟩) := by
  have hL := L.isLt
  have hc : c.val < 4 := c.isLt
  exact slotVal_eq m c (4 * L.val) (L.val / 4) c ⟨L.val % 4, Nat.mod_lt _ (by decide)⟩ (by omega)
    (Fin.ext (by show (c.val + (4 - 4 * L.val % 4) % 4) % 4 = c.val; omega))
    (by show 4 * L.val / 4 % 4 = L.val % 4; omega)

/-- Slot `4 L + k + 1` holds the partial product of stage `L` of the device `3 - k` places on. -/
theorem slotVal_recv (c : Dev nD) (L : Fin 12) (k : Fin 3) :
    slotVal m c (4 * L.val + k.val + 1) = Spec.slot (part m (L.val / 4) (Spec.peer c (3 - k.val)) ⟨L.val % 4, Nat.mod_lt _ (by decide)⟩) := by
  have hL := L.isLt
  have hk := k.isLt
  have hc : c.val < 4 := c.isLt
  exact slotVal_eq m c (4 * L.val + k.val + 1) (L.val / 4) (Spec.peer c (3 - k.val)) ⟨L.val % 4, Nat.mod_lt _ (by decide)⟩ (by omega)
    (Fin.ext (by show (c.val + (4 - (4 * L.val + k.val + 1) % 4) % 4) % 4 = (c.val + (3 - k.val)) % 4; omega))
    (by show (4 * L.val + k.val + 1) / 4 % 4 = L.val % 4; omega)

/-- The slot transfer `s` lands on the addressed device ends at what the sender's source slot holds. -/
theorem hcf_send (c : Dev nD) (s : Fin 36) :
    ∀ i : CIdx, (i 0).val = (dstSlot s).val → cfin m (pr c (offs s)) i = cfin m c (slotIdx (srcSlot s) (i 1) (i 2)) := by
  intro i hi
  have hs := s.isLt
  have hc : c.val < 4 := c.isLt
  have e : slotVal m (pr c (offs s)) (dstSlot s).val = slotVal m c (srcSlot s).val := by
    rw [slotVal_eq m (pr c (offs s)) (dstSlot s).val (s.val / 3 / 4) c ⟨s.val / 3 % 4, Nat.mod_lt _ (by decide)⟩
        (by show (4 * (s.val / 3) + s.val % 3 + 1) / 16 = s.val / 3 / 4; omega)
        (Fin.ext (by
          show ((c.val + (s.val % 3 + 1)) % 4 + (4 - (4 * (s.val / 3) + s.val % 3 + 1) % 4) % 4) % 4 = c.val
          omega))
        (by show (4 * (s.val / 3) + s.val % 3 + 1) / 4 % 4 = s.val / 3 % 4; omega),
      slotVal_eq m c (srcSlot s).val (s.val / 3 / 4) c ⟨s.val / 3 % 4, Nat.mod_lt _ (by decide)⟩
        (by show 4 * (s.val / 3) / 16 = s.val / 3 / 4; omega)
        (Fin.ext (by show (c.val + (4 - 4 * (s.val / 3) % 4) % 4) % 4 = c.val; omega))
        (by show 4 * (s.val / 3) / 4 % 4 = s.val / 3 % 4; omega)]
  show slotVal m (pr c (offs s)) (i 0).val (ix3 (0 : Fin 1) (i 1) (i 2)) = slotVal m c (srcSlot s).val (ix3 (0 : Fin 1) (i 1) (i 2))
  rw [hi, e]

omit [FloatOps F] in
/-- A `[1, 32, 256]` index is the one its two last coordinates name, after a zero. -/
theorem ix3_eta (y : S1x32x256.Idx) : ix3 (0 : Fin 1) (y 1) (y 2) = y :=
  funext fun a => Fin.ext <| match a with
    | ⟨0, _⟩ => by have := (y 0).isLt; show 0 = (y 0).val; have e : S1x32x256.size 0 = 1 := rfl; omega
    | ⟨1, _⟩ => rfl
    | ⟨2, _⟩ => rfl

omit [FloatOps F] in
theorem rowIdx_ix3 (a : Fin 32) (b : Fin 256) : rowIdx a b = ix3 (0 : Fin 1) a b :=
  funext fun x => Fin.ext <| match x with
    | ⟨0, _⟩ => rfl
    | ⟨1, _⟩ => rfl
    | ⟨2, _⟩ => rfl

/-- A load of slot `j` through the whole buffer at its final contents reads the slot's value. -/
theorem cfin_read (c : Dev nD) (j : Fin 48) {off : Fin 3 → Nat} (h : off = ![j.val, 0, 0])
    (inb : ∀ a, off a + S1x32x256.size a ≤ S48x32x256.size a) :
    (commM : Memref sig .tc .vmem S48x32x256 .bf16).view.readAt (Elt F) (Rect.unit (s := S48x32x256) off S1x32x256.size inb).toLoadRect (cfin m c)
      = slotVal m c j.val := by
  rw [comm_readAt c j h inb]
  funext y
  exact congrArg (slotVal m c j.val) (ix3_eta y)

/-- A store of the device's own slot value of stage `L` to slot `4 L` leaves the final contents on that slot. -/
theorem cfin_store (c : Dev nD) (L : Fin 12) {off : Fin 3 → Nat} (h : off = ![4 * L.val, 0, 0])
    (inb : ∀ a, off a + S1x32x256.size a ≤ S48x32x256.size a)
    (f : Buf (Elt F) ((commM : Memref sig .tc .vmem S48x32x256 .bf16).view.loc (c : Thread nD τ)))
    (w : S1x32x256.Idx → Elt F .bf16) (hw : w = slotVal m c (4 * L.val)) :
    ∀ i : CIdx, (i 0).val = 4 * L.val →
      ((commM : Memref sig .tc .vmem S48x32x256 .bf16).access (Rect.unit (s := S48x32x256) off S1x32x256.size inb)).write (Elt F) f w Finset.univ i
        = cfin m c i := by
  intro i hi
  have hL := L.isLt
  rw [comm_write_slot c (⟨4 * L.val, by omega⟩ : Fin 48) h inb f w i hi, hw]
  show slotVal m c (4 * L.val) (rowIdx (i 1) (i 2)) = slotVal m c (i 0).val (ix3 (0 : Fin 1) (i 1) (i 2))
  rw [hi]
  exact congrArg (slotVal m c (4 * L.val)) (rowIdx_ix3 (i 1) (i 2))

/-- info: 'Cert.KernelIdeal.Proto.hcf_send' depends on axioms: [propext, Classical.choice, Quot.sound] -/
#guard_msgs in #print axioms hcf_send
/-- info: 'Cert.KernelIdeal.Proto.cfin_read' depends on axioms: [propext, Classical.choice, Quot.sound] -/
#guard_msgs in #print axioms cfin_read
/-- info: 'Cert.KernelIdeal.Proto.cfin_store' depends on axioms: [propext, Classical.choice, Quot.sound] -/
#guard_msgs in #print axioms cfin_store

end Cert.KernelIdeal.Proto

end
-- ==== Proof.SpecPay.lean ====
/-
  Each arithmetic term the kernel body computes between two memory operations is one of the
  specification's building blocks: a partial product, a partial product put in a slot, one or two
  received slots added to a running sum, the rectified sum times the output weights, and that
  product times the next layer's input weights.  Every equation holds by unfolding definitions.
-/
import proofs.«900970_g7700000000000971_dist_mlpseq_tp1dT_cs_cs_b128_d128_h256_v7x_i4_f32_1_alg».proof.Proof.Spec
import proofs.«900970_g7700000000000971_dist_mlpseq_tp1dT_cs_cs_b128_d128_h256_v7x_i4_f32_1_alg».proof.Proof.Gen.KernelIdeal.Skeleton

noncomputable section

namespace Cert.KernelIdeal.Gen

open Idealize.ShloMosaic Idealize.SL.Sem

variable {F : FTy → Type} [FloatOps F]

theorem k0_pay1_eq (v16 : Vec F S32x128 .f32) (v19 : Vec F S128x256 .f32) :
    k0_pay1 v16 v19 = Spec.mmIn v16 v19 := rfl
theorem k0_pay2_eq (v16 : Vec F S32x128 .f32) (v19 : Vec F S128x256 .f32) :
    k0_pay2 v16 v19 = Spec.slot (Spec.mmIn v16 v19) := rfl
theorem k0_pay3_eq (v63 : Vec F S32x128 .f32) (v66 : Vec F S128x256 .f32) :
    k0_pay3 v63 v66 = Spec.mmIn v63 v66 := rfl
theorem k0_pay4_eq (v63 : Vec F S32x128 .f32) (v66 : Vec F S128x256 .f32) :
    k0_pay4 v63 v66 = Spec.slot (Spec.mmIn v63 v66) := rfl
theorem k0_pay9_eq (v157 : Vec F S32x128 .f32) (v160 : Vec F S128x256 .f32) :
    k0_pay9 v157 v160 = Spec.mmIn v157 v160 := rfl
theorem k0_pay10_eq (v157 : Vec F S32x128 .f32) (v160 : Vec F S128x256 .f32) :
    k0_pay10 v157 v160 = Spec.slot (Spec.mmIn v157 v160) := rfl
theorem k0_pay11_eq (v22 : FVec F S32x256 .f32) (v212 : Vec F S1x32x256 .bf16) (v224 : Vec F S1x32x256 .bf16) :
    k0_pay11 v22 v212 v224 = Spec.add1 (Spec.add1 v22 v212) v224 := rfl
theorem k0_pay12_eq (v227 : FVec F S32x256 .f32) (v236 : Vec F S1x32x256 .bf16) (v243 : Vec F S256x128 .f32) (v248 : Vec F S128x256 .f32) :
    k0_pay12 v227 v236 v243 v248 = Spec.mmNext (Spec.mmOut (Spec.add1 v227 v236) v243) v248 := rfl
theorem k0_pay13_eq (v227 : FVec F S32x256 .f32) (v236 : Vec F S1x32x256 .bf16) (v243 : Vec F S256x128 .f32) (v248 : Vec F S128x256 .f32) :
    k0_pay13 v227 v236 v243 v248 = Spec.slot (Spec.mmNext (Spec.mmOut (Spec.add1 v227 v236) v243) v248) := rfl
theorem k0_pay14_eq (v69 : FVec F S32x256 .f32) (v300 : Vec F S1x32x256 .bf16) (v312 : Vec F S1x32x256 .bf16) :
    k0_pay14 v69 v300 v312 = Spec.add1 (Spec.add1 v69 v300) v312 := rfl
theorem k0_pay15_eq (v315 : FVec F S32x256 .f32) (v324 : Vec F S1x32x256 .bf16) (v331 : Vec F S256x128 .f32) (v336 : Vec F S128x256 .f32) :
    k0_pay15 v315 v324 v331 v336 = Spec.mmNext (Spec.mmOut (Spec.add1 v315 v324) v331) v336 := rfl
theorem k0_pay16_eq (v315 : FVec F S32x256 .f32) (v324 : Vec F S1x32x256 .bf16) (v331 : Vec F S256x128 .f32) (v336 : Vec F S128x256 .f32) :
    k0_pay16 v315 v324 v331 v336 = Spec.slot (Spec.mmNext (Spec.mmOut (Spec.add1 v315 v324) v331) v336) := rfl
theorem k0_pay17_eq (v116 : FVec F S32x256 .f32) (v388 : Vec F S1x32x256 .bf16) (v400 : Vec F S1x32x256 .bf16) :
    k0_pay17 v116 v388 v400 = Spec.add1 (Spec.add1 v116 v388) v400 := rfl
theorem k0_pay18_eq (v403 : FVec F S32x256 .f32) (v412 : Vec F S1x32x256 .bf16) (v419 : Vec F S256x128 .f32) (v424 : Vec F S128x256 .f32) :
    k0_pay18 v403 v412 v419 v424 = Spec.mmNext (Spec.mmOut (Spec.add1 v403 v412) v419) v424 := rfl
theorem k0_pay19_eq (v403 : FVec F S32x256 .f32) (v412 : Vec F S1x32x256 .bf16) (v419 : Vec F S256x128 .f32) (v424 : Vec F S128x256 .f32) :
    k0_pay19 v403 v412 v419 v424 = Spec.slot (Spec.mmNext (Spec.mmOut (Spec.add1 v403 v412) v419) v424) := rfl
theorem k0_pay20_eq (v163 : FVec F S32x256 .f32) (v476 : Vec F S1x32x256 .bf16) (v488 : Vec F S1x32x256 .bf16) :
    k0_pay20 v163 v476 v488 = Spec.add1 (Spec.add1 v163 v476) v488 := rfl
theorem k0_pay21_eq (v491 : FVec F S32x256 .f32) (v500 : Vec F S1x32x256 .bf16) (v507 : Vec F S256x128 .f32) (v512 : Vec F S128x256 .f32) :
    k0_pay21 v491 v500 v507 v512 = Spec.mmNext (Spec.mmOut (Spec.add1 v491 v500) v507) v512 := rfl
theorem k0_pay22_eq (v491 : FVec F S32x256 .f32) (v500 : Vec F S1x32x256 .bf16) (v507 : Vec F S256x128 .f32) (v512 : Vec F S128x256 .f32) :
    k0_pay22 v491 v500 v507 v512 = Spec.slot (Spec.mmNext (Spec.mmOut (Spec.add1 v491 v500) v507) v512) := rfl
theorem k0_pay23_eq (v251 : FVec F S32x256 .f32) (v564 : Vec F S1x32x256 .bf16) (v576 : Vec F S1x32x256 .bf16) :
    k0_pay23 v251 v564 v576 = Spec.add1 (Spec.add1 v251 v564) v576 := rfl
theorem k0_pay24_eq (v579 : FVec F S32x256 .f32) (v588 : Vec F S1x32x256 .bf16) (v595 : Vec F S256x128 .f32) (v600 : Vec F S128x256 .f32) :
    k0_pay24 v579 v588 v595 v600 = Spec.mmNext (Spec.mmOut (Spec.add1 v579 v588) v595) v600 := rfl
theorem k0_pay25_eq (v579 : FVec F S32x256 .f32) (v588 : Vec F S1x32x256 .bf16) (v595 : Vec F S256x128 .f32) (v600 : Vec F S128x256 .f32) :
    k0_pay25 v579 v588 v595 v600 = Spec.slot (Spec.mmNext (Spec.mmOut (Spec.add1 v579 v588) v595) v600) := rfl
theorem k0_pay26_eq (v339 : FVec F S32x256 .f32) (v652 : Vec F S1x32x256 .bf16) (v664 : Vec F S1x32x256 .bf16) :
    k0_pay26 v339 v652 v664 = Spec.add1 (Spec.add1 v339 v652) v664 := rfl
theorem k0_pay27_eq (v667 : FVec F S32x256 .f32) (v676 : Vec F S1x32x256 .bf16) (v683 : Vec F S256x128 .f32) (v688 : Vec F S128x256 .f32) :
    k0_pay27 v667 v676 v683 v688 = Spec.mmNext (Spec.mmOut (Spec.add1 v667 v676) v683) v688 := rfl
theorem k0_pay28_eq (v667 : FVec F S32x256 .f32) (v676 : Vec F S1x32x256 .bf16) (v683 : Vec F S256x128 .f32) (v688 : Vec F S128x256 .f32) :
    k0_pay28 v667 v676 v683 v688 = Spec.slot (Spec.mmNext (Spec.mmOut (Spec.add1 v667 v676) v683) v688) := rfl
theorem k0_pay29_eq (v427 : FVec F S32x256 .f32) (v740 : Vec F S1x32x256 .bf16) (v752 : Vec F S1x32x256 .bf16) :
    k0_pay29 v427 v740 v752 = Spec.add1 (Spec.add1 v427 v740) v752 := rfl
theorem k0_pay30_eq (v755 : FVec F S32x256 .f32) (v764 : Vec F S1x32x256 .bf16) (v771 : Vec F S256x128 .f32) (v776 : Vec F S128x256 .f32) :
    k0_pay30 v755 v764 v771 v776 = Spec.mmNext (Spec.mmOut (Spec.add1 v755 v764) v771) v776 := rfl
theorem k0_pay31_eq (v755 : FVec F S32x256 .f32) (v764 : Vec F S1x32x256 .bf16) (v771 : Vec F S256x128 .f32) (v776 : Vec F S128x256 .f32) :
    k0_pay31 v755 v764 v771 v776 = Spec.slot (Spec.mmNext (Spec.mmOut (Spec.add1 v755 v764) v771) v776) := rfl
theorem k0_pay32_eq (v515 : FVec F S32x256 .f32) (v828 : Vec F S1x32x256 .bf16) (v840 : Vec F S1x32x256 .bf16) :
    k0_pay32 v515 v828 v840 = Spec.add1 (Spec.add1 v515 v828) v840 := rfl
theorem k0_pay33_eq (v843 : FVec F S32x256 .f32) (v852 : Vec F S1x32x256 .bf16) (v859 : Vec F S256x128 .f32) (v864 : Vec F S128x256 .f32) :
    k0_pay33 v843 v852 v859 v864 = Spec.mmNext (Spec.mmOut (Spec.add1 v843 v852) v859) v864 := rfl
theorem k0_pay34_eq (v843 : FVec F S32x256 .f32) (v852 : Vec F S1x32x256 .bf16) (v859 : Vec F S256x128 .f32) (v864 : Vec F S128x256 .f32) :
    k0_pay34 v843 v852 v859 v864 = Spec.slot (Spec.mmNext (Spec.mmOut (Spec.add1 v843 v852) v859) v864) := rfl
theorem k0_pay35_eq (v603 : FVec F S32x256 .f32) (v916 : Vec F S1x32x256 .bf16) (v928 : Vec F S1x32x256 .bf16) :
    k0_pay35 v603 v916 v928 = Spec.add1 (Spec.add1 v603 v916) v928 := rfl
theorem k0_pay36_eq (v931 : FVec F S32x256 .f32) (v940 : Vec F S1x32x256 .bf16) (v947 : Vec F S256x128 .f32) :
    k0_pay36 v931 v940 v947 = Spec.mmOut (Spec.add1 v931 v940) v947 := rfl
theorem k0_pay37_eq (v691 : FVec F S32x256 .f32) (v959 : Vec F S1x32x256 .bf16) :
    k0_pay37 v691 v959 = Spec.add1 v691 v959 := rfl
theorem k0_pay38_eq (v962 : FVec F S32x256 .f32) (v971 : Vec F S1x32x256 .bf16) (v983 : Vec F S1x32x256 .bf16) (v990 : Vec F S256x128 .f32) :
    k0_pay38 v962 v971 v983 v990 = Spec.mmOut (Spec.add1 (Spec.add1 v962 v971) v983) v990 := rfl
theorem k0_pay39_eq (v779 : FVec F S32x256 .f32) (v1002 : Vec F S1x32x256 .bf16) (v1014 : Vec F S1x32x256 .bf16) :
    k0_pay39 v779 v1002 v1014 = Spec.add1 (Spec.add1 v779 v1002) v1014 := rfl
theorem k0_pay40_eq (v1017 : FVec F S32x256 .f32) (v1026 : Vec F S1x32x256 .bf16) (v1033 : Vec F S256x128 .f32) :
    k0_pay40 v1017 v1026 v1033 = Spec.mmOut (Spec.add1 v1017 v1026) v1033 := rfl
theorem k0_pay41_eq (v867 : FVec F S32x256 .f32) (v1045 : Vec F S1x32x256 .bf16) :
    k0_pay41 v867 v1045 = Spec.add1 v867 v1045 := rfl
theorem k0_pay42_eq (v1048 : FVec F S32x256 .f32) (v1057 : Vec F S1x32x256 .bf16) (v1069 : Vec F S1x32x256 .bf16) (v1076 : Vec F S256x128 .f32) :
    k0_pay42 v1048 v1057 v1069 v1076 = Spec.mmOut (Spec.add1 (Spec.add1 v1048 v1057) v1069) v1076 := rfl
theorem k0_pay7_eq (a : Vec F S32x128 .f32) (w : Vec F S128x256 .f32) :
    k0_pay7 (k0_pay5 a) (k0_pay6 w) = Spec.mmIn a w := rfl
theorem k0_pay8_eq (a : Vec F S32x128 .f32) (w : Vec F S128x256 .f32) :
    k0_pay8 (k0_pay5 a) (k0_pay6 w) = Spec.slot (Spec.mmIn a w) := rfl

end Cert.KernelIdeal.Gen

end
-- ==== Proof.BodyValues.lean ====
import proofs.«900970_g7700000000000971_dist_mlpseq_tp1dT_cs_cs_b128_d128_h256_v7x_i4_f32_1_alg».proof.Proof.BodyDefs
import proofs.«900970_g7700000000000971_dist_mlpseq_tp1dT_cs_cs_b128_d128_h256_v7x_i4_f32_1_alg».proof.Proof.ContentsFacts
import proofs.«900970_g7700000000000971_dist_mlpseq_tp1dT_cs_cs_b128_d128_h256_v7x_i4_f32_1_alg».proof.Proof.SpecPay
import Idealize.ShloMosaic.Lib.Writes

/-!
The values a device's body reads and computes, as terms of the specification: a piece of the staged activations is
the specification's row piece; the staged weight blocks are the specification's weights; a stage's sum of the own
partial product and the three received slots, rectified and multiplied out, is the next layer's partial product (and,
in the last layer, the piece of the result); four row pieces stored into the result's buffer make the result block.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The staged blocks -/

theorem iblk0_eq (c : Dev nD) : (iblk m c 0 t₀ : Vec F S128x128 .f32) = xin m c := rfl
theorem iblk1_eq (c : Dev nD) : (iblk m c 1 t₀ : Vec F S128x256 .f32) = win m 0 c := rfl
theorem iblk2_eq (c : Dev nD) : (iblk m c 2 t₀ : Vec F S256x128 .f32) = wout m 0 c := rfl
theorem iblk3_eq (c : Dev nD) : (iblk m c 3 t₀ : Vec F S128x256 .f32) = win m 1 c := rfl
theorem iblk4_eq (c : Dev nD) : (iblk m c 4 t₀ : Vec F S256x128 .f32) = wout m 1 c := rfl
theorem iblk5_eq (c : Dev nD) : (iblk m c 5 t₀ : Vec F S128x256 .f32) = win m 2 c := rfl
theorem iblk6_eq (c : Dev nD) : (iblk m c 6 t₀ : Vec F S256x128 .f32) = wout m 2 c := rfl

/-- Rows `32 p … 32 p + 31` of the staged activations are the specification's row piece `p`. -/
theorem x_read (c : Dev nD) (p : Fin 4) {off : Fin 2 → Nat} (h : off = ![32 * p.val, 0])
    (inb : ∀ a, off a + S32x128.size a ≤ S128x128.size a) :
    (Memref.whole cc0_stg0_0 : Memref sig .tc .vmem S128x128 .f32).view.readAt (Elt F)
        (Rect.unit (s := S128x128) off S32x128.size inb).toLoadRect (iblk m c 0 t₀) = Spec.xrows (xin m) c p := by
  subst h
  funext y
  rw [View.readAt_rect, View.read_apply, View.emb_slice]
  show xin m c ((Rect.unit (s := S128x128) ![32 * p.val, 0] S32x128.size inb).emb y) = _
  exact congrFun (Spec.xrows_eq (xin m) c p (fun i => (Rect.unit (s := S128x128) ![32 * p.val, 0] S32x128.size inb).emb i)
    (fun i => by rw [Rect.emb_apply]; show 32 * p.val + 1 * (i 0).val = 32 * p.val + (i 0).val; omega)
    (fun i => by rw [Rect.emb_apply]; show 0 + 1 * (i 1).val = (i 1).val; omega)) y

omit [FloatOps F] in
theorem zero2 {off : Fin 2 → Nat} (h : off = ![0, 0]) : off = fun _ => 0 := by
  subst h; funext a; fin_cases a <;> rfl

/-- A staged weight block read whole is the specification's weight block. -/
theorem win0_read (c : Dev nD) {off : Fin 2 → Nat} (h : off = ![0, 0]) (inb : ∀ a, off a + S128x256.size a ≤ S128x256.size a) :
    (Memref.whole cc0_stg1_0 : Memref sig .tc .vmem S128x256 .f32).view.readAt (Elt F)
        (Rect.unit (s := S128x256) off S128x256.size inb).toLoadRect (iblk m c 1 t₀) = win m 0 c :=
  Memref.readAt_unit_zero (Elt F) cc0_stg1_0 (zero2 h) inb _
theorem win1_read (c : Dev nD) {off : Fin 2 → Nat} (h : off = ![0, 0]) (inb : ∀ a, off a + S128x256.size a ≤ S128x256.size a) :
    (Memref.whole cc0_stg3_0 : Memref sig .tc .vmem S128x256 .f32).view.readAt (Elt F)
        (Rect.unit (s := S128x256) off S128x256.size inb).toLoadRect (iblk m c 3 t₀) = win m 1 c :=
  Memref.readAt_unit_zero (Elt F) cc0_stg3_0 (zero2 h) inb _
theorem win2_read (c : Dev nD) {off : Fin 2 → Nat} (h : off = ![0, 0]) (inb : ∀ a, off a + S128x256.size a ≤ S128x256.size a) :
    (Memref.whole cc0_stg5_0 : Memref sig .tc .vmem S128x256 .f32).view.readAt (Elt F)
        (Rect.unit (s := S128x256) off S128x256.size inb).toLoadRect (iblk m c 5 t₀) = win m 2 c :=
  Memref.readAt_unit_zero (Elt F) cc0_stg5_0 (zero2 h) inb _
theorem wout0_read (c : Dev nD) {off : Fin 2 → Nat} (h : off = ![0, 0]) (inb : ∀ a, off a + S256x128.size a ≤ S256x128.size a) :
    (Memref.whole cc0_stg2_0 : Memref sig .tc .vmem S256x128 .f32).view.readAt (Elt F)
        (Rect.unit (s := S256x128) off S256x128.size inb).toLoadRect (iblk m c 2 t₀) = wout m 0 c :=
  Memref.readAt_unit_zero (Elt F) cc0_stg2_0 (zero2 h) inb _
theorem wout1_read (c : Dev nD) {off : Fin 2 → Nat} (h : off = ![0, 0]) (inb : ∀ a, off a + S256x128.size a ≤ S256x128.size a) :
    (Memref.whole cc0_stg4_0 : Memref sig .tc .vmem S256x128 .f32).view.readAt (Elt F)
        (Rect.unit (s := S256x128) off S256x128.size inb).toLoadRect (iblk m c 4 t₀) = wout m 1 c :=
  Memref.readAt_unit_zero (Elt F) cc0_stg4_0 (zero2 h) inb _
theorem wout2_read (c : Dev nD) {off : Fin 2 → Nat} (h : off = ![0, 0]) (inb : ∀ a, off a + S256x128.size a ≤ S256x128.size a) :
    (Memref.whole cc0_stg6_0 : Memref sig .tc .vmem S256x128 .f32).view.readAt (Elt F)
        (Rect.unit (s := S256x128) off S256x128.size inb).toLoadRect (iblk m c 6 t₀) = wout m 2 c :=
  Memref.readAt_unit_zero (Elt F) cc0_stg6_0 (zero2 h) inb _

/-! ## The stages -/

/-- The first layer's partial product. -/
theorem stage_first (c : Dev nD) (p : Fin 4) : Spec.mmIn (Spec.xrows (xin m) c p) (win m 0 c) = part m 0 c p := rfl

/-- Slot `16 l + 4 p + k + 1` holds the partial product of layer `l`, piece `p`, of the device `3 - k` places on. -/
theorem slotVal_at (c : Dev nD) (l : ℕ) (p : Fin 4) (k : Fin 3) {j : ℕ} (hj : j = 16 * l + 4 * p.val + k.val + 1) :
    slotVal m c j = Spec.slot (part m l (Spec.peer c (3 - k.val)) p) := by
  have hp := p.isLt
  have hk := k.isLt
  have hc : c.val < 4 := c.isLt
  subst hj
  exact slotVal_eq m c _ l (Spec.peer c (3 - k.val)) p (by omega)
    (Fin.ext (by show (c.val + (4 - (16 * l + 4 * p.val + k.val + 1) % 4) % 4) % 4 = (c.val + (3 - k.val)) % 4; omega))
    (by omega)

/-- The own partial product and the three received slots, added in the order of the waits, are the specification's sum. -/
theorem acc_eq (c : Dev nD) (l : ℕ) (p : Fin 4) {j1 j3 j2 : ℕ}
    (h1 : j1 = 16 * l + 4 * p.val + 1) (h3 : j3 = 16 * l + 4 * p.val + 3) (h2 : j2 = 16 * l + 4 * p.val + 2) :
    Spec.add1 (Spec.add1 (Spec.add1 (part m l c p) (slotVal m c j1)) (slotVal m c j3)) (slotVal m c j2)
      = Spec.accOf (Spec.partL (xin m) (win m) (wout m) l) c p := by
  rw [slotVal_at m c l p 0 (j := j1) (by rw [h1]; rfl), slotVal_at m c l p 2 (j := j3) (by rw [h3]; rfl),
    slotVal_at m c l p 1 (j := j2) (by rw [h2]; rfl)]
  rfl

/-- A stage of a layer that is not the last: the next layer's partial product. -/
theorem stage_next (c : Dev nD) (l : ℕ) (p : Fin 4) {j1 j3 j2 : ℕ}
    (h1 : j1 = 16 * l + 4 * p.val + 1) (h3 : j3 = 16 * l + 4 * p.val + 3) (h2 : j2 = 16 * l + 4 * p.val + 2) :
    Spec.mmNext (Spec.mmOut (Spec.add1 (Spec.add1 (Spec.add1 (part m l c p) (slotVal m c j1)) (slotVal m c j3)) (slotVal m c j2))
        (wout m l c)) (win m (l + 1) c) = part m (l + 1) c p := by
  rw [acc_eq m c l p h1 h3 h2]
  rfl

/-- A stage of the last layer: the piece of the result. -/
theorem stage_last (c : Dev nD) (p : Fin 4) {j1 j3 j2 : ℕ}
    (h1 : j1 = 32 + 4 * p.val + 1) (h3 : j3 = 32 + 4 * p.val + 3) (h2 : j2 = 32 + 4 * p.val + 2) :
    Spec.mmOut (Spec.add1 (Spec.add1 (Spec.add1 (part m 2 c p) (slotVal m c j1)) (slotVal m c j3)) (slotVal m c j2)) (wout m 2 c)
      = Spec.outPiece (xin m) (win m) (wout m) c p := by
  rw [acc_eq m c 2 p (by omega) (by omega) (by omega)]
  rfl

/-! ## The result block -/

/-- The four row pieces stored into the result's buffer, whatever it held before, make the result block. -/
theorem out_writes (c : Dev nD) (g7 : (Memref.whole cc0_stg7_0 : Memref sig .tc .vmem S128x128 .f32).view.ty.Contents (Elt F))
    (w0 w1 w2 w3 : FVec F S32x128 .f32)
    (h0 : w0 = Spec.outPiece (xin m) (win m) (wout m) c 0) (h1 : w1 = Spec.outPiece (xin m) (win m) (wout m) c 1)
    (h2 : w2 = Spec.outPiece (xin m) (win m) (wout m) c 2) (h3 : w3 = Spec.outPiece (xin m) (win m) (wout m) c 3) :
    (Memref.whole cc0_stg7_0 : Memref sig .tc .vmem S128x128 .f32).view.writes (Elt F) g7
      [⟨Rect.unit (s := S128x128) ![96, 0] S32x128.size inb_S128x128_S32x128_96_0, w3⟩,
       ⟨Rect.unit (s := S128x128) ![64, 0] S32x128.size inb_S128x128_S32x128_64_0, w2⟩,
       ⟨Rect.unit (s := S128x128) ![32, 0] S32x128.size inb_S128x128_S32x128_32_0, w1⟩,
       ⟨Rect.unit (s := S128x128) ![0, 0] S32x128.size inb_S128x128_S32x128_0_0, w0⟩] = outv m c := by
  subst h0 h1 h2 h3
  funext y
  refine (congrFun (View.read_whole (Val := Elt F) cc0_stg7_0 _) y).symm.trans ?_
  refine View.read_writes_apply_of_pieces (Memref.whole cc0_stg7_0 : Memref sig .tc .vmem S128x128 .f32).view g7 (outv m c) _ ?_ y ?_
  swap
  · exact View.cover_of_tiled (s := S128x128) (Val := Elt F) (e := .f32) _ S32x128.size (by rfl) y
  intro p hp
  simp only [List.mem_cons, List.not_mem_nil, or_false] at hp
  rcases hp with rfl | rfl | rfl | rfl
  · intro x
    exact (Spec.outAt_piece (xin m) (win m) (wout m) c 3 x _
      (by rw [Rect.emb_apply]; show 96 + 1 * (x 0).val = 32 * 3 + (x 0).val; omega)
      (by rw [Rect.emb_apply]; show 0 + 1 * (x 1).val = (x 1).val; omega)).symm
  · intro x
    exact (Spec.outAt_piece (xin m) (win m) (wout m) c 2 x _
      (by rw [Rect.emb_apply]; show 64 + 1 * (x 0).val = 32 * 2 + (x 0).val; omega)
      (by rw [Rect.emb_apply]; show 0 + 1 * (x 1).val = (x 1).val; omega)).symm
  · intro x
    exact (Spec.outAt_piece (xin m) (win m) (wout m) c 1 x _
      (by rw [Rect.emb_apply]; show 32 + 1 * (x 0).val = 32 * 1 + (x 0).val; omega)
      (by rw [Rect.emb_apply]; show 0 + 1 * (x 1).val = (x 1).val; omega)).symm
  · intro x
    exact (Spec.outAt_piece (xin m) (win m) (wout m) c 0 x _
      (by rw [Rect.emb_apply]; show 0 + 1 * (x 0).val = 32 * 0 + (x 0).val; omega)
      (by rw [Rect.emb_apply]; show 0 + 1 * (x 1).val = (x 1).val; omega)).symm

/-- info: 'Cert.KernelIdeal.Proto.out_writes' depends on axioms: [propext, Classical.choice, Quot.sound] -/
#guard_msgs in #print axioms out_writes

/-- info: 'Cert.KernelIdeal.Proto.x_read' depends on axioms: [propext, Classical.choice, Quot.sound] -/
#guard_msgs in #print axioms x_read
/-- info: 'Cert.KernelIdeal.Proto.stage_next' depends on axioms: [propext, Classical.choice, Quot.sound] -/
#guard_msgs in #print axioms stage_next
/-- info: 'Cert.KernelIdeal.Proto.stage_last' depends on axioms: [propext, Classical.choice, Quot.sound] -/
#guard_msgs in #print axioms stage_last

end Cert.KernelIdeal.Proto

end
-- ==== Proof.StageValues.lean ====
import proofs.«900970_g7700000000000971_dist_mlpseq_tp1dT_cs_cs_b128_d128_h256_v7x_i4_f32_1_alg».proof.Proof.BodyValues
import proofs.«900970_g7700000000000971_dist_mlpseq_tp1dT_cs_cs_b128_d128_h256_v7x_i4_f32_1_alg».proof.Proof.ContentsFacts
import proofs.«900970_g7700000000000971_dist_mlpseq_tp1dT_cs_cs_b128_d128_h256_v7x_i4_f32_1_alg».proof.Proof.SpecPay

/-!
A stage's value in one step. The terms a device's body carries are loads of the staged blocks and of the landed slots
through the whole buffers; named once, the own partial product of each layer, the value stored into the next layer's
slot and the piece of the result are each a term of the specification.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## The loads, named -/

/-- A slot of the communication buffer loaded through the whole buffer at its final contents. -/
abbrev rdSlot (c : Dev nD) {o : Fin 3 → Nat} (i : ∀ a, o a + S1x32x256.size a ≤ S48x32x256.size a) : Vec F S1x32x256 .bf16 :=
  (commM : Memref sig .tc .vmem S48x32x256 .bf16).view.readAt (Elt F) (Rect.unit (s := S48x32x256) o S1x32x256.size i).toLoadRect (cfin m c)
/-- A row piece of the staged activations. -/
abbrev rdX (c : Dev nD) {o : Fin 2 → Nat} (i : ∀ a, o a + S32x128.size a ≤ S128x128.size a) : Vec F S32x128 .f32 :=
  (Memref.whole cc0_stg0_0 : Memref sig .tc .vmem S128x128 .f32).view.readAt (Elt F) (Rect.unit (s := S128x128) o S32x128.size i).toLoadRect (iblk m c 0 t₀)
/-- The staged input weights of the three layers, loaded whole. -/
abbrev rdWin0 (c : Dev nD) {o : Fin 2 → Nat} (i : ∀ a, o a + S128x256.size a ≤ S128x256.size a) : Vec F S128x256 .f32 :=
  (Memref.whole cc0_stg1_0 : Memref sig .tc .vmem S128x256 .f32).view.readAt (Elt F) (Rect.unit (s := S128x256) o S128x256.size i).toLoadRect (iblk m c 1 t₀)
abbrev rdWin1 (c : Dev nD) {o : Fin 2 → Nat} (i : ∀ a, o a + S128x256.size a ≤ S128x256.size a) : Vec F S128x256 .f32 :=
  (Memref.whole cc0_stg3_0 : Memref sig .tc .vmem S128x256 .f32).view.readAt (Elt F) (Rect.unit (s := S128x256) o S128x256.size i).toLoadRect (iblk m c 3 t₀)
abbrev rdWin2 (c : Dev nD) {o : Fin 2 → Nat} (i : ∀ a, o a + S128x256.size a ≤ S128x256.size a) : Vec F S128x256 .f32 :=
  (Memref.whole cc0_stg5_0 : Memref sig .tc .vmem S128x256 .f32).view.readAt (Elt F) (Rect.unit (s := S128x256) o S128x256.size i).toLoadRect (iblk m c 5 t₀)
/-- The staged output weights of the three layers, loaded whole. -/
abbrev rdWout0 (c : Dev nD) {o : Fin 2 → Nat} (i : ∀ a, o a + S256x128.size a ≤ S256x128.size a) : Vec F S256x128 .f32 :=
  (Memref.whole cc0_stg2_0 : Memref sig .tc .vmem S256x128 .f32).view.readAt (Elt F) (Rect.unit (s := S256x128) o S256x128.size i).toLoadRect (iblk m c 2 t₀)
abbrev rdWout1 (c : Dev nD) {o : Fin 2 → Nat} (i : ∀ a, o a + S256x128.size a ≤ S256x128.size a) : Vec F S256x128 .f32 :=
  (Memref.whole cc0_stg4_0 : Memref sig .tc .vmem S256x128 .f32).view.readAt (Elt F) (Rect.unit (s := S256x128) o S256x128.size i).toLoadRect (iblk m c 4 t₀)
abbrev rdWout2 (c : Dev nD) {o : Fin 2 → Nat} (i : ∀ a, o a + S256x128.size a ≤ S256x128.size a) : Vec F S256x128 .f32 :=
  (Memref.whole cc0_stg6_0 : Memref sig .tc .vmem S256x128 .f32).view.readAt (Elt F) (Rect.unit (s := S256x128) o S256x128.size i).toLoadRect (iblk m c 6 t₀)

/-- The own partial product and the three landed slots, added in the order of the waits. -/
abbrev sum3 (own : FVec F S32x256 .f32) (r1 r3 r2 : Vec F S1x32x256 .bf16) : FVec F S32x256 .f32 :=
  Spec.add1 (Spec.add1 (Spec.add1 own r1) r3) r2

theorem rdSlot_eq (c : Dev nD) (j : ℕ) (hj : j < 48) {o : Fin 3 → Nat} (h : o = ![j, 0, 0])
    (i : ∀ a, o a + S1x32x256.size a ≤ S48x32x256.size a) : rdSlot m c i = slotVal m c j :=
  cfin_read m c ⟨j, hj⟩ h i

/-! ## With every piece given by an equation -/

/-- A stage of a layer that is not the last, from what its pieces are: the next layer's partial product. -/
theorem part_next_gen (c : Dev nD) (l : ℕ) (p : Fin 4) {own : FVec F S32x256 .f32} (hown : own = part m l c p)
    {r1 r3 r2 : Vec F S1x32x256 .bf16} (h1 : r1 = slotVal m c (16 * l + 4 * p.val + 1)) (h3 : r3 = slotVal m c (16 * l + 4 * p.val + 3))
    (h2 : r2 = slotVal m c (16 * l + 4 * p.val + 2))
    {O : Vec F S256x128 .f32} (hO : O = wout m l c) {W : Vec F S128x256 .f32} (hW : W = win m (l + 1) c) :
    Spec.mmNext (Spec.mmOut (sum3 own r1 r3 r2) O) W = part m (l + 1) c p := by
  subst hown h1 h3 h2 hO hW
  exact stage_next m c l p rfl rfl rfl

/-- The value stored into the next layer's own slot is that slot's final value. -/
theorem stage_store_gen (c : Dev nD) (l : ℕ) (p : Fin 4) {own : FVec F S32x256 .f32} (hown : own = part m l c p)
    {r1 r3 r2 : Vec F S1x32x256 .bf16} (h1 : r1 = slotVal m c (16 * l + 4 * p.val + 1)) (h3 : r3 = slotVal m c (16 * l + 4 * p.val + 3))
    (h2 : r2 = slotVal m c (16 * l + 4 * p.val + 2))
    {O : Vec F S256x128 .f32} (hO : O = wout m l c) {W : Vec F S128x256 .f32} (hW : W = win m (l + 1) c) :
    Spec.slot (Spec.mmNext (Spec.mmOut (sum3 own r1 r3 r2) O) W) = slotVal m c (4 * (4 * (l + 1) + p.val)) := by
  have hp := p.isLt
  have hc : c.val < 4 := c.isLt
  rw [part_next_gen m c l p hown h1 h3 h2 hO hW]
  exact (slotVal_eq m c _ (l + 1) c p (by omega)
    (Fin.ext (by show (c.val + (4 - 4 * (4 * (l + 1) + p.val) % 4) % 4) % 4 = c.val; omega)) (by omega)).symm

/-- A stage of the last layer, from what its pieces are: the piece of the result. -/
theorem stage_out_gen (c : Dev nD) (p : Fin 4) {own : FVec F S32x256 .f32} (hown : own = part m 2 c p)
    {r1 r3 r2 : Vec F S1x32x256 .bf16} (h1 : r1 = slotVal m c (32 + 4 * p.val + 1)) (h3 : r3 = slotVal m c (32 + 4 * p.val + 3))
    (h2 : r2 = slotVal m c (32 + 4 * p.val + 2))
    {O : Vec F S256x128 .f32} (hO : O = wout m 2 c) :
    Spec.mmOut (sum3 own r1 r3 r2) O = Spec.outPiece (xin m) (win m) (wout m) c p := by
  subst hown h1 h3 h2 hO
  exact stage_last m c p rfl rfl rfl

/-! ## The own partial products as they are carried -/

/-- The first layer's: a loaded row piece of the activations times the loaded input weights. -/
theorem part_own0 (c : Dev nD) (p : Fin 4)
    {ox : Fin 2 → Nat} (hx : ox = ![32 * p.val, 0]) {ix : ∀ a, ox a + S32x128.size a ≤ S128x128.size a}
    {ow : Fin 2 → Nat} (hw : ow = ![0, 0]) {iw : ∀ a, ow a + S128x256.size a ≤ S128x256.size a} :
    Spec.mmIn (rdX m c ix) (rdWin0 m c iw) = part m 0 c p := by
  exact (congrArg₂ (fun a w => Spec.mmIn a w) (x_read m c p hx ix) (win0_read m c hw iw)).trans (stage_first m c p)

/-- The second layer's: the first layer's stage multiplied out. -/
theorem part_own1 (c : Dev nD) (p : Fin 4)
    {ox : Fin 2 → Nat} (hx : ox = ![32 * p.val, 0]) {ix : ∀ a, ox a + S32x128.size a ≤ S128x128.size a}
    {ow : Fin 2 → Nat} (hw : ow = ![0, 0]) {iw : ∀ a, ow a + S128x256.size a ≤ S128x256.size a}
    {o1 o3 o2 : Fin 3 → Nat} (h1 : o1 = ![4 * p.val + 1, 0, 0]) (h3 : o3 = ![4 * p.val + 3, 0, 0]) (h2 : o2 = ![4 * p.val + 2, 0, 0])
    {i1 : ∀ a, o1 a + S1x32x256.size a ≤ S48x32x256.size a} {i3 : ∀ a, o3 a + S1x32x256.size a ≤ S48x32x256.size a}
    {i2 : ∀ a, o2 a + S1x32x256.size a ≤ S48x32x256.size a}
    {oO : Fin 2 → Nat} (hO : oO = ![0, 0]) {iO : ∀ a, oO a + S256x128.size a ≤ S256x128.size a}
    {oW : Fin 2 → Nat} (hW : oW = ![0, 0]) {iW : ∀ a, oW a + S128x256.size a ≤ S128x256.size a} :
    Spec.mmNext (Spec.mmOut (sum3 (Spec.mmIn (rdX m c ix) (rdWin0 m c iw)) (rdSlot m c i1) (rdSlot m c i3) (rdSlot m c i2)) (rdWout0 m c iO)) (rdWin1 m c iW)
      = part m 1 c p := by
  have hp := p.isLt
  exact part_next_gen m c 0 p (part_own0 m c p hx hw)
    ((rdSlot_eq m c (4 * p.val + 1) (by omega) h1 i1).trans (congrArg (slotVal m c) (by omega)))
    ((rdSlot_eq m c (4 * p.val + 3) (by omega) h3 i3).trans (congrArg (slotVal m c) (by omega)))
    ((rdSlot_eq m c (4 * p.val + 2) (by omega) h2 i2).trans (congrArg (slotVal m c) (by omega)))
    (wout0_read m c hO iO) (win1_read m c hW iW)

/-- The value the first layer's stage stores into slot `4 (4 + p)` is that slot's final value. -/
theorem stage_store_val0 (c : Dev nD) (p : Fin 4)
    {ox : Fin 2 → Nat} (hx : ox = ![32 * p.val, 0]) {ix : ∀ a, ox a + S32x128.size a ≤ S128x128.size a}
    {ow : Fin 2 → Nat} (hw : ow = ![0, 0]) {iw : ∀ a, ow a + S128x256.size a ≤ S128x256.size a}
    {o1 o3 o2 : Fin 3 → Nat} (h1 : o1 = ![4 * p.val + 1, 0, 0]) (h3 : o3 = ![4 * p.val + 3, 0, 0]) (h2 : o2 = ![4 * p.val + 2, 0, 0])
    {i1 : ∀ a, o1 a + S1x32x256.size a ≤ S48x32x256.size a} {i3 : ∀ a, o3 a + S1x32x256.size a ≤ S48x32x256.size a}
    {i2 : ∀ a, o2 a + S1x32x256.size a ≤ S48x32x256.size a}
    {oO : Fin 2 → Nat} (hO : oO = ![0, 0]) {iO : ∀ a, oO a + S256x128.size a ≤ S256x128.size a}
    {oW : Fin 2 → Nat} (hW : oW = ![0, 0]) {iW : ∀ a, oW a + S128x256.size a ≤ S128x256.size a} :
    Spec.slot (Spec.mmNext (Spec.mmOut (sum3 (Spec.mmIn (rdX m c ix) (rdWin0 m c iw)) (rdSlot m c i1) (rdSlot m c i3) (rdSlot m c i2)) (rdWout0 m c iO)) (rdWin1 m c iW))
      = slotVal m c (4 * (4 + p.val)) := by
  have hp := p.isLt
  exact stage_store_gen m c 0 p (part_own0 m c p hx hw)
    ((rdSlot_eq m c (4 * p.val + 1) (by omega) h1 i1).trans (congrArg (slotVal m c) (by omega)))
    ((rdSlot_eq m c (4 * p.val + 3) (by omega) h3 i3).trans (congrArg (slotVal m c) (by omega)))
    ((rdSlot_eq m c (4 * p.val + 2) (by omega) h2 i2).trans (congrArg (slotVal m c) (by omega)))
    (wout0_read m c hO iO) (win1_read m c hW iW)

/-- The third layer's own partial product, from the second layer's (given by an equation) and the second layer's loads. -/
theorem part_own2 (c : Dev nD) (p : Fin 4) {own : FVec F S32x256 .f32} (hown : own = part m 1 c p)
    {o1 o3 o2 : Fin 3 → Nat} (h1 : o1 = ![16 + 4 * p.val + 1, 0, 0]) (h3 : o3 = ![16 + 4 * p.val + 3, 0, 0]) (h2 : o2 = ![16 + 4 * p.val + 2, 0, 0])
    {i1 : ∀ a, o1 a + S1x32x256.size a ≤ S48x32x256.size a} {i3 : ∀ a, o3 a + S1x32x256.size a ≤ S48x32x256.size a}
    {i2 : ∀ a, o2 a + S1x32x256.size a ≤ S48x32x256.size a}
    {oO : Fin 2 → Nat} (hO : oO = ![0, 0]) {iO : ∀ a, oO a + S256x128.size a ≤ S256x128.size a}
    {oW : Fin 2 → Nat} (hW : oW = ![0, 0]) {iW : ∀ a, oW a + S128x256.size a ≤ S128x256.size a} :
    Spec.mmNext (Spec.mmOut (sum3 own (rdSlot m c i1) (rdSlot m c i3) (rdSlot m c i2)) (rdWout1 m c iO)) (rdWin2 m c iW) = part m 2 c p := by
  have hp := p.isLt
  exact part_next_gen m c 1 p hown
    ((rdSlot_eq m c (16 + 4 * p.val + 1) (by omega) h1 i1).trans (congrArg (slotVal m c) (by omega)))
    ((rdSlot_eq m c (16 + 4 * p.val + 3) (by omega) h3 i3).trans (congrArg (slotVal m c) (by omega)))
    ((rdSlot_eq m c (16 + 4 * p.val + 2) (by omega) h2 i2).trans (congrArg (slotVal m c) (by omega)))
    (wout1_read m c hO iO) (win2_read m c hW iW)

/-- The value the second layer's stage stores into slot `4 (8 + p)` is that slot's final value. -/
theorem stage_store_val1 (c : Dev nD) (p : Fin 4) {own : FVec F S32x256 .f32} (hown : own = part m 1 c p)
    {o1 o3 o2 : Fin 3 → Nat} (h1 : o1 = ![16 + 4 * p.val + 1, 0, 0]) (h3 : o3 = ![16 + 4 * p.val + 3, 0, 0]) (h2 : o2 = ![16 + 4 * p.val + 2, 0, 0])
    {i1 : ∀ a, o1 a + S1x32x256.size a ≤ S48x32x256.size a} {i3 : ∀ a, o3 a + S1x32x256.size a ≤ S48x32x256.size a}
    {i2 : ∀ a, o2 a + S1x32x256.size a ≤ S48x32x256.size a}
    {oO : Fin 2 → Nat} (hO : oO = ![0, 0]) {iO : ∀ a, oO a + S256x128.size a ≤ S256x128.size a}
    {oW : Fin 2 → Nat} (hW : oW = ![0, 0]) {iW : ∀ a, oW a + S128x256.size a ≤ S128x256.size a} :
    Spec.slot (Spec.mmNext (Spec.mmOut (sum3 own (rdSlot m c i1) (rdSlot m c i3) (rdSlot m c i2)) (rdWout1 m c iO)) (rdWin2 m c iW))
      = slotVal m c (4 * (8 + p.val)) := by
  have hp := p.isLt
  exact stage_store_gen m c 1 p hown
    ((rdSlot_eq m c (16 + 4 * p.val + 1) (by omega) h1 i1).trans (congrArg (slotVal m c) (by omega)))
    ((rdSlot_eq m c (16 + 4 * p.val + 3) (by omega) h3 i3).trans (congrArg (slotVal m c) (by omega)))
    ((rdSlot_eq m c (16 + 4 * p.val + 2) (by omega) h2 i2).trans (congrArg (slotVal m c) (by omega)))
    (wout1_read m c hO iO) (win2_read m c hW iW)

/-- The last layer's stage: the piece of the result, from the third layer's own partial product (given by an equation). -/
theorem stage_out_val (c : Dev nD) (p : Fin 4) {own : FVec F S32x256 .f32} (hown : own = part m 2 c p)
    {o1 o3 o2 : Fin 3 → Nat} (h1 : o1 = ![32 + 4 * p.val + 1, 0, 0]) (h3 : o3 = ![32 + 4 * p.val + 3, 0, 0]) (h2 : o2 = ![32 + 4 * p.val + 2, 0, 0])
    {i1 : ∀ a, o1 a + S1x32x256.size a ≤ S48x32x256.size a} {i3 : ∀ a, o3 a + S1x32x256.size a ≤ S48x32x256.size a}
    {i2 : ∀ a, o2 a + S1x32x256.size a ≤ S48x32x256.size a}
    {oO : Fin 2 → Nat} (hO : oO = ![0, 0]) {iO : ∀ a, oO a + S256x128.size a ≤ S256x128.size a} :
    Spec.mmOut (sum3 own (rdSlot m c i1) (rdSlot m c i3) (rdSlot m c i2)) (rdWout2 m c iO) = Spec.outPiece (xin m) (win m) (wout m) c p := by
  have hp := p.isLt
  exact stage_out_gen m c p hown
    (rdSlot_eq m c (32 + 4 * p.val + 1) (by omega) h1 i1)
    (rdSlot_eq m c (32 + 4 * p.val + 3) (by omega) h3 i3)
    (rdSlot_eq m c (32 + 4 * p.val + 2) (by omega) h2 i2)
    (wout2_read m c hO iO)

/-- info: 'Cert.KernelIdeal.Proto.stage_store_val0' depends on axioms: [propext, Classical.choice, Quot.sound] -/
#guard_msgs in #print axioms stage_store_val0
/-- info: 'Cert.KernelIdeal.Proto.stage_store_val1' depends on axioms: [propext, Classical.choice, Quot.sound] -/
#guard_msgs in #print axioms stage_store_val1
/-- info: 'Cert.KernelIdeal.Proto.stage_out_val' depends on axioms: [propext, Classical.choice, Quot.sound] -/
#guard_msgs in #print axioms stage_out_val

end Cert.KernelIdeal.Proto

end
-- ==== Proof.BodyEnd.lean ====
import proofs.«900970_g7700000000000971_dist_mlpseq_tp1dT_cs_cs_b128_d128_h256_v7x_i4_f32_1_alg».proof.Proof.Steps
import proofs.«900970_g7700000000000971_dist_mlpseq_tp1dT_cs_cs_b128_d128_h256_v7x_i4_f32_1_alg».proof.Proof.Slots

/-!
The end of a device's body: the communication buffer put back whole, and the device's 72 transfer cells closed.

Stage `L` (of 12) uses the four slots `4 L + k`: slot `4 L` is lent at three shares to the stage's three transfers,
slots `4 L + 1, 2, 3` are written by the three other devices. With every transfer of every stage waited for, the 36
written slots at the full share and the 36 lent shares make the 48 slots at the full share, that is the buffer whole.
-/

noncomputable section

namespace Cert.KernelIdeal.Proto

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Transfers by stage and offset, slots by stage and place -/

/-- Transfer `3 L + e` is the `e`-th of stage `L`. -/
def e36 : Fin 12 × Fin 3 ≃ Fin 36 where
  toFun p := semOf p.1 p.2
  invFun s := (⟨s.val / 3, by have := s.isLt; omega⟩, ⟨s.val % 3, Nat.mod_lt _ (by decide)⟩)
  left_inv := by
    rintro ⟨L, e⟩
    have hL := L.isLt
    have he := e.isLt
    refine Prod.ext (Fin.ext ?_) (Fin.ext ?_)
    · show (3 * L.val + e.val) / 3 = L.val; omega
    · show (3 * L.val + e.val) % 3 = e.val; omega
  right_inv := by
    intro s
    refine Fin.ext ?_
    show 3 * (s.val / 3) + s.val % 3 = s.val
    omega

/-- Slot `4 L + k` is the `k`-th of stage `L`. -/
def e48 : Fin 12 × Fin 4 ≃ Fin 48 where
  toFun p := ⟨4 * p.1.val + p.2.val, by have := p.1.isLt; have := p.2.isLt; omega⟩
  invFun j := (⟨j.val / 4, by have := j.isLt; omega⟩, ⟨j.val % 4, Nat.mod_lt _ (by decide)⟩)
  left_inv := by
    rintro ⟨L, k⟩
    have hL := L.isLt
    have hk := k.isLt
    refine Prod.ext (Fin.ext ?_) (Fin.ext ?_)
    · show (4 * L.val + k.val) / 4 = L.val; omega
    · show (4 * L.val + k.val) % 4 = k.val; omega
  right_inv := by
    intro j
    refine Fin.ext ?_
    show 4 * (j.val / 4) + j.val % 4 = j.val
    omega

theorem e36_val (L : Fin 12) (e : Fin 3) : (e36 (L, e)).val = 3 * L.val + e.val := rfl
theorem e48_val (L : Fin 12) (k : Fin 4) : (e48 (L, k)).val = 4 * L.val + k.val := rfl

/-- Every transfer of stage `L` reads the stage's first slot, -/
theorem src_e36 (L : Fin 12) (e : Fin 3) : srcSlot (e36 (L, e)) = e48 (L, 0) := by
  have hL := L.isLt
  have he := e.isLt
  refine Fin.ext ?_
  show 4 * ((3 * L.val + e.val) / 3) = 4 * L.val + 0
  omega

/-- and the `e`-th writes the stage's slot `e + 1`. -/
theorem dst_e36 (L : Fin 12) (e : Fin 3) : dstSlot (e36 (L, e)) = e48 (L, e.succ) := by
  have hL := L.isLt
  have he := e.isLt
  refine Fin.ext ?_
  show 4 * ((3 * L.val + e.val) / 3) + (3 * L.val + e.val) % 3 + 1 = 4 * L.val + (e.val + 1)
  omega

theorem share_e36_0 (L : Fin 12) : shareOf (e36 (L, 0)) = fullShare.left := by
  unfold shareOf
  rw [if_pos (by show (3 * L.val + 0) % 3 = 0; omega)]
theorem share_e36_1 (L : Fin 12) : shareOf (e36 (L, 1)) = fullShare.right.left := by
  unfold shareOf
  rw [if_neg (by show ¬ (3 * L.val + 1) % 3 = 0; omega), if_pos (by show (3 * L.val + 1) % 3 = 1; omega)]
theorem share_e36_2 (L : Fin 12) : shareOf (e36 (L, 2)) = fullShare.right.right := by
  unfold shareOf
  rw [if_neg (by show ¬ (3 * L.val + 2) % 3 = 0; omega), if_neg (by show ¬ (3 * L.val + 2) % 3 = 1; omega)]

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The buffer whole again -/

/-- One stage: its three written slots at the full share and its first slot's three lent shares are its four slots at
    the full share. -/
theorem stage_rejoin (c : Dev nD) (f : Buf (Elt F) ((commM : Memref sig .tc .vmem S48x32x256 .bf16).view.loc (c : Thread nD τ))) (L : Fin 12) :
    iprop((bigSep Finset.univ fun e : Fin 3 => slotPts c (dstSlot (e36 (L, e))) fullShare f)
        ∗ (bigSep Finset.univ fun e : Fin 3 => slotPts c (srcSlot (e36 (L, e))) (shareOf (e36 (L, e))) f))
      ⊢ (bigSep Finset.univ fun k : Fin 4 => slotPts c (e48 (L, k)) fullShare f : sProp 𝕄) := by
  rw [bigSep_fin3, bigSep_fin3, bigSep_fin4]
  simp only [src_e36, dst_e36, share_e36_0, share_e36_1, share_e36_2]
  iintro ⟨⟨D1, D2, D3⟩, S0, S1, S2⟩
  isplitl [S0 S1 S2]
  · iapply (slot_share3 c (e48 (L, 0)) f).2
    isplitl [S0]; · iexact S0
    isplitl [S1]; · iexact S1
    iexact S2
  isplitl [D1]; · iexact D1
  isplitl [D2]; · iexact D2
  iexact D3

/-- The 36 written slots at the full share and the 36 lent shares of the 12 source slots are the buffer whole. -/
theorem comm_rejoin (c : Dev nD) (f : Buf (Elt F) ((commM : Memref sig .tc .vmem S48x32x256 .bf16).view.loc (c : Thread nD τ))) :
    iprop((bigSep Finset.univ fun s : Fin 36 => slotPts c (dstSlot s) fullShare f)
        ∗ (bigSep Finset.univ fun s : Fin 36 => slotPts c (srcSlot s) (shareOf s) f))
      ⊢ (commPts c f : sProp 𝕄) := by
  refine BIBase.Entails.trans ?_ (comm_join c f)
  rw [bigSep_univ_equiv e48 (fun j : Fin 48 => (slotPts c j fullShare f : sProp 𝕄)), bigSep_univ_prod,
    bigSep_univ_equiv e36 (fun s : Fin 36 => (slotPts c (dstSlot s) fullShare f : sProp 𝕄)), bigSep_univ_prod,
    bigSep_univ_equiv e36 (fun s : Fin 36 => (slotPts c (srcSlot s) (shareOf s) f : sProp 𝕄)), bigSep_univ_prod,
    ← bigSep_sep']
  exact bigSep_mono fun L _ => stage_rejoin c f L

/-! ## The cells closed -/

variable (cf : (c : Dev nD) → Buf (Elt F) ((commM : Memref sig .tc .vmem S48x32x256 .bf16).view.loc (c : Thread nD τ)))

/-- A send cell and a receive cell past their one round, nothing taken of a later one, are closed: no round from the
    second on has a duty, so each counter stands at zero and nothing can land on it any more. -/
theorem close_pair (K : Dev nD × Fin 73 → ℕ) (c : Dev nD) (s : Fin 36) :
    iprop(records cf K ∗ (atPos ER (sendCell c s) 1 ∅ 0 ∗ atPos ER (recvCell c s) 1 ∅ 0))
      ⊢ (|={Set.univ}=> iprop(semVal (sendCell c s) 0 ∗ semVal (recvCell c s) 0) : sProp 𝕄) := by
  iintro ⟨#HR, Hs, Hr⟩
  ihave HIs := (inv_send cf K c s) $$ HR
  ihave HIr := (inv_recv cf K c s) $$ HR
  imod (Rounds.cell_close ER (sched cf) (Set.mem_univ (K (c, sIdx s))) (fun h => h) (R := 0 + 1) (duties_later cf (sendCell c s))) $$ [HIs Hs] with Hz1
  · isplitl [HIs]; · iexact HIs
    iexact Hs
  imod (Rounds.cell_close ER (sched cf) (Set.mem_univ (K (c, rIdx s))) (fun h => h) (R := 0 + 1) (duties_later cf (recvCell c s))) $$ [HIr Hr] with Hz2
  · isplitl [HIr]; · iexact HIr
    iexact Hr
  imodintro
  isplitl [Hz1]; · iexact Hz1
  iexact Hz2

/-- The device's 36 send cells and 36 receive cells, each past its one round, all closed at zero. -/
theorem close_cells (K : Dev nD × Fin 73 → ℕ) (c : Dev nD) :
    iprop(records cf K ∗ (bigSep Finset.univ fun s : Fin 36 => atPos ER (sendCell c s) 1 ∅ 0)
        ∗ (bigSep Finset.univ fun s : Fin 36 => atPos ER (recvCell c s) 1 ∅ 0))
      ⊢ (|={Set.univ}=> (bigSep Finset.univ fun s : Fin 36 => iprop(semVal (sendCell c s) 0 ∗ semVal (recvCell c s) 0)) : sProp 𝕄) := by
  rw [← bigSep_sep']
  exact (bigSep_with_persistent (R := records cf K) fun s _ => close_pair cf K c s).trans (bigSep_fupd _ _)

/-- info: 'Cert.KernelIdeal.Proto.comm_rejoin' depends on axioms: [propext, Classical.choice, Quot.sound] -/
#guard_msgs in #print axioms comm_rejoin
/-- info: 'Cert.KernelIdeal.Proto.close_cells' depends on axioms: [propext, Classical.choice, Quot.sound] -/
#guard_msgs in #print axioms close_cells

end Cert.KernelIdeal.Proto

end
-- ==== Proof.BodyPost.lean ====
import proofs.«900970_g7700000000000971_dist_mlpseq_tp1dT_cs_cs_b128_d128_h256_v7x_i4_f32_1_alg».proof.Proof.BodyDefs
import proofs.«900970_g7700000000000971_dist_mlpseq_tp1dT_cs_cs_b128_d128_h256_v7x_i4_f32_1_alg».proof.Proof.BodyEnd
import proofs.«900970_g7700000000000971_dist_mlpseq_tp1dT_cs_cs_b128_d128_h256_v7x_i4_f32_1_alg».proof.Proof.Meta
import proofs.«900970_g7700000000000971_dist_mlpseq_tp1dT_cs_cs_b128_d128_h256_v7x_i4_f32_1_alg».proof.Proof.BodyValues
import proofs.«900970_g7700000000000971_dist_mlpseq_tp1dT_cs_cs_b128_d128_h256_v7x_i4_f32_1_alg».proof.Proof.Steps

/-!
The last step of a device's body: with every transfer waited for, the device's cells are closed, the communication
buffer is whole again at its final contents, nothing is owed, the seven argument blocks are as staged and the result's
staging buffer holds the result block — which is what the body has to leave.
-/

noncomputable section

namespace Cert.KernelIdeal.Proto

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Proto.Meta

variable {F : FTy → Type} [FloatOps F]

local notation "𝕄" => MT nD τ sig Unit (Elt F) ℕ UU ℕ

variable (m : (ℓ : Loc nD τ sig) → Buf (Elt F) ℓ)

omit [FloatOps F] in
/-- A family over the 36 transfers, one by one. -/
theorem bigSep_fin36 (Φ : Fin 36 → sProp 𝕄) : bigSep Finset.univ Φ = sepfam% Φ 36 :=
  bigSep_univ_eq_bigSepL (finlist% 36) (by decide) (by decide) Φ

/-- The body's last step. -/
theorem body_post_intro (K : Dev nD × Fin 73 → ℕ) (c : Dev nD) (W : Waits sig Unit)
    (X7 : Buf (Elt F) ((Memref.whole cc0_stg7_0 : Memref sig .tc .vmem S128x128 .f32).view.loc (c : Thread nD τ))) (hX7 : X7 = outv m c) :
    iprop(records (cfin m) K
        ∗ (bigSep Finset.univ fun s : Fin 36 => atPos ER (sendCell c s) 1 ∅ 0)
        ∗ (bigSep Finset.univ fun s : Fin 36 => atPos ER (recvCell c s) 1 ∅ 0)
        ∗ (bigSep Finset.univ fun s : Fin 36 => slotPts c (dstSlot s) fullShare (cfin m c))
        ∗ (bigSep Finset.univ fun s : Fin 36 => slotPts c (srcSlot s) (shareOf s) (cfin m c))
        ∗ owes (c : Thread nD τ) 0 W
        ∗ (((Memref.whole cc0_stg0_0 : Memref sig .tc .vmem S128x128 .f32).view.loc (c : Thread nD τ)) ↦{fullShare} (iblk m c 0 t₀))
        ∗ (((Memref.whole cc0_stg1_0 : Memref sig .tc .vmem S128x256 .f32).view.loc (c : Thread nD τ)) ↦{fullShare} (iblk m c 1 t₀))
        ∗ (((Memref.whole cc0_stg2_0 : Memref sig .tc .vmem S256x128 .f32).view.loc (c : Thread nD τ)) ↦{fullShare} (iblk m c 2 t₀))
        ∗ (((Memref.whole cc0_stg3_0 : Memref sig .tc .vmem S128x256 .f32).view.loc (c : Thread nD τ)) ↦{fullShare} (iblk m c 3 t₀))
        ∗ (((Memref.whole cc0_stg4_0 : Memref sig .tc .vmem S256x128 .f32).view.loc (c : Thread nD τ)) ↦{fullShare} (iblk m c 4 t₀))
        ∗ (((Memref.whole cc0_stg5_0 : Memref sig .tc .vmem S128x256 .f32).view.loc (c : Thread nD τ)) ↦{fullShare} (iblk m c 5 t₀))
        ∗ (((Memref.whole cc0_stg6_0 : Memref sig .tc .vmem S256x128 .f32).view.loc (c : Thread nD τ)) ↦{fullShare} (iblk m c 6 t₀))
        ∗ (((Memref.whole cc0_stg7_0 : Memref sig .tc .vmem S128x128 .f32).view.loc (c : Thread nD τ)) ↦{fullShare} X7))
      ⊢ (|={Set.univ}=> bodyPost m c : sProp 𝕄) := by
  subst hX7
  iintro ⟨#HR, Has, Har, HD, HS, HO, H0, H1, H2, H3, H4, H5, H6, H7⟩
  imod (close_cells (cfin m) K c) $$ [Has Har] with Hz
  · isplitr; · iexact HR
    isplitl [Has]; · iexact Has
    iexact Har
  ihave Hc := (comm_rejoin c (cfin m c)) $$ [HD HS]
  · isplitl [HD]; · iexact HD
    iexact HS
  imodintro
  unfold bodyPost Φ₁ Dat.owesAt Pipeline.owesWithin
  rw [show (kdats m 0 c).owed t₀.succ = 0 from rfl]
  isplitl [Hc Hz]
  · isplitl [Hc]; · iexact Hc
    iexact Hz
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  isplitl [H5]
  · iexists _; isplitr; · (ipureintro; rfl)
    iexact H5
  isplitl [H6]
  · iexists _; isplitr; · (ipureintro; rfl)
    iexact H6
  iexists _; isplitr; · (ipureintro; rfl)
  iexact H7

/-- The same, the four families over the 36 transfers given one by one. -/
theorem body_post_intro_fam (K : Dev nD × Fin 73 → ℕ) (c : Dev nD) (W : Waits sig Unit)
    (X7 : Buf (Elt F) ((Memref.whole cc0_stg7_0 : Memref sig .tc .vmem S128x128 .f32).view.loc (c : Thread nD τ))) (hX7 : X7 = outv m c) :
    iprop(records (cfin m) K
        ∗ (sepfam% (fun s : Fin 36 => (atPos ER (sendCell c s) 1 ∅ 0 : sProp 𝕄)) 36)
        ∗ (sepfam% (fun s : Fin 36 => (atPos ER (recvCell c s) 1 ∅ 0 : sProp 𝕄)) 36)
        ∗ (sepfam% (fun s : Fin 36 => (slotPts c (dstSlot s) fullShare (cfin m c) : sProp 𝕄)) 36)
        ∗ (sepfam% (fun s : Fin 36 => (slotPts c (srcSlot s) (shareOf s) (cfin m c) : sProp 𝕄)) 36)
        ∗ owes (c : Thread nD τ) 0 W
        ∗ (((Memref.whole cc0_stg0_0 : Memref sig .tc .vmem S128x128 .f32).view.loc (c : Thread nD τ)) ↦{fullShare} (iblk m c 0 t₀))
        ∗ (((Memref.whole cc0_stg1_0 : Memref sig .tc .vmem S128x256 .f32).view.loc (c : Thread nD τ)) ↦{fullShare} (iblk m c 1 t₀))
        ∗ (((Memref.whole cc0_stg2_0 : Memref sig .tc .vmem S256x128 .f32).view.loc (c : Thread nD τ)) ↦{fullShare} (iblk m c 2 t₀))
        ∗ (((Memref.whole cc0_stg3_0 : Memref sig .tc .vmem S128x256 .f32).view.loc (c : Thread nD τ)) ↦{fullShare} (iblk m c 3 t₀))
        ∗ (((Memref.whole cc0_stg4_0 : Memref sig .tc .vmem S256x128 .f32).view.loc (c : Thread nD τ)) ↦{fullShare} (iblk m c 4 t₀))
        ∗ (((Memref.whole cc0_stg5_0 : Memref sig .tc .vmem S128x256 .f32).view.loc (c : Thread nD τ)) ↦{fullShare} (iblk m c 5 t₀))
        ∗ (((Memref.whole cc0_stg6_0 : Memref sig .tc .vmem S256x128 .f32).view.loc (c : Thread nD τ)) ↦{fullShare} (iblk m c 6 t₀))
        ∗ (((Memref.whole cc0_stg7_0 : Memref sig .tc .vmem S128x128 .f32).view.loc (c : Thread nD τ)) ↦{fullShare} X7))
      ⊢ (|={Set.univ}=> bodyPost m c : sProp 𝕄) := by
  have h := body_post_intro m K c W X7 hX7
  rw [bigSep_fin36, bigSep_fin36, bigSep_fin36, bigSep_fin36] at h
  exact h

/-- info: 'Cert.KernelIdeal.Proto.body_post_intro' depends on axioms: [propext, Classical.choice, Quot.sound] -/
#guard_msgs in #print axioms body_post_intro
/-- info: 'Cert.KernelIdeal.Proto.body_post_intro_fam' depends on axioms: [propext, Classical.choice, Quot.sound] -/
#guard_msgs in #print axioms body_post_intro_fam

end Cert.KernelIdeal.Proto

end
-- ==== Proof.Body.lean ====
import proofs.«900970_g7700000000000971_dist_mlpseq_tp1dT_cs_cs_b128_d128_h256_v7x_i4_f32_1_alg».proof.Proof.BodyDefs
import proofs.«900970_g7700000000000971_dist_mlpseq_tp1dT_cs_cs_b128_d128_h256_v7x_i4_f32_1_alg».proof.Proof.Send
import proofs.«900970_g7700000000000971_dist_mlpseq_tp1dT_cs_cs_b128_d128_h256_v7x_i4_f32_1_alg».proof.Proof.Meta
import proofs.«900970_g7700000000000971_dist_mlpseq_tp1dT_cs_cs_b128_d128_h256_v7x_i4_f32_1_alg».proof.Proof.Meta2
import proofs.«900970_g7700000000000971_dist_mlpseq_tp1dT_cs_cs_b128_d128_h256_v7x_i4_f32_1_alg».proof.Proof.ExecTables
import proofs.«900970_g7700000000000971_dist_mlpseq_tp1dT_cs_cs_b128_d128_h256_v7x_i4_f32_1_alg».proof.Proof.ExecWaits
import proofs.«900970_g7700000000000971_dist_mlpseq_tp1dT_cs_cs_b128_d128_h256_v7x_i4_f32_1_alg».proof.Proof.BodyValues
import proofs.«900970_g7700000000000971_dist_mlpseq_tp1dT_cs_cs_b128_d128_h256_v7x_i4_f32_1_alg».proof.Proof.ContentsFacts
import proofs.«900970_g7700000000000971_dist_mlpseq_tp1dT_cs_cs_b128_d128_h256_v7x_i4_f32_1_alg».proof.Proof.StageValues
import proofs.«900970_g7700000000000971_dist_mlpseq_tp1dT_cs_cs_b128_d128_h256_v7x_i4_f32_1_alg».proof.Proof.BodyPost

/-!
A device's body: from what the launch hands it, through the entry handshake, the twelve stages (product, exchange of the
partial products, sum, rectification, product) and the waits for its own transfers, to the result block in its staging
buffer, the communication buffer whole at its final contents and every cell closed.
-/

noncomputable section

namespace Cert.KernelIdeal.Proto

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Proto.Meta Cert.KernelIdeal.Proto.Meta2

variable {F : FTy → Type} [FloatOps F]

local notation "𝕄" => MT nD τ sig Unit (Elt F) ℕ UU ℕ

variable (m : (ℓ : Loc nD τ sig) → Buf (Elt F) ℓ)

theorem bigSep_fin12 (Φ : Fin 12 → sProp 𝕄) : bigSep Finset.univ Φ = sepfam% Φ 12 :=
  bigSep_univ_eq_bigSepL (finlist% 12) (by decide) (by decide) Φ
theorem bigSep_fin48 (Φ : Fin 48 → sProp 𝕄) : bigSep Finset.univ Φ = sepfam% Φ 48 :=
  bigSep_univ_eq_bigSepL (finlist% 48) (by decide) (by decide) Φ
theorem bigSep_fin73 (Φ : Fin 73 → sProp 𝕄) : bigSep Finset.univ Φ = sepfam% Φ 73 :=
  bigSep_univ_eq_bigSepL (finlist% 73) (by decide) (by decide) Φ

/-- The twelve slots a signal hands over, all at one buffer's contents, make the signal's payload. -/
theorem mk_barPay' (cf : (c : Dev nD) → Buf (Elt F) ((commM : Memref sig .tc .vmem S48x32x256 .bf16).view.loc (c : Thread nD τ)))
    (K : Dev nD × Fin 73 → ℕ) (c : Dev nD) (i : Fin 3) (f : Buf (Elt F) ((commM : Memref sig .tc .vmem S48x32x256 .bf16).view.loc (c : Thread nD τ))) :
    iprop(records cf K ∗ sepfam% (fun L : Fin 12 => slotPts c (slotOf L (⟨2 - i.val, by omega⟩ : Fin 3)) fullShare f) 12)
      ⊢ (barPay (pr c (i.val + 1)) (⟨2 - i.val, by omega⟩ : Fin 3) : sProp 𝕄) := by
  rw [← bigSep_fin12 (fun L : Fin 12 => slotPts c (slotOf L (⟨2 - i.val, by omega⟩ : Fin 3)) fullShare f)]
  refine BIBase.Entails.trans (sep_mono_right (bigSep_mono fun L _ => show _ ⊢ iprop(∃ f, slotPts c (slotOf L (⟨2 - i.val, by omega⟩ : Fin 3)) fullShare f) from by
    iintro H; iexists f; iexact H)) (mk_barPay cf K c i)

/-- A slot's points-to, spelt out. -/
theorem slotPts_unfold (c : Dev nD) (j : Fin 48) (q : PosShare TreeShare)
    (f : Buf (Elt F) ((commM : Memref sig .tc .vmem S48x32x256 .bf16).view.loc (c : Thread nD τ))) :
    (slotPts c j q f : sProp 𝕄) = ((slotM j).view.loc (c : Thread nD τ) ↦[(slotM j).view.set]{q} f) := rfl

/-- The schedule's payloads of the send and receive cells, the points-to spelt out. -/
theorem payload_send' (cf : (c : Dev nD) → Buf (Elt F) ((commM : Memref sig .tc .vmem S48x32x256 .bf16).view.loc (c : Thread nD τ)))
    (c : Dev nD) (s : Fin 36) (d : Fin 3) : (sched (F := F) cf).payload (sendCell c s) 0 d
    = ((slotM (srcSlot s)).view.loc (c : Thread nD τ) ↦[(slotM (srcSlot s)).view.set]{shareOf s} cf c) := payload_send cf c s d
theorem payload_recv' (cf : (c : Dev nD) → Buf (Elt F) ((commM : Memref sig .tc .vmem S48x32x256 .bf16).view.loc (c : Thread nD τ)))
    (c : Dev nD) (s : Fin 36) (d : Fin 3) : (sched (F := F) cf).payload (recvCell c s) 0 d
    = ((slotM (dstSlot s)).view.loc (c : Thread nD τ) ↦[(slotM (dstSlot s)).view.set]{fullShare} cf c) := payload_recv cf c s d

/-- What a signal's payload is, slot by slot. -/
theorem barPay_fam (c : Dev nD) (e : Fin 3) : (barPay (F := F) c e : sProp 𝕄) = sepfam% (fun L : Fin 12 =>
    iprop((∃ f, slotPts (pr c (e.val + 1)) (slotOf L e) fullShare f) ∗ reached ER (recvCell (pr c (e.val + 1)) (semOf L e)) 0)) 12 := by
  unfold barPay; exact bigSep_fin12 _

attribute [local sl_rounds] duties_send duties_recv duties_bar amount_send amount_recv amount_bar expect_send expect_recv expect_bar payload_send' payload_recv' payload_bar

/-- One transfer, the `i`-th in program order (transfer number `3 (i / 3) + (4 - i % 3) % 3`: within a stage the offsets go
    2, 1, 3): the source slot's share, the destination slot and the cells' things in, the send credit and the smaller debt out;
    then the body is stepped on to the next transfer, or to its end. -/
def sendText : String := "
    icases HtS⟪3 * (i / 3) + (4 - i % 3) % 3⟫ with ⟨HtR⟪3 * (i / 3) + (4 - i % 3) % 3⟫, HtS⟪3 * (i / 3) + (4 - i % 3) % 3⟫⟩
    iapply (wp_send_slot (cfin m) c _ ⟪3 * (i / 3) + (4 - i % 3) % 3⟫ (dev⟪i + 4⟫_eq c) (K (c, sIdx ⟪3 * (i / 3) + (4 - i % 3) % 3⟫)) (K (pr c (offs ⟪3 * (i / 3) + (4 - i % 3) % 3⟫), rIdx ⟪3 * (i / 3) + (4 - i % 3) % 3⟫)) (hcf_send m c ⟪3 * (i / 3) + (4 - i % 3) % 3⟫) fd⟪3 * (i / 3) + (4 - i % 3) % 3⟫ (owedRem c ⟪35 - i⟫) (owedRem c ⟪36 - i⟫) rfl _) $$ [Hs⟪4 * (i / 3)⟫x⟪(4 - i % 3) % 3⟫ Hd⟪3 * (i / 3) + (4 - i % 3) % 3⟫ HO HtS⟪3 * (i / 3) + (4 - i % 3) % 3⟫ HtR⟪3 * (i / 3) + (4 - i % 3) % 3⟫]
    · isplitr; · iexact HIs⟪3 * (i / 3) + (4 - i % 3) % 3⟫
      isplitr; · iapply (inv_recv (cfin m) K (pr c (offs ⟪3 * (i / 3) + (4 - i % 3) % 3⟫)) ⟪3 * (i / 3) + (4 - i % 3) % 3⟫); iexact HR
      isplitl [Hs⟪4 * (i / 3)⟫x⟪(4 - i % 3) % 3⟫]; · iexact Hs⟪4 * (i / 3)⟫x⟪(4 - i % 3) % 3⟫
      isplitl [Hd⟪3 * (i / 3) + (4 - i % 3) % 3⟫]; · iexact Hd⟪3 * (i / 3) + (4 - i % 3) % 3⟫
      isplitl [HO]; · iexact HO
      isplitl [HtS⟪3 * (i / 3) + (4 - i % 3) % 3⟫]; · iexact HtS⟪3 * (i / 3) + (4 - i % 3) % 3⟫
      isplitr; · iapply (reached_send (cfin m) K c ⟪3 * (i / 3) + (4 - i % 3) % 3⟫); iexact HR
      isplitl [HtR⟪3 * (i / 3) + (4 - i % 3) % 3⟫]; · iexact HtR⟪3 * (i / 3) + (4 - i % 3) % 3⟫
      iexact HrV⟪3 * (i / 3) + (4 - i % 3) % 3⟫
    iintro ⟨HcS⟪3 * (i / 3) + (4 - i % 3) % 3⟫, HO⟩
    sl_exec_parts"

/-- Before stage `i`'s three transfers, in the first layer: what the stage stored into slot `4 i` is the slot's final
    contents (the stored product is the specification's partial product); the slot is split into the three shares its
    transfers borrow; the next stage's own slot is spelt out, to be stored into. -/
def launchText0 : String := "
    have e : ((slotM ⟪4 * i⟫).view.loc (c : Thread nD τ) ↦[(slotM ⟪4 * i⟫).view.set]{fullShare} sound_body.sl.Hs⟪4 * i⟫_w1 m c f0 : sProp 𝕄)
        = slotPts c ⟪4 * i⟫ fullShare (cfin m c) :=
      slot_congr c ⟪4 * i⟫ fullShare fun j hj =>
        cfin_store m c ⟪i⟫ (off := ![⟪4 * i⟫, 0, 0]) rfl _ f0 _
          ((congrArg₂ (fun a w => Spec.slot (Spec.mmIn a w))
            (x_read m c ⟪i⟫ (off := ![⟪32 * i⟫, 0]) rfl inb_S128x128_S32x128_⟪32 * i⟫_0) (win0_read m c (off := ![0, 0]) rfl inb_S128x256_S128x256_0_0)).trans
            (slotVal_own m c ⟪i⟫).symm) j hj
    ihave Hs⟪4 * i⟫ := (Entails.of_eq e) $$ Hs⟪4 * i⟫
    clear e
    ihave Hs⟪4 * i⟫ := (slot_share3 c ⟪4 * i⟫ (cfin m c)).1 $$ Hs⟪4 * i⟫
    icases Hs⟪4 * i⟫ with ⟨Hs⟪4 * i⟫x0, Hs⟪4 * i⟫x1, Hs⟪4 * i⟫x2⟩
    try (ihave Hs⟪4 * i + 4⟫ := (Entails.of_eq (slotPts_unfold c ⟪4 * i + 4⟫ fullShare f0)) $$ Hs⟪4 * i + 4⟫)"

/-- The same in the second layer (stages 4 to 7): the stored value is the first layer's stage multiplied out. -/
def launchText1 : String := "
    have e : ((slotM ⟪4 * i⟫).view.loc (c : Thread nD τ) ↦[(slotM ⟪4 * i⟫).view.set]{fullShare} sound_body.sl.Hs⟪4 * i⟫_w1 m c f0 : sProp 𝕄)
        = slotPts c ⟪4 * i⟫ fullShare (cfin m c) :=
      slot_congr c ⟪4 * i⟫ fullShare fun j hj =>
        cfin_store m c ⟪i⟫ (off := ![⟪4 * i⟫, 0, 0]) rfl _ f0 _
          (stage_store_val0 m c ⟪i - 4⟫ rfl rfl rfl rfl rfl rfl rfl) j hj
    ihave Hs⟪4 * i⟫ := (Entails.of_eq e) $$ Hs⟪4 * i⟫
    clear e
    ihave Hs⟪4 * i⟫ := (slot_share3 c ⟪4 * i⟫ (cfin m c)).1 $$ Hs⟪4 * i⟫
    icases Hs⟪4 * i⟫ with ⟨Hs⟪4 * i⟫x0, Hs⟪4 * i⟫x1, Hs⟪4 * i⟫x2⟩
    try (ihave Hs⟪4 * i + 4⟫ := (Entails.of_eq (slotPts_unfold c ⟪4 * i + 4⟫ fullShare f0)) $$ Hs⟪4 * i + 4⟫)"

/-- The same in the third layer (stages 8 to 11): the stored value is the second layer's stage multiplied out. -/
def launchText2 : String := "
    have e : ((slotM ⟪4 * i⟫).view.loc (c : Thread nD τ) ↦[(slotM ⟪4 * i⟫).view.set]{fullShare} sound_body.sl.Hs⟪4 * i⟫_w1 m c f0 : sProp 𝕄)
        = slotPts c ⟪4 * i⟫ fullShare (cfin m c) :=
      slot_congr c ⟪4 * i⟫ fullShare fun j hj =>
        cfin_store m c ⟪i⟫ (off := ![⟪4 * i⟫, 0, 0]) rfl _ f0 _
          (stage_store_val1 m c ⟪i - 8⟫ (part_own1 m c ⟪i - 8⟫ rfl rfl rfl rfl rfl rfl rfl) rfl rfl rfl rfl rfl) j hj
    ihave Hs⟪4 * i⟫ := (Entails.of_eq e) $$ Hs⟪4 * i⟫
    clear e
    ihave Hs⟪4 * i⟫ := (slot_share3 c ⟪4 * i⟫ (cfin m c)).1 $$ Hs⟪4 * i⟫
    icases Hs⟪4 * i⟫ with ⟨Hs⟪4 * i⟫x0, Hs⟪4 * i⟫x1, Hs⟪4 * i⟫x2⟩
    try (ihave Hs⟪4 * i + 4⟫ := (Entails.of_eq (slotPts_unfold c ⟪4 * i + 4⟫ fullShare f0)) $$ Hs⟪4 * i + 4⟫)"

set_option maxHeartbeats 64000000 in
theorem sound_body : SoundBody m := by
  intro K c Kt
  unfold bodyPre ghost linear payToks
  rw [bigSep_fin73, bigSep_fin36, bigSep_fin36, bigSep_fin3]
  iintro ⟨⟨⟨⟨#HR, Hat, HtB, HtS⟩, HcB, HcR, #Hlev, ⟨%f0, Hcomm⟩⟩, Ho, ⟨%g0, %hg0, Hx0⟩, ⟨%g1, %hg1, Hx1⟩, ⟨%g2, %hg2, Hx2⟩, ⟨%g3, %hg3, Hx3⟩,
    ⟨%g4, %hg4, Hx4⟩, ⟨%g5, %hg5, Hx5⟩, ⟨%g6, %hg6, Hx6⟩, ⟨%X7, %g7, %hg7, Hx7⟩⟩, Hk⟩
  subst hg0 hg1 hg2 hg3 hg4 hg5 hg6 hg7
  unfold Dat.owesAt Pipeline.owesWithin
  icases Ho with ⟨%W, %hW, HO⟩
  rw [show (kdats m 0 c).owed t₀.castSucc = owedRem c 39 from rfl]
  -- the cells' positions, the tokens, the credits, the slots: by number
  icases_fam Hat "Hat" 73
  icases_fam HtS "HtS" 36
  icases_fam HcR "HcR" 36
  icases HtB with ⟨HtB0, HtB1, HtB2⟩
  ihave Hsl := (Entails.of_eq (comm_split c f0)) $$ Hcomm
  ihave Hs := (Entails.of_eq (bigSep_fin48 _)) $$ Hsl
  icases_fam Hs "Hs" 48
  have hmw := mayWait_recv (F := F) c
  have hmws := mayWait_send (F := F) c
  sl_unfold [cc0_body]
  sl_exec_parts
  simp only [dev1_eq c, dev2_eq c, dev3_eq c]
  -- the staged blocks, held through their memrefs' views; the first own slot spelt out
  ihave Hx0 : ((Memref.whole cc0_stg0_0 : Memref sig .tc .vmem S128x128 .f32).view.loc (c : Thread nD τ) ↦{fullShare} iblk m c 0 t₀) $$ [Hx0]
  · iexact Hx0
  ihave Hx1 : ((Memref.whole cc0_stg1_0 : Memref sig .tc .vmem S128x256 .f32).view.loc (c : Thread nD τ) ↦{fullShare} iblk m c 1 t₀) $$ [Hx1]
  · iexact Hx1
  ihave Hx2 : ((Memref.whole cc0_stg2_0 : Memref sig .tc .vmem S256x128 .f32).view.loc (c : Thread nD τ) ↦{fullShare} iblk m c 2 t₀) $$ [Hx2]
  · iexact Hx2
  ihave Hx3 : ((Memref.whole cc0_stg3_0 : Memref sig .tc .vmem S128x256 .f32).view.loc (c : Thread nD τ) ↦{fullShare} iblk m c 3 t₀) $$ [Hx3]
  · iexact Hx3
  ihave Hx4 : ((Memref.whole cc0_stg4_0 : Memref sig .tc .vmem S256x128 .f32).view.loc (c : Thread nD τ) ↦{fullShare} iblk m c 4 t₀) $$ [Hx4]
  · iexact Hx4
  ihave Hx5 : ((Memref.whole cc0_stg5_0 : Memref sig .tc .vmem S128x256 .f32).view.loc (c : Thread nD τ) ↦{fullShare} iblk m c 5 t₀) $$ [Hx5]
  · iexact Hx5
  ihave Hx6 : ((Memref.whole cc0_stg6_0 : Memref sig .tc .vmem S256x128 .f32).view.loc (c : Thread nD τ) ↦{fullShare} iblk m c 6 t₀) $$ [Hx6]
  · iexact Hx6
  ihave Hx7 : ((Memref.whole cc0_stg7_0 : Memref sig .tc .vmem S128x128 .f32).view.loc (c : Thread nD τ) ↦{fullShare} g7) $$ [Hx7]
  · iexact Hx7
  ihave Hs0 := (Entails.of_eq (slotPts_unfold c 0 fullShare f0)) $$ Hs0
  -- the three entry signals: signal i + 1, to device c + i + 1, hands over the slots 4 L + 3 - i
  rep_range 0 3 "
    iapply (wp_sig (cfin m) c _ ⟪i⟫ rfl (K (pr c ⟪i + 1⟫, bIdx)) (owedRem c ⟪38 - i⟫) (owedRem c ⟪39 - i⟫) rfl W) $$ [HO HtB⟪i⟫ Hs⟪3 - i⟫ Hs⟪7 - i⟫ Hs⟪11 - i⟫ Hs⟪15 - i⟫ Hs⟪19 - i⟫ Hs⟪23 - i⟫ Hs⟪27 - i⟫ Hs⟪31 - i⟫ Hs⟪35 - i⟫ Hs⟪39 - i⟫ Hs⟪43 - i⟫ Hs⟪47 - i⟫]
    · isplitr; · iapply (inv_bar (cfin m) K (pr c ⟪i + 1⟫)); iexact HR
      isplitl [HO]; · iexact HO
      isplitl [HtB⟪i⟫]; · iexact HtB⟪i⟫
      isplitl [Hs⟪3 - i⟫ Hs⟪7 - i⟫ Hs⟪11 - i⟫ Hs⟪15 - i⟫ Hs⟪19 - i⟫ Hs⟪23 - i⟫ Hs⟪27 - i⟫ Hs⟪31 - i⟫ Hs⟪35 - i⟫ Hs⟪39 - i⟫ Hs⟪43 - i⟫ Hs⟪47 - i⟫]
      · iapply (mk_barPay' (cfin m) K c ⟪i⟫ f0)
        isplitr; · iexact HR
        isplitl [Hs⟪3 - i⟫]; · iexact Hs⟪3 - i⟫
        isplitl [Hs⟪7 - i⟫]; · iexact Hs⟪7 - i⟫
        isplitl [Hs⟪11 - i⟫]; · iexact Hs⟪11 - i⟫
        isplitl [Hs⟪15 - i⟫]; · iexact Hs⟪15 - i⟫
        isplitl [Hs⟪19 - i⟫]; · iexact Hs⟪19 - i⟫
        isplitl [Hs⟪23 - i⟫]; · iexact Hs⟪23 - i⟫
        isplitl [Hs⟪27 - i⟫]; · iexact Hs⟪27 - i⟫
        isplitl [Hs⟪31 - i⟫]; · iexact Hs⟪31 - i⟫
        isplitl [Hs⟪35 - i⟫]; · iexact Hs⟪35 - i⟫
        isplitl [Hs⟪39 - i⟫]; · iexact Hs⟪39 - i⟫
        isplitl [Hs⟪43 - i⟫]; · iexact Hs⟪43 - i⟫
        iexact Hs⟪47 - i⟫
      iapply (reached_bar (cfin m) K (pr c ⟪i + 1⟫)); iexact HR
    iintro HO
    rw [wp_ret]
    imodintro
    sl_exec_parts"
  -- the entry wait: the three other devices' slots come with it
  iapply (wp_bar_wait (cfin m) c (K (c, bIdx)) (owedRem c 36) W) $$ [HcB HO Hat0]
  · isplitr; · iapply (inv_bar (cfin m) K c); iexact HR
    isplitl [HcB]; · iexact HcB
    isplitl [HO]; · iexact HO
    isplitr; · iapply (mayWait_bar (F := F) c 36 (by omega)); iexact Hlev
    iexact Hat0
  iintro ⟨HO, Hat0, #HrB, HbP0, HbP1, HbP2⟩
  rw [wp_ret]
  imodintro
  ihave HbP0 := (Entails.of_eq (barPay_fam c 0)) $$ HbP0
  ihave HbP1 := (Entails.of_eq (barPay_fam c 1)) $$ HbP1
  ihave HbP2 := (Entails.of_eq (barPay_fam c 2)) $$ HbP2
  icases_fam HbP0 "HbA" 12
  icases_fam HbP1 "HbB" 12
  icases_fam HbP2 "HbC" 12
  rep_range 0 12 "
    icases HbA⟪i⟫ with ⟨⟨%fd⟪3 * i⟫, Hd⟪3 * i⟫⟩, #HrV⟪3 * i⟫⟩
    icases HbB⟪i⟫ with ⟨⟨%fd⟪3 * i + 1⟫, Hd⟪3 * i + 1⟫⟩, #HrV⟪3 * i + 1⟫⟩
    icases HbC⟪i⟫ with ⟨⟨%fd⟪3 * i + 2⟫, Hd⟪3 * i + 2⟫⟩, #HrV⟪3 * i + 2⟫⟩"
  sl_exec_parts
  -- every own cell's invariant and position, under the cells' own names
  rep_range 0 36 "
    ihave #HIr⟪i⟫ := (inv_recv (cfin m) K c ⟪i⟫) $$ HR
    ihave #HIs⟪i⟫ := (inv_send (cfin m) K c ⟪i⟫) $$ HR
    ihave Hat⟪37 + i⟫ := (Entails.of_eq (congrArg (fun g => atPos ER g 0 ∅ 0) (show kcell (c, (⟪37 + i⟫ : Fin 73)) = recvCell c ⟪i⟫ from kcell_r c ⟪i⟫))) $$ Hat⟪37 + i⟫
    ihave Hat⟪1 + i⟫ := (Entails.of_eq (congrArg (fun g => atPos ER g 0 ∅ 0) (show kcell (c, (⟪1 + i⟫ : Fin 73)) = sendCell c ⟪i⟫ from kcell_s c ⟪i⟫))) $$ Hat⟪1 + i⟫"
  -- the twelve launches; after a launch's last transfer come the next stage's waits, loads, products and store, up to
  -- the next launch's first transfer (after the last launch: the remaining stages, the result's stores and the waits
  -- for the device's own transfers, to the end of the body)
  rep_nested 0 4 3 launchText0 sendText
  rep_nested 4 8 3 launchText1 sendText
  rep_nested 8 12 3 launchText2 sendText
  -- the end: the slots under their names again, nothing owed, the result block named, and the post
  rw [wp_ret]
  rep_range 0 36 "
    ihave Hat⟪37 + i⟫_pay1 := (Entails.of_eq (slotPts_unfold c (dstSlot ⟪i⟫) fullShare (cfin m c)).symm) $$ Hat⟪37 + i⟫_pay1
    ihave Hat⟪1 + i⟫_pay1 := (Entails.of_eq (slotPts_unfold c (srcSlot ⟪i⟫) (shareOf ⟪i⟫) (cfin m c)).symm) $$ Hat⟪1 + i⟫_pay1"
  have hO0 : ∀ W' : Waits sig Unit, (owes (c : Thread nD τ) (owedRem c 0) W' : sProp 𝕄) = owes (c : Thread nD τ) 0 W' := fun _ => rfl
  ihave HO := (Entails.of_eq (hO0 _)) $$ HO
  have hX7 : (Memref.whole cc0_stg7_0 : Memref sig .tc .vmem S128x128 .f32).view.writes (Elt F) g7 (sound_body.sl.Hx7_4 m c) = outv m c :=
    out_writes m c g7 _ _ _ _
      (stage_out_val m c 0 (part_own2 m c 0 (part_own1 m c 0 rfl rfl rfl rfl rfl rfl rfl) rfl rfl rfl rfl rfl) rfl rfl rfl rfl)
      (stage_out_val m c 1 (part_own2 m c 1 (part_own1 m c 1 rfl rfl rfl rfl rfl rfl rfl) rfl rfl rfl rfl rfl) rfl rfl rfl rfl)
      (stage_out_val m c 2 (part_own2 m c 2 (part_own1 m c 2 rfl rfl rfl rfl rfl rfl rfl) rfl rfl rfl rfl rfl) rfl rfl rfl rfl)
      (stage_out_val m c 3 (part_own2 m c 3 (part_own1 m c 3 rfl rfl rfl rfl rfl rfl rfl) rfl rfl rfl rfl rfl) rfl rfl rfl rfl)
  imod (body_post_intro_fam m K c _ _ hX7) $$ [- Hk] with Hpost
  · isplitr; · iexact HR
    rep_range 0 35 "
      iapply (sep_assoc (PROP := sProp 𝕄)).2
      isplitl [Hat⟪1 + i⟫]; · iexact Hat⟪1 + i⟫"
    isplitl [Hat36]; · iexact Hat36
    rep_range 0 35 "
      iapply (sep_assoc (PROP := sProp 𝕄)).2
      isplitl [Hat⟪37 + i⟫]; · iexact Hat⟪37 + i⟫"
    isplitl [Hat72]; · iexact Hat72
    rep_range 0 35 "
      iapply (sep_assoc (PROP := sProp 𝕄)).2
      isplitl [Hat⟪37 + i⟫_pay1]; · iexact Hat⟪37 + i⟫_pay1"
    isplitl [Hat72_pay1]; · iexact Hat72_pay1
    rep_range 0 35 "
      iapply (sep_assoc (PROP := sProp 𝕄)).2
      isplitl [Hat⟪1 + i⟫_pay1]; · iexact Hat⟪1 + i⟫_pay1"
    isplitl [Hat36_pay1]; · iexact Hat36_pay1
    isplitl [HO]; · iexact HO
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  imodintro
  iapply Hk
  iexact Hpost

/-- info: 'Cert.KernelIdeal.Proto.sound_body' depends on axioms: [propext, Classical.choice, Quot.sound] -/
#guard_msgs in #print axioms sound_body

end Cert.KernelIdeal.Proto

end
-- ==== Proof.KSteps.lean ====
import proofs.«900970_g7700000000000971_dist_mlpseq_tp1dT_cs_cs_b128_d128_h256_v7x_i4_f32_1_alg».proof.Proof.KProtocol

/-!
The rules of the rounds discipline at this protocol's cells, one lemma per kind of step of a device's body:
a barrier signal, the barrier wait, a transfer, a receive wait, a send wait.
-/

noncomputable section

namespace Cert.Kernel.Proto

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (cf : (c : Dev nD) → Buf (Elt F) ((commM : Memref sig .tc .vmem S48x32x256 .bf16).view.loc (c : Thread nD τ)))

/-! ## Reading the records -/

theorem inv_at0 (K : Dev nD × Fin 73 → ℕ) (ck : Dev nD × Fin 73) :
    (bigSep Finset.univ fun ck : Dev nD × Fin 73 => (cellInv ER (sched (F := F) cf) (K ck) (kcell ck) : sProp 𝕄)) ⊢ cellInv ER (sched cf) (K ck) (kcell ck) :=
  bigSep_elim (Finset.mem_univ ck)
theorem reached_at0 (ck : Dev nD × Fin 73) :
    (bigSep Finset.univ fun ck : Dev nD × Fin 73 => (reached ER (kcell ck) 0 : sProp 𝕄)) ⊢ reached ER (kcell ck) 0 :=
  bigSep_elim (Finset.mem_univ ck)
theorem inv_at (K : Dev nD × Fin 73 → ℕ) (ck : Dev nD × Fin 73) :
    (records (F := F) cf K : sProp 𝕄) ⊢ cellInv ER (sched cf) (K ck) (kcell ck) := by
  unfold records
  iintro ⟨H, -⟩
  iapply (inv_at0 cf K ck)
  iexact H
theorem reached_at (K : Dev nD × Fin 73 → ℕ) (ck : Dev nD × Fin 73) :
    (records (F := F) cf K : sProp 𝕄) ⊢ reached ER (kcell ck) 0 := by
  unfold records
  iintro ⟨-, H⟩
  iapply (reached_at0 (F := F) ck)
  iexact H

theorem inv_bar (K : Dev nD × Fin 73 → ℕ) (c : Dev nD) : (records (F := F) cf K : sProp 𝕄) ⊢ cellInv ER (sched cf) (K (c, bIdx)) (barCell c) := by
  have h := inv_at cf K (c, bIdx); rwa [kcell_b] at h
theorem inv_send (K : Dev nD × Fin 73 → ℕ) (c : Dev nD) (s : Fin 36) : (records (F := F) cf K : sProp 𝕄) ⊢ cellInv ER (sched cf) (K (c, sIdx s)) (sendCell c s) := by
  have h := inv_at cf K (c, sIdx s); rwa [kcell_s] at h
theorem inv_recv (K : Dev nD × Fin 73 → ℕ) (c : Dev nD) (s : Fin 36) : (records (F := F) cf K : sProp 𝕄) ⊢ cellInv ER (sched cf) (K (c, rIdx s)) (recvCell c s) := by
  have h := inv_at cf K (c, rIdx s); rwa [kcell_r] at h
theorem reached_bar (K : Dev nD × Fin 73 → ℕ) (c : Dev nD) : (records (F := F) cf K : sProp 𝕄) ⊢ reached ER (barCell c) 0 := by
  have h := reached_at cf K (c, bIdx); rwa [kcell_b] at h
theorem reached_send (K : Dev nD × Fin 73 → ℕ) (c : Dev nD) (s : Fin 36) : (records (F := F) cf K : sProp 𝕄) ⊢ reached ER (sendCell c s) 0 := by
  have h := reached_at cf K (c, sIdx s); rwa [kcell_s] at h
theorem reached_recv (K : Dev nD × Fin 73 → ℕ) (c : Dev nD) (s : Fin 36) : (records (F := F) cf K : sProp 𝕄) ⊢ reached ER (recvCell c s) 0 := by
  have h := reached_at cf K (c, rIdx s); rwa [kcell_r] at h

/-! ## A barrier signal -/

/-- The signal to device `n = c + i + 1`: duty `2 - i` of its barrier cell, handing over the slots it will write. -/
theorem wp_sig (c n : Dev nD) (i : Fin 3) (hn : n = pr c (i.val + 1)) (κ : ℕ)
    (O O' : CellTallies nD τ sig Unit) (hO : O' = O + tallyAt (barCell (pr c (i.val + 1))) () 1) (W : Waits sig Unit)
    {α : Type} {Q : α → sProp 𝕄} {k : PUnit → Prog (TpuEff nD τ sig (Elt F) Λ₀ .tc) α} :
    iprop(cellInv ER (sched cf) κ (barCell (pr c (i.val + 1))) ∗ owes (c : Thread nD τ) O' W
        ∗ dutyTok ER (barCell (pr c (i.val + 1))) 0 (⟨2 - i.val, by omega⟩ : Fin 3)
        ∗ barPay (pr c (i.val + 1)) (⟨2 - i.val, by omega⟩ : Fin 3)
        ∗ reached ER (barCell (pr c (i.val + 1))) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  rw [← payload_bar cf (pr c (i.val + 1)) (⟨2 - i.val, by omega⟩ : Fin 3)]
  exact Rounds.wp_signal 𝒱₀ ER (sched cf) (c : Thread nD τ) none (dst := (pr c (i.val + 1) : Thread nD τ)) (κ := κ)
    (d := (⟨2 - i.val, by omega⟩ : Fin 3)) (by rw [duties_bar]; exact Finset.mem_univ _) (amount_bar cf (pr c (i.val + 1)) _) () O hO

theorem mk_barPay1 (K : Dev nD × Fin 73 → ℕ) (c : Dev nD) (j : Fin 48) (s : Fin 36) :
    iprop(records cf K ∗ ∃ f, slotPts c j fullShare f)
      ⊢ (iprop((∃ f, slotPts c j fullShare f) ∗ reached ER (recvCell c s) 0) : sProp 𝕄) := by
  iintro ⟨#HR', H'⟩
  isplitl [H']; · iexact H'
  iapply (reached_recv cf K c s); iexact HR'

/-- Device `c`'s 12 slots `4 L + 3 - i` and its standing at round 0 of the receive cells they land on are what its
    signal number `i + 1` hands over. -/
theorem mk_barPay (K : Dev nD × Fin 73 → ℕ) (c : Dev nD) (i : Fin 3) :
    iprop(records cf K ∗ bigSep Finset.univ fun L : Fin 12 => iprop(∃ f, slotPts c (slotOf L (⟨2 - i.val, by omega⟩ : Fin 3)) fullShare f))
      ⊢ (barPay (pr c (i.val + 1)) (⟨2 - i.val, by omega⟩ : Fin 3) : sProp 𝕄) := by
  unfold barPay
  have hp : pr (pr c (i.val + 1)) ((⟨2 - i.val, by omega⟩ : Fin 3).val + 1) = c := by
    have := pr_pr c i
    show pr (pr c (i.val + 1)) (2 - i.val + 1) = c
    rwa [show 2 - i.val + 1 = 3 - i.val from by omega]
  rw [hp]
  refine (sep_mono_left (BI.bigSep_of_persistent (Finset.univ : Finset (Fin 12)) (records cf K))).trans ?_
  rw [← bigSep_sep']
  exact bigSep_mono fun L _ => mk_barPay1 cf K c _ _

/-! ## The barrier wait -/

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The wait for three units on the device's barrier cell: the three other devices' slots come with it. -/
theorem wp_bar_wait (c : Dev nD) (κ : ℕ) (O : CellTallies nD τ sig Unit) (W : Waits sig Unit)
    {α : Type} {Q : α → sProp 𝕄} {k : PUnit → Prog (TpuEff nD τ sig (Elt F) Λ₀ .tc) α} :
    iprop(cellInv ER (sched cf) κ (barCell c) ∗ cred (tallyAt (barCell c) () 3) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ reached ER (barCell c) 1
              ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  have h := Rounds.wp_wait_rest_token 𝒱₀ ER (sched cf) (c : Thread nD τ) none (κ := κ) (Q := Q) (k := k)
    (wpE_semWait_eq (defs := defs₀ (F := F)) 𝒱₀ (c : Thread nD τ) none Set.univ (sem := barS) (k := 3)) (Set.mem_univ _) () (O := O) (W := W) (R := 0) (m := 0) (T := ∅)
    (by rw [expect_bar])
  rw [Finset.sdiff_empty, duties_bar, bigSep_fin3, payload_bar, payload_bar, payload_bar] at h
  exact h

/-! ## A wait on one of the device's DMA cells -/

/-- The wait for transfer `s`'s landing: the destination slot at the buffer's final contents. -/
theorem wp_recv_wait (c : Dev nD) (s : Fin 36) (κ : ℕ) (O : CellTallies nD τ sig Unit) (W : Waits sig Unit)
    {sp' : Space} {s' : Shape} {e' : EltTy} {src : Memref sig .tc sp' s' e'} {hsrc : src.view.WordExact} {hdst : (slotM (dstSlot s)).view.WordExact}
    {α : Type} {Q : α → sProp 𝕄} {k : PUnit → Prog (TpuEff nD τ sig (Elt F) Λ₀ .tc) α} :
    iprop(cellInv ER (sched cf) κ (recvCell c s) ∗ cred (tallyAt (recvCell c s) () N) ∗ owes (c : Thread nD τ) O W
        ∗ MayWait (c : Thread nD τ) (.dma (recvSem s)) () O ∗ atPos ER (recvCell c s) 0 ∅ 0)
      ⊢ iprop(((owes (c : Thread nD τ) O (insert (SemLoc.dma (recvSem s), ()) W) ∗ atPos ER (recvCell c s) 1 ∅ 0 ∗ reached ER (recvCell c s) 1
              ∗ slotPts c (dstSlot s) fullShare (cf c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvSem s) src (slotM (dstSlot s)) hsrc hdst) k) Q) := by
  have h := Rounds.wp_wait_rest_token 𝒱₀ ER (sched cf) (c : Thread nD τ) none (κ := κ) (Q := Q) (k := k)
    (wpE_waitDma2_eq (defs := defs₀ (F := F)) 𝒱₀ (c : Thread nD τ) none Set.univ (sem := recvSem s) (src := src) (dst := slotM (dstSlot s)) (hsrc := hsrc) (hdst := hdst))
    (Set.mem_univ _) () (O := O) (W := W) (R := 0) (m := 0) (T := ∅)
    (by rw [expect_recv]; exact Nat.zero_add _)
  rw [Finset.sdiff_empty, duties_recv, bigSep_singleton, payload_recv] at h
  exact h

/-- The wait for transfer `s`'s source to be read: the lent share of the source slot back. -/
theorem wp_send_wait (c : Dev nD) (s : Fin 36) (κ : ℕ) (W : Waits sig Unit)
    {sp' : Space} {s' : Shape} {e' : EltTy} {src : Memref sig .tc sp' s' e'} {hsrc : src.view.WordExact} {j : Fin 48} {hdst : (slotM j).view.WordExact}
    {α : Type} {Q : α → sProp 𝕄} {k : PUnit → Prog (TpuEff nD τ sig (Elt F) Λ₀ .tc) α} :
    iprop(cellInv ER (sched cf) κ (sendCell c s) ∗ cred (tallyAt (sendCell c s) () N) ∗ owes (c : Thread nD τ) 0 W
        ∗ atPos ER (sendCell c s) 0 ∅ 0)
      ⊢ iprop(((owes (c : Thread nD τ) 0 (insert (SemLoc.dma (sendSem s), ()) W) ∗ atPos ER (sendCell c s) 1 ∅ 0 ∗ reached ER (sendCell c s) 1
              ∗ slotPts c (srcSlot s) (shareOf s) (cf c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendSem s) src (slotM j) hsrc hdst) k) Q) := by
  have h := Rounds.wp_wait_rest_token 𝒱₀ ER (sched cf) (c : Thread nD τ) none (κ := κ) (Q := Q) (k := k)
    (wpE_waitDma2_eq (defs := defs₀ (F := F)) 𝒱₀ (c : Thread nD τ) none Set.univ (sem := sendSem s) (src := src) (dst := slotM j) (hsrc := hsrc) (hdst := hdst))
    (Set.mem_univ _) () (O := 0) (W := W) (R := 0) (m := 0) (T := ∅)
    (by rw [expect_send]; exact Nat.zero_add _)
  rw [Finset.sdiff_empty, duties_send, bigSep_singleton, payload_send, MayWait_zero] at h
  refine BIBase.Entails.trans ?_ h
  iintro ⟨H1, H2, H3, H4⟩
  isplitl [H1]; · iexact H1
  isplitl [H2]; · iexact H2
  isplitl [H3]; · iexact H3
  isplitr; · iempintro
  iexact H4

end Cert.Kernel.Proto

end
-- ==== Proof.KSlots.lean ====
import proofs.«900970_g7700000000000971_dist_mlpseq_tp1dT_cs_cs_b128_d128_h256_v7x_i4_f32_1_alg».proof.Proof.KProtocol
import Idealize.ShloMosaic.Lib.Ring
import Idealize.ShloMosaic.Lib.Pipeline.Value

/-!
The communication buffer held slot by slot.

The buffer has shape `[48, 32, 256]`; slot `j` is the set of its indices whose first coordinate is `j`. The 48 slots
are pairwise disjoint and cover the buffer, so the buffer held whole is the 48 slots held one by one; a slot is held
at contents that matter only on the slot, splits along shares, and a transfer landing on it leaves the source slot's
contents, coordinate by coordinate.
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The buffer's index type. -/
abbrev CIdx : Type := S48x32x256.Idx

/-- The elements under slot `j` are a unit rectangle of the buffer: one step along the first axis at `j`, whole on
    the two others. -/
theorem slot_set (j : Fin 48) :
    (slotM j).view.set = (Rect.unit (s := S48x32x256) ![j.val, 0, 0] S1x32x256.size (slot_inb j)).set := by
  show ((commM.view.slice _).reshape S32x256 _).set = _
  rw [View.set_reshape]
  exact View.set_slice_whole cc0_scratch0 _

/-- An index of the buffer lies in slot `j` exactly when its first coordinate is `j`. -/
theorem mem_slot (j : Fin 48) (i : CIdx) : i ∈ (slotM j).view.set ↔ (i 0).val = j.val := by
  rw [slot_set, Rect.mem_set_unit]
  constructor
  · intro h
    have h0 := h 0
    have e0 : (![j.val, 0, 0] : Fin 3 → Nat) 0 = j.val := rfl
    have e : S1x32x256.size 0 = 1 := rfl
    rw [e0, e] at h0
    omega
  · intro h a
    fin_cases a
    · show j.val ≤ (i 0).val ∧ (i 0).val < j.val + 1
      omega
    · show 0 ≤ (i 1).val ∧ (i 1).val < 0 + 32
      have := (i 1).isLt
      have e : S48x32x256.size 1 = 32 := rfl
      omega
    · show 0 ≤ (i 2).val ∧ (i 2).val < 0 + 256
      have := (i 2).isLt
      have e : S48x32x256.size 2 = 256 := rfl
      omega

/-- Different slots share no element. -/
theorem slot_disjoint (j j' : Fin 48) (h : j ≠ j') : Disjoint (slotM j).view.set (slotM j').view.set := by
  rw [Finset.disjoint_left]
  intro i hi hi'
  have e := (mem_slot j i).mp hi
  have e' := (mem_slot j' i).mp hi'
  exact h (Fin.ext (e.symm.trans e'))

/-- Every element of the buffer is in the slot its first coordinate names. -/
theorem slot_cover : (Finset.univ : Finset (Fin 48)).biUnion (fun j => (slotM j).view.set) = (Finset.univ : Finset CIdx) := by
  ext i
  simp only [Finset.mem_biUnion, Finset.mem_univ, true_and, iff_true]
  exact ⟨⟨(i 0).val, (i 0).isLt⟩, (mem_slot _ i).mpr rfl⟩

/-- The buffer held whole is its 48 slots held one by one, at the same contents. -/
theorem comm_split (c : Dev nD) (f : Buf (Elt F) ((commM : Memref sig .tc .vmem S48x32x256 .bf16).view.loc (c : Thread nD τ))) :
    (commPts c f : sProp 𝕄) = bigSep Finset.univ fun j : Fin 48 => slotPts c j fullShare f := by
  unfold commPts slotPts
  rw [View.set_whole]
  exact Ring.pointsTo_blocks (ℓ := (commM : Memref sig .tc .vmem S48x32x256 .bf16).view.loc (c : Thread nD τ)) (q := fullShare)
    (fun j : Fin 48 => (slotM j).view.set) (fun j j' h => slot_disjoint j j' h) slot_cover f

/-- The 48 slots held at one buffer's contents are that buffer held whole. -/
theorem comm_join (c : Dev nD) (f : Buf (Elt F) ((commM : Memref sig .tc .vmem S48x32x256 .bf16).view.loc (c : Thread nD τ))) :
    bigSep Finset.univ (fun j : Fin 48 => slotPts c j fullShare f) ⊢ (commPts c f : sProp 𝕄) :=
  Entails.of_eq (comm_split c f).symm

/-- A slot held at the full share is the slot held at the three shares its three transfers borrow. -/
theorem slot_share3 (c : Dev nD) (j : Fin 48) (f : Buf (Elt F) ((commM : Memref sig .tc .vmem S48x32x256 .bf16).view.loc (c : Thread nD τ))) :
    (slotPts c j fullShare f : sProp 𝕄)
      ⊣⊢ iprop(slotPts c j fullShare.left f ∗ slotPts c j fullShare.right.left f ∗ slotPts c j fullShare.right.right f) := by
  unfold slotPts
  exact (pointsTo_share (PosShare.mem_left_op_right fullShare)).trans
    (sep_congr_right (pointsTo_share (PosShare.mem_left_op_right fullShare.right)))

/-- A slot's points-to reads its contents only at the indices of the slot. -/
theorem slot_congr (c : Dev nD) (j : Fin 48) (q : PosShare TreeShare)
    {f g : Buf (Elt F) ((commM : Memref sig .tc .vmem S48x32x256 .bf16).view.loc (c : Thread nD τ))}
    (h : ∀ i : CIdx, (i 0).val = j.val → f i = g i) : (slotPts c j q f : sProp 𝕄) = slotPts c j q g := by
  unfold slotPts
  exact pointsTo_congr fun i hi => h i ((mem_slot j i).mp hi)

/-! ## Indices of the buffer by coordinates -/

/-- The buffer's index with coordinates `j`, `a`, `b`. -/
def slotIdx (j : Fin 48) (a : Fin 32) (b : Fin 256) : CIdx := fun x =>
  ⟨if x.val = 0 then j.val else if x.val = 1 then a.val else b.val, by
    rcases x with ⟨_ | _ | _ | n, hx⟩
    · exact j.isLt
    · exact a.isLt
    · exact b.isLt
    · exact absurd hx (by simp)⟩

@[simp] theorem slotIdx_zero (j : Fin 48) (a : Fin 32) (b : Fin 256) : slotIdx j a b 0 = j := rfl
@[simp] theorem slotIdx_one (j : Fin 48) (a : Fin 32) (b : Fin 256) : slotIdx j a b 1 = a := rfl
@[simp] theorem slotIdx_two (j : Fin 48) (a : Fin 32) (b : Fin 256) : slotIdx j a b 2 = b := rfl

/-- Two indices of the buffer with the same three coordinates are equal. -/
theorem cidx_ext {x y : CIdx} (h0 : (x 0).val = (y 0).val) (h1 : (x 1).val = (y 1).val) (h2 : (x 2).val = (y 2).val) :
    x = y :=
  funext fun a => Fin.ext <| match a with | ⟨0, _⟩ => h0 | ⟨1, _⟩ => h1 | ⟨2, _⟩ => h2

/-- Every index is the one its coordinates name. -/
theorem slotIdx_eta (i : CIdx) : slotIdx (i 0) (i 1) (i 2) = i := cidx_ext rfl rfl rfl

/-- Where slot `j`'s view puts its index `y`: at `j`, then `y`'s two coordinates. -/
theorem slot_emb (j : Fin 48) (y : S32x256.Idx) : (slotM j).view.emb y = slotIdx j (y 0) (y 1) := by
  show ((commM.view.slice (Rect.unit (s := S48x32x256) ![j.val, 0, 0] S1x32x256.size (slot_inb j))).reshape S32x256 _).emb y = _
  rw [View.emb_reshape, View.emb_slice]
  show (Rect.unit (s := S48x32x256) ![j.val, 0, 0] S1x32x256.size (slot_inb j)).emb (Shape.reshapeEquiv _ y) = _
  rw [Shape.reshapeEquiv_cons_one]
  refine cidx_ext ?_ ?_ ?_
  · rw [Rect.emb_apply]; show j.val + 1 * 0 = j.val; omega
  · rw [Rect.emb_apply]; show 0 + 1 * (y 0).val = (y 0).val; omega
  · rw [Rect.emb_apply]; show 0 + 1 * (y 1).val = (y 1).val; omega

/-- An index in slot `j` is the image of the slot view's index made of its two last coordinates. -/
theorem slot_emb_of (j : Fin 48) (i : CIdx) (h : (i 0).val = j.val) : (slotM j).view.emb (Shape.pair (i 1) (i 2)) = i := by
  rw [slot_emb]
  exact cidx_ext h.symm rfl rfl

/-- What a transfer of slot `j` of one buffer leaves in slot `j'` of another: at each index of slot `j'`, the
    source's element at the same two last coordinates of slot `j`. -/
theorem slot_land (c c' : Dev nD) (j j' : Fin 48)
    (fs : Buf (Elt F) ((commM : Memref sig .tc .vmem S48x32x256 .bf16).view.loc (c : Thread nD τ)))
    (fd g : Buf (Elt F) ((commM : Memref sig .tc .vmem S48x32x256 .bf16).view.loc (c' : Thread nD τ)))
    (h : ∀ i : CIdx, (i 0).val = j'.val → g i = fs (slotIdx j (i 1) (i 2))) :
    ((slotM j').view.loc (c' : Thread nD τ) ↦[(slotM j').view.set]{fullShare}
        ((slotM j').view.write (Elt F) fd ((slotM j).view.read (Elt F) fs) Finset.univ) : sProp 𝕄)
      ⊢ slotPts c' j' fullShare g := by
  unfold slotPts
  refine Entails.of_eq (pointsTo_congr fun i hi => ?_)
  have hi0 := (mem_slot j' i).mp hi
  rw [h i hi0]
  conv_lhs => rw [← slot_emb_of j' i hi0]
  rw [View.write_emb_of_mem _ _ (Finset.mem_univ _), View.read_apply, cast_cast, cast_eq, slot_emb]
  rfl

/-! ## Loads and stores of one slot through the whole buffer -/

/-- The index `[0, a, b]` of a `[1, 32, 256]` vector. -/
def rowIdx (a : Fin 32) (b : Fin 256) : S1x32x256.Idx := fun x =>
  ⟨if x.val = 0 then 0 else if x.val = 1 then a.val else b.val, by
    rcases x with ⟨_ | _ | _ | n, hx⟩
    · exact Nat.one_pos
    · exact a.isLt
    · exact b.isLt
    · exact absurd hx (by simp)⟩

@[simp] theorem rowIdx_one (a : Fin 32) (b : Fin 256) : rowIdx a b 1 = a := rfl
@[simp] theorem rowIdx_two (a : Fin 32) (b : Fin 256) : rowIdx a b 2 = b := rfl

/-- Every index of a `[1, 32, 256]` vector is the one its two last coordinates name. -/
theorem rowIdx_eta (y : S1x32x256.Idx) : rowIdx (y 1) (y 2) = y :=
  funext fun a => Fin.ext <| match a with
    | ⟨0, _⟩ => by have := (y 0).isLt; show 0 = (y 0).val; have e : S1x32x256.size 0 = 1 := rfl; omega
    | ⟨1, _⟩ => rfl
    | ⟨2, _⟩ => rfl

/-- Where the rectangle of slot `j` puts a vector's index: at `j`, then its two last coordinates. -/
theorem rect_emb (j : Fin 48) {off : Fin 3 → Nat} (h : off = ![j.val, 0, 0])
    (inb : ∀ a, off a + S1x32x256.size a ≤ S48x32x256.size a) (y : S1x32x256.Idx) :
    (Rect.unit (s := S48x32x256) off S1x32x256.size inb).emb y = slotIdx j (y 1) (y 2) := by
  subst h
  refine cidx_ext ?_ ?_ ?_
  · rw [Rect.emb_apply]
    have := (y 0).isLt
    have e : S1x32x256.size 0 = 1 := rfl
    show j.val + 1 * (y 0).val = j.val
    omega
  · rw [Rect.emb_apply]; show 0 + 1 * (y 1).val = (y 1).val; omega
  · rw [Rect.emb_apply]; show 0 + 1 * (y 2).val = (y 2).val; omega

/-- A load of slot `j` through the whole buffer reads, at `[0, a, b]`, the buffer's element `[j, a, b]`. -/
theorem comm_readAt (c : Dev nD) (j : Fin 48) {off : Fin 3 → Nat} (h : off = ![j.val, 0, 0])
    (inb : ∀ a, off a + S1x32x256.size a ≤ S48x32x256.size a)
    (f : Buf (Elt F) ((commM : Memref sig .tc .vmem S48x32x256 .bf16).view.loc (c : Thread nD τ))) :
    (commM : Memref sig .tc .vmem S48x32x256 .bf16).view.readAt (Elt F) (Rect.unit (s := S48x32x256) off S1x32x256.size inb).toLoadRect f
      = fun y : S1x32x256.Idx => f (slotIdx j (y 1) (y 2)) := by
  funext y
  rw [View.readAt_rect, View.read_apply, View.emb_slice]
  show f ((Rect.unit (s := S48x32x256) off S1x32x256.size inb).emb y) = _
  rw [rect_emb j h inb]

/-- A store of `w` to slot `j` through the whole buffer leaves, at the buffer's element `i` of slot `j`,
    `w` at `i`'s two last coordinates; -/
theorem comm_write_slot (c : Dev nD) (j : Fin 48) {off : Fin 3 → Nat} (h : off = ![j.val, 0, 0])
    (inb : ∀ a, off a + S1x32x256.size a ≤ S48x32x256.size a)
    (f : Buf (Elt F) ((commM : Memref sig .tc .vmem S48x32x256 .bf16).view.loc (c : Thread nD τ)))
    (w : S1x32x256.Idx → Elt F .bf16) (i : CIdx) (hi : (i 0).val = j.val) :
    ((commM : Memref sig .tc .vmem S48x32x256 .bf16).access (Rect.unit (s := S48x32x256) off S1x32x256.size inb)).write (Elt F) f w Finset.univ i
      = w (rowIdx (i 1) (i 2)) := by
  have e : ((commM : Memref sig .tc .vmem S48x32x256 .bf16).access (Rect.unit (s := S48x32x256) off S1x32x256.size inb)).emb (rowIdx (i 1) (i 2)) = i := by
    show (Rect.unit (s := S48x32x256) off S1x32x256.size inb).emb (rowIdx (i 1) (i 2)) = i
    rw [rect_emb j h inb]
    exact cidx_ext hi.symm rfl rfl
  conv_lhs => rw [← e]
  rw [View.write_emb_of_mem _ _ (Finset.mem_univ _)]
  rfl

/-- and leaves every element of the other slots as it was. -/
theorem comm_write_off (c : Dev nD) (j : Fin 48) {off : Fin 3 → Nat} (h : off = ![j.val, 0, 0])
    (inb : ∀ a, off a + S1x32x256.size a ≤ S48x32x256.size a)
    (f : Buf (Elt F) ((commM : Memref sig .tc .vmem S48x32x256 .bf16).view.loc (c : Thread nD τ)))
    (w : S1x32x256.Idx → Elt F .bf16) (i : CIdx) (hi : (i 0).val ≠ j.val) :
    ((commM : Memref sig .tc .vmem S48x32x256 .bf16).access (Rect.unit (s := S48x32x256) off S1x32x256.size inb)).write (Elt F) f w Finset.univ i
      = f i := by
  refine View.write_of_not_mem _ _ _ fun hm => hi ?_
  rw [View.setOn_univ] at hm
  obtain ⟨y, hy⟩ := View.exists_emb_of_mem_set _ hm
  have e : (Rect.unit (s := S48x32x256) off S1x32x256.size inb).emb y = i := hy
  rw [rect_emb j h inb] at e
  rw [← e]
  rfl

/-- The elements a store to slot `j` through the whole buffer goes through are the slot's. -/
theorem comm_access_set (j : Fin 48) {off : Fin 3 → Nat} (h : off = ![j.val, 0, 0])
    (inb : ∀ a, off a + S1x32x256.size a ≤ S48x32x256.size a) :
    ((commM : Memref sig .tc .vmem S48x32x256 .bf16).access (Rect.unit (s := S48x32x256) off S1x32x256.size inb)).set = (slotM j).view.set := by
  subst h
  rw [slot_set]
  exact View.set_slice_whole cc0_scratch0 _

/-- info: 'Cert.Kernel.Proto.mem_slot' depends on axioms: [propext, Classical.choice, Quot.sound] -/
#guard_msgs in #print axioms mem_slot
/-- info: 'Cert.Kernel.Proto.comm_split' depends on axioms: [propext, Classical.choice, Quot.sound] -/
#guard_msgs in #print axioms comm_split
/-- info: 'Cert.Kernel.Proto.comm_join' depends on axioms: [propext, Classical.choice, Quot.sound] -/
#guard_msgs in #print axioms comm_join
/-- info: 'Cert.Kernel.Proto.slot_share3' depends on axioms: [propext, Classical.choice, Quot.sound] -/
#guard_msgs in #print axioms slot_share3
/-- info: 'Cert.Kernel.Proto.slot_congr' depends on axioms: [propext, Classical.choice, Quot.sound] -/
#guard_msgs in #print axioms slot_congr
/-- info: 'Cert.Kernel.Proto.slot_land' depends on axioms: [propext, Classical.choice, Quot.sound] -/
#guard_msgs in #print axioms slot_land
/-- info: 'Cert.Kernel.Proto.comm_readAt' depends on axioms: [propext, Classical.choice, Quot.sound] -/
#guard_msgs in #print axioms comm_readAt
/-- info: 'Cert.Kernel.Proto.comm_write_slot' depends on axioms: [propext, Classical.choice, Quot.sound] -/
#guard_msgs in #print axioms comm_write_slot
/-- info: 'Cert.Kernel.Proto.comm_write_off' depends on axioms: [propext, Classical.choice, Quot.sound] -/
#guard_msgs in #print axioms comm_write_off

end Cert.Kernel.Proto

end
-- ==== Proof.KSend.lean ====
import proofs.«900970_g7700000000000971_dist_mlpseq_tp1dT_cs_cs_b128_d128_h256_v7x_i4_f32_1_alg».proof.Proof.KSteps
import proofs.«900970_g7700000000000971_dist_mlpseq_tp1dT_cs_cs_b128_d128_h256_v7x_i4_f32_1_alg».proof.Proof.KSlots

/-! A transfer at this protocol's cells: the source slot lent at its share, the destination slot rewritten. -/

noncomputable section

namespace Cert.Kernel.Proto

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (cf : (c : Dev nD) → Buf (Elt F) ((commM : Memref sig .tc .vmem S48x32x256 .bf16).view.loc (c : Thread nD τ)))

/-- Transfer `s` of device `c`, addressed to `n = c + offs s`: the source slot at the final contents, lent at the
    transfer's share, the destination slot at whatever it holds; what lands there is the destination's final contents
    (`hcf`: the destination's slot of the final contents is the sender's source slot). -/
theorem wp_send_slot (c n : Dev nD) (s : Fin 36) (hn : n = pr c (offs s)) (κ₁ κ₂ : ℕ)
    (hcf : ∀ i : CIdx, (i 0).val = (dstSlot s).val → cf (pr c (offs s)) i = cf c (slotIdx (srcSlot s) (i 1) (i 2)))
    {hsc : (slotM (dstSlot s) : Memref sig (Dev.tc n : Thread nD τ).2.kind .vmem S32x256 .bf16).view.ref.isScScratch = false}
    {hsrc : (slotM (srcSlot s)).view.WordExact} {hdst : (slotM (dstSlot s)).view.WordExact}
    {hsem : DmaTarget.Typed .vmem (.dma (recvSem s)) (.remote (Dev.tc n : Thread nD τ) (slotM (dstSlot s)) (.dma (sendSem s)) hsc)}
    {α : Type} {Q : α → sProp 𝕄} {k : PUnit → Prog (TpuEff nD τ sig (Elt F) Λ₀ .tc) α}
    (fd : Buf (Elt F) ((slotM (dstSlot s)).view.loc (pr c (offs s) : Thread nD τ)))
    (O O' : CellTallies nD τ sig Unit) (hO : O' = O + tallyAt (recvCell (pr c (offs s)) s) () N) (W : Waits sig Unit) :
    iprop(cellInv ER (sched cf) κ₁ (sendCell c s) ∗ cellInv ER (sched cf) κ₂ (recvCell (pr c (offs s)) s)
        ∗ slotPts c (srcSlot s) (shareOf s) (cf c) ∗ slotPts (pr c (offs s)) (dstSlot s) fullShare fd
        ∗ owes (c : Thread nD τ) O' W
        ∗ dutyTok ER (sendCell c s) 0 (0 : Fin 3) ∗ reached ER (sendCell c s) 0
        ∗ dutyTok ER (recvCell (pr c (offs s)) s) 0 (0 : Fin 3) ∗ reached ER (recvCell (pr c (offs s)) s) 0)
      ⊢ iprop(((cred (tallyAt (sendCell c s) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM (srcSlot s)) (.remote (Dev.tc n : Thread nD τ) (slotM (dstSlot s)) (.dma (sendSem s)) hsc) (.dma (recvSem s)) hsrc hdst hsem) k) Q) := by
  subst hn
  unfold slotPts
  exact Rounds.wp_send_pointsTo 𝒱₀ ER (sched cf) (c : Thread nD τ) none (κ₁ := κ₁) (κ₂ := κ₂)
    (src := slotM (srcSlot s)) (dst := slotM (dstSlot s)) (c' := (pr c (offs s) : Thread nD τ)) (q := shareOf s) (fs := cf c)
    (r₁ := 0) (r₂ := 0) (d₁ := (0 : Fin 3)) (d₂ := (0 : Fin 3)) (fd := fd)
    (by rw [duties_send]; exact Finset.mem_singleton_self _) (by rw [duties_recv]; exact Finset.mem_singleton_self _)
    () () N rfl (amount_send cf c s 0) (amount_recv cf (pr c (offs s)) s 0) O hO (W := W)
    (by rw [payload_send]; unfold slotPts; exact BI.Entails.refl _)
    (by rw [payload_recv]; exact slot_land (pr c (offs s)) (pr c (offs s)) (srcSlot s) (dstSlot s) (cf c) fd (cf (pr c (offs s))) hcf)

end Cert.Kernel.Proto

end
-- ==== Proof.KExecTables.lean ====
import proofs.«900970_g7700000000000971_dist_mlpseq_tp1dT_cs_cs_b128_d128_h256_v7x_i4_f32_1_alg».proof.Proof.KProtocol

/-!
Tables of cases for the cross-device protocol, one line per printed site: the 39 addressed devices as
`c + k`, the 36 + 36 sliced semaphores as the send and receive semaphores by number, the 48 printed slot
views as the slots by number, and the schedule's payload, amount, duty and expectation entries at each
literal transfer number with the payload spelt as the points-to assertion itself.
-/

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The addressed devices -/

@[sl_canon] theorem dev1_eq (c : Dev nD) : (⟨k0_dev1 c, k0_dev1_lt c⟩ : Dev nD) = pr c 1 := Fin.ext (k0_dev1_eq c)
@[sl_canon] theorem dev2_eq (c : Dev nD) : (⟨k0_dev2 c, k0_dev2_lt c⟩ : Dev nD) = pr c 2 := Fin.ext (k0_dev2_eq c)
@[sl_canon] theorem dev3_eq (c : Dev nD) : (⟨k0_dev3 c, k0_dev3_lt c⟩ : Dev nD) = pr c 3 := Fin.ext (k0_dev3_eq c)
@[sl_canon] theorem dev4_eq (c : Dev nD) : (⟨k0_dev4 c, k0_dev4_lt c⟩ : Dev nD) = pr c 2 := Fin.ext (k0_dev4_eq c)
@[sl_canon] theorem dev5_eq (c : Dev nD) : (⟨k0_dev5 c, k0_dev5_lt c⟩ : Dev nD) = pr c 1 := Fin.ext (k0_dev5_eq c)
@[sl_canon] theorem dev6_eq (c : Dev nD) : (⟨k0_dev6 c, k0_dev6_lt c⟩ : Dev nD) = pr c 3 := Fin.ext (k0_dev6_eq c)
@[sl_canon] theorem dev7_eq (c : Dev nD) : (⟨k0_dev7 c, k0_dev7_lt c⟩ : Dev nD) = pr c 2 := Fin.ext (k0_dev7_eq c)
@[sl_canon] theorem dev8_eq (c : Dev nD) : (⟨k0_dev8 c, k0_dev8_lt c⟩ : Dev nD) = pr c 1 := Fin.ext (k0_dev8_eq c)
@[sl_canon] theorem dev9_eq (c : Dev nD) : (⟨k0_dev9 c, k0_dev9_lt c⟩ : Dev nD) = pr c 3 := Fin.ext (k0_dev9_eq c)
@[sl_canon] theorem dev10_eq (c : Dev nD) : (⟨k0_dev10 c, k0_dev10_lt c⟩ : Dev nD) = pr c 2 := Fin.ext (k0_dev10_eq c)
@[sl_canon] theorem dev11_eq (c : Dev nD) : (⟨k0_dev11 c, k0_dev11_lt c⟩ : Dev nD) = pr c 1 := Fin.ext (k0_dev11_eq c)
@[sl_canon] theorem dev12_eq (c : Dev nD) : (⟨k0_dev12 c, k0_dev12_lt c⟩ : Dev nD) = pr c 3 := Fin.ext (k0_dev12_eq c)
@[sl_canon] theorem dev13_eq (c : Dev nD) : (⟨k0_dev13 c, k0_dev13_lt c⟩ : Dev nD) = pr c 2 := Fin.ext (k0_dev13_eq c)
@[sl_canon] theorem dev14_eq (c : Dev nD) : (⟨k0_dev14 c, k0_dev14_lt c⟩ : Dev nD) = pr c 1 := Fin.ext (k0_dev14_eq c)
@[sl_canon] theorem dev15_eq (c : Dev nD) : (⟨k0_dev15 c, k0_dev15_lt c⟩ : Dev nD) = pr c 3 := Fin.ext (k0_dev15_eq c)
@[sl_canon] theorem dev16_eq (c : Dev nD) : (⟨k0_dev16 c, k0_dev16_lt c⟩ : Dev nD) = pr c 2 := Fin.ext (k0_dev16_eq c)
@[sl_canon] theorem dev17_eq (c : Dev nD) : (⟨k0_dev17 c, k0_dev17_lt c⟩ : Dev nD) = pr c 1 := Fin.ext (k0_dev17_eq c)
@[sl_canon] theorem dev18_eq (c : Dev nD) : (⟨k0_dev18 c, k0_dev18_lt c⟩ : Dev nD) = pr c 3 := Fin.ext (k0_dev18_eq c)
@[sl_canon] theorem dev19_eq (c : Dev nD) : (⟨k0_dev19 c, k0_dev19_lt c⟩ : Dev nD) = pr c 2 := Fin.ext (k0_dev19_eq c)
@[sl_canon] theorem dev20_eq (c : Dev nD) : (⟨k0_dev20 c, k0_dev20_lt c⟩ : Dev nD) = pr c 1 := Fin.ext (k0_dev20_eq c)
@[sl_canon] theorem dev21_eq (c : Dev nD) : (⟨k0_dev21 c, k0_dev21_lt c⟩ : Dev nD) = pr c 3 := Fin.ext (k0_dev21_eq c)
@[sl_canon] theorem dev22_eq (c : Dev nD) : (⟨k0_dev22 c, k0_dev22_lt c⟩ : Dev nD) = pr c 2 := Fin.ext (k0_dev22_eq c)
@[sl_canon] theorem dev23_eq (c : Dev nD) : (⟨k0_dev23 c, k0_dev23_lt c⟩ : Dev nD) = pr c 1 := Fin.ext (k0_dev23_eq c)
@[sl_canon] theorem dev24_eq (c : Dev nD) : (⟨k0_dev24 c, k0_dev24_lt c⟩ : Dev nD) = pr c 3 := Fin.ext (k0_dev24_eq c)
@[sl_canon] theorem dev25_eq (c : Dev nD) : (⟨k0_dev25 c, k0_dev25_lt c⟩ : Dev nD) = pr c 2 := Fin.ext (k0_dev25_eq c)
@[sl_canon] theorem dev26_eq (c : Dev nD) : (⟨k0_dev26 c, k0_dev26_lt c⟩ : Dev nD) = pr c 1 := Fin.ext (k0_dev26_eq c)
@[sl_canon] theorem dev27_eq (c : Dev nD) : (⟨k0_dev27 c, k0_dev27_lt c⟩ : Dev nD) = pr c 3 := Fin.ext (k0_dev27_eq c)
@[sl_canon] theorem dev28_eq (c : Dev nD) : (⟨k0_dev28 c, k0_dev28_lt c⟩ : Dev nD) = pr c 2 := Fin.ext (k0_dev28_eq c)
@[sl_canon] theorem dev29_eq (c : Dev nD) : (⟨k0_dev29 c, k0_dev29_lt c⟩ : Dev nD) = pr c 1 := Fin.ext (k0_dev29_eq c)
@[sl_canon] theorem dev30_eq (c : Dev nD) : (⟨k0_dev30 c, k0_dev30_lt c⟩ : Dev nD) = pr c 3 := Fin.ext (k0_dev30_eq c)
@[sl_canon] theorem dev31_eq (c : Dev nD) : (⟨k0_dev31 c, k0_dev31_lt c⟩ : Dev nD) = pr c 2 := Fin.ext (k0_dev31_eq c)
@[sl_canon] theorem dev32_eq (c : Dev nD) : (⟨k0_dev32 c, k0_dev32_lt c⟩ : Dev nD) = pr c 1 := Fin.ext (k0_dev32_eq c)
@[sl_canon] theorem dev33_eq (c : Dev nD) : (⟨k0_dev33 c, k0_dev33_lt c⟩ : Dev nD) = pr c 3 := Fin.ext (k0_dev33_eq c)
@[sl_canon] theorem dev34_eq (c : Dev nD) : (⟨k0_dev34 c, k0_dev34_lt c⟩ : Dev nD) = pr c 2 := Fin.ext (k0_dev34_eq c)
@[sl_canon] theorem dev35_eq (c : Dev nD) : (⟨k0_dev35 c, k0_dev35_lt c⟩ : Dev nD) = pr c 1 := Fin.ext (k0_dev35_eq c)
@[sl_canon] theorem dev36_eq (c : Dev nD) : (⟨k0_dev36 c, k0_dev36_lt c⟩ : Dev nD) = pr c 3 := Fin.ext (k0_dev36_eq c)
@[sl_canon] theorem dev37_eq (c : Dev nD) : (⟨k0_dev37 c, k0_dev37_lt c⟩ : Dev nD) = pr c 2 := Fin.ext (k0_dev37_eq c)
@[sl_canon] theorem dev38_eq (c : Dev nD) : (⟨k0_dev38 c, k0_dev38_lt c⟩ : Dev nD) = pr c 1 := Fin.ext (k0_dev38_eq c)
@[sl_canon] theorem dev39_eq (c : Dev nD) : (⟨k0_dev39 c, k0_dev39_lt c⟩ : Dev nD) = pr c 3 := Fin.ext (k0_dev39_eq c)

/-! ## The semaphores by number -/

@[sl_canon] theorem sendSem0_eq : ((cc0_scratch1.slice (Rect.unit (s := S36) ![0] S1.size inb_S36_S1_0)).squeeze S_ squeezes_S1_S_).sem = sendSem 0 := rfl
@[sl_canon] theorem sendSem1_eq : ((cc0_scratch1.slice (Rect.unit (s := S36) ![1] S1.size inb_S36_S1_1)).squeeze S_ squeezes_S1_S_).sem = sendSem 1 := rfl
@[sl_canon] theorem sendSem2_eq : ((cc0_scratch1.slice (Rect.unit (s := S36) ![2] S1.size inb_S36_S1_2)).squeeze S_ squeezes_S1_S_).sem = sendSem 2 := rfl
@[sl_canon] theorem sendSem3_eq : ((cc0_scratch1.slice (Rect.unit (s := S36) ![3] S1.size inb_S36_S1_3)).squeeze S_ squeezes_S1_S_).sem = sendSem 3 := rfl
@[sl_canon] theorem sendSem4_eq : ((cc0_scratch1.slice (Rect.unit (s := S36) ![4] S1.size inb_S36_S1_4)).squeeze S_ squeezes_S1_S_).sem = sendSem 4 := rfl
@[sl_canon] theorem sendSem5_eq : ((cc0_scratch1.slice (Rect.unit (s := S36) ![5] S1.size inb_S36_S1_5)).squeeze S_ squeezes_S1_S_).sem = sendSem 5 := rfl
@[sl_canon] theorem sendSem6_eq : ((cc0_scratch1.slice (Rect.unit (s := S36) ![6] S1.size inb_S36_S1_6)).squeeze S_ squeezes_S1_S_).sem = sendSem 6 := rfl
@[sl_canon] theorem sendSem7_eq : ((cc0_scratch1.slice (Rect.unit (s := S36) ![7] S1.size inb_S36_S1_7)).squeeze S_ squeezes_S1_S_).sem = sendSem 7 := rfl
@[sl_canon] theorem sendSem8_eq : ((cc0_scratch1.slice (Rect.unit (s := S36) ![8] S1.size inb_S36_S1_8)).squeeze S_ squeezes_S1_S_).sem = sendSem 8 := rfl
@[sl_canon] theorem sendSem9_eq : ((cc0_scratch1.slice (Rect.unit (s := S36) ![9] S1.size inb_S36_S1_9)).squeeze S_ squeezes_S1_S_).sem = sendSem 9 := rfl
@[sl_canon] theorem sendSem10_eq : ((cc0_scratch1.slice (Rect.unit (s := S36) ![10] S1.size inb_S36_S1_10)).squeeze S_ squeezes_S1_S_).sem = sendSem 10 := rfl
@[sl_canon] theorem sendSem11_eq : ((cc0_scratch1.slice (Rect.unit (s := S36) ![11] S1.size inb_S36_S1_11)).squeeze S_ squeezes_S1_S_).sem = sendSem 11 := rfl
@[sl_canon] theorem sendSem12_eq : ((cc0_scratch1.slice (Rect.unit (s := S36) ![12] S1.size inb_S36_S1_12)).squeeze S_ squeezes_S1_S_).sem = sendSem 12 := rfl
@[sl_canon] theorem sendSem13_eq : ((cc0_scratch1.slice (Rect.unit (s := S36) ![13] S1.size inb_S36_S1_13)).squeeze S_ squeezes_S1_S_).sem = sendSem 13 := rfl
@[sl_canon] theorem sendSem14_eq : ((cc0_scratch1.slice (Rect.unit (s := S36) ![14] S1.size inb_S36_S1_14)).squeeze S_ squeezes_S1_S_).sem = sendSem 14 := rfl
@[sl_canon] theorem sendSem15_eq : ((cc0_scratch1.slice (Rect.unit (s := S36) ![15] S1.size inb_S36_S1_15)).squeeze S_ squeezes_S1_S_).sem = sendSem 15 := rfl
@[sl_canon] theorem sendSem16_eq : ((cc0_scratch1.slice (Rect.unit (s := S36) ![16] S1.size inb_S36_S1_16)).squeeze S_ squeezes_S1_S_).sem = sendSem 16 := rfl
@[sl_canon] theorem sendSem17_eq : ((cc0_scratch1.slice (Rect.unit (s := S36) ![17] S1.size inb_S36_S1_17)).squeeze S_ squeezes_S1_S_).sem = sendSem 17 := rfl
@[sl_canon] theorem sendSem18_eq : ((cc0_scratch1.slice (Rect.unit (s := S36) ![18] S1.size inb_S36_S1_18)).squeeze S_ squeezes_S1_S_).sem = sendSem 18 := rfl
@[sl_canon] theorem sendSem19_eq : ((cc0_scratch1.slice (Rect.unit (s := S36) ![19] S1.size inb_S36_S1_19)).squeeze S_ squeezes_S1_S_).sem = sendSem 19 := rfl
@[sl_canon] theorem sendSem20_eq : ((cc0_scratch1.slice (Rect.unit (s := S36) ![20] S1.size inb_S36_S1_20)).squeeze S_ squeezes_S1_S_).sem = sendSem 20 := rfl
@[sl_canon] theorem sendSem21_eq : ((cc0_scratch1.slice (Rect.unit (s := S36) ![21] S1.size inb_S36_S1_21)).squeeze S_ squeezes_S1_S_).sem = sendSem 21 := rfl
@[sl_canon] theorem sendSem22_eq : ((cc0_scratch1.slice (Rect.unit (s := S36) ![22] S1.size inb_S36_S1_22)).squeeze S_ squeezes_S1_S_).sem = sendSem 22 := rfl
@[sl_canon] theorem sendSem23_eq : ((cc0_scratch1.slice (Rect.unit (s := S36) ![23] S1.size inb_S36_S1_23)).squeeze S_ squeezes_S1_S_).sem = sendSem 23 := rfl
@[sl_canon] theorem sendSem24_eq : ((cc0_scratch1.slice (Rect.unit (s := S36) ![24] S1.size inb_S36_S1_24)).squeeze S_ squeezes_S1_S_).sem = sendSem 24 := rfl
@[sl_canon] theorem sendSem25_eq : ((cc0_scratch1.slice (Rect.unit (s := S36) ![25] S1.size inb_S36_S1_25)).squeeze S_ squeezes_S1_S_).sem = sendSem 25 := rfl
@[sl_canon] theorem sendSem26_eq : ((cc0_scratch1.slice (Rect.unit (s := S36) ![26] S1.size inb_S36_S1_26)).squeeze S_ squeezes_S1_S_).sem = sendSem 26 := rfl
@[sl_canon] theorem sendSem27_eq : ((cc0_scratch1.slice (Rect.unit (s := S36) ![27] S1.size inb_S36_S1_27)).squeeze S_ squeezes_S1_S_).sem = sendSem 27 := rfl
@[sl_canon] theorem sendSem28_eq : ((cc0_scratch1.slice (Rect.unit (s := S36) ![28] S1.size inb_S36_S1_28)).squeeze S_ squeezes_S1_S_).sem = sendSem 28 := rfl
@[sl_canon] theorem sendSem29_eq : ((cc0_scratch1.slice (Rect.unit (s := S36) ![29] S1.size inb_S36_S1_29)).squeeze S_ squeezes_S1_S_).sem = sendSem 29 := rfl
@[sl_canon] theorem sendSem30_eq : ((cc0_scratch1.slice (Rect.unit (s := S36) ![30] S1.size inb_S36_S1_30)).squeeze S_ squeezes_S1_S_).sem = sendSem 30 := rfl
@[sl_canon] theorem sendSem31_eq : ((cc0_scratch1.slice (Rect.unit (s := S36) ![31] S1.size inb_S36_S1_31)).squeeze S_ squeezes_S1_S_).sem = sendSem 31 := rfl
@[sl_canon] theorem sendSem32_eq : ((cc0_scratch1.slice (Rect.unit (s := S36) ![32] S1.size inb_S36_S1_32)).squeeze S_ squeezes_S1_S_).sem = sendSem 32 := rfl
@[sl_canon] theorem sendSem33_eq : ((cc0_scratch1.slice (Rect.unit (s := S36) ![33] S1.size inb_S36_S1_33)).squeeze S_ squeezes_S1_S_).sem = sendSem 33 := rfl
@[sl_canon] theorem sendSem34_eq : ((cc0_scratch1.slice (Rect.unit (s := S36) ![34] S1.size inb_S36_S1_34)).squeeze S_ squeezes_S1_S_).sem = sendSem 34 := rfl
@[sl_canon] theorem sendSem35_eq : ((cc0_scratch1.slice (Rect.unit (s := S36) ![35] S1.size inb_S36_S1_35)).squeeze S_ squeezes_S1_S_).sem = sendSem 35 := rfl
@[sl_canon] theorem recvSem0_eq : ((cc0_scratch2.slice (Rect.unit (s := S36) ![0] S1.size inb_S36_S1_0)).squeeze S_ squeezes_S1_S_).sem = recvSem 0 := rfl
@[sl_canon] theorem recvSem1_eq : ((cc0_scratch2.slice (Rect.unit (s := S36) ![1] S1.size inb_S36_S1_1)).squeeze S_ squeezes_S1_S_).sem = recvSem 1 := rfl
@[sl_canon] theorem recvSem2_eq : ((cc0_scratch2.slice (Rect.unit (s := S36) ![2] S1.size inb_S36_S1_2)).squeeze S_ squeezes_S1_S_).sem = recvSem 2 := rfl
@[sl_canon] theorem recvSem3_eq : ((cc0_scratch2.slice (Rect.unit (s := S36) ![3] S1.size inb_S36_S1_3)).squeeze S_ squeezes_S1_S_).sem = recvSem 3 := rfl
@[sl_canon] theorem recvSem4_eq : ((cc0_scratch2.slice (Rect.unit (s := S36) ![4] S1.size inb_S36_S1_4)).squeeze S_ squeezes_S1_S_).sem = recvSem 4 := rfl
@[sl_canon] theorem recvSem5_eq : ((cc0_scratch2.slice (Rect.unit (s := S36) ![5] S1.size inb_S36_S1_5)).squeeze S_ squeezes_S1_S_).sem = recvSem 5 := rfl
@[sl_canon] theorem recvSem6_eq : ((cc0_scratch2.slice (Rect.unit (s := S36) ![6] S1.size inb_S36_S1_6)).squeeze S_ squeezes_S1_S_).sem = recvSem 6 := rfl
@[sl_canon] theorem recvSem7_eq : ((cc0_scratch2.slice (Rect.unit (s := S36) ![7] S1.size inb_S36_S1_7)).squeeze S_ squeezes_S1_S_).sem = recvSem 7 := rfl
@[sl_canon] theorem recvSem8_eq : ((cc0_scratch2.slice (Rect.unit (s := S36) ![8] S1.size inb_S36_S1_8)).squeeze S_ squeezes_S1_S_).sem = recvSem 8 := rfl
@[sl_canon] theorem recvSem9_eq : ((cc0_scratch2.slice (Rect.unit (s := S36) ![9] S1.size inb_S36_S1_9)).squeeze S_ squeezes_S1_S_).sem = recvSem 9 := rfl
@[sl_canon] theorem recvSem10_eq : ((cc0_scratch2.slice (Rect.unit (s := S36) ![10] S1.size inb_S36_S1_10)).squeeze S_ squeezes_S1_S_).sem = recvSem 10 := rfl
@[sl_canon] theorem recvSem11_eq : ((cc0_scratch2.slice (Rect.unit (s := S36) ![11] S1.size inb_S36_S1_11)).squeeze S_ squeezes_S1_S_).sem = recvSem 11 := rfl
@[sl_canon] theorem recvSem12_eq : ((cc0_scratch2.slice (Rect.unit (s := S36) ![12] S1.size inb_S36_S1_12)).squeeze S_ squeezes_S1_S_).sem = recvSem 12 := rfl
@[sl_canon] theorem recvSem13_eq : ((cc0_scratch2.slice (Rect.unit (s := S36) ![13] S1.size inb_S36_S1_13)).squeeze S_ squeezes_S1_S_).sem = recvSem 13 := rfl
@[sl_canon] theorem recvSem14_eq : ((cc0_scratch2.slice (Rect.unit (s := S36) ![14] S1.size inb_S36_S1_14)).squeeze S_ squeezes_S1_S_).sem = recvSem 14 := rfl
@[sl_canon] theorem recvSem15_eq : ((cc0_scratch2.slice (Rect.unit (s := S36) ![15] S1.size inb_S36_S1_15)).squeeze S_ squeezes_S1_S_).sem = recvSem 15 := rfl
@[sl_canon] theorem recvSem16_eq : ((cc0_scratch2.slice (Rect.unit (s := S36) ![16] S1.size inb_S36_S1_16)).squeeze S_ squeezes_S1_S_).sem = recvSem 16 := rfl
@[sl_canon] theorem recvSem17_eq : ((cc0_scratch2.slice (Rect.unit (s := S36) ![17] S1.size inb_S36_S1_17)).squeeze S_ squeezes_S1_S_).sem = recvSem 17 := rfl
@[sl_canon] theorem recvSem18_eq : ((cc0_scratch2.slice (Rect.unit (s := S36) ![18] S1.size inb_S36_S1_18)).squeeze S_ squeezes_S1_S_).sem = recvSem 18 := rfl
@[sl_canon] theorem recvSem19_eq : ((cc0_scratch2.slice (Rect.unit (s := S36) ![19] S1.size inb_S36_S1_19)).squeeze S_ squeezes_S1_S_).sem = recvSem 19 := rfl
@[sl_canon] theorem recvSem20_eq : ((cc0_scratch2.slice (Rect.unit (s := S36) ![20] S1.size inb_S36_S1_20)).squeeze S_ squeezes_S1_S_).sem = recvSem 20 := rfl
@[sl_canon] theorem recvSem21_eq : ((cc0_scratch2.slice (Rect.unit (s := S36) ![21] S1.size inb_S36_S1_21)).squeeze S_ squeezes_S1_S_).sem = recvSem 21 := rfl
@[sl_canon] theorem recvSem22_eq : ((cc0_scratch2.slice (Rect.unit (s := S36) ![22] S1.size inb_S36_S1_22)).squeeze S_ squeezes_S1_S_).sem = recvSem 22 := rfl
@[sl_canon] theorem recvSem23_eq : ((cc0_scratch2.slice (Rect.unit (s := S36) ![23] S1.size inb_S36_S1_23)).squeeze S_ squeezes_S1_S_).sem = recvSem 23 := rfl
@[sl_canon] theorem recvSem24_eq : ((cc0_scratch2.slice (Rect.unit (s := S36) ![24] S1.size inb_S36_S1_24)).squeeze S_ squeezes_S1_S_).sem = recvSem 24 := rfl
@[sl_canon] theorem recvSem25_eq : ((cc0_scratch2.slice (Rect.unit (s := S36) ![25] S1.size inb_S36_S1_25)).squeeze S_ squeezes_S1_S_).sem = recvSem 25 := rfl
@[sl_canon] theorem recvSem26_eq : ((cc0_scratch2.slice (Rect.unit (s := S36) ![26] S1.size inb_S36_S1_26)).squeeze S_ squeezes_S1_S_).sem = recvSem 26 := rfl
@[sl_canon] theorem recvSem27_eq : ((cc0_scratch2.slice (Rect.unit (s := S36) ![27] S1.size inb_S36_S1_27)).squeeze S_ squeezes_S1_S_).sem = recvSem 27 := rfl
@[sl_canon] theorem recvSem28_eq : ((cc0_scratch2.slice (Rect.unit (s := S36) ![28] S1.size inb_S36_S1_28)).squeeze S_ squeezes_S1_S_).sem = recvSem 28 := rfl
@[sl_canon] theorem recvSem29_eq : ((cc0_scratch2.slice (Rect.unit (s := S36) ![29] S1.size inb_S36_S1_29)).squeeze S_ squeezes_S1_S_).sem = recvSem 29 := rfl
@[sl_canon] theorem recvSem30_eq : ((cc0_scratch2.slice (Rect.unit (s := S36) ![30] S1.size inb_S36_S1_30)).squeeze S_ squeezes_S1_S_).sem = recvSem 30 := rfl
@[sl_canon] theorem recvSem31_eq : ((cc0_scratch2.slice (Rect.unit (s := S36) ![31] S1.size inb_S36_S1_31)).squeeze S_ squeezes_S1_S_).sem = recvSem 31 := rfl
@[sl_canon] theorem recvSem32_eq : ((cc0_scratch2.slice (Rect.unit (s := S36) ![32] S1.size inb_S36_S1_32)).squeeze S_ squeezes_S1_S_).sem = recvSem 32 := rfl
@[sl_canon] theorem recvSem33_eq : ((cc0_scratch2.slice (Rect.unit (s := S36) ![33] S1.size inb_S36_S1_33)).squeeze S_ squeezes_S1_S_).sem = recvSem 33 := rfl
@[sl_canon] theorem recvSem34_eq : ((cc0_scratch2.slice (Rect.unit (s := S36) ![34] S1.size inb_S36_S1_34)).squeeze S_ squeezes_S1_S_).sem = recvSem 34 := rfl
@[sl_canon] theorem recvSem35_eq : ((cc0_scratch2.slice (Rect.unit (s := S36) ![35] S1.size inb_S36_S1_35)).squeeze S_ squeezes_S1_S_).sem = recvSem 35 := rfl

/-! ## The slots by number -/

theorem slot0_eq : ((Memref.whole cc0_scratch0 : Memref sig .tc .vmem S48x32x256 .bf16).slice (Rect.unit (s := S48x32x256) ![0, 0, 0] S1x32x256.size inb_S48x32x256_S1x32x256_0_0_0) (fun _ => rfl)).squeeze S32x256 squeezes_S1x32x256_S32x256 = slotM 0 := rfl
theorem slot1_eq : ((Memref.whole cc0_scratch0 : Memref sig .tc .vmem S48x32x256 .bf16).slice (Rect.unit (s := S48x32x256) ![1, 0, 0] S1x32x256.size inb_S48x32x256_S1x32x256_1_0_0) (fun _ => rfl)).squeeze S32x256 squeezes_S1x32x256_S32x256 = slotM 1 := rfl
theorem slot2_eq : ((Memref.whole cc0_scratch0 : Memref sig .tc .vmem S48x32x256 .bf16).slice (Rect.unit (s := S48x32x256) ![2, 0, 0] S1x32x256.size inb_S48x32x256_S1x32x256_2_0_0) (fun _ => rfl)).squeeze S32x256 squeezes_S1x32x256_S32x256 = slotM 2 := rfl
theorem slot3_eq : ((Memref.whole cc0_scratch0 : Memref sig .tc .vmem S48x32x256 .bf16).slice (Rect.unit (s := S48x32x256) ![3, 0, 0] S1x32x256.size inb_S48x32x256_S1x32x256_3_0_0) (fun _ => rfl)).squeeze S32x256 squeezes_S1x32x256_S32x256 = slotM 3 := rfl
theorem slot4_eq : ((Memref.whole cc0_scratch0 : Memref sig .tc .vmem S48x32x256 .bf16).slice (Rect.unit (s := S48x32x256) ![4, 0, 0] S1x32x256.size inb_S48x32x256_S1x32x256_4_0_0) (fun _ => rfl)).squeeze S32x256 squeezes_S1x32x256_S32x256 = slotM 4 := rfl
theorem slot5_eq : ((Memref.whole cc0_scratch0 : Memref sig .tc .vmem S48x32x256 .bf16).slice (Rect.unit (s := S48x32x256) ![5, 0, 0] S1x32x256.size inb_S48x32x256_S1x32x256_5_0_0) (fun _ => rfl)).squeeze S32x256 squeezes_S1x32x256_S32x256 = slotM 5 := rfl
theorem slot6_eq : ((Memref.whole cc0_scratch0 : Memref sig .tc .vmem S48x32x256 .bf16).slice (Rect.unit (s := S48x32x256) ![6, 0, 0] S1x32x256.size inb_S48x32x256_S1x32x256_6_0_0) (fun _ => rfl)).squeeze S32x256 squeezes_S1x32x256_S32x256 = slotM 6 := rfl
theorem slot7_eq : ((Memref.whole cc0_scratch0 : Memref sig .tc .vmem S48x32x256 .bf16).slice (Rect.unit (s := S48x32x256) ![7, 0, 0] S1x32x256.size inb_S48x32x256_S1x32x256_7_0_0) (fun _ => rfl)).squeeze S32x256 squeezes_S1x32x256_S32x256 = slotM 7 := rfl
theorem slot8_eq : ((Memref.whole cc0_scratch0 : Memref sig .tc .vmem S48x32x256 .bf16).slice (Rect.unit (s := S48x32x256) ![8, 0, 0] S1x32x256.size inb_S48x32x256_S1x32x256_8_0_0) (fun _ => rfl)).squeeze S32x256 squeezes_S1x32x256_S32x256 = slotM 8 := rfl
theorem slot9_eq : ((Memref.whole cc0_scratch0 : Memref sig .tc .vmem S48x32x256 .bf16).slice (Rect.unit (s := S48x32x256) ![9, 0, 0] S1x32x256.size inb_S48x32x256_S1x32x256_9_0_0) (fun _ => rfl)).squeeze S32x256 squeezes_S1x32x256_S32x256 = slotM 9 := rfl
theorem slot10_eq : ((Memref.whole cc0_scratch0 : Memref sig .tc .vmem S48x32x256 .bf16).slice (Rect.unit (s := S48x32x256) ![10, 0, 0] S1x32x256.size inb_S48x32x256_S1x32x256_10_0_0) (fun _ => rfl)).squeeze S32x256 squeezes_S1x32x256_S32x256 = slotM 10 := rfl
theorem slot11_eq : ((Memref.whole cc0_scratch0 : Memref sig .tc .vmem S48x32x256 .bf16).slice (Rect.unit (s := S48x32x256) ![11, 0, 0] S1x32x256.size inb_S48x32x256_S1x32x256_11_0_0) (fun _ => rfl)).squeeze S32x256 squeezes_S1x32x256_S32x256 = slotM 11 := rfl
theorem slot12_eq : ((Memref.whole cc0_scratch0 : Memref sig .tc .vmem S48x32x256 .bf16).slice (Rect.unit (s := S48x32x256) ![12, 0, 0] S1x32x256.size inb_S48x32x256_S1x32x256_12_0_0) (fun _ => rfl)).squeeze S32x256 squeezes_S1x32x256_S32x256 = slotM 12 := rfl
theorem slot13_eq : ((Memref.whole cc0_scratch0 : Memref sig .tc .vmem S48x32x256 .bf16).slice (Rect.unit (s := S48x32x256) ![13, 0, 0] S1x32x256.size inb_S48x32x256_S1x32x256_13_0_0) (fun _ => rfl)).squeeze S32x256 squeezes_S1x32x256_S32x256 = slotM 13 := rfl
theorem slot14_eq : ((Memref.whole cc0_scratch0 : Memref sig .tc .vmem S48x32x256 .bf16).slice (Rect.unit (s := S48x32x256) ![14, 0, 0] S1x32x256.size inb_S48x32x256_S1x32x256_14_0_0) (fun _ => rfl)).squeeze S32x256 squeezes_S1x32x256_S32x256 = slotM 14 := rfl
theorem slot15_eq : ((Memref.whole cc0_scratch0 : Memref sig .tc .vmem S48x32x256 .bf16).slice (Rect.unit (s := S48x32x256) ![15, 0, 0] S1x32x256.size inb_S48x32x256_S1x32x256_15_0_0) (fun _ => rfl)).squeeze S32x256 squeezes_S1x32x256_S32x256 = slotM 15 := rfl
theorem slot16_eq : ((Memref.whole cc0_scratch0 : Memref sig .tc .vmem S48x32x256 .bf16).slice (Rect.unit (s := S48x32x256) ![16, 0, 0] S1x32x256.size inb_S48x32x256_S1x32x256_16_0_0) (fun _ => rfl)).squeeze S32x256 squeezes_S1x32x256_S32x256 = slotM 16 := rfl
theorem slot17_eq : ((Memref.whole cc0_scratch0 : Memref sig .tc .vmem S48x32x256 .bf16).slice (Rect.unit (s := S48x32x256) ![17, 0, 0] S1x32x256.size inb_S48x32x256_S1x32x256_17_0_0) (fun _ => rfl)).squeeze S32x256 squeezes_S1x32x256_S32x256 = slotM 17 := rfl
theorem slot18_eq : ((Memref.whole cc0_scratch0 : Memref sig .tc .vmem S48x32x256 .bf16).slice (Rect.unit (s := S48x32x256) ![18, 0, 0] S1x32x256.size inb_S48x32x256_S1x32x256_18_0_0) (fun _ => rfl)).squeeze S32x256 squeezes_S1x32x256_S32x256 = slotM 18 := rfl
theorem slot19_eq : ((Memref.whole cc0_scratch0 : Memref sig .tc .vmem S48x32x256 .bf16).slice (Rect.unit (s := S48x32x256) ![19, 0, 0] S1x32x256.size inb_S48x32x256_S1x32x256_19_0_0) (fun _ => rfl)).squeeze S32x256 squeezes_S1x32x256_S32x256 = slotM 19 := rfl
theorem slot20_eq : ((Memref.whole cc0_scratch0 : Memref sig .tc .vmem S48x32x256 .bf16).slice (Rect.unit (s := S48x32x256) ![20, 0, 0] S1x32x256.size inb_S48x32x256_S1x32x256_20_0_0) (fun _ => rfl)).squeeze S32x256 squeezes_S1x32x256_S32x256 = slotM 20 := rfl
theorem slot21_eq : ((Memref.whole cc0_scratch0 : Memref sig .tc .vmem S48x32x256 .bf16).slice (Rect.unit (s := S48x32x256) ![21, 0, 0] S1x32x256.size inb_S48x32x256_S1x32x256_21_0_0) (fun _ => rfl)).squeeze S32x256 squeezes_S1x32x256_S32x256 = slotM 21 := rfl
theorem slot22_eq : ((Memref.whole cc0_scratch0 : Memref sig .tc .vmem S48x32x256 .bf16).slice (Rect.unit (s := S48x32x256) ![22, 0, 0] S1x32x256.size inb_S48x32x256_S1x32x256_22_0_0) (fun _ => rfl)).squeeze S32x256 squeezes_S1x32x256_S32x256 = slotM 22 := rfl
theorem slot23_eq : ((Memref.whole cc0_scratch0 : Memref sig .tc .vmem S48x32x256 .bf16).slice (Rect.unit (s := S48x32x256) ![23, 0, 0] S1x32x256.size inb_S48x32x256_S1x32x256_23_0_0) (fun _ => rfl)).squeeze S32x256 squeezes_S1x32x256_S32x256 = slotM 23 := rfl
theorem slot24_eq : ((Memref.whole cc0_scratch0 : Memref sig .tc .vmem S48x32x256 .bf16).slice (Rect.unit (s := S48x32x256) ![24, 0, 0] S1x32x256.size inb_S48x32x256_S1x32x256_24_0_0) (fun _ => rfl)).squeeze S32x256 squeezes_S1x32x256_S32x256 = slotM 24 := rfl
theorem slot25_eq : ((Memref.whole cc0_scratch0 : Memref sig .tc .vmem S48x32x256 .bf16).slice (Rect.unit (s := S48x32x256) ![25, 0, 0] S1x32x256.size inb_S48x32x256_S1x32x256_25_0_0) (fun _ => rfl)).squeeze S32x256 squeezes_S1x32x256_S32x256 = slotM 25 := rfl
theorem slot26_eq : ((Memref.whole cc0_scratch0 : Memref sig .tc .vmem S48x32x256 .bf16).slice (Rect.unit (s := S48x32x256) ![26, 0, 0] S1x32x256.size inb_S48x32x256_S1x32x256_26_0_0) (fun _ => rfl)).squeeze S32x256 squeezes_S1x32x256_S32x256 = slotM 26 := rfl
theorem slot27_eq : ((Memref.whole cc0_scratch0 : Memref sig .tc .vmem S48x32x256 .bf16).slice (Rect.unit (s := S48x32x256) ![27, 0, 0] S1x32x256.size inb_S48x32x256_S1x32x256_27_0_0) (fun _ => rfl)).squeeze S32x256 squeezes_S1x32x256_S32x256 = slotM 27 := rfl
theorem slot28_eq : ((Memref.whole cc0_scratch0 : Memref sig .tc .vmem S48x32x256 .bf16).slice (Rect.unit (s := S48x32x256) ![28, 0, 0] S1x32x256.size inb_S48x32x256_S1x32x256_28_0_0) (fun _ => rfl)).squeeze S32x256 squeezes_S1x32x256_S32x256 = slotM 28 := rfl
theorem slot29_eq : ((Memref.whole cc0_scratch0 : Memref sig .tc .vmem S48x32x256 .bf16).slice (Rect.unit (s := S48x32x256) ![29, 0, 0] S1x32x256.size inb_S48x32x256_S1x32x256_29_0_0) (fun _ => rfl)).squeeze S32x256 squeezes_S1x32x256_S32x256 = slotM 29 := rfl
theorem slot30_eq : ((Memref.whole cc0_scratch0 : Memref sig .tc .vmem S48x32x256 .bf16).slice (Rect.unit (s := S48x32x256) ![30, 0, 0] S1x32x256.size inb_S48x32x256_S1x32x256_30_0_0) (fun _ => rfl)).squeeze S32x256 squeezes_S1x32x256_S32x256 = slotM 30 := rfl
theorem slot31_eq : ((Memref.whole cc0_scratch0 : Memref sig .tc .vmem S48x32x256 .bf16).slice (Rect.unit (s := S48x32x256) ![31, 0, 0] S1x32x256.size inb_S48x32x256_S1x32x256_31_0_0) (fun _ => rfl)).squeeze S32x256 squeezes_S1x32x256_S32x256 = slotM 31 := rfl
theorem slot32_eq : ((Memref.whole cc0_scratch0 : Memref sig .tc .vmem S48x32x256 .bf16).slice (Rect.unit (s := S48x32x256) ![32, 0, 0] S1x32x256.size inb_S48x32x256_S1x32x256_32_0_0) (fun _ => rfl)).squeeze S32x256 squeezes_S1x32x256_S32x256 = slotM 32 := rfl
theorem slot33_eq : ((Memref.whole cc0_scratch0 : Memref sig .tc .vmem S48x32x256 .bf16).slice (Rect.unit (s := S48x32x256) ![33, 0, 0] S1x32x256.size inb_S48x32x256_S1x32x256_33_0_0) (fun _ => rfl)).squeeze S32x256 squeezes_S1x32x256_S32x256 = slotM 33 := rfl
theorem slot34_eq : ((Memref.whole cc0_scratch0 : Memref sig .tc .vmem S48x32x256 .bf16).slice (Rect.unit (s := S48x32x256) ![34, 0, 0] S1x32x256.size inb_S48x32x256_S1x32x256_34_0_0) (fun _ => rfl)).squeeze S32x256 squeezes_S1x32x256_S32x256 = slotM 34 := rfl
theorem slot35_eq : ((Memref.whole cc0_scratch0 : Memref sig .tc .vmem S48x32x256 .bf16).slice (Rect.unit (s := S48x32x256) ![35, 0, 0] S1x32x256.size inb_S48x32x256_S1x32x256_35_0_0) (fun _ => rfl)).squeeze S32x256 squeezes_S1x32x256_S32x256 = slotM 35 := rfl
theorem slot36_eq : ((Memref.whole cc0_scratch0 : Memref sig .tc .vmem S48x32x256 .bf16).slice (Rect.unit (s := S48x32x256) ![36, 0, 0] S1x32x256.size inb_S48x32x256_S1x32x256_36_0_0) (fun _ => rfl)).squeeze S32x256 squeezes_S1x32x256_S32x256 = slotM 36 := rfl
theorem slot37_eq : ((Memref.whole cc0_scratch0 : Memref sig .tc .vmem S48x32x256 .bf16).slice (Rect.unit (s := S48x32x256) ![37, 0, 0] S1x32x256.size inb_S48x32x256_S1x32x256_37_0_0) (fun _ => rfl)).squeeze S32x256 squeezes_S1x32x256_S32x256 = slotM 37 := rfl
theorem slot38_eq : ((Memref.whole cc0_scratch0 : Memref sig .tc .vmem S48x32x256 .bf16).slice (Rect.unit (s := S48x32x256) ![38, 0, 0] S1x32x256.size inb_S48x32x256_S1x32x256_38_0_0) (fun _ => rfl)).squeeze S32x256 squeezes_S1x32x256_S32x256 = slotM 38 := rfl
theorem slot39_eq : ((Memref.whole cc0_scratch0 : Memref sig .tc .vmem S48x32x256 .bf16).slice (Rect.unit (s := S48x32x256) ![39, 0, 0] S1x32x256.size inb_S48x32x256_S1x32x256_39_0_0) (fun _ => rfl)).squeeze S32x256 squeezes_S1x32x256_S32x256 = slotM 39 := rfl
theorem slot40_eq : ((Memref.whole cc0_scratch0 : Memref sig .tc .vmem S48x32x256 .bf16).slice (Rect.unit (s := S48x32x256) ![40, 0, 0] S1x32x256.size inb_S48x32x256_S1x32x256_40_0_0) (fun _ => rfl)).squeeze S32x256 squeezes_S1x32x256_S32x256 = slotM 40 := rfl
theorem slot41_eq : ((Memref.whole cc0_scratch0 : Memref sig .tc .vmem S48x32x256 .bf16).slice (Rect.unit (s := S48x32x256) ![41, 0, 0] S1x32x256.size inb_S48x32x256_S1x32x256_41_0_0) (fun _ => rfl)).squeeze S32x256 squeezes_S1x32x256_S32x256 = slotM 41 := rfl
theorem slot42_eq : ((Memref.whole cc0_scratch0 : Memref sig .tc .vmem S48x32x256 .bf16).slice (Rect.unit (s := S48x32x256) ![42, 0, 0] S1x32x256.size inb_S48x32x256_S1x32x256_42_0_0) (fun _ => rfl)).squeeze S32x256 squeezes_S1x32x256_S32x256 = slotM 42 := rfl
theorem slot43_eq : ((Memref.whole cc0_scratch0 : Memref sig .tc .vmem S48x32x256 .bf16).slice (Rect.unit (s := S48x32x256) ![43, 0, 0] S1x32x256.size inb_S48x32x256_S1x32x256_43_0_0) (fun _ => rfl)).squeeze S32x256 squeezes_S1x32x256_S32x256 = slotM 43 := rfl
theorem slot44_eq : ((Memref.whole cc0_scratch0 : Memref sig .tc .vmem S48x32x256 .bf16).slice (Rect.unit (s := S48x32x256) ![44, 0, 0] S1x32x256.size inb_S48x32x256_S1x32x256_44_0_0) (fun _ => rfl)).squeeze S32x256 squeezes_S1x32x256_S32x256 = slotM 44 := rfl
theorem slot45_eq : ((Memref.whole cc0_scratch0 : Memref sig .tc .vmem S48x32x256 .bf16).slice (Rect.unit (s := S48x32x256) ![45, 0, 0] S1x32x256.size inb_S48x32x256_S1x32x256_45_0_0) (fun _ => rfl)).squeeze S32x256 squeezes_S1x32x256_S32x256 = slotM 45 := rfl
theorem slot46_eq : ((Memref.whole cc0_scratch0 : Memref sig .tc .vmem S48x32x256 .bf16).slice (Rect.unit (s := S48x32x256) ![46, 0, 0] S1x32x256.size inb_S48x32x256_S1x32x256_46_0_0) (fun _ => rfl)).squeeze S32x256 squeezes_S1x32x256_S32x256 = slotM 46 := rfl
theorem slot47_eq : ((Memref.whole cc0_scratch0 : Memref sig .tc .vmem S48x32x256 .bf16).slice (Rect.unit (s := S48x32x256) ![47, 0, 0] S1x32x256.size inb_S48x32x256_S1x32x256_47_0_0) (fun _ => rfl)).squeeze S32x256 squeezes_S1x32x256_S32x256 = slotM 47 := rfl

end Cert.Kernel.Proto

end
-- ==== Proof.KExecWaits.lean ====
import proofs.«900970_g7700000000000971_dist_mlpseq_tp1dT_cs_cs_b128_d128_h256_v7x_i4_f32_1_alg».proof.Proof.KProtocol

/-!
The evidence a device needs to wait on one of its own cells while it still owes payments: every payment left lies
strictly above the level of the cell waited on. A receive cell of stage `L` (level `L + 2`) may be waited on once all
transfers of the stages up to `L + 1` have been started; a send cell (level 0) at any time; the barrier cell (level 1)
once the three entry signals have been sent.
-/

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- With `r` payments left, all of them of stages after `s / 3 + 1`, device `c` may wait on its receive cell `s`. -/
theorem mayWait_recv (c : Dev nD) (s : Fin 36) (r : ℕ) (hr : r + 3 * (s.val / 3) ≤ 33) :
    (levAts Lset lv : sProp 𝕄) ⊢ MayWait (c : Thread nD τ) (.dma (recvSem s)) () (owedRem c r) :=
  mayWait_of c (.dma (recvSem s)) r (s.val / 3 + 2) (by omega) (le_of_eq (lv_recv c s)) (fun i h1 h2 => by split <;> omega)

/-- Device `c` may wait on a send cell of its own whatever it still owes. -/
theorem mayWait_send (c : Dev nD) (s : Fin 36) (r : ℕ) (hr : r ≤ 39) :
    (levAts Lset lv : sProp 𝕄) ⊢ MayWait (c : Thread nD τ) (.dma (sendSem s)) () (owedRem c r) :=
  mayWait_of c (.dma (sendSem s)) r 0 hr (le_of_eq (lv_send c s)) (fun i h1 h2 => by split <;> omega)

/-- Once its three entry signals are sent (at most 36 payments left), device `c` may wait on its barrier cell. -/
theorem mayWait_bar (c : Dev nD) (r : ℕ) (hr : r ≤ 36) :
    (levAts Lset lv : sProp 𝕄) ⊢ MayWait (c : Thread nD τ) (.reg barS) () (owedRem c r) :=
  mayWait_of c (.reg barS) r 1 (by omega) (le_of_eq (lv_bar c)) (fun i h1 h2 => by split <;> omega)

/-- info: 'Cert.Kernel.Proto.mayWait_recv' depends on axioms: [propext, Classical.choice, Quot.sound] -/
#guard_msgs in #print axioms mayWait_recv

end Cert.Kernel.Proto

end
-- ==== Proof.KContentsFacts.lean ====
import proofs.«900970_g7700000000000971_dist_mlpseq_tp1dT_cs_cs_b128_d128_h256_v7x_i4_f32_1_alg».proof.Proof.KContents
import proofs.«900970_g7700000000000971_dist_mlpseq_tp1dT_cs_cs_b128_d128_h256_v7x_i4_f32_1_alg».proof.Proof.KSlots
import proofs.«900970_g7700000000000971_dist_mlpseq_tp1dT_cs_cs_b128_d128_h256_v7x_i4_f32_1_alg».proof.Proof.KSpec

/-!
Facts about the communication buffer's final contents: the slot a transfer lands is the sender's source slot; a load of
a slot through the whole buffer reads that slot's value; a slot's value at the literal slot numbers is a device's own or
a peer's partial product; a store of a device's own slot value leaves the final contents on that slot.
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-- A slot's value named by its layer, device and row piece. -/
theorem slotVal_eq (c : Dev nD) (j l : ℕ) (d : Dev nD) (p : Fin 4) (hl : j / 16 = l)
    (hd : Spec.peer c ((4 - j % 4) % 4) = d) (hp : j / 4 % 4 = p.val) :
    slotVal m c j = Spec.slot (part m l d p) := by
  unfold slotVal
  subst hl hd
  have e : (⟨j / 4 % 4, Nat.mod_lt _ (by decide)⟩ : Fin 4) = p := Fin.ext hp
  rw [e]

/-- Slot `4 L` holds the device's own partial product of stage `L`. -/
theorem slotVal_own (c : Dev nD) (L : Fin 12) :
    slotVal m c (4 * L.val) = Spec.slot (part m (L.val / 4) c ⟨L.val % 4, Nat.mod_lt _ (by decide)⟩) := by
  have hL := L.isLt
  have hc : c.val < 4 := c.isLt
  exact slotVal_eq m c (4 * L.val) (L.val / 4) c ⟨L.val % 4, Nat.mod_lt _ (by decide)⟩ (by omega)
    (Fin.ext (by show (c.val + (4 - 4 * L.val % 4) % 4) % 4 = c.val; omega))
    (by show 4 * L.val / 4 % 4 = L.val % 4; omega)

/-- Slot `4 L + k + 1` holds the partial product of stage `L` of the device `3 - k` places on. -/
theorem slotVal_recv (c : Dev nD) (L : Fin 12) (k : Fin 3) :
    slotVal m c (4 * L.val + k.val + 1) = Spec.slot (part m (L.val / 4) (Spec.peer c (3 - k.val)) ⟨L.val % 4, Nat.mod_lt _ (by decide)⟩) := by
  have hL := L.isLt
  have hk := k.isLt
  have hc : c.val < 4 := c.isLt
  exact slotVal_eq m c (4 * L.val + k.val + 1) (L.val / 4) (Spec.peer c (3 - k.val)) ⟨L.val % 4, Nat.mod_lt _ (by decide)⟩ (by omega)
    (Fin.ext (by show (c.val + (4 - (4 * L.val + k.val + 1) % 4) % 4) % 4 = (c.val + (3 - k.val)) % 4; omega))
    (by show (4 * L.val + k.val + 1) / 4 % 4 = L.val % 4; omega)

/-- The slot transfer `s` lands on the addressed device ends at what the sender's source slot holds. -/
theorem hcf_send (c : Dev nD) (s : Fin 36) :
    ∀ i : CIdx, (i 0).val = (dstSlot s).val → cfin m (pr c (offs s)) i = cfin m c (slotIdx (srcSlot s) (i 1) (i 2)) := by
  intro i hi
  have hs := s.isLt
  have hc : c.val < 4 := c.isLt
  have e : slotVal m (pr c (offs s)) (dstSlot s).val = slotVal m c (srcSlot s).val := by
    rw [slotVal_eq m (pr c (offs s)) (dstSlot s).val (s.val / 3 / 4) c ⟨s.val / 3 % 4, Nat.mod_lt _ (by decide)⟩
        (by show (4 * (s.val / 3) + s.val % 3 + 1) / 16 = s.val / 3 / 4; omega)
        (Fin.ext (by
          show ((c.val + (s.val % 3 + 1)) % 4 + (4 - (4 * (s.val / 3) + s.val % 3 + 1) % 4) % 4) % 4 = c.val
          omega))
        (by show (4 * (s.val / 3) + s.val % 3 + 1) / 4 % 4 = s.val / 3 % 4; omega),
      slotVal_eq m c (srcSlot s).val (s.val / 3 / 4) c ⟨s.val / 3 % 4, Nat.mod_lt _ (by decide)⟩
        (by show 4 * (s.val / 3) / 16 = s.val / 3 / 4; omega)
        (Fin.ext (by show (c.val + (4 - 4 * (s.val / 3) % 4) % 4) % 4 = c.val; omega))
        (by show 4 * (s.val / 3) / 4 % 4 = s.val / 3 % 4; omega)]
  show slotVal m (pr c (offs s)) (i 0).val (ix3 (0 : Fin 1) (i 1) (i 2)) = slotVal m c (srcSlot s).val (ix3 (0 : Fin 1) (i 1) (i 2))
  rw [hi, e]

omit [FloatOps F] in
/-- A `[1, 32, 256]` index is the one its two last coordinates name, after a zero. -/
theorem ix3_eta (y : S1x32x256.Idx) : ix3 (0 : Fin 1) (y 1) (y 2) = y :=
  funext fun a => Fin.ext <| match a with
    | ⟨0, _⟩ => by have := (y 0).isLt; show 0 = (y 0).val; have e : S1x32x256.size 0 = 1 := rfl; omega
    | ⟨1, _⟩ => rfl
    | ⟨2, _⟩ => rfl

omit [FloatOps F] in
theorem rowIdx_ix3 (a : Fin 32) (b : Fin 256) : rowIdx a b = ix3 (0 : Fin 1) a b :=
  funext fun x => Fin.ext <| match x with
    | ⟨0, _⟩ => rfl
    | ⟨1, _⟩ => rfl
    | ⟨2, _⟩ => rfl

/-- A load of slot `j` through the whole buffer at its final contents reads the slot's value. -/
theorem cfin_read (c : Dev nD) (j : Fin 48) {off : Fin 3 → Nat} (h : off = ![j.val, 0, 0])
    (inb : ∀ a, off a + S1x32x256.size a ≤ S48x32x256.size a) :
    (commM : Memref sig .tc .vmem S48x32x256 .bf16).view.readAt (Elt F) (Rect.unit (s := S48x32x256) off S1x32x256.size inb).toLoadRect (cfin m c)
      = slotVal m c j.val := by
  rw [comm_readAt c j h inb]
  funext y
  exact congrArg (slotVal m c j.val) (ix3_eta y)

/-- A store of the device's own slot value of stage `L` to slot `4 L` leaves the final contents on that slot. -/
theorem cfin_store (c : Dev nD) (L : Fin 12) {off : Fin 3 → Nat} (h : off = ![4 * L.val, 0, 0])
    (inb : ∀ a, off a + S1x32x256.size a ≤ S48x32x256.size a)
    (f : Buf (Elt F) ((commM : Memref sig .tc .vmem S48x32x256 .bf16).view.loc (c : Thread nD τ)))
    (w : S1x32x256.Idx → Elt F .bf16) (hw : w = slotVal m c (4 * L.val)) :
    ∀ i : CIdx, (i 0).val = 4 * L.val →
      ((commM : Memref sig .tc .vmem S48x32x256 .bf16).access (Rect.unit (s := S48x32x256) off S1x32x256.size inb)).write (Elt F) f w Finset.univ i
        = cfin m c i := by
  intro i hi
  have hL := L.isLt
  rw [comm_write_slot c (⟨4 * L.val, by omega⟩ : Fin 48) h inb f w i hi, hw]
  show slotVal m c (4 * L.val) (rowIdx (i 1) (i 2)) = slotVal m c (i 0).val (ix3 (0 : Fin 1) (i 1) (i 2))
  rw [hi]
  exact congrArg (slotVal m c (4 * L.val)) (rowIdx_ix3 (i 1) (i 2))

/-- info: 'Cert.Kernel.Proto.hcf_send' depends on axioms: [propext, Classical.choice, Quot.sound] -/
#guard_msgs in #print axioms hcf_send
/-- info: 'Cert.Kernel.Proto.cfin_read' depends on axioms: [propext, Classical.choice, Quot.sound] -/
#guard_msgs in #print axioms cfin_read
/-- info: 'Cert.Kernel.Proto.cfin_store' depends on axioms: [propext, Classical.choice, Quot.sound] -/
#guard_msgs in #print axioms cfin_store

end Cert.Kernel.Proto

end
-- ==== Proof.KSpecPay.lean ====
/-
  Each arithmetic term the kernel body computes between two memory operations is one of the
  specification's building blocks: a partial product, a partial product put in a slot, one or two
  received slots added to a running sum, the rectified sum times the output weights, and that
  product times the next layer's input weights.  Every equation holds by unfolding definitions.
-/
import proofs.«900970_g7700000000000971_dist_mlpseq_tp1dT_cs_cs_b128_d128_h256_v7x_i4_f32_1_alg».proof.Proof.KSpec
import proofs.«900970_g7700000000000971_dist_mlpseq_tp1dT_cs_cs_b128_d128_h256_v7x_i4_f32_1_alg».proof.Proof.Gen.Kernel.Skeleton

noncomputable section

namespace Cert.Kernel.Gen

open Idealize.ShloMosaic Idealize.SL.Sem

variable {F : FTy → Type} [FloatOps F]

theorem k0_pay1_eq (v16 : Vec F S32x128 .f32) (v19 : Vec F S128x256 .f32) :
    k0_pay1 v16 v19 = Spec.mmIn v16 v19 := rfl
theorem k0_pay2_eq (v16 : Vec F S32x128 .f32) (v19 : Vec F S128x256 .f32) :
    k0_pay2 v16 v19 = Spec.slot (Spec.mmIn v16 v19) := rfl
theorem k0_pay3_eq (v63 : Vec F S32x128 .f32) (v66 : Vec F S128x256 .f32) :
    k0_pay3 v63 v66 = Spec.mmIn v63 v66 := rfl
theorem k0_pay4_eq (v63 : Vec F S32x128 .f32) (v66 : Vec F S128x256 .f32) :
    k0_pay4 v63 v66 = Spec.slot (Spec.mmIn v63 v66) := rfl
theorem k0_pay9_eq (v157 : Vec F S32x128 .f32) (v160 : Vec F S128x256 .f32) :
    k0_pay9 v157 v160 = Spec.mmIn v157 v160 := rfl
theorem k0_pay10_eq (v157 : Vec F S32x128 .f32) (v160 : Vec F S128x256 .f32) :
    k0_pay10 v157 v160 = Spec.slot (Spec.mmIn v157 v160) := rfl
theorem k0_pay11_eq (v22 : FVec F S32x256 .f32) (v212 : Vec F S1x32x256 .bf16) (v224 : Vec F S1x32x256 .bf16) :
    k0_pay11 v22 v212 v224 = Spec.add1 (Spec.add1 v22 v212) v224 := rfl
theorem k0_pay12_eq (v227 : FVec F S32x256 .f32) (v236 : Vec F S1x32x256 .bf16) (v243 : Vec F S256x128 .f32) (v248 : Vec F S128x256 .f32) :
    k0_pay12 v227 v236 v243 v248 = Spec.mmNext (Spec.mmOut (Spec.add1 v227 v236) v243) v248 := rfl
theorem k0_pay13_eq (v227 : FVec F S32x256 .f32) (v236 : Vec F S1x32x256 .bf16) (v243 : Vec F S256x128 .f32) (v248 : Vec F S128x256 .f32) :
    k0_pay13 v227 v236 v243 v248 = Spec.slot (Spec.mmNext (Spec.mmOut (Spec.add1 v227 v236) v243) v248) := rfl
theorem k0_pay14_eq (v69 : FVec F S32x256 .f32) (v300 : Vec F S1x32x256 .bf16) (v312 : Vec F S1x32x256 .bf16) :
    k0_pay14 v69 v300 v312 = Spec.add1 (Spec.add1 v69 v300) v312 := rfl
theorem k0_pay15_eq (v315 : FVec F S32x256 .f32) (v324 : Vec F S1x32x256 .bf16) (v331 : Vec F S256x128 .f32) (v336 : Vec F S128x256 .f32) :
    k0_pay15 v315 v324 v331 v336 = Spec.mmNext (Spec.mmOut (Spec.add1 v315 v324) v331) v336 := rfl
theorem k0_pay16_eq (v315 : FVec F S32x256 .f32) (v324 : Vec F S1x32x256 .bf16) (v331 : Vec F S256x128 .f32) (v336 : Vec F S128x256 .f32) :
    k0_pay16 v315 v324 v331 v336 = Spec.slot (Spec.mmNext (Spec.mmOut (Spec.add1 v315 v324) v331) v336) := rfl
theorem k0_pay17_eq (v116 : FVec F S32x256 .f32) (v388 : Vec F S1x32x256 .bf16) (v400 : Vec F S1x32x256 .bf16) :
    k0_pay17 v116 v388 v400 = Spec.add1 (Spec.add1 v116 v388) v400 := rfl
theorem k0_pay18_eq (v403 : FVec F S32x256 .f32) (v412 : Vec F S1x32x256 .bf16) (v419 : Vec F S256x128 .f32) (v424 : Vec F S128x256 .f32) :
    k0_pay18 v403 v412 v419 v424 = Spec.mmNext (Spec.mmOut (Spec.add1 v403 v412) v419) v424 := rfl
theorem k0_pay19_eq (v403 : FVec F S32x256 .f32) (v412 : Vec F S1x32x256 .bf16) (v419 : Vec F S256x128 .f32) (v424 : Vec F S128x256 .f32) :
    k0_pay19 v403 v412 v419 v424 = Spec.slot (Spec.mmNext (Spec.mmOut (Spec.add1 v403 v412) v419) v424) := rfl
theorem k0_pay20_eq (v163 : FVec F S32x256 .f32) (v476 : Vec F S1x32x256 .bf16) (v488 : Vec F S1x32x256 .bf16) :
    k0_pay20 v163 v476 v488 = Spec.add1 (Spec.add1 v163 v476) v488 := rfl
theorem k0_pay21_eq (v491 : FVec F S32x256 .f32) (v500 : Vec F S1x32x256 .bf16) (v507 : Vec F S256x128 .f32) (v512 : Vec F S128x256 .f32) :
    k0_pay21 v491 v500 v507 v512 = Spec.mmNext (Spec.mmOut (Spec.add1 v491 v500) v507) v512 := rfl
theorem k0_pay22_eq (v491 : FVec F S32x256 .f32) (v500 : Vec F S1x32x256 .bf16) (v507 : Vec F S256x128 .f32) (v512 : Vec F S128x256 .f32) :
    k0_pay22 v491 v500 v507 v512 = Spec.slot (Spec.mmNext (Spec.mmOut (Spec.add1 v491 v500) v507) v512) := rfl
theorem k0_pay23_eq (v251 : FVec F S32x256 .f32) (v564 : Vec F S1x32x256 .bf16) (v576 : Vec F S1x32x256 .bf16) :
    k0_pay23 v251 v564 v576 = Spec.add1 (Spec.add1 v251 v564) v576 := rfl
theorem k0_pay24_eq (v579 : FVec F S32x256 .f32) (v588 : Vec F S1x32x256 .bf16) (v595 : Vec F S256x128 .f32) (v600 : Vec F S128x256 .f32) :
    k0_pay24 v579 v588 v595 v600 = Spec.mmNext (Spec.mmOut (Spec.add1 v579 v588) v595) v600 := rfl
theorem k0_pay25_eq (v579 : FVec F S32x256 .f32) (v588 : Vec F S1x32x256 .bf16) (v595 : Vec F S256x128 .f32) (v600 : Vec F S128x256 .f32) :
    k0_pay25 v579 v588 v595 v600 = Spec.slot (Spec.mmNext (Spec.mmOut (Spec.add1 v579 v588) v595) v600) := rfl
theorem k0_pay26_eq (v339 : FVec F S32x256 .f32) (v652 : Vec F S1x32x256 .bf16) (v664 : Vec F S1x32x256 .bf16) :
    k0_pay26 v339 v652 v664 = Spec.add1 (Spec.add1 v339 v652) v664 := rfl
theorem k0_pay27_eq (v667 : FVec F S32x256 .f32) (v676 : Vec F S1x32x256 .bf16) (v683 : Vec F S256x128 .f32) (v688 : Vec F S128x256 .f32) :
    k0_pay27 v667 v676 v683 v688 = Spec.mmNext (Spec.mmOut (Spec.add1 v667 v676) v683) v688 := rfl
theorem k0_pay28_eq (v667 : FVec F S32x256 .f32) (v676 : Vec F S1x32x256 .bf16) (v683 : Vec F S256x128 .f32) (v688 : Vec F S128x256 .f32) :
    k0_pay28 v667 v676 v683 v688 = Spec.slot (Spec.mmNext (Spec.mmOut (Spec.add1 v667 v676) v683) v688) := rfl
theorem k0_pay29_eq (v427 : FVec F S32x256 .f32) (v740 : Vec F S1x32x256 .bf16) (v752 : Vec F S1x32x256 .bf16) :
    k0_pay29 v427 v740 v752 = Spec.add1 (Spec.add1 v427 v740) v752 := rfl
theorem k0_pay30_eq (v755 : FVec F S32x256 .f32) (v764 : Vec F S1x32x256 .bf16) (v771 : Vec F S256x128 .f32) (v776 : Vec F S128x256 .f32) :
    k0_pay30 v755 v764 v771 v776 = Spec.mmNext (Spec.mmOut (Spec.add1 v755 v764) v771) v776 := rfl
theorem k0_pay31_eq (v755 : FVec F S32x256 .f32) (v764 : Vec F S1x32x256 .bf16) (v771 : Vec F S256x128 .f32) (v776 : Vec F S128x256 .f32) :
    k0_pay31 v755 v764 v771 v776 = Spec.slot (Spec.mmNext (Spec.mmOut (Spec.add1 v755 v764) v771) v776) := rfl
theorem k0_pay32_eq (v515 : FVec F S32x256 .f32) (v828 : Vec F S1x32x256 .bf16) (v840 : Vec F S1x32x256 .bf16) :
    k0_pay32 v515 v828 v840 = Spec.add1 (Spec.add1 v515 v828) v840 := rfl
theorem k0_pay33_eq (v843 : FVec F S32x256 .f32) (v852 : Vec F S1x32x256 .bf16) (v859 : Vec F S256x128 .f32) (v864 : Vec F S128x256 .f32) :
    k0_pay33 v843 v852 v859 v864 = Spec.mmNext (Spec.mmOut (Spec.add1 v843 v852) v859) v864 := rfl
theorem k0_pay34_eq (v843 : FVec F S32x256 .f32) (v852 : Vec F S1x32x256 .bf16) (v859 : Vec F S256x128 .f32) (v864 : Vec F S128x256 .f32) :
    k0_pay34 v843 v852 v859 v864 = Spec.slot (Spec.mmNext (Spec.mmOut (Spec.add1 v843 v852) v859) v864) := rfl
theorem k0_pay35_eq (v603 : FVec F S32x256 .f32) (v916 : Vec F S1x32x256 .bf16) (v928 : Vec F S1x32x256 .bf16) :
    k0_pay35 v603 v916 v928 = Spec.add1 (Spec.add1 v603 v916) v928 := rfl
theorem k0_pay36_eq (v931 : FVec F S32x256 .f32) (v940 : Vec F S1x32x256 .bf16) (v947 : Vec F S256x128 .f32) :
    k0_pay36 v931 v940 v947 = Spec.mmOut (Spec.add1 v931 v940) v947 := rfl
theorem k0_pay37_eq (v691 : FVec F S32x256 .f32) (v959 : Vec F S1x32x256 .bf16) :
    k0_pay37 v691 v959 = Spec.add1 v691 v959 := rfl
theorem k0_pay38_eq (v962 : FVec F S32x256 .f32) (v971 : Vec F S1x32x256 .bf16) (v983 : Vec F S1x32x256 .bf16) (v990 : Vec F S256x128 .f32) :
    k0_pay38 v962 v971 v983 v990 = Spec.mmOut (Spec.add1 (Spec.add1 v962 v971) v983) v990 := rfl
theorem k0_pay39_eq (v779 : FVec F S32x256 .f32) (v1002 : Vec F S1x32x256 .bf16) (v1014 : Vec F S1x32x256 .bf16) :
    k0_pay39 v779 v1002 v1014 = Spec.add1 (Spec.add1 v779 v1002) v1014 := rfl
theorem k0_pay40_eq (v1017 : FVec F S32x256 .f32) (v1026 : Vec F S1x32x256 .bf16) (v1033 : Vec F S256x128 .f32) :
    k0_pay40 v1017 v1026 v1033 = Spec.mmOut (Spec.add1 v1017 v1026) v1033 := rfl
theorem k0_pay41_eq (v867 : FVec F S32x256 .f32) (v1045 : Vec F S1x32x256 .bf16) :
    k0_pay41 v867 v1045 = Spec.add1 v867 v1045 := rfl
theorem k0_pay42_eq (v1048 : FVec F S32x256 .f32) (v1057 : Vec F S1x32x256 .bf16) (v1069 : Vec F S1x32x256 .bf16) (v1076 : Vec F S256x128 .f32) :
    k0_pay42 v1048 v1057 v1069 v1076 = Spec.mmOut (Spec.add1 (Spec.add1 v1048 v1057) v1069) v1076 := rfl
theorem k0_pay7_eq (a : Vec F S32x128 .f32) (w : Vec F S128x256 .f32) :
    k0_pay7 (k0_pay5 a) (k0_pay6 w) = Spec.mmIn a w := rfl
theorem k0_pay8_eq (a : Vec F S32x128 .f32) (w : Vec F S128x256 .f32) :
    k0_pay8 (k0_pay5 a) (k0_pay6 w) = Spec.slot (Spec.mmIn a w) := rfl

end Cert.Kernel.Gen

end
-- ==== Proof.KBodyValues.lean ====
import proofs.«900970_g7700000000000971_dist_mlpseq_tp1dT_cs_cs_b128_d128_h256_v7x_i4_f32_1_alg».proof.Proof.KBodyDefs
import proofs.«900970_g7700000000000971_dist_mlpseq_tp1dT_cs_cs_b128_d128_h256_v7x_i4_f32_1_alg».proof.Proof.KContentsFacts
import proofs.«900970_g7700000000000971_dist_mlpseq_tp1dT_cs_cs_b128_d128_h256_v7x_i4_f32_1_alg».proof.Proof.KSpecPay
import Idealize.ShloMosaic.Lib.Writes

/-!
The values a device's body reads and computes, as terms of the specification: a piece of the staged activations is
the specification's row piece; the staged weight blocks are the specification's weights; a stage's sum of the own
partial product and the three received slots, rectified and multiplied out, is the next layer's partial product (and,
in the last layer, the piece of the result); four row pieces stored into the result's buffer make the result block.
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The staged blocks -/

theorem iblk0_eq (c : Dev nD) : (iblk m c 0 t₀ : Vec F S128x128 .f32) = xin m c := rfl
theorem iblk1_eq (c : Dev nD) : (iblk m c 1 t₀ : Vec F S128x256 .f32) = win m 0 c := rfl
theorem iblk2_eq (c : Dev nD) : (iblk m c 2 t₀ : Vec F S256x128 .f32) = wout m 0 c := rfl
theorem iblk3_eq (c : Dev nD) : (iblk m c 3 t₀ : Vec F S128x256 .f32) = win m 1 c := rfl
theorem iblk4_eq (c : Dev nD) : (iblk m c 4 t₀ : Vec F S256x128 .f32) = wout m 1 c := rfl
theorem iblk5_eq (c : Dev nD) : (iblk m c 5 t₀ : Vec F S128x256 .f32) = win m 2 c := rfl
theorem iblk6_eq (c : Dev nD) : (iblk m c 6 t₀ : Vec F S256x128 .f32) = wout m 2 c := rfl

/-- Rows `32 p … 32 p + 31` of the staged activations are the specification's row piece `p`. -/
theorem x_read (c : Dev nD) (p : Fin 4) {off : Fin 2 → Nat} (h : off = ![32 * p.val, 0])
    (inb : ∀ a, off a + S32x128.size a ≤ S128x128.size a) :
    (Memref.whole cc0_stg0_0 : Memref sig .tc .vmem S128x128 .f32).view.readAt (Elt F)
        (Rect.unit (s := S128x128) off S32x128.size inb).toLoadRect (iblk m c 0 t₀) = Spec.xrows (xin m) c p := by
  subst h
  funext y
  rw [View.readAt_rect, View.read_apply, View.emb_slice]
  show xin m c ((Rect.unit (s := S128x128) ![32 * p.val, 0] S32x128.size inb).emb y) = _
  exact congrFun (Spec.xrows_eq (xin m) c p (fun i => (Rect.unit (s := S128x128) ![32 * p.val, 0] S32x128.size inb).emb i)
    (fun i => by rw [Rect.emb_apply]; show 32 * p.val + 1 * (i 0).val = 32 * p.val + (i 0).val; omega)
    (fun i => by rw [Rect.emb_apply]; show 0 + 1 * (i 1).val = (i 1).val; omega)) y

omit [FloatOps F] in
theorem zero2 {off : Fin 2 → Nat} (h : off = ![0, 0]) : off = fun _ => 0 := by
  subst h; funext a; fin_cases a <;> rfl

/-- A staged weight block read whole is the specification's weight block. -/
theorem win0_read (c : Dev nD) {off : Fin 2 → Nat} (h : off = ![0, 0]) (inb : ∀ a, off a + S128x256.size a ≤ S128x256.size a) :
    (Memref.whole cc0_stg1_0 : Memref sig .tc .vmem S128x256 .f32).view.readAt (Elt F)
        (Rect.unit (s := S128x256) off S128x256.size inb).toLoadRect (iblk m c 1 t₀) = win m 0 c :=
  Memref.readAt_unit_zero (Elt F) cc0_stg1_0 (zero2 h) inb _
theorem win1_read (c : Dev nD) {off : Fin 2 → Nat} (h : off = ![0, 0]) (inb : ∀ a, off a + S128x256.size a ≤ S128x256.size a) :
    (Memref.whole cc0_stg3_0 : Memref sig .tc .vmem S128x256 .f32).view.readAt (Elt F)
        (Rect.unit (s := S128x256) off S128x256.size inb).toLoadRect (iblk m c 3 t₀) = win m 1 c :=
  Memref.readAt_unit_zero (Elt F) cc0_stg3_0 (zero2 h) inb _
theorem win2_read (c : Dev nD) {off : Fin 2 → Nat} (h : off = ![0, 0]) (inb : ∀ a, off a + S128x256.size a ≤ S128x256.size a) :
    (Memref.whole cc0_stg5_0 : Memref sig .tc .vmem S128x256 .f32).view.readAt (Elt F)
        (Rect.unit (s := S128x256) off S128x256.size inb).toLoadRect (iblk m c 5 t₀) = win m 2 c :=
  Memref.readAt_unit_zero (Elt F) cc0_stg5_0 (zero2 h) inb _
theorem wout0_read (c : Dev nD) {off : Fin 2 → Nat} (h : off = ![0, 0]) (inb : ∀ a, off a + S256x128.size a ≤ S256x128.size a) :
    (Memref.whole cc0_stg2_0 : Memref sig .tc .vmem S256x128 .f32).view.readAt (Elt F)
        (Rect.unit (s := S256x128) off S256x128.size inb).toLoadRect (iblk m c 2 t₀) = wout m 0 c :=
  Memref.readAt_unit_zero (Elt F) cc0_stg2_0 (zero2 h) inb _
theorem wout1_read (c : Dev nD) {off : Fin 2 → Nat} (h : off = ![0, 0]) (inb : ∀ a, off a + S256x128.size a ≤ S256x128.size a) :
    (Memref.whole cc0_stg4_0 : Memref sig .tc .vmem S256x128 .f32).view.readAt (Elt F)
        (Rect.unit (s := S256x128) off S256x128.size inb).toLoadRect (iblk m c 4 t₀) = wout m 1 c :=
  Memref.readAt_unit_zero (Elt F) cc0_stg4_0 (zero2 h) inb _
theorem wout2_read (c : Dev nD) {off : Fin 2 → Nat} (h : off = ![0, 0]) (inb : ∀ a, off a + S256x128.size a ≤ S256x128.size a) :
    (Memref.whole cc0_stg6_0 : Memref sig .tc .vmem S256x128 .f32).view.readAt (Elt F)
        (Rect.unit (s := S256x128) off S256x128.size inb).toLoadRect (iblk m c 6 t₀) = wout m 2 c :=
  Memref.readAt_unit_zero (Elt F) cc0_stg6_0 (zero2 h) inb _

/-! ## The stages -/

/-- The first layer's partial product. -/
theorem stage_first (c : Dev nD) (p : Fin 4) : Spec.mmIn (Spec.xrows (xin m) c p) (win m 0 c) = part m 0 c p := rfl

/-- Slot `16 l + 4 p + k + 1` holds the partial product of layer `l`, piece `p`, of the device `3 - k` places on. -/
theorem slotVal_at (c : Dev nD) (l : ℕ) (p : Fin 4) (k : Fin 3) {j : ℕ} (hj : j = 16 * l + 4 * p.val + k.val + 1) :
    slotVal m c j = Spec.slot (part m l (Spec.peer c (3 - k.val)) p) := by
  have hp := p.isLt
  have hk := k.isLt
  have hc : c.val < 4 := c.isLt
  subst hj
  exact slotVal_eq m c _ l (Spec.peer c (3 - k.val)) p (by omega)
    (Fin.ext (by show (c.val + (4 - (16 * l + 4 * p.val + k.val + 1) % 4) % 4) % 4 = (c.val + (3 - k.val)) % 4; omega))
    (by omega)

/-- The own partial product and the three received slots, added in the order of the waits, are the specification's sum. -/
theorem acc_eq (c : Dev nD) (l : ℕ) (p : Fin 4) {j1 j3 j2 : ℕ}
    (h1 : j1 = 16 * l + 4 * p.val + 1) (h3 : j3 = 16 * l + 4 * p.val + 3) (h2 : j2 = 16 * l + 4 * p.val + 2) :
    Spec.add1 (Spec.add1 (Spec.add1 (part m l c p) (slotVal m c j1)) (slotVal m c j3)) (slotVal m c j2)
      = Spec.accOf (Spec.partL (xin m) (win m) (wout m) l) c p := by
  rw [slotVal_at m c l p 0 (j := j1) (by rw [h1]; rfl), slotVal_at m c l p 2 (j := j3) (by rw [h3]; rfl),
    slotVal_at m c l p 1 (j := j2) (by rw [h2]; rfl)]
  rfl

/-- A stage of a layer that is not the last: the next layer's partial product. -/
theorem stage_next (c : Dev nD) (l : ℕ) (p : Fin 4) {j1 j3 j2 : ℕ}
    (h1 : j1 = 16 * l + 4 * p.val + 1) (h3 : j3 = 16 * l + 4 * p.val + 3) (h2 : j2 = 16 * l + 4 * p.val + 2) :
    Spec.mmNext (Spec.mmOut (Spec.add1 (Spec.add1 (Spec.add1 (part m l c p) (slotVal m c j1)) (slotVal m c j3)) (slotVal m c j2))
        (wout m l c)) (win m (l + 1) c) = part m (l + 1) c p := by
  rw [acc_eq m c l p h1 h3 h2]
  rfl

/-- A stage of the last layer: the piece of the result. -/
theorem stage_last (c : Dev nD) (p : Fin 4) {j1 j3 j2 : ℕ}
    (h1 : j1 = 32 + 4 * p.val + 1) (h3 : j3 = 32 + 4 * p.val + 3) (h2 : j2 = 32 + 4 * p.val + 2) :
    Spec.mmOut (Spec.add1 (Spec.add1 (Spec.add1 (part m 2 c p) (slotVal m c j1)) (slotVal m c j3)) (slotVal m c j2)) (wout m 2 c)
      = Spec.outPiece (xin m) (win m) (wout m) c p := by
  rw [acc_eq m c 2 p (by omega) (by omega) (by omega)]
  rfl

/-! ## The result block -/

/-- The four row pieces stored into the result's buffer, whatever it held before, make the result block. -/
theorem out_writes (c : Dev nD) (g7 : (Memref.whole cc0_stg7_0 : Memref sig .tc .vmem S128x128 .f32).view.ty.Contents (Elt F))
    (w0 w1 w2 w3 : FVec F S32x128 .f32)
    (h0 : w0 = Spec.outPiece (xin m) (win m) (wout m) c 0) (h1 : w1 = Spec.outPiece (xin m) (win m) (wout m) c 1)
    (h2 : w2 = Spec.outPiece (xin m) (win m) (wout m) c 2) (h3 : w3 = Spec.outPiece (xin m) (win m) (wout m) c 3) :
    (Memref.whole cc0_stg7_0 : Memref sig .tc .vmem S128x128 .f32).view.writes (Elt F) g7
      [⟨Rect.unit (s := S128x128) ![96, 0] S32x128.size inb_S128x128_S32x128_96_0, w3⟩,
       ⟨Rect.unit (s := S128x128) ![64, 0] S32x128.size inb_S128x128_S32x128_64_0, w2⟩,
       ⟨Rect.unit (s := S128x128) ![32, 0] S32x128.size inb_S128x128_S32x128_32_0, w1⟩,
       ⟨Rect.unit (s := S128x128) ![0, 0] S32x128.size inb_S128x128_S32x128_0_0, w0⟩] = outv m c := by
  subst h0 h1 h2 h3
  funext y
  refine (congrFun (View.read_whole (Val := Elt F) cc0_stg7_0 _) y).symm.trans ?_
  refine View.read_writes_apply_of_pieces (Memref.whole cc0_stg7_0 : Memref sig .tc .vmem S128x128 .f32).view g7 (outv m c) _ ?_ y ?_
  swap
  · exact View.cover_of_tiled (s := S128x128) (Val := Elt F) (e := .f32) _ S32x128.size (by rfl) y
  intro p hp
  simp only [List.mem_cons, List.not_mem_nil, or_false] at hp
  rcases hp with rfl | rfl | rfl | rfl
  · intro x
    exact (Spec.outAt_piece (xin m) (win m) (wout m) c 3 x _
      (by rw [Rect.emb_apply]; show 96 + 1 * (x 0).val = 32 * 3 + (x 0).val; omega)
      (by rw [Rect.emb_apply]; show 0 + 1 * (x 1).val = (x 1).val; omega)).symm
  · intro x
    exact (Spec.outAt_piece (xin m) (win m) (wout m) c 2 x _
      (by rw [Rect.emb_apply]; show 64 + 1 * (x 0).val = 32 * 2 + (x 0).val; omega)
      (by rw [Rect.emb_apply]; show 0 + 1 * (x 1).val = (x 1).val; omega)).symm
  · intro x
    exact (Spec.outAt_piece (xin m) (win m) (wout m) c 1 x _
      (by rw [Rect.emb_apply]; show 32 + 1 * (x 0).val = 32 * 1 + (x 0).val; omega)
      (by rw [Rect.emb_apply]; show 0 + 1 * (x 1).val = (x 1).val; omega)).symm
  · intro x
    exact (Spec.outAt_piece (xin m) (win m) (wout m) c 0 x _
      (by rw [Rect.emb_apply]; show 0 + 1 * (x 0).val = 32 * 0 + (x 0).val; omega)
      (by rw [Rect.emb_apply]; show 0 + 1 * (x 1).val = (x 1).val; omega)).symm

/-- info: 'Cert.Kernel.Proto.out_writes' depends on axioms: [propext, Classical.choice, Quot.sound] -/
#guard_msgs in #print axioms out_writes

/-- info: 'Cert.Kernel.Proto.x_read' depends on axioms: [propext, Classical.choice, Quot.sound] -/
#guard_msgs in #print axioms x_read
/-- info: 'Cert.Kernel.Proto.stage_next' depends on axioms: [propext, Classical.choice, Quot.sound] -/
#guard_msgs in #print axioms stage_next
/-- info: 'Cert.Kernel.Proto.stage_last' depends on axioms: [propext, Classical.choice, Quot.sound] -/
#guard_msgs in #print axioms stage_last

end Cert.Kernel.Proto

end
-- ==== Proof.KStageValues.lean ====
import proofs.«900970_g7700000000000971_dist_mlpseq_tp1dT_cs_cs_b128_d128_h256_v7x_i4_f32_1_alg».proof.Proof.KBodyValues
import proofs.«900970_g7700000000000971_dist_mlpseq_tp1dT_cs_cs_b128_d128_h256_v7x_i4_f32_1_alg».proof.Proof.KContentsFacts
import proofs.«900970_g7700000000000971_dist_mlpseq_tp1dT_cs_cs_b128_d128_h256_v7x_i4_f32_1_alg».proof.Proof.KSpecPay

/-!
A stage's value in one step. The terms a device's body carries are loads of the staged blocks and of the landed slots
through the whole buffers; named once, the own partial product of each layer, the value stored into the next layer's
slot and the piece of the result are each a term of the specification.
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## The loads, named -/

/-- A slot of the communication buffer loaded through the whole buffer at its final contents. -/
abbrev rdSlot (c : Dev nD) {o : Fin 3 → Nat} (i : ∀ a, o a + S1x32x256.size a ≤ S48x32x256.size a) : Vec F S1x32x256 .bf16 :=
  (commM : Memref sig .tc .vmem S48x32x256 .bf16).view.readAt (Elt F) (Rect.unit (s := S48x32x256) o S1x32x256.size i).toLoadRect (cfin m c)
/-- A row piece of the staged activations. -/
abbrev rdX (c : Dev nD) {o : Fin 2 → Nat} (i : ∀ a, o a + S32x128.size a ≤ S128x128.size a) : Vec F S32x128 .f32 :=
  (Memref.whole cc0_stg0_0 : Memref sig .tc .vmem S128x128 .f32).view.readAt (Elt F) (Rect.unit (s := S128x128) o S32x128.size i).toLoadRect (iblk m c 0 t₀)
/-- The staged input weights of the three layers, loaded whole. -/
abbrev rdWin0 (c : Dev nD) {o : Fin 2 → Nat} (i : ∀ a, o a + S128x256.size a ≤ S128x256.size a) : Vec F S128x256 .f32 :=
  (Memref.whole cc0_stg1_0 : Memref sig .tc .vmem S128x256 .f32).view.readAt (Elt F) (Rect.unit (s := S128x256) o S128x256.size i).toLoadRect (iblk m c 1 t₀)
abbrev rdWin1 (c : Dev nD) {o : Fin 2 → Nat} (i : ∀ a, o a + S128x256.size a ≤ S128x256.size a) : Vec F S128x256 .f32 :=
  (Memref.whole cc0_stg3_0 : Memref sig .tc .vmem S128x256 .f32).view.readAt (Elt F) (Rect.unit (s := S128x256) o S128x256.size i).toLoadRect (iblk m c 3 t₀)
abbrev rdWin2 (c : Dev nD) {o : Fin 2 → Nat} (i : ∀ a, o a + S128x256.size a ≤ S128x256.size a) : Vec F S128x256 .f32 :=
  (Memref.whole cc0_stg5_0 : Memref sig .tc .vmem S128x256 .f32).view.readAt (Elt F) (Rect.unit (s := S128x256) o S128x256.size i).toLoadRect (iblk m c 5 t₀)
/-- The staged output weights of the three layers, loaded whole. -/
abbrev rdWout0 (c : Dev nD) {o : Fin 2 → Nat} (i : ∀ a, o a + S256x128.size a ≤ S256x128.size a) : Vec F S256x128 .f32 :=
  (Memref.whole cc0_stg2_0 : Memref sig .tc .vmem S256x128 .f32).view.readAt (Elt F) (Rect.unit (s := S256x128) o S256x128.size i).toLoadRect (iblk m c 2 t₀)
abbrev rdWout1 (c : Dev nD) {o : Fin 2 → Nat} (i : ∀ a, o a + S256x128.size a ≤ S256x128.size a) : Vec F S256x128 .f32 :=
  (Memref.whole cc0_stg4_0 : Memref sig .tc .vmem S256x128 .f32).view.readAt (Elt F) (Rect.unit (s := S256x128) o S256x128.size i).toLoadRect (iblk m c 4 t₀)
abbrev rdWout2 (c : Dev nD) {o : Fin 2 → Nat} (i : ∀ a, o a + S256x128.size a ≤ S256x128.size a) : Vec F S256x128 .f32 :=
  (Memref.whole cc0_stg6_0 : Memref sig .tc .vmem S256x128 .f32).view.readAt (Elt F) (Rect.unit (s := S256x128) o S256x128.size i).toLoadRect (iblk m c 6 t₀)

/-- The own partial product and the three landed slots, added in the order of the waits. -/
abbrev sum3 (own : FVec F S32x256 .f32) (r1 r3 r2 : Vec F S1x32x256 .bf16) : FVec F S32x256 .f32 :=
  Spec.add1 (Spec.add1 (Spec.add1 own r1) r3) r2

theorem rdSlot_eq (c : Dev nD) (j : ℕ) (hj : j < 48) {o : Fin 3 → Nat} (h : o = ![j, 0, 0])
    (i : ∀ a, o a + S1x32x256.size a ≤ S48x32x256.size a) : rdSlot m c i = slotVal m c j :=
  cfin_read m c ⟨j, hj⟩ h i

/-! ## With every piece given by an equation -/

/-- A stage of a layer that is not the last, from what its pieces are: the next layer's partial product. -/
theorem part_next_gen (c : Dev nD) (l : ℕ) (p : Fin 4) {own : FVec F S32x256 .f32} (hown : own = part m l c p)
    {r1 r3 r2 : Vec F S1x32x256 .bf16} (h1 : r1 = slotVal m c (16 * l + 4 * p.val + 1)) (h3 : r3 = slotVal m c (16 * l + 4 * p.val + 3))
    (h2 : r2 = slotVal m c (16 * l + 4 * p.val + 2))
    {O : Vec F S256x128 .f32} (hO : O = wout m l c) {W : Vec F S128x256 .f32} (hW : W = win m (l + 1) c) :
    Spec.mmNext (Spec.mmOut (sum3 own r1 r3 r2) O) W = part m (l + 1) c p := by
  subst hown h1 h3 h2 hO hW
  exact stage_next m c l p rfl rfl rfl

/-- The value stored into the next layer's own slot is that slot's final value. -/
theorem stage_store_gen (c : Dev nD) (l : ℕ) (p : Fin 4) {own : FVec F S32x256 .f32} (hown : own = part m l c p)
    {r1 r3 r2 : Vec F S1x32x256 .bf16} (h1 : r1 = slotVal m c (16 * l + 4 * p.val + 1)) (h3 : r3 = slotVal m c (16 * l + 4 * p.val + 3))
    (h2 : r2 = slotVal m c (16 * l + 4 * p.val + 2))
    {O : Vec F S256x128 .f32} (hO : O = wout m l c) {W : Vec F S128x256 .f32} (hW : W = win m (l + 1) c) :
    Spec.slot (Spec.mmNext (Spec.mmOut (sum3 own r1 r3 r2) O) W) = slotVal m c (4 * (4 * (l + 1) + p.val)) := by
  have hp := p.isLt
  have hc : c.val < 4 := c.isLt
  rw [part_next_gen m c l p hown h1 h3 h2 hO hW]
  exact (slotVal_eq m c _ (l + 1) c p (by omega)
    (Fin.ext (by show (c.val + (4 - 4 * (4 * (l + 1) + p.val) % 4) % 4) % 4 = c.val; omega)) (by omega)).symm

/-- A stage of the last layer, from what its pieces are: the piece of the result. -/
theorem stage_out_gen (c : Dev nD) (p : Fin 4) {own : FVec F S32x256 .f32} (hown : own = part m 2 c p)
    {r1 r3 r2 : Vec F S1x32x256 .bf16} (h1 : r1 = slotVal m c (32 + 4 * p.val + 1)) (h3 : r3 = slotVal m c (32 + 4 * p.val + 3))
    (h2 : r2 = slotVal m c (32 + 4 * p.val + 2))
    {O : Vec F S256x128 .f32} (hO : O = wout m 2 c) :
    Spec.mmOut (sum3 own r1 r3 r2) O = Spec.outPiece (xin m) (win m) (wout m) c p := by
  subst hown h1 h3 h2 hO
  exact stage_last m c p rfl rfl rfl

/-! ## The own partial products as they are carried -/

/-- The first layer's: a loaded row piece of the activations times the loaded input weights. -/
theorem part_own0 (c : Dev nD) (p : Fin 4)
    {ox : Fin 2 → Nat} (hx : ox = ![32 * p.val, 0]) {ix : ∀ a, ox a + S32x128.size a ≤ S128x128.size a}
    {ow : Fin 2 → Nat} (hw : ow = ![0, 0]) {iw : ∀ a, ow a + S128x256.size a ≤ S128x256.size a} :
    Spec.mmIn (rdX m c ix) (rdWin0 m c iw) = part m 0 c p := by
  exact (congrArg₂ (fun a w => Spec.mmIn a w) (x_read m c p hx ix) (win0_read m c hw iw)).trans (stage_first m c p)

/-- The second layer's: the first layer's stage multiplied out. -/
theorem part_own1 (c : Dev nD) (p : Fin 4)
    {ox : Fin 2 → Nat} (hx : ox = ![32 * p.val, 0]) {ix : ∀ a, ox a + S32x128.size a ≤ S128x128.size a}
    {ow : Fin 2 → Nat} (hw : ow = ![0, 0]) {iw : ∀ a, ow a + S128x256.size a ≤ S128x256.size a}
    {o1 o3 o2 : Fin 3 → Nat} (h1 : o1 = ![4 * p.val + 1, 0, 0]) (h3 : o3 = ![4 * p.val + 3, 0, 0]) (h2 : o2 = ![4 * p.val + 2, 0, 0])
    {i1 : ∀ a, o1 a + S1x32x256.size a ≤ S48x32x256.size a} {i3 : ∀ a, o3 a + S1x32x256.size a ≤ S48x32x256.size a}
    {i2 : ∀ a, o2 a + S1x32x256.size a ≤ S48x32x256.size a}
    {oO : Fin 2 → Nat} (hO : oO = ![0, 0]) {iO : ∀ a, oO a + S256x128.size a ≤ S256x128.size a}
    {oW : Fin 2 → Nat} (hW : oW = ![0, 0]) {iW : ∀ a, oW a + S128x256.size a ≤ S128x256.size a} :
    Spec.mmNext (Spec.mmOut (sum3 (Spec.mmIn (rdX m c ix) (rdWin0 m c iw)) (rdSlot m c i1) (rdSlot m c i3) (rdSlot m c i2)) (rdWout0 m c iO)) (rdWin1 m c iW)
      = part m 1 c p := by
  have hp := p.isLt
  exact part_next_gen m c 0 p (part_own0 m c p hx hw)
    ((rdSlot_eq m c (4 * p.val + 1) (by omega) h1 i1).trans (congrArg (slotVal m c) (by omega)))
    ((rdSlot_eq m c (4 * p.val + 3) (by omega) h3 i3).trans (congrArg (slotVal m c) (by omega)))
    ((rdSlot_eq m c (4 * p.val + 2) (by omega) h2 i2).trans (congrArg (slotVal m c) (by omega)))
    (wout0_read m c hO iO) (win1_read m c hW iW)

/-- The value the first layer's stage stores into slot `4 (4 + p)` is that slot's final value. -/
theorem stage_store_val0 (c : Dev nD) (p : Fin 4)
    {ox : Fin 2 → Nat} (hx : ox = ![32 * p.val, 0]) {ix : ∀ a, ox a + S32x128.size a ≤ S128x128.size a}
    {ow : Fin 2 → Nat} (hw : ow = ![0, 0]) {iw : ∀ a, ow a + S128x256.size a ≤ S128x256.size a}
    {o1 o3 o2 : Fin 3 → Nat} (h1 : o1 = ![4 * p.val + 1, 0, 0]) (h3 : o3 = ![4 * p.val + 3, 0, 0]) (h2 : o2 = ![4 * p.val + 2, 0, 0])
    {i1 : ∀ a, o1 a + S1x32x256.size a ≤ S48x32x256.size a} {i3 : ∀ a, o3 a + S1x32x256.size a ≤ S48x32x256.size a}
    {i2 : ∀ a, o2 a + S1x32x256.size a ≤ S48x32x256.size a}
    {oO : Fin 2 → Nat} (hO : oO = ![0, 0]) {iO : ∀ a, oO a + S256x128.size a ≤ S256x128.size a}
    {oW : Fin 2 → Nat} (hW : oW = ![0, 0]) {iW : ∀ a, oW a + S128x256.size a ≤ S128x256.size a} :
    Spec.slot (Spec.mmNext (Spec.mmOut (sum3 (Spec.mmIn (rdX m c ix) (rdWin0 m c iw)) (rdSlot m c i1) (rdSlot m c i3) (rdSlot m c i2)) (rdWout0 m c iO)) (rdWin1 m c iW))
      = slotVal m c (4 * (4 + p.val)) := by
  have hp := p.isLt
  exact stage_store_gen m c 0 p (part_own0 m c p hx hw)
    ((rdSlot_eq m c (4 * p.val + 1) (by omega) h1 i1).trans (congrArg (slotVal m c) (by omega)))
    ((rdSlot_eq m c (4 * p.val + 3) (by omega) h3 i3).trans (congrArg (slotVal m c) (by omega)))
    ((rdSlot_eq m c (4 * p.val + 2) (by omega) h2 i2).trans (congrArg (slotVal m c) (by omega)))
    (wout0_read m c hO iO) (win1_read m c hW iW)

/-- The third layer's own partial product, from the second layer's (given by an equation) and the second layer's loads. -/
theorem part_own2 (c : Dev nD) (p : Fin 4) {own : FVec F S32x256 .f32} (hown : own = part m 1 c p)
    {o1 o3 o2 : Fin 3 → Nat} (h1 : o1 = ![16 + 4 * p.val + 1, 0, 0]) (h3 : o3 = ![16 + 4 * p.val + 3, 0, 0]) (h2 : o2 = ![16 + 4 * p.val + 2, 0, 0])
    {i1 : ∀ a, o1 a + S1x32x256.size a ≤ S48x32x256.size a} {i3 : ∀ a, o3 a + S1x32x256.size a ≤ S48x32x256.size a}
    {i2 : ∀ a, o2 a + S1x32x256.size a ≤ S48x32x256.size a}
    {oO : Fin 2 → Nat} (hO : oO = ![0, 0]) {iO : ∀ a, oO a + S256x128.size a ≤ S256x128.size a}
    {oW : Fin 2 → Nat} (hW : oW = ![0, 0]) {iW : ∀ a, oW a + S128x256.size a ≤ S128x256.size a} :
    Spec.mmNext (Spec.mmOut (sum3 own (rdSlot m c i1) (rdSlot m c i3) (rdSlot m c i2)) (rdWout1 m c iO)) (rdWin2 m c iW) = part m 2 c p := by
  have hp := p.isLt
  exact part_next_gen m c 1 p hown
    ((rdSlot_eq m c (16 + 4 * p.val + 1) (by omega) h1 i1).trans (congrArg (slotVal m c) (by omega)))
    ((rdSlot_eq m c (16 + 4 * p.val + 3) (by omega) h3 i3).trans (congrArg (slotVal m c) (by omega)))
    ((rdSlot_eq m c (16 + 4 * p.val + 2) (by omega) h2 i2).trans (congrArg (slotVal m c) (by omega)))
    (wout1_read m c hO iO) (win2_read m c hW iW)

/-- The value the second layer's stage stores into slot `4 (8 + p)` is that slot's final value. -/
theorem stage_store_val1 (c : Dev nD) (p : Fin 4) {own : FVec F S32x256 .f32} (hown : own = part m 1 c p)
    {o1 o3 o2 : Fin 3 → Nat} (h1 : o1 = ![16 + 4 * p.val + 1, 0, 0]) (h3 : o3 = ![16 + 4 * p.val + 3, 0, 0]) (h2 : o2 = ![16 + 4 * p.val + 2, 0, 0])
    {i1 : ∀ a, o1 a + S1x32x256.size a ≤ S48x32x256.size a} {i3 : ∀ a, o3 a + S1x32x256.size a ≤ S48x32x256.size a}
    {i2 : ∀ a, o2 a + S1x32x256.size a ≤ S48x32x256.size a}
    {oO : Fin 2 → Nat} (hO : oO = ![0, 0]) {iO : ∀ a, oO a + S256x128.size a ≤ S256x128.size a}
    {oW : Fin 2 → Nat} (hW : oW = ![0, 0]) {iW : ∀ a, oW a + S128x256.size a ≤ S128x256.size a} :
    Spec.slot (Spec.mmNext (Spec.mmOut (sum3 own (rdSlot m c i1) (rdSlot m c i3) (rdSlot m c i2)) (rdWout1 m c iO)) (rdWin2 m c iW))
      = slotVal m c (4 * (8 + p.val)) := by
  have hp := p.isLt
  exact stage_store_gen m c 1 p hown
    ((rdSlot_eq m c (16 + 4 * p.val + 1) (by omega) h1 i1).trans (congrArg (slotVal m c) (by omega)))
    ((rdSlot_eq m c (16 + 4 * p.val + 3) (by omega) h3 i3).trans (congrArg (slotVal m c) (by omega)))
    ((rdSlot_eq m c (16 + 4 * p.val + 2) (by omega) h2 i2).trans (congrArg (slotVal m c) (by omega)))
    (wout1_read m c hO iO) (win2_read m c hW iW)

/-- The last layer's stage: the piece of the result, from the third layer's own partial product (given by an equation). -/
theorem stage_out_val (c : Dev nD) (p : Fin 4) {own : FVec F S32x256 .f32} (hown : own = part m 2 c p)
    {o1 o3 o2 : Fin 3 → Nat} (h1 : o1 = ![32 + 4 * p.val + 1, 0, 0]) (h3 : o3 = ![32 + 4 * p.val + 3, 0, 0]) (h2 : o2 = ![32 + 4 * p.val + 2, 0, 0])
    {i1 : ∀ a, o1 a + S1x32x256.size a ≤ S48x32x256.size a} {i3 : ∀ a, o3 a + S1x32x256.size a ≤ S48x32x256.size a}
    {i2 : ∀ a, o2 a + S1x32x256.size a ≤ S48x32x256.size a}
    {oO : Fin 2 → Nat} (hO : oO = ![0, 0]) {iO : ∀ a, oO a + S256x128.size a ≤ S256x128.size a} :
    Spec.mmOut (sum3 own (rdSlot m c i1) (rdSlot m c i3) (rdSlot m c i2)) (rdWout2 m c iO) = Spec.outPiece (xin m) (win m) (wout m) c p := by
  have hp := p.isLt
  exact stage_out_gen m c p hown
    (rdSlot_eq m c (32 + 4 * p.val + 1) (by omega) h1 i1)
    (rdSlot_eq m c (32 + 4 * p.val + 3) (by omega) h3 i3)
    (rdSlot_eq m c (32 + 4 * p.val + 2) (by omega) h2 i2)
    (wout2_read m c hO iO)

/-- info: 'Cert.Kernel.Proto.stage_store_val0' depends on axioms: [propext, Classical.choice, Quot.sound] -/
#guard_msgs in #print axioms stage_store_val0
/-- info: 'Cert.Kernel.Proto.stage_store_val1' depends on axioms: [propext, Classical.choice, Quot.sound] -/
#guard_msgs in #print axioms stage_store_val1
/-- info: 'Cert.Kernel.Proto.stage_out_val' depends on axioms: [propext, Classical.choice, Quot.sound] -/
#guard_msgs in #print axioms stage_out_val

end Cert.Kernel.Proto

end
-- ==== Proof.KBodyEnd.lean ====
import proofs.«900970_g7700000000000971_dist_mlpseq_tp1dT_cs_cs_b128_d128_h256_v7x_i4_f32_1_alg».proof.Proof.KSteps
import proofs.«900970_g7700000000000971_dist_mlpseq_tp1dT_cs_cs_b128_d128_h256_v7x_i4_f32_1_alg».proof.Proof.KSlots

/-!
The end of a device's body: the communication buffer put back whole, and the device's 72 transfer cells closed.

Stage `L` (of 12) uses the four slots `4 L + k`: slot `4 L` is lent at three shares to the stage's three transfers,
slots `4 L + 1, 2, 3` are written by the three other devices. With every transfer of every stage waited for, the 36
written slots at the full share and the 36 lent shares make the 48 slots at the full share, that is the buffer whole.
-/

noncomputable section

namespace Cert.Kernel.Proto

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Transfers by stage and offset, slots by stage and place -/

/-- Transfer `3 L + e` is the `e`-th of stage `L`. -/
def e36 : Fin 12 × Fin 3 ≃ Fin 36 where
  toFun p := semOf p.1 p.2
  invFun s := (⟨s.val / 3, by have := s.isLt; omega⟩, ⟨s.val % 3, Nat.mod_lt _ (by decide)⟩)
  left_inv := by
    rintro ⟨L, e⟩
    have hL := L.isLt
    have he := e.isLt
    refine Prod.ext (Fin.ext ?_) (Fin.ext ?_)
    · show (3 * L.val + e.val) / 3 = L.val; omega
    · show (3 * L.val + e.val) % 3 = e.val; omega
  right_inv := by
    intro s
    refine Fin.ext ?_
    show 3 * (s.val / 3) + s.val % 3 = s.val
    omega

/-- Slot `4 L + k` is the `k`-th of stage `L`. -/
def e48 : Fin 12 × Fin 4 ≃ Fin 48 where
  toFun p := ⟨4 * p.1.val + p.2.val, by have := p.1.isLt; have := p.2.isLt; omega⟩
  invFun j := (⟨j.val / 4, by have := j.isLt; omega⟩, ⟨j.val % 4, Nat.mod_lt _ (by decide)⟩)
  left_inv := by
    rintro ⟨L, k⟩
    have hL := L.isLt
    have hk := k.isLt
    refine Prod.ext (Fin.ext ?_) (Fin.ext ?_)
    · show (4 * L.val + k.val) / 4 = L.val; omega
    · show (4 * L.val + k.val) % 4 = k.val; omega
  right_inv := by
    intro j
    refine Fin.ext ?_
    show 4 * (j.val / 4) + j.val % 4 = j.val
    omega

theorem e36_val (L : Fin 12) (e : Fin 3) : (e36 (L, e)).val = 3 * L.val + e.val := rfl
theorem e48_val (L : Fin 12) (k : Fin 4) : (e48 (L, k)).val = 4 * L.val + k.val := rfl

/-- Every transfer of stage `L` reads the stage's first slot, -/
theorem src_e36 (L : Fin 12) (e : Fin 3) : srcSlot (e36 (L, e)) = e48 (L, 0) := by
  have hL := L.isLt
  have he := e.isLt
  refine Fin.ext ?_
  show 4 * ((3 * L.val + e.val) / 3) = 4 * L.val + 0
  omega

/-- and the `e`-th writes the stage's slot `e + 1`. -/
theorem dst_e36 (L : Fin 12) (e : Fin 3) : dstSlot (e36 (L, e)) = e48 (L, e.succ) := by
  have hL := L.isLt
  have he := e.isLt
  refine Fin.ext ?_
  show 4 * ((3 * L.val + e.val) / 3) + (3 * L.val + e.val) % 3 + 1 = 4 * L.val + (e.val + 1)
  omega

theorem share_e36_0 (L : Fin 12) : shareOf (e36 (L, 0)) = fullShare.left := by
  unfold shareOf
  rw [if_pos (by show (3 * L.val + 0) % 3 = 0; omega)]
theorem share_e36_1 (L : Fin 12) : shareOf (e36 (L, 1)) = fullShare.right.left := by
  unfold shareOf
  rw [if_neg (by show ¬ (3 * L.val + 1) % 3 = 0; omega), if_pos (by show (3 * L.val + 1) % 3 = 1; omega)]
theorem share_e36_2 (L : Fin 12) : shareOf (e36 (L, 2)) = fullShare.right.right := by
  unfold shareOf
  rw [if_neg (by show ¬ (3 * L.val + 2) % 3 = 0; omega), if_neg (by show ¬ (3 * L.val + 2) % 3 = 1; omega)]

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The buffer whole again -/

/-- One stage: its three written slots at the full share and its first slot's three lent shares are its four slots at
    the full share. -/
theorem stage_rejoin (c : Dev nD) (f : Buf (Elt F) ((commM : Memref sig .tc .vmem S48x32x256 .bf16).view.loc (c : Thread nD τ))) (L : Fin 12) :
    iprop((bigSep Finset.univ fun e : Fin 3 => slotPts c (dstSlot (e36 (L, e))) fullShare f)
        ∗ (bigSep Finset.univ fun e : Fin 3 => slotPts c (srcSlot (e36 (L, e))) (shareOf (e36 (L, e))) f))
      ⊢ (bigSep Finset.univ fun k : Fin 4 => slotPts c (e48 (L, k)) fullShare f : sProp 𝕄) := by
  rw [bigSep_fin3, bigSep_fin3, bigSep_fin4]
  simp only [src_e36, dst_e36, share_e36_0, share_e36_1, share_e36_2]
  iintro ⟨⟨D1, D2, D3⟩, S0, S1, S2⟩
  isplitl [S0 S1 S2]
  · iapply (slot_share3 c (e48 (L, 0)) f).2
    isplitl [S0]; · iexact S0
    isplitl [S1]; · iexact S1
    iexact S2
  isplitl [D1]; · iexact D1
  isplitl [D2]; · iexact D2
  iexact D3

/-- The 36 written slots at the full share and the 36 lent shares of the 12 source slots are the buffer whole. -/
theorem comm_rejoin (c : Dev nD) (f : Buf (Elt F) ((commM : Memref sig .tc .vmem S48x32x256 .bf16).view.loc (c : Thread nD τ))) :
    iprop((bigSep Finset.univ fun s : Fin 36 => slotPts c (dstSlot s) fullShare f)
        ∗ (bigSep Finset.univ fun s : Fin 36 => slotPts c (srcSlot s) (shareOf s) f))
      ⊢ (commPts c f : sProp 𝕄) := by
  refine BIBase.Entails.trans ?_ (comm_join c f)
  rw [bigSep_univ_equiv e48 (fun j : Fin 48 => (slotPts c j fullShare f : sProp 𝕄)), bigSep_univ_prod,
    bigSep_univ_equiv e36 (fun s : Fin 36 => (slotPts c (dstSlot s) fullShare f : sProp 𝕄)), bigSep_univ_prod,
    bigSep_univ_equiv e36 (fun s : Fin 36 => (slotPts c (srcSlot s) (shareOf s) f : sProp 𝕄)), bigSep_univ_prod,
    ← bigSep_sep']
  exact bigSep_mono fun L _ => stage_rejoin c f L

/-! ## The cells closed -/

variable (cf : (c : Dev nD) → Buf (Elt F) ((commM : Memref sig .tc .vmem S48x32x256 .bf16).view.loc (c : Thread nD τ)))

/-- A send cell and a receive cell past their one round, nothing taken of a later one, are closed: no round from the
    second on has a duty, so each counter stands at zero and nothing can land on it any more. -/
theorem close_pair (K : Dev nD × Fin 73 → ℕ) (c : Dev nD) (s : Fin 36) :
    iprop(records cf K ∗ (atPos ER (sendCell c s) 1 ∅ 0 ∗ atPos ER (recvCell c s) 1 ∅ 0))
      ⊢ (|={Set.univ}=> iprop(semVal (sendCell c s) 0 ∗ semVal (recvCell c s) 0) : sProp 𝕄) := by
  iintro ⟨#HR, Hs, Hr⟩
  ihave HIs := (inv_send cf K c s) $$ HR
  ihave HIr := (inv_recv cf K c s) $$ HR
  imod (Rounds.cell_close ER (sched cf) (Set.mem_univ (K (c, sIdx s))) (fun h => h) (R := 0 + 1) (duties_later cf (sendCell c s))) $$ [HIs Hs] with Hz1
  · isplitl [HIs]; · iexact HIs
    iexact Hs
  imod (Rounds.cell_close ER (sched cf) (Set.mem_univ (K (c, rIdx s))) (fun h => h) (R := 0 + 1) (duties_later cf (recvCell c s))) $$ [HIr Hr] with Hz2
  · isplitl [HIr]; · iexact HIr
    iexact Hr
  imodintro
  isplitl [Hz1]; · iexact Hz1
  iexact Hz2

/-- The device's 36 send cells and 36 receive cells, each past its one round, all closed at zero. -/
theorem close_cells (K : Dev nD × Fin 73 → ℕ) (c : Dev nD) :
    iprop(records cf K ∗ (bigSep Finset.univ fun s : Fin 36 => atPos ER (sendCell c s) 1 ∅ 0)
        ∗ (bigSep Finset.univ fun s : Fin 36 => atPos ER (recvCell c s) 1 ∅ 0))
      ⊢ (|={Set.univ}=> (bigSep Finset.univ fun s : Fin 36 => iprop(semVal (sendCell c s) 0 ∗ semVal (recvCell c s) 0)) : sProp 𝕄) := by
  rw [← bigSep_sep']
  exact (bigSep_with_persistent (R := records cf K) fun s _ => close_pair cf K c s).trans (bigSep_fupd _ _)

/-- info: 'Cert.Kernel.Proto.comm_rejoin' depends on axioms: [propext, Classical.choice, Quot.sound] -/
#guard_msgs in #print axioms comm_rejoin
/-- info: 'Cert.Kernel.Proto.close_cells' depends on axioms: [propext, Classical.choice, Quot.sound] -/
#guard_msgs in #print axioms close_cells

end Cert.Kernel.Proto

end
-- ==== Proof.KBodyPost.lean ====
import proofs.«900970_g7700000000000971_dist_mlpseq_tp1dT_cs_cs_b128_d128_h256_v7x_i4_f32_1_alg».proof.Proof.KBodyDefs
import proofs.«900970_g7700000000000971_dist_mlpseq_tp1dT_cs_cs_b128_d128_h256_v7x_i4_f32_1_alg».proof.Proof.KBodyEnd
import proofs.«900970_g7700000000000971_dist_mlpseq_tp1dT_cs_cs_b128_d128_h256_v7x_i4_f32_1_alg».proof.Proof.Meta
import proofs.«900970_g7700000000000971_dist_mlpseq_tp1dT_cs_cs_b128_d128_h256_v7x_i4_f32_1_alg».proof.Proof.KBodyValues
import proofs.«900970_g7700000000000971_dist_mlpseq_tp1dT_cs_cs_b128_d128_h256_v7x_i4_f32_1_alg».proof.Proof.KSteps

/-!
The last step of a device's body: with every transfer waited for, the device's cells are closed, the communication
buffer is whole again at its final contents, nothing is owed, the seven argument blocks are as staged and the result's
staging buffer holds the result block — which is what the body has to leave.
-/

noncomputable section

namespace Cert.Kernel.Proto

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Proto.Meta

variable {F : FTy → Type} [FloatOps F]

local notation "𝕄" => MT nD τ sig Unit (Elt F) ℕ UU ℕ

variable (m : (ℓ : Loc nD τ sig) → Buf (Elt F) ℓ)

omit [FloatOps F] in
/-- A family over the 36 transfers, one by one. -/
theorem bigSep_fin36 (Φ : Fin 36 → sProp 𝕄) : bigSep Finset.univ Φ = sepfam% Φ 36 :=
  bigSep_univ_eq_bigSepL (finlist% 36) (by decide) (by decide) Φ

/-- The body's last step. -/
theorem body_post_intro (K : Dev nD × Fin 73 → ℕ) (c : Dev nD) (W : Waits sig Unit)
    (X7 : Buf (Elt F) ((Memref.whole cc0_stg7_0 : Memref sig .tc .vmem S128x128 .f32).view.loc (c : Thread nD τ))) (hX7 : X7 = outv m c) :
    iprop(records (cfin m) K
        ∗ (bigSep Finset.univ fun s : Fin 36 => atPos ER (sendCell c s) 1 ∅ 0)
        ∗ (bigSep Finset.univ fun s : Fin 36 => atPos ER (recvCell c s) 1 ∅ 0)
        ∗ (bigSep Finset.univ fun s : Fin 36 => slotPts c (dstSlot s) fullShare (cfin m c))
        ∗ (bigSep Finset.univ fun s : Fin 36 => slotPts c (srcSlot s) (shareOf s) (cfin m c))
        ∗ owes (c : Thread nD τ) 0 W
        ∗ (((Memref.whole cc0_stg0_0 : Memref sig .tc .vmem S128x128 .f32).view.loc (c : Thread nD τ)) ↦{fullShare} (iblk m c 0 t₀))
        ∗ (((Memref.whole cc0_stg1_0 : Memref sig .tc .vmem S128x256 .f32).view.loc (c : Thread nD τ)) ↦{fullShare} (iblk m c 1 t₀))
        ∗ (((Memref.whole cc0_stg2_0 : Memref sig .tc .vmem S256x128 .f32).view.loc (c : Thread nD τ)) ↦{fullShare} (iblk m c 2 t₀))
        ∗ (((Memref.whole cc0_stg3_0 : Memref sig .tc .vmem S128x256 .f32).view.loc (c : Thread nD τ)) ↦{fullShare} (iblk m c 3 t₀))
        ∗ (((Memref.whole cc0_stg4_0 : Memref sig .tc .vmem S256x128 .f32).view.loc (c : Thread nD τ)) ↦{fullShare} (iblk m c 4 t₀))
        ∗ (((Memref.whole cc0_stg5_0 : Memref sig .tc .vmem S128x256 .f32).view.loc (c : Thread nD τ)) ↦{fullShare} (iblk m c 5 t₀))
        ∗ (((Memref.whole cc0_stg6_0 : Memref sig .tc .vmem S256x128 .f32).view.loc (c : Thread nD τ)) ↦{fullShare} (iblk m c 6 t₀))
        ∗ (((Memref.whole cc0_stg7_0 : Memref sig .tc .vmem S128x128 .f32).view.loc (c : Thread nD τ)) ↦{fullShare} X7))
      ⊢ (|={Set.univ}=> bodyPost m c : sProp 𝕄) := by
  subst hX7
  iintro ⟨#HR, Has, Har, HD, HS, HO, H0, H1, H2, H3, H4, H5, H6, H7⟩
  imod (close_cells (cfin m) K c) $$ [Has Har] with Hz
  · isplitr; · iexact HR
    isplitl [Has]; · iexact Has
    iexact Har
  ihave Hc := (comm_rejoin c (cfin m c)) $$ [HD HS]
  · isplitl [HD]; · iexact HD
    iexact HS
  imodintro
  unfold bodyPost Φ₁ Dat.owesAt Pipeline.owesWithin
  rw [show (kdats m 0 c).owed t₀.succ = 0 from rfl]
  isplitl [Hc Hz]
  · isplitl [Hc]; · iexact Hc
    iexact Hz
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  isplitl [H5]
  · iexists _; isplitr; · (ipureintro; rfl)
    iexact H5
  isplitl [H6]
  · iexists _; isplitr; · (ipureintro; rfl)
    iexact H6
  iexists _; isplitr; · (ipureintro; rfl)
  iexact H7

/-- The same, the four families over the 36 transfers given one by one. -/
theorem body_post_intro_fam (K : Dev nD × Fin 73 → ℕ) (c : Dev nD) (W : Waits sig Unit)
    (X7 : Buf (Elt F) ((Memref.whole cc0_stg7_0 : Memref sig .tc .vmem S128x128 .f32).view.loc (c : Thread nD τ))) (hX7 : X7 = outv m c) :
    iprop(records (cfin m) K
        ∗ (sepfam% (fun s : Fin 36 => (atPos ER (sendCell c s) 1 ∅ 0 : sProp 𝕄)) 36)
        ∗ (sepfam% (fun s : Fin 36 => (atPos ER (recvCell c s) 1 ∅ 0 : sProp 𝕄)) 36)
        ∗ (sepfam% (fun s : Fin 36 => (slotPts c (dstSlot s) fullShare (cfin m c) : sProp 𝕄)) 36)
        ∗ (sepfam% (fun s : Fin 36 => (slotPts c (srcSlot s) (shareOf s) (cfin m c) : sProp 𝕄)) 36)
        ∗ owes (c : Thread nD τ) 0 W
        ∗ (((Memref.whole cc0_stg0_0 : Memref sig .tc .vmem S128x128 .f32).view.loc (c : Thread nD τ)) ↦{fullShare} (iblk m c 0 t₀))
        ∗ (((Memref.whole cc0_stg1_0 : Memref sig .tc .vmem S128x256 .f32).view.loc (c : Thread nD τ)) ↦{fullShare} (iblk m c 1 t₀))
        ∗ (((Memref.whole cc0_stg2_0 : Memref sig .tc .vmem S256x128 .f32).view.loc (c : Thread nD τ)) ↦{fullShare} (iblk m c 2 t₀))
        ∗ (((Memref.whole cc0_stg3_0 : Memref sig .tc .vmem S128x256 .f32).view.loc (c : Thread nD τ)) ↦{fullShare} (iblk m c 3 t₀))
        ∗ (((Memref.whole cc0_stg4_0 : Memref sig .tc .vmem S256x128 .f32).view.loc (c : Thread nD τ)) ↦{fullShare} (iblk m c 4 t₀))
        ∗ (((Memref.whole cc0_stg5_0 : Memref sig .tc .vmem S128x256 .f32).view.loc (c : Thread nD τ)) ↦{fullShare} (iblk m c 5 t₀))
        ∗ (((Memref.whole cc0_stg6_0 : Memref sig .tc .vmem S256x128 .f32).view.loc (c : Thread nD τ)) ↦{fullShare} (iblk m c 6 t₀))
        ∗ (((Memref.whole cc0_stg7_0 : Memref sig .tc .vmem S128x128 .f32).view.loc (c : Thread nD τ)) ↦{fullShare} X7))
      ⊢ (|={Set.univ}=> bodyPost m c : sProp 𝕄) := by
  have h := body_post_intro m K c W X7 hX7
  rw [bigSep_fin36, bigSep_fin36, bigSep_fin36, bigSep_fin36] at h
  exact h

/-- info: 'Cert.Kernel.Proto.body_post_intro' depends on axioms: [propext, Classical.choice, Quot.sound] -/
#guard_msgs in #print axioms body_post_intro
/-- info: 'Cert.Kernel.Proto.body_post_intro_fam' depends on axioms: [propext, Classical.choice, Quot.sound] -/
#guard_msgs in #print axioms body_post_intro_fam

end Cert.Kernel.Proto

end
-- ==== Proof.KBody.lean ====
import proofs.«900970_g7700000000000971_dist_mlpseq_tp1dT_cs_cs_b128_d128_h256_v7x_i4_f32_1_alg».proof.Proof.KBodyDefs
import proofs.«900970_g7700000000000971_dist_mlpseq_tp1dT_cs_cs_b128_d128_h256_v7x_i4_f32_1_alg».proof.Proof.KSend
import proofs.«900970_g7700000000000971_dist_mlpseq_tp1dT_cs_cs_b128_d128_h256_v7x_i4_f32_1_alg».proof.Proof.Meta
import proofs.«900970_g7700000000000971_dist_mlpseq_tp1dT_cs_cs_b128_d128_h256_v7x_i4_f32_1_alg».proof.Proof.Meta2
import proofs.«900970_g7700000000000971_dist_mlpseq_tp1dT_cs_cs_b128_d128_h256_v7x_i4_f32_1_alg».proof.Proof.KExecTables
import proofs.«900970_g7700000000000971_dist_mlpseq_tp1dT_cs_cs_b128_d128_h256_v7x_i4_f32_1_alg».proof.Proof.KExecWaits
import proofs.«900970_g7700000000000971_dist_mlpseq_tp1dT_cs_cs_b128_d128_h256_v7x_i4_f32_1_alg».proof.Proof.KBodyValues
import proofs.«900970_g7700000000000971_dist_mlpseq_tp1dT_cs_cs_b128_d128_h256_v7x_i4_f32_1_alg».proof.Proof.KContentsFacts
import proofs.«900970_g7700000000000971_dist_mlpseq_tp1dT_cs_cs_b128_d128_h256_v7x_i4_f32_1_alg».proof.Proof.KStageValues
import proofs.«900970_g7700000000000971_dist_mlpseq_tp1dT_cs_cs_b128_d128_h256_v7x_i4_f32_1_alg».proof.Proof.KBodyPost

/-!
A device's body: from what the launch hands it, through the entry handshake, the twelve stages (product, exchange of the
partial products, sum, rectification, product) and the waits for its own transfers, to the result block in its staging
buffer, the communication buffer whole at its final contents and every cell closed.
-/

noncomputable section

namespace Cert.Kernel.Proto

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Proto.Meta Cert.KernelIdeal.Proto.Meta2

variable {F : FTy → Type} [FloatOps F]

local notation "𝕄" => MT nD τ sig Unit (Elt F) ℕ UU ℕ

variable (m : (ℓ : Loc nD τ sig) → Buf (Elt F) ℓ)

theorem bigSep_fin12 (Φ : Fin 12 → sProp 𝕄) : bigSep Finset.univ Φ = sepfam% Φ 12 :=
  bigSep_univ_eq_bigSepL (finlist% 12) (by decide) (by decide) Φ
theorem bigSep_fin48 (Φ : Fin 48 → sProp 𝕄) : bigSep Finset.univ Φ = sepfam% Φ 48 :=
  bigSep_univ_eq_bigSepL (finlist% 48) (by decide) (by decide) Φ
theorem bigSep_fin73 (Φ : Fin 73 → sProp 𝕄) : bigSep Finset.univ Φ = sepfam% Φ 73 :=
  bigSep_univ_eq_bigSepL (finlist% 73) (by decide) (by decide) Φ

/-- The twelve slots a signal hands over, all at one buffer's contents, make the signal's payload. -/
theorem mk_barPay' (cf : (c : Dev nD) → Buf (Elt F) ((commM : Memref sig .tc .vmem S48x32x256 .bf16).view.loc (c : Thread nD τ)))
    (K : Dev nD × Fin 73 → ℕ) (c : Dev nD) (i : Fin 3) (f : Buf (Elt F) ((commM : Memref sig .tc .vmem S48x32x256 .bf16).view.loc (c : Thread nD τ))) :
    iprop(records cf K ∗ sepfam% (fun L : Fin 12 => slotPts c (slotOf L (⟨2 - i.val, by omega⟩ : Fin 3)) fullShare f) 12)
      ⊢ (barPay (pr c (i.val + 1)) (⟨2 - i.val, by omega⟩ : Fin 3) : sProp 𝕄) := by
  rw [← bigSep_fin12 (fun L : Fin 12 => slotPts c (slotOf L (⟨2 - i.val, by omega⟩ : Fin 3)) fullShare f)]
  refine BIBase.Entails.trans (sep_mono_right (bigSep_mono fun L _ => show _ ⊢ iprop(∃ f, slotPts c (slotOf L (⟨2 - i.val, by omega⟩ : Fin 3)) fullShare f) from by
    iintro H; iexists f; iexact H)) (mk_barPay cf K c i)

/-- A slot's points-to, spelt out. -/
theorem slotPts_unfold (c : Dev nD) (j : Fin 48) (q : PosShare TreeShare)
    (f : Buf (Elt F) ((commM : Memref sig .tc .vmem S48x32x256 .bf16).view.loc (c : Thread nD τ))) :
    (slotPts c j q f : sProp 𝕄) = ((slotM j).view.loc (c : Thread nD τ) ↦[(slotM j).view.set]{q} f) := rfl

/-- The schedule's payloads of the send and receive cells, the points-to spelt out. -/
theorem payload_send' (cf : (c : Dev nD) → Buf (Elt F) ((commM : Memref sig .tc .vmem S48x32x256 .bf16).view.loc (c : Thread nD τ)))
    (c : Dev nD) (s : Fin 36) (d : Fin 3) : (sched (F := F) cf).payload (sendCell c s) 0 d
    = ((slotM (srcSlot s)).view.loc (c : Thread nD τ) ↦[(slotM (srcSlot s)).view.set]{shareOf s} cf c) := payload_send cf c s d
theorem payload_recv' (cf : (c : Dev nD) → Buf (Elt F) ((commM : Memref sig .tc .vmem S48x32x256 .bf16).view.loc (c : Thread nD τ)))
    (c : Dev nD) (s : Fin 36) (d : Fin 3) : (sched (F := F) cf).payload (recvCell c s) 0 d
    = ((slotM (dstSlot s)).view.loc (c : Thread nD τ) ↦[(slotM (dstSlot s)).view.set]{fullShare} cf c) := payload_recv cf c s d

/-- What a signal's payload is, slot by slot. -/
theorem barPay_fam (c : Dev nD) (e : Fin 3) : (barPay (F := F) c e : sProp 𝕄) = sepfam% (fun L : Fin 12 =>
    iprop((∃ f, slotPts (pr c (e.val + 1)) (slotOf L e) fullShare f) ∗ reached ER (recvCell (pr c (e.val + 1)) (semOf L e)) 0)) 12 := by
  unfold barPay; exact bigSep_fin12 _

attribute [local sl_rounds] duties_send duties_recv duties_bar amount_send amount_recv amount_bar expect_send expect_recv expect_bar payload_send' payload_recv' payload_bar

/-- One transfer, the `i`-th in program order (transfer number `3 (i / 3) + (4 - i % 3) % 3`: within a stage the offsets go
    2, 1, 3): the source slot's share, the destination slot and the cells' things in, the send credit and the smaller debt out;
    then the body is stepped on to the next transfer, or to its end. -/
def sendText : String := "
    icases HtS⟪3 * (i / 3) + (4 - i % 3) % 3⟫ with ⟨HtR⟪3 * (i / 3) + (4 - i % 3) % 3⟫, HtS⟪3 * (i / 3) + (4 - i % 3) % 3⟫⟩
    iapply (wp_send_slot (cfin m) c _ ⟪3 * (i / 3) + (4 - i % 3) % 3⟫ (dev⟪i + 4⟫_eq c) (K (c, sIdx ⟪3 * (i / 3) + (4 - i % 3) % 3⟫)) (K (pr c (offs ⟪3 * (i / 3) + (4 - i % 3) % 3⟫), rIdx ⟪3 * (i / 3) + (4 - i % 3) % 3⟫)) (hcf_send m c ⟪3 * (i / 3) + (4 - i % 3) % 3⟫) fd⟪3 * (i / 3) + (4 - i % 3) % 3⟫ (owedRem c ⟪35 - i⟫) (owedRem c ⟪36 - i⟫) rfl _) $$ [Hs⟪4 * (i / 3)⟫x⟪(4 - i % 3) % 3⟫ Hd⟪3 * (i / 3) + (4 - i % 3) % 3⟫ HO HtS⟪3 * (i / 3) + (4 - i % 3) % 3⟫ HtR⟪3 * (i / 3) + (4 - i % 3) % 3⟫]
    · isplitr; · iexact HIs⟪3 * (i / 3) + (4 - i % 3) % 3⟫
      isplitr; · iapply (inv_recv (cfin m) K (pr c (offs ⟪3 * (i / 3) + (4 - i % 3) % 3⟫)) ⟪3 * (i / 3) + (4 - i % 3) % 3⟫); iexact HR
      isplitl [Hs⟪4 * (i / 3)⟫x⟪(4 - i % 3) % 3⟫]; · iexact Hs⟪4 * (i / 3)⟫x⟪(4 - i % 3) % 3⟫
      isplitl [Hd⟪3 * (i / 3) + (4 - i % 3) % 3⟫]; · iexact Hd⟪3 * (i / 3) + (4 - i % 3) % 3⟫
      isplitl [HO]; · iexact HO
      isplitl [HtS⟪3 * (i / 3) + (4 - i % 3) % 3⟫]; · iexact HtS⟪3 * (i / 3) + (4 - i % 3) % 3⟫
      isplitr; · iapply (reached_send (cfin m) K c ⟪3 * (i / 3) + (4 - i % 3) % 3⟫); iexact HR
      isplitl [HtR⟪3 * (i / 3) + (4 - i % 3) % 3⟫]; · iexact HtR⟪3 * (i / 3) + (4 - i % 3) % 3⟫
      iexact HrV⟪3 * (i / 3) + (4 - i % 3) % 3⟫
    iintro ⟨HcS⟪3 * (i / 3) + (4 - i % 3) % 3⟫, HO⟩
    sl_exec_parts"

/-- Before stage `i`'s three transfers, in the first layer: what the stage stored into slot `4 i` is the slot's final
    contents (the stored product is the specification's partial product); the slot is split into the three shares its
    transfers borrow; the next stage's own slot is spelt out, to be stored into. -/
def launchText0 : String := "
    have e : ((slotM ⟪4 * i⟫).view.loc (c : Thread nD τ) ↦[(slotM ⟪4 * i⟫).view.set]{fullShare} sound_body.sl.Hs⟪4 * i⟫_w1 m c f0 : sProp 𝕄)
        = slotPts c ⟪4 * i⟫ fullShare (cfin m c) :=
      slot_congr c ⟪4 * i⟫ fullShare fun j hj =>
        cfin_store m c ⟪i⟫ (off := ![⟪4 * i⟫, 0, 0]) rfl _ f0 _
          ((congrArg₂ (fun a w => Spec.slot (Spec.mmIn a w))
            (x_read m c ⟪i⟫ (off := ![⟪32 * i⟫, 0]) rfl inb_S128x128_S32x128_⟪32 * i⟫_0) (win0_read m c (off := ![0, 0]) rfl inb_S128x256_S128x256_0_0)).trans
            (slotVal_own m c ⟪i⟫).symm) j hj
    ihave Hs⟪4 * i⟫ := (Entails.of_eq e) $$ Hs⟪4 * i⟫
    clear e
    ihave Hs⟪4 * i⟫ := (slot_share3 c ⟪4 * i⟫ (cfin m c)).1 $$ Hs⟪4 * i⟫
    icases Hs⟪4 * i⟫ with ⟨Hs⟪4 * i⟫x0, Hs⟪4 * i⟫x1, Hs⟪4 * i⟫x2⟩
    try (ihave Hs⟪4 * i + 4⟫ := (Entails.of_eq (slotPts_unfold c ⟪4 * i + 4⟫ fullShare f0)) $$ Hs⟪4 * i + 4⟫)"

/-- The same in the second layer (stages 4 to 7): the stored value is the first layer's stage multiplied out. -/
def launchText1 : String := "
    have e : ((slotM ⟪4 * i⟫).view.loc (c : Thread nD τ) ↦[(slotM ⟪4 * i⟫).view.set]{fullShare} sound_body.sl.Hs⟪4 * i⟫_w1 m c f0 : sProp 𝕄)
        = slotPts c ⟪4 * i⟫ fullShare (cfin m c) :=
      slot_congr c ⟪4 * i⟫ fullShare fun j hj =>
        cfin_store m c ⟪i⟫ (off := ![⟪4 * i⟫, 0, 0]) rfl _ f0 _
          (stage_store_val0 m c ⟪i - 4⟫ rfl rfl rfl rfl rfl rfl rfl) j hj
    ihave Hs⟪4 * i⟫ := (Entails.of_eq e) $$ Hs⟪4 * i⟫
    clear e
    ihave Hs⟪4 * i⟫ := (slot_share3 c ⟪4 * i⟫ (cfin m c)).1 $$ Hs⟪4 * i⟫
    icases Hs⟪4 * i⟫ with ⟨Hs⟪4 * i⟫x0, Hs⟪4 * i⟫x1, Hs⟪4 * i⟫x2⟩
    try (ihave Hs⟪4 * i + 4⟫ := (Entails.of_eq (slotPts_unfold c ⟪4 * i + 4⟫ fullShare f0)) $$ Hs⟪4 * i + 4⟫)"

/-- The same in the third layer (stages 8 to 11): the stored value is the second layer's stage multiplied out. -/
def launchText2 : String := "
    have e : ((slotM ⟪4 * i⟫).view.loc (c : Thread nD τ) ↦[(slotM ⟪4 * i⟫).view.set]{fullShare} sound_body.sl.Hs⟪4 * i⟫_w1 m c f0 : sProp 𝕄)
        = slotPts c ⟪4 * i⟫ fullShare (cfin m c) :=
      slot_congr c ⟪4 * i⟫ fullShare fun j hj =>
        cfin_store m c ⟪i⟫ (off := ![⟪4 * i⟫, 0, 0]) rfl _ f0 _
          (stage_store_val1 m c ⟪i - 8⟫ (part_own1 m c ⟪i - 8⟫ rfl rfl rfl rfl rfl rfl rfl) rfl rfl rfl rfl rfl) j hj
    ihave Hs⟪4 * i⟫ := (Entails.of_eq e) $$ Hs⟪4 * i⟫
    clear e
    ihave Hs⟪4 * i⟫ := (slot_share3 c ⟪4 * i⟫ (cfin m c)).1 $$ Hs⟪4 * i⟫
    icases Hs⟪4 * i⟫ with ⟨Hs⟪4 * i⟫x0, Hs⟪4 * i⟫x1, Hs⟪4 * i⟫x2⟩
    try (ihave Hs⟪4 * i + 4⟫ := (Entails.of_eq (slotPts_unfold c ⟪4 * i + 4⟫ fullShare f0)) $$ Hs⟪4 * i + 4⟫)"

set_option maxHeartbeats 64000000 in
theorem sound_body : SoundBody m := by
  intro K c Kt
  unfold bodyPre ghost linear payToks
  rw [bigSep_fin73, bigSep_fin36, bigSep_fin36, bigSep_fin3]
  iintro ⟨⟨⟨⟨#HR, Hat, HtB, HtS⟩, HcB, HcR, #Hlev, ⟨%f0, Hcomm⟩⟩, Ho, ⟨%g0, %hg0, Hx0⟩, ⟨%g1, %hg1, Hx1⟩, ⟨%g2, %hg2, Hx2⟩, ⟨%g3, %hg3, Hx3⟩,
    ⟨%g4, %hg4, Hx4⟩, ⟨%g5, %hg5, Hx5⟩, ⟨%g6, %hg6, Hx6⟩, ⟨%X7, %g7, %hg7, Hx7⟩⟩, Hk⟩
  subst hg0 hg1 hg2 hg3 hg4 hg5 hg6 hg7
  unfold Dat.owesAt Pipeline.owesWithin
  icases Ho with ⟨%W, %hW, HO⟩
  rw [show (kdats m 0 c).owed t₀.castSucc = owedRem c 39 from rfl]
  -- the cells' positions, the tokens, the credits, the slots: by number
  icases_fam Hat "Hat" 73
  icases_fam HtS "HtS" 36
  icases_fam HcR "HcR" 36
  icases HtB with ⟨HtB0, HtB1, HtB2⟩
  ihave Hsl := (Entails.of_eq (comm_split c f0)) $$ Hcomm
  ihave Hs := (Entails.of_eq (bigSep_fin48 _)) $$ Hsl
  icases_fam Hs "Hs" 48
  have hmw := mayWait_recv (F := F) c
  have hmws := mayWait_send (F := F) c
  sl_unfold [cc0_body]
  sl_exec_parts
  simp only [dev1_eq c, dev2_eq c, dev3_eq c]
  -- the staged blocks, held through their memrefs' views; the first own slot spelt out
  ihave Hx0 : ((Memref.whole cc0_stg0_0 : Memref sig .tc .vmem S128x128 .f32).view.loc (c : Thread nD τ) ↦{fullShare} iblk m c 0 t₀) $$ [Hx0]
  · iexact Hx0
  ihave Hx1 : ((Memref.whole cc0_stg1_0 : Memref sig .tc .vmem S128x256 .f32).view.loc (c : Thread nD τ) ↦{fullShare} iblk m c 1 t₀) $$ [Hx1]
  · iexact Hx1
  ihave Hx2 : ((Memref.whole cc0_stg2_0 : Memref sig .tc .vmem S256x128 .f32).view.loc (c : Thread nD τ) ↦{fullShare} iblk m c 2 t₀) $$ [Hx2]
  · iexact Hx2
  ihave Hx3 : ((Memref.whole cc0_stg3_0 : Memref sig .tc .vmem S128x256 .f32).view.loc (c : Thread nD τ) ↦{fullShare} iblk m c 3 t₀) $$ [Hx3]
  · iexact Hx3
  ihave Hx4 : ((Memref.whole cc0_stg4_0 : Memref sig .tc .vmem S256x128 .f32).view.loc (c : Thread nD τ) ↦{fullShare} iblk m c 4 t₀) $$ [Hx4]
  · iexact Hx4
  ihave Hx5 : ((Memref.whole cc0_stg5_0 : Memref sig .tc .vmem S128x256 .f32).view.loc (c : Thread nD τ) ↦{fullShare} iblk m c 5 t₀) $$ [Hx5]
  · iexact Hx5
  ihave Hx6 : ((Memref.whole cc0_stg6_0 : Memref sig .tc .vmem S256x128 .f32).view.loc (c : Thread nD τ) ↦{fullShare} iblk m c 6 t₀) $$ [Hx6]
  · iexact Hx6
  ihave Hx7 : ((Memref.whole cc0_stg7_0 : Memref sig .tc .vmem S128x128 .f32).view.loc (c : Thread nD τ) ↦{fullShare} g7) $$ [Hx7]
  · iexact Hx7
  ihave Hs0 := (Entails.of_eq (slotPts_unfold c 0 fullShare f0)) $$ Hs0
  -- the three entry signals: signal i + 1, to device c + i + 1, hands over the slots 4 L + 3 - i
  rep_range 0 3 "
    iapply (wp_sig (cfin m) c _ ⟪i⟫ rfl (K (pr c ⟪i + 1⟫, bIdx)) (owedRem c ⟪38 - i⟫) (owedRem c ⟪39 - i⟫) rfl W) $$ [HO HtB⟪i⟫ Hs⟪3 - i⟫ Hs⟪7 - i⟫ Hs⟪11 - i⟫ Hs⟪15 - i⟫ Hs⟪19 - i⟫ Hs⟪23 - i⟫ Hs⟪27 - i⟫ Hs⟪31 - i⟫ Hs⟪35 - i⟫ Hs⟪39 - i⟫ Hs⟪43 - i⟫ Hs⟪47 - i⟫]
    · isplitr; · iapply (inv_bar (cfin m) K (pr c ⟪i + 1⟫)); iexact HR
      isplitl [HO]; · iexact HO
      isplitl [HtB⟪i⟫]; · iexact HtB⟪i⟫
      isplitl [Hs⟪3 - i⟫ Hs⟪7 - i⟫ Hs⟪11 - i⟫ Hs⟪15 - i⟫ Hs⟪19 - i⟫ Hs⟪23 - i⟫ Hs⟪27 - i⟫ Hs⟪31 - i⟫ Hs⟪35 - i⟫ Hs⟪39 - i⟫ Hs⟪43 - i⟫ Hs⟪47 - i⟫]
      · iapply (mk_barPay' (cfin m) K c ⟪i⟫ f0)
        isplitr; · iexact HR
        isplitl [Hs⟪3 - i⟫]; · iexact Hs⟪3 - i⟫
        isplitl [Hs⟪7 - i⟫]; · iexact Hs⟪7 - i⟫
        isplitl [Hs⟪11 - i⟫]; · iexact Hs⟪11 - i⟫
        isplitl [Hs⟪15 - i⟫]; · iexact Hs⟪15 - i⟫
        isplitl [Hs⟪19 - i⟫]; · iexact Hs⟪19 - i⟫
        isplitl [Hs⟪23 - i⟫]; · iexact Hs⟪23 - i⟫
        isplitl [Hs⟪27 - i⟫]; · iexact Hs⟪27 - i⟫
        isplitl [Hs⟪31 - i⟫]; · iexact Hs⟪31 - i⟫
        isplitl [Hs⟪35 - i⟫]; · iexact Hs⟪35 - i⟫
        isplitl [Hs⟪39 - i⟫]; · iexact Hs⟪39 - i⟫
        isplitl [Hs⟪43 - i⟫]; · iexact Hs⟪43 - i⟫
        iexact Hs⟪47 - i⟫
      iapply (reached_bar (cfin m) K (pr c ⟪i + 1⟫)); iexact HR
    iintro HO
    rw [wp_ret]
    imodintro
    sl_exec_parts"
  -- the entry wait: the three other devices' slots come with it
  iapply (wp_bar_wait (cfin m) c (K (c, bIdx)) (owedRem c 36) W) $$ [HcB HO Hat0]
  · isplitr; · iapply (inv_bar (cfin m) K c); iexact HR
    isplitl [HcB]; · iexact HcB
    isplitl [HO]; · iexact HO
    isplitr; · iapply (mayWait_bar (F := F) c 36 (by omega)); iexact Hlev
    iexact Hat0
  iintro ⟨HO, Hat0, #HrB, HbP0, HbP1, HbP2⟩
  rw [wp_ret]
  imodintro
  ihave HbP0 := (Entails.of_eq (barPay_fam c 0)) $$ HbP0
  ihave HbP1 := (Entails.of_eq (barPay_fam c 1)) $$ HbP1
  ihave HbP2 := (Entails.of_eq (barPay_fam c 2)) $$ HbP2
  icases_fam HbP0 "HbA" 12
  icases_fam HbP1 "HbB" 12
  icases_fam HbP2 "HbC" 12
  rep_range 0 12 "
    icases HbA⟪i⟫ with ⟨⟨%fd⟪3 * i⟫, Hd⟪3 * i⟫⟩, #HrV⟪3 * i⟫⟩
    icases HbB⟪i⟫ with ⟨⟨%fd⟪3 * i + 1⟫, Hd⟪3 * i + 1⟫⟩, #HrV⟪3 * i + 1⟫⟩
    icases HbC⟪i⟫ with ⟨⟨%fd⟪3 * i + 2⟫, Hd⟪3 * i + 2⟫⟩, #HrV⟪3 * i + 2⟫⟩"
  sl_exec_parts
  -- every own cell's invariant and position, under the cells' own names
  rep_range 0 36 "
    ihave #HIr⟪i⟫ := (inv_recv (cfin m) K c ⟪i⟫) $$ HR
    ihave #HIs⟪i⟫ := (inv_send (cfin m) K c ⟪i⟫) $$ HR
    ihave Hat⟪37 + i⟫ := (Entails.of_eq (congrArg (fun g => atPos ER g 0 ∅ 0) (show kcell (c, (⟪37 + i⟫ : Fin 73)) = recvCell c ⟪i⟫ from kcell_r c ⟪i⟫))) $$ Hat⟪37 + i⟫
    ihave Hat⟪1 + i⟫ := (Entails.of_eq (congrArg (fun g => atPos ER g 0 ∅ 0) (show kcell (c, (⟪1 + i⟫ : Fin 73)) = sendCell c ⟪i⟫ from kcell_s c ⟪i⟫))) $$ Hat⟪1 + i⟫"
  -- the twelve launches; after a launch's last transfer come the next stage's waits, loads, products and store, up to
  -- the next launch's first transfer (after the last launch: the remaining stages, the result's stores and the waits
  -- for the device's own transfers, to the end of the body)
  rep_nested 0 4 3 launchText0 sendText
  rep_nested 4 8 3 launchText1 sendText
  rep_nested 8 12 3 launchText2 sendText
  -- the end: the slots under their names again, nothing owed, the result block named, and the post
  rw [wp_ret]
  rep_range 0 36 "
    ihave Hat⟪37 + i⟫_pay1 := (Entails.of_eq (slotPts_unfold c (dstSlot ⟪i⟫) fullShare (cfin m c)).symm) $$ Hat⟪37 + i⟫_pay1
    ihave Hat⟪1 + i⟫_pay1 := (Entails.of_eq (slotPts_unfold c (srcSlot ⟪i⟫) (shareOf ⟪i⟫) (cfin m c)).symm) $$ Hat⟪1 + i⟫_pay1"
  have hO0 : ∀ W' : Waits sig Unit, (owes (c : Thread nD τ) (owedRem c 0) W' : sProp 𝕄) = owes (c : Thread nD τ) 0 W' := fun _ => rfl
  ihave HO := (Entails.of_eq (hO0 _)) $$ HO
  have hX7 : (Memref.whole cc0_stg7_0 : Memref sig .tc .vmem S128x128 .f32).view.writes (Elt F) g7 (sound_body.sl.Hx7_4 m c) = outv m c :=
    out_writes m c g7 _ _ _ _
      (stage_out_val m c 0 (part_own2 m c 0 (part_own1 m c 0 rfl rfl rfl rfl rfl rfl rfl) rfl rfl rfl rfl rfl) rfl rfl rfl rfl)
      (stage_out_val m c 1 (part_own2 m c 1 (part_own1 m c 1 rfl rfl rfl rfl rfl rfl rfl) rfl rfl rfl rfl rfl) rfl rfl rfl rfl)
      (stage_out_val m c 2 (part_own2 m c 2 (part_own1 m c 2 rfl rfl rfl rfl rfl rfl rfl) rfl rfl rfl rfl rfl) rfl rfl rfl rfl)
      (stage_out_val m c 3 (part_own2 m c 3 (part_own1 m c 3 rfl rfl rfl rfl rfl rfl rfl) rfl rfl rfl rfl rfl) rfl rfl rfl rfl)
  imod (body_post_intro_fam m K c _ _ hX7) $$ [- Hk] with Hpost
  · isplitr; · iexact HR
    rep_range 0 35 "
      iapply (sep_assoc (PROP := sProp 𝕄)).2
      isplitl [Hat⟪1 + i⟫]; · iexact Hat⟪1 + i⟫"
    isplitl [Hat36]; · iexact Hat36
    rep_range 0 35 "
      iapply (sep_assoc (PROP := sProp 𝕄)).2
      isplitl [Hat⟪37 + i⟫]; · iexact Hat⟪37 + i⟫"
    isplitl [Hat72]; · iexact Hat72
    rep_range 0 35 "
      iapply (sep_assoc (PROP := sProp 𝕄)).2
      isplitl [Hat⟪37 + i⟫_pay1]; · iexact Hat⟪37 + i⟫_pay1"
    isplitl [Hat72_pay1]; · iexact Hat72_pay1
    rep_range 0 35 "
      iapply (sep_assoc (PROP := sProp 𝕄)).2
      isplitl [Hat⟪1 + i⟫_pay1]; · iexact Hat⟪1 + i⟫_pay1"
    isplitl [Hat36_pay1]; · iexact Hat36_pay1
    isplitl [HO]; · iexact HO
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  imodintro
  iapply Hk
  iexact Hpost

/-- info: 'Cert.Kernel.Proto.sound_body' depends on axioms: [propext, Classical.choice, Quot.sound] -/
#guard_msgs in #print axioms sound_body

end Cert.Kernel.Proto

end
-- ==== Proof.Sums.lean ====
/-
  Two facts about finite sums in a commutative monoid (the extended reals are one; no finiteness
  is needed).  A sum over the 512 columns is the sum over the four devices of the sums over each
  device's 128 columns; and a device's own term plus the terms of the devices three, one and two
  places further round the ring of four, in this order, is the sum over all four devices.
-/
import Idealize.ShloMosaic.Lib.ValueIdx
import Mathlib.Algebra.BigOperators.Fin
import Mathlib.Tactic.Abel
import Mathlib.Tactic.FinCases

open scoped BigOperators

namespace Cert.Sums

/-- Column `q` of device `d`'s block of 128 is column `128 d + q` of the 512. -/
def colIx (d : Fin 4) (q : Fin 128) : Fin 512 := ⟨d.val * 128 + q.val, by have := d.isLt; have := q.isLt; omega⟩

@[simp] theorem colIx_val (d : Fin 4) (q : Fin 128) : (colIx d q).val = d.val * 128 + q.val := rfl

/-- The 512 columns are the four devices' blocks of 128, one after another. -/
def colEquiv : Fin 4 × Fin 128 ≃ Fin 512 where
  toFun x := colIx x.1 x.2
  invFun j := (⟨j.val / 128, by have := j.isLt; omega⟩, ⟨j.val % 128, Nat.mod_lt _ (by decide)⟩)
  left_inv x := by
    obtain ⟨d, q⟩ := x
    have hq := q.isLt
    refine Prod.ext (Fin.ext ?_) (Fin.ext ?_)
    · show (d.val * 128 + q.val) / 128 = d.val
      omega
    · show (d.val * 128 + q.val) % 128 = q.val
      omega
  right_inv j := Fin.ext (by
    show j.val / 128 * 128 + j.val % 128 = j.val
    omega)

variable {M : Type} [AddCommMonoid M]

/-- A sum over the 512 columns, device by device. -/
theorem sum_cols (f : Fin 512 → M) : ∑ j, f j = ∑ d : Fin 4, ∑ q : Fin 128, f (colIx d q) := by
  rw [← Equiv.sum_comp colEquiv f, Fintype.sum_prod_type]
  rfl

/-- The device `k` places further round the ring of four. -/
def next (c : Fin 4) (k : ℕ) : Fin 4 := ⟨(c.val + k) % 4, Nat.mod_lt _ (by decide)⟩

/-- A device's own term, then those of the devices three, one and two places on: all four. -/
theorem sum_ring (f : Fin 4 → M) (c : Fin 4) : f c + f (next c 3) + f (next c 1) + f (next c 2) = ∑ d, f d := by
  rw [Fin.sum_univ_four]
  fin_cases c
  · show f 0 + f 3 + f 1 + f 2 = _
    abel
  · show f 1 + f 0 + f 2 + f 3 = _
    abel
  · show f 2 + f 1 + f 3 + f 0 = _
    abel
  · show f 3 + f 2 + f 0 + f 1 = _
    abel

end Cert.Sums
-- ==== Proof.OpsAt.lean ====
/-
  The specification's building blocks read at an index, over the extended reals.  There a change
  of float format is the identity and a product accumulated from zero is a plain sum, so:
  a partial product at (r, k) is Σ_j a(r, j) · w(j, k) over the device's 128 columns; a slot read
  back is what was put in it; the four-term sum a device forms is the sum over all four devices;
  and the output product at (r, q) is Σ_k max (h(r, k)) 0 · o(k, q) over the 256 hidden units.
-/
import proofs.«900970_g7700000000000971_dist_mlpseq_tp1dT_cs_cs_b128_d128_h256_v7x_i4_f32_1_alg».proof.Proof.Spec
import proofs.«900970_g7700000000000971_dist_mlpseq_tp1dT_cs_cs_b128_d128_h256_v7x_i4_f32_1_alg».proof.Proof.Sums
import Idealize.ShloMosaic.Lib.Pipeline.Value
import Idealize.ShloMosaic.Lib.ValueIdx
import Idealize.ShloMosaic.PureOps.Ideal.Laws

noncomputable section

open scoped BigOperators

namespace Cert.KernelIdeal.Spec

open Idealize.ShloMosaic Idealize.SL.Sem Idealize.ShloMosaic.ValueIdx
open Cert.KernelIdeal.Gen

/-! ## Where a product's operands are read: the two dimension records, axis by axis -/

theorem lhs_in_0 (i : S32x256.Idx) (q : dot_S32x128_S128x256_S32x256_1_0_0_1_n_n.contr.Idx) :
    (dot_S32x128_S128x256_S32x256_1_0_0_1_n_n.lhsIdx i q 0).val = (i 0).val := by
  unfold DotDims.lhsIdx
  rw [dif_neg (show ¬(0 : Fin S32x128.rank) ∈ dot_S32x128_S128x256_S32x256_1_0_0_1_n_n.lhsBatch by decide), dif_pos (show (0 : Fin S32x128.rank) ∈ dot_S32x128_S128x256_S32x256_1_0_0_1_n_n.lhsNonContracting by decide)]
  rfl
theorem lhs_in_1 (i : S32x256.Idx) (q : dot_S32x128_S128x256_S32x256_1_0_0_1_n_n.contr.Idx) :
    (dot_S32x128_S128x256_S32x256_1_0_0_1_n_n.lhsIdx i q 1).val = (q ⟨0, by decide⟩).val :=
  dot_S32x128_S128x256_S32x256_1_0_0_1_n_n.lhsIdx_val_of_single rfl i q
theorem rhs_in_0 (i : S32x256.Idx) (q : dot_S32x128_S128x256_S32x256_1_0_0_1_n_n.contr.Idx) :
    (dot_S32x128_S128x256_S32x256_1_0_0_1_n_n.rhsIdx i q 0).val = (q ⟨0, by decide⟩).val :=
  dot_S32x128_S128x256_S32x256_1_0_0_1_n_n.rhsIdx_val_of_single rfl i q
theorem rhs_in_1 (i : S32x256.Idx) (q : dot_S32x128_S128x256_S32x256_1_0_0_1_n_n.contr.Idx) :
    (dot_S32x128_S128x256_S32x256_1_0_0_1_n_n.rhsIdx i q 1).val = (i 1).val := by
  unfold DotDims.rhsIdx
  rw [dif_neg (show ¬(1 : Fin S128x256.rank) ∈ dot_S32x128_S128x256_S32x256_1_0_0_1_n_n.rhsBatch by decide), dif_pos (show (1 : Fin S128x256.rank) ∈ dot_S32x128_S128x256_S32x256_1_0_0_1_n_n.rhsNonContracting by decide)]
  rfl

theorem lhs_out_0 (i : S32x128.Idx) (q : dot_S32x256_S256x128_S32x128_1_0_0_1_n_n.contr.Idx) :
    (dot_S32x256_S256x128_S32x128_1_0_0_1_n_n.lhsIdx i q 0).val = (i 0).val := by
  unfold DotDims.lhsIdx
  rw [dif_neg (show ¬(0 : Fin S32x256.rank) ∈ dot_S32x256_S256x128_S32x128_1_0_0_1_n_n.lhsBatch by decide), dif_pos (show (0 : Fin S32x256.rank) ∈ dot_S32x256_S256x128_S32x128_1_0_0_1_n_n.lhsNonContracting by decide)]
  rfl
theorem lhs_out_1 (i : S32x128.Idx) (q : dot_S32x256_S256x128_S32x128_1_0_0_1_n_n.contr.Idx) :
    (dot_S32x256_S256x128_S32x128_1_0_0_1_n_n.lhsIdx i q 1).val = (q ⟨0, by decide⟩).val :=
  dot_S32x256_S256x128_S32x128_1_0_0_1_n_n.lhsIdx_val_of_single rfl i q
theorem rhs_out_0 (i : S32x128.Idx) (q : dot_S32x256_S256x128_S32x128_1_0_0_1_n_n.contr.Idx) :
    (dot_S32x256_S256x128_S32x128_1_0_0_1_n_n.rhsIdx i q 0).val = (q ⟨0, by decide⟩).val :=
  dot_S32x256_S256x128_S32x128_1_0_0_1_n_n.rhsIdx_val_of_single rfl i q
theorem rhs_out_1 (i : S32x128.Idx) (q : dot_S32x256_S256x128_S32x128_1_0_0_1_n_n.contr.Idx) :
    (dot_S32x256_S256x128_S32x128_1_0_0_1_n_n.rhsIdx i q 1).val = (i 1).val := by
  unfold DotDims.rhsIdx
  rw [dif_neg (show ¬(1 : Fin S256x128.rank) ∈ dot_S32x256_S256x128_S32x128_1_0_0_1_n_n.rhsBatch by decide), dif_pos (show (1 : Fin S256x128.rank) ∈ dot_S32x256_S256x128_S32x128_1_0_0_1_n_n.rhsNonContracting by decide)]
  rfl

/-! ## The products at an index -/

/-- A partial product at (r, k): the sum over the device's 128 columns. -/
theorem mmCore_apply (x : FVec Ideal S32x128 .bf16) (w : Vec Ideal S128x256 .f32) (i : S32x256.Idx) :
    mmCore x w i = ∑ j : Fin 128, x (ix2 (n0 := 32) (n1 := 128) (i 0) j) * w (ix2 (n0 := 128) (n1 := 256) j (i 1)) := by
  unfold mmCore
  simp only [matmul]
  rw [Ideal.matmul_constant_zero_apply, ← Equiv.sum_comp (contrEquiv1 dot_S32x128_S128x256_S32x256_1_0_0_1_n_n 128 rfl rfl).symm]
  refine Finset.sum_congr rfl fun k _ => ?_
  have hk := contrEquiv1_symm_val dot_S32x128_S128x256_S32x256_1_0_0_1_n_n 128 rfl rfl k
  have el : dot_S32x128_S128x256_S32x256_1_0_0_1_n_n.lhsIdx i ((contrEquiv1 dot_S32x128_S128x256_S32x256_1_0_0_1_n_n 128 rfl rfl).symm k) = ix2 (n0 := 32) (n1 := 128) (i 0) k := funext fun a => Fin.ext (by
    match a with
    | ⟨0, _⟩ => exact lhs_in_0 _ _
    | ⟨1, _⟩ => exact (lhs_in_1 _ _).trans hk)
  have er : dot_S32x128_S128x256_S32x256_1_0_0_1_n_n.rhsIdx i ((contrEquiv1 dot_S32x128_S128x256_S32x256_1_0_0_1_n_n 128 rfl rfl).symm k) = ix2 (n0 := 128) (n1 := 256) k (i 1) := funext fun a => Fin.ext (by
    match a with
    | ⟨0, _⟩ => exact (rhs_in_0 _ _).trans hk
    | ⟨1, _⟩ => exact rhs_in_1 _ _)
  rw [el, er, truncf_apply, shapeCast_self]

theorem mmIn_apply (x : Vec Ideal S32x128 .f32) (w : Vec Ideal S128x256 .f32) (i : S32x256.Idx) :
    mmIn x w i = ∑ j : Fin 128, x (ix2 (n0 := 32) (n1 := 128) (i 0) j) * w (ix2 (n0 := 128) (n1 := 256) j (i 1)) := by
  unfold mmIn
  rw [mmCore_apply]
  refine Finset.sum_congr rfl fun j _ => ?_
  rw [truncf_apply, shapeCast_self]

theorem mmNext_apply (x : FVec Ideal S32x128 .f32) (w : Vec Ideal S128x256 .f32) (i : S32x256.Idx) :
    mmNext x w i = ∑ j : Fin 128, x (ix2 (n0 := 32) (n1 := 128) (i 0) j) * w (ix2 (n0 := 128) (n1 := 256) j (i 1)) := by
  unfold mmNext
  rw [mmCore_apply]
  refine Finset.sum_congr rfl fun j _ => ?_
  rw [truncf_apply]

/-- The output product at (r, q): the sum over the 256 hidden units of the rectified sum times the weight. -/
theorem mmOut_apply (h : FVec Ideal S32x256 .f32) (o : Vec Ideal S256x128 .f32) (i : S32x128.Idx) :
    mmOut h o i = ∑ k : Fin 256, max (h (ix2 (n0 := 32) (n1 := 256) (i 0) k)) 0 * o (ix2 (n0 := 256) (n1 := 128) k (i 1)) := by
  unfold mmOut
  simp only [matmul]
  rw [Ideal.matmul_constant_zero_apply, ← Equiv.sum_comp (contrEquiv1 dot_S32x256_S256x128_S32x128_1_0_0_1_n_n 256 rfl rfl).symm]
  refine Finset.sum_congr rfl fun k _ => ?_
  have hk := contrEquiv1_symm_val dot_S32x256_S256x128_S32x128_1_0_0_1_n_n 256 rfl rfl k
  have el : dot_S32x256_S256x128_S32x128_1_0_0_1_n_n.lhsIdx i ((contrEquiv1 dot_S32x256_S256x128_S32x128_1_0_0_1_n_n 256 rfl rfl).symm k) = ix2 (n0 := 32) (n1 := 256) (i 0) k := funext fun a => Fin.ext (by
    match a with
    | ⟨0, _⟩ => exact lhs_out_0 _ _
    | ⟨1, _⟩ => exact (lhs_out_1 _ _).trans hk)
  have er : dot_S32x256_S256x128_S32x128_1_0_0_1_n_n.rhsIdx i ((contrEquiv1 dot_S32x256_S256x128_S32x128_1_0_0_1_n_n 256 rfl rfl).symm k) = ix2 (n0 := 256) (n1 := 128) k (i 1) := funext fun a => Fin.ext (by
    match a with
    | ⟨0, _⟩ => exact (rhs_out_0 _ _).trans hk
    | ⟨1, _⟩ => exact rhs_out_1 _ _)
  rw [el, er, truncf_apply, truncf_apply, shapeCast_self]
  unfold relu
  rw [maximumf_apply, broadcast_apply]
  show max _ (Ideal.ofBits .f32 0x00000000#32) * _ = _
  rw [Ideal.ofBits_zero_f32]

/-! ## The exchange -/

/-- What is read back from a slot is what was put in it. -/
theorem unslot_slot (x : FVec Ideal S32x256 .f32) : unslot (slot x) = x := by
  unfold unslot slot
  rw [shapeCast_shapeCast]
  rfl

/-- The four-term sum a device forms is the sum over all four devices. -/
theorem accOf_apply (P : Dev nD → Fin 4 → FVec Ideal S32x256 .f32) (c : Dev nD) (p : Fin 4) (i : S32x256.Idx) :
    accOf P c p i = ∑ d : Dev nD, P d p i := by
  unfold accOf add1
  rw [unslot_slot, unslot_slot, unslot_slot]
  exact Cert.Sums.sum_ring (fun d => P d p i) c

end Cert.KernelIdeal.Spec

end
-- ==== Proof.RefValue.lean ====
/-
  The reference on whole arrays, as one function of its seven arguments.

  A layer takes the activations `x` (128 × 512), the input weights (512 × 256) and the output
  weights (256 × 512) to `max (x · Win) 0 · Wout`; the reference is three layers in a row.  Read at
  an index, entry (r, q) of a layer is the sum over the 256 hidden units k of
  max (Σ_j x(r, j) · Win(j, k)) 0 · Wout(k, q), with j over all 512 columns.
-/
import proofs.«900970_g7700000000000971_dist_mlpseq_tp1dT_cs_cs_b128_d128_h256_v7x_i4_f32_1_alg».proof.Proof.Gen.ReferenceIdeal.Run
import proofs.«900970_g7700000000000971_dist_mlpseq_tp1dT_cs_cs_b128_d128_h256_v7x_i4_f32_1_alg».proof.Proof.Gen.ReferenceIdeal.Read
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-- One layer on whole arrays: `max (x · win) 0 · wout`. -/
def refLayer (x : Vec F S128x512 .f32) (win : Vec F S512x256 .f32) (wout : Vec F S256x512 .f32) :
    Vec F S128x512 .f32 :=
  Host.dotGeneral dot_S128x256_S256x512_S128x512_1_0_0_1_n_n none
    (maximumf (Host.dotGeneral dot_S128x512_S512x256_S128x256_1_0_0_1_n_n none x win)
      (broadcastInDim S128x256 ![] bcast_S_S128x256 (constant S_ .f32 0x00000000#32))) wout

/-- The reference's result: three layers, layer `l` with input weights `Ww l` and output weights `Ow l`. -/
def refVal (Xw : Vec F S128x512 .f32) (Ww : ℕ → Vec F S512x256 .f32) (Ow : ℕ → Vec F S256x512 .f32) :
    Vec F S128x512 .f32 :=
  refLayer (refLayer (refLayer Xw (Ww 0) (Ow 0)) (Ww 1) (Ow 1)) (Ww 2) (Ow 2)

/-- Three things listed by layer. -/
def pick3 {α : Type} (a b c : α) : ℕ → α
  | 0 => a
  | 1 => b
  | _ => c

@[simp] theorem pick3_zero {α : Type} (a b c : α) : pick3 a b c 0 = a := rfl
@[simp] theorem pick3_one {α : Type} (a b c : α) : pick3 a b c 1 = b := rfl
@[simp] theorem pick3_two {α : Type} (a b c : α) : pick3 a b c 2 = c := rfl

/-- The whole input-weight arrays of a memory, by layer. -/
def wOf (m : (ℓ : Loc nD τ sig) → Buf (Elt F) ℓ) (c : Dev nD) : ℕ → Vec F S512x256 .f32 :=
  pick3 (m ((c.tc : Thread nD τ).loc main_arg1)) (m ((c.tc : Thread nD τ).loc main_arg3)) (m ((c.tc : Thread nD τ).loc main_arg5))

/-- The whole output-weight arrays of a memory, by layer. -/
def oOf (m : (ℓ : Loc nD τ sig) → Buf (Elt F) ℓ) (c : Dev nD) : ℕ → Vec F S256x512 .f32 :=
  pick3 (m ((c.tc : Thread nD τ).loc main_arg2)) (m ((c.tc : Thread nD τ).loc main_arg4)) (m ((c.tc : Thread nD τ).loc main_arg6))

/-- The reference's run, with its result named as `refVal` of the argument arrays. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = refVal (m ((c.tc : Thread nD τ).loc main_arg0)) (wOf m c) (oOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.ReferenceIdeal.Value.run m ρ

/-- A layer is the generated stage of the first layer's second product, of any arguments. -/
theorem refLayer_eq_stage (x : Vec F S128x512 .f32) (win : Vec F S512x256 .f32) (wout : Vec F S256x512 .f32) :
    refLayer x win wout = Read.val_main_v3 x win wout := rfl

theorem lidx_out (i : S128x512.Idx) (k : Fin 256) : Read.lidx_main_v3 i k = ix2 (n0 := 128) (n1 := 256) (i 0) k := by
  funext a; match a with | ⟨0, _⟩ => rfl | ⟨1, _⟩ => rfl

theorem ridx_out (i : S128x512.Idx) (k : Fin 256) : Read.ridx_main_v3 i k = ix2 (n0 := 256) (n1 := 512) k (i 1) := by
  funext a; match a with | ⟨0, _⟩ => rfl | ⟨1, _⟩ => rfl

theorem lidx_in (i : S128x256.Idx) (j : Fin 512) : Read.lidx_main_v0 i j = ix2 (n0 := 128) (n1 := 512) (i 0) j := by
  funext a; match a with | ⟨0, _⟩ => rfl | ⟨1, _⟩ => rfl

theorem ridx_in (i : S128x256.Idx) (j : Fin 512) : Read.ridx_main_v0 i j = ix2 (n0 := 512) (n1 := 256) j (i 1) := by
  funext a; match a with | ⟨0, _⟩ => rfl | ⟨1, _⟩ => rfl

/-- A layer at an index, over the extended reals. -/
theorem refLayer_apply (x : Vec Ideal S128x512 .f32) (win : Vec Ideal S512x256 .f32) (wout : Vec Ideal S256x512 .f32)
    (i : S128x512.Idx) :
    refLayer (F := Ideal) x win wout i
      = ∑ k : Fin 256, max (∑ j : Fin 512, x (ix2 (n0 := 128) (n1 := 512) (i 0) j) * win (ix2 (n0 := 512) (n1 := 256) j k)) 0
          * wout (ix2 (n0 := 256) (n1 := 512) k (i 1)) := by
  rw [refLayer_eq_stage, Read.val_main_v3_apply]
  refine Finset.sum_congr rfl fun k _ => ?_
  rw [Read.val_main_v2_apply, Read.val_main_v0_apply, Read.val_main_v1_apply, Read.val_main_cst_apply, lidx_out, ridx_out]
  show max _ (Ideal.ofBits .f32 0x00000000#32) * _ = _
  rw [Ideal.ofBits_zero_f32]
  refine congrArg (fun s => max s 0 * wout (ix2 (n0 := 256) (n1 := 512) k (i 1))) (Finset.sum_congr rfl fun j _ => ?_)
  rw [lidx_in, ridx_in]

end Cert.ReferenceIdeal.RefValue

end
-- ==== Proof.Bridge.lean ====
/-
  Each device's block of the kernel's result is its block of the reference's result.

  Write A for the whole activations entering a layer (128 × 512), Win (512 × 256) and Wout
  (256 × 512) for its weights.  Device d holds columns 128 d … 128 d + 127 of A, the same rows of
  Win, and those columns of Wout.  Its partial product of piece p at (r, k) is
  Σ_{j < 128} A(32 p + r, 128 d + j) · Win(128 d + j, k); the sum of the four devices' partial
  products is Σ_{j' < 512} A(32 p + r, j') · Win(j', k), the full product, because the 512 columns
  are the four blocks of 128 (addition of extended reals is commutative and associative; nothing
  need be finite).  Rectified and multiplied by device c's columns of Wout this is entry
  (32 p + r, 128 c + q) of the layer's result on whole arrays: device c's block of it.  That block
  is what enters the next layer on device c, so the three layers follow one from another.
-/
import proofs.«900970_g7700000000000971_dist_mlpseq_tp1dT_cs_cs_b128_d128_h256_v7x_i4_f32_1_alg».proof.Proof.OpsAt
import proofs.«900970_g7700000000000971_dist_mlpseq_tp1dT_cs_cs_b128_d128_h256_v7x_i4_f32_1_alg».proof.Proof.RefValue
import Idealize.ShloMosaic.Lib.Layout

noncomputable section

open scoped BigOperators

namespace Cert.KernelIdeal.Spec

open Idealize.ShloMosaic Idealize.SL.Sem Idealize.ShloMosaic.ValueIdx
open Cert.Sums (colIx)
open Cert.ReferenceIdeal.RefValue (refLayer refVal refLayer_apply)

/-- Row `r` of piece `p` among the 128 rows. -/
def rowIx (p : Fin 4) (r : Fin 32) : Fin 128 := ⟨32 * p.val + r.val, row_lt p _ r.isLt⟩

/-! ## A device's blocks of the whole arrays, at an index -/

theorem blockX_apply (Xw : Vec Ideal ⟨2, ![128, 512]⟩ .f32) (c : Dev nD) (r q : Fin 128) :
    (Layout.block ⟨2, ![128, 128]⟩ ⟨2, ![128, 512]⟩ 1 4 c Xw) (ix2 (n0 := 128) (n1 := 128) r q)
      = Xw (ix2 (n0 := 128) (n1 := 512) r (colIx c q)) :=
  congrArg Xw (Shape.idx_ext₂ rfl rfl)

theorem blockW_apply (Wl : Vec Ideal ⟨2, ![512, 256]⟩ .f32) (c : Dev nD) (j : Fin 128) (k : Fin 256) :
    (Layout.block ⟨2, ![128, 256]⟩ ⟨2, ![512, 256]⟩ 0 4 c Wl) (ix2 (n0 := 128) (n1 := 256) j k)
      = Wl (ix2 (n0 := 512) (n1 := 256) (colIx c j) k) :=
  congrArg Wl (Shape.idx_ext₂ rfl rfl)

theorem blockO_apply (Ol : Vec Ideal ⟨2, ![256, 512]⟩ .f32) (c : Dev nD) (k : Fin 256) (q : Fin 128) :
    (Layout.block ⟨2, ![256, 128]⟩ ⟨2, ![256, 512]⟩ 1 4 c Ol) (ix2 (n0 := 256) (n1 := 128) k q)
      = Ol (ix2 (n0 := 256) (n1 := 512) k (colIx c q)) :=
  congrArg Ol (Shape.idx_ext₂ rfl rfl)

/-! ## One layer -/

/-- `P` holds every device's partial products of `A · Wl`: device `c`'s, of piece `p`, at (r, k) is the
    sum over its own 128 columns of `A` and rows of `Wl`. -/
def IsPart (A : Vec Ideal ⟨2, ![128, 512]⟩ .f32) (Wl : Vec Ideal ⟨2, ![512, 256]⟩ .f32)
    (P : Dev nD → Fin 4 → FVec Ideal S32x256 .f32) : Prop :=
  ∀ (c : Dev nD) (p : Fin 4) (r : Fin 32) (k : Fin 256),
    P c p (ix2 (n0 := 32) (n1 := 256) r k)
      = ∑ j : Fin 128, A (ix2 (n0 := 128) (n1 := 512) (rowIx p r) (colIx c j)) * Wl (ix2 (n0 := 512) (n1 := 256) (colIx c j) k)

/-- The sum a device forms of the four partial products is the full product over the 512 columns. -/
theorem acc_eq {A : Vec Ideal ⟨2, ![128, 512]⟩ .f32} {Wl : Vec Ideal ⟨2, ![512, 256]⟩ .f32}
    {P : Dev nD → Fin 4 → FVec Ideal S32x256 .f32} (hP : IsPart A Wl P)
    (c : Dev nD) (p : Fin 4) (r : Fin 32) (k : Fin 256) :
    accOf P c p (ix2 (n0 := 32) (n1 := 256) r k)
      = ∑ j' : Fin 512, A (ix2 (n0 := 128) (n1 := 512) (rowIx p r) j') * Wl (ix2 (n0 := 512) (n1 := 256) j' k) := by
  rw [accOf_apply, Cert.Sums.sum_cols]
  exact Finset.sum_congr rfl fun d _ => hP d p r k

/-- Rectified and multiplied by device `c`'s columns of the output weights, it is device `c`'s block
    of the layer's result on whole arrays. -/
theorem xn_eq {A : Vec Ideal ⟨2, ![128, 512]⟩ .f32} {Wl : Vec Ideal ⟨2, ![512, 256]⟩ .f32}
    {P : Dev nD → Fin 4 → FVec Ideal S32x256 .f32} (hP : IsPart A Wl P)
    (Ol : Dev nD → Vec Ideal S256x128 .f32) (Owl : Vec Ideal ⟨2, ![256, 512]⟩ .f32)
    (hO : ∀ c, Ol c = Layout.block ⟨2, ![256, 128]⟩ ⟨2, ![256, 512]⟩ 1 4 c Owl)
    (c : Dev nD) (p : Fin 4) (r : Fin 32) (q : Fin 128) :
    mmOut (accOf P c p) (Ol c) (ix2 (n0 := 32) (n1 := 128) r q)
      = refLayer A Wl Owl (ix2 (n0 := 128) (n1 := 512) (rowIx p r) (colIx c q)) := by
  rw [mmOut_apply, refLayer_apply]
  refine Finset.sum_congr rfl fun k _ => ?_
  show max (accOf P c p (ix2 (n0 := 32) (n1 := 256) r k)) 0 * Ol c (ix2 (n0 := 256) (n1 := 128) k q)
    = max (∑ j : Fin 512, A (ix2 (n0 := 128) (n1 := 512) (rowIx p r) j) * Wl (ix2 (n0 := 512) (n1 := 256) j k)) 0
        * Owl (ix2 (n0 := 256) (n1 := 512) k (colIx c q))
  rw [acc_eq hP, hO, blockO_apply]

/-- The first layer's partial products, from the devices' blocks of the activations. -/
theorem part_first (Xw : Vec Ideal ⟨2, ![128, 512]⟩ .f32) (Wl : Vec Ideal ⟨2, ![512, 256]⟩ .f32)
    (X : Dev nD → Vec Ideal S128x128 .f32) (W0 : Dev nD → Vec Ideal S128x256 .f32)
    (hX : ∀ c, X c = Layout.block ⟨2, ![128, 128]⟩ ⟨2, ![128, 512]⟩ 1 4 c Xw)
    (hW : ∀ c, W0 c = Layout.block ⟨2, ![128, 256]⟩ ⟨2, ![512, 256]⟩ 0 4 c Wl) :
    IsPart Xw Wl (fun c p => mmIn (xrows X c p) (W0 c)) := by
  intro c p r k
  show mmIn (xrows X c p) (W0 c) (ix2 (n0 := 32) (n1 := 256) r k) = _
  rw [mmIn_apply]
  refine Finset.sum_congr rfl fun j _ => ?_
  show X c (ix2 (n0 := 128) (n1 := 128) (rowIx p r) j) * W0 c (ix2 (n0 := 128) (n1 := 256) j k) = _
  rw [hX, hW, blockX_apply, blockW_apply]

/-- A later layer's partial products, from the devices' blocks of the previous layer's result. -/
theorem part_next (A' : Vec Ideal ⟨2, ![128, 512]⟩ .f32) (Wl : Vec Ideal ⟨2, ![512, 256]⟩ .f32)
    (xn : Dev nD → Fin 4 → FVec Ideal S32x128 .f32) (Wn : Dev nD → Vec Ideal S128x256 .f32)
    (hxn : ∀ (c : Dev nD) (p : Fin 4) (r : Fin 32) (q : Fin 128),
      xn c p (ix2 (n0 := 32) (n1 := 128) r q) = A' (ix2 (n0 := 128) (n1 := 512) (rowIx p r) (colIx c q)))
    (hW : ∀ c, Wn c = Layout.block ⟨2, ![128, 256]⟩ ⟨2, ![512, 256]⟩ 0 4 c Wl) :
    IsPart A' Wl (fun c p => mmNext (xn c p) (Wn c)) := by
  intro c p r k
  show mmNext (xn c p) (Wn c) (ix2 (n0 := 32) (n1 := 256) r k) = _
  rw [mmNext_apply]
  refine Finset.sum_congr rfl fun j _ => ?_
  show xn c p (ix2 (n0 := 32) (n1 := 128) r j) * Wn c (ix2 (n0 := 128) (n1 := 256) j k) = _
  rw [hxn, hW, blockW_apply]

/-! ## The three layers -/

/-- If every device's argument blocks are its blocks of the whole arrays, its block of the kernel's
    result is its block of the reference's result. -/
theorem outAt_block (Xw : Vec Ideal ⟨2, ![128, 512]⟩ .f32) (Ww : ℕ → Vec Ideal ⟨2, ![512, 256]⟩ .f32)
    (Ow : ℕ → Vec Ideal ⟨2, ![256, 512]⟩ .f32)
    (X : Dev nD → Vec Ideal S128x128 .f32) (W : ℕ → Dev nD → Vec Ideal S128x256 .f32)
    (O : ℕ → Dev nD → Vec Ideal S256x128 .f32)
    (hX : ∀ c, X c = Layout.block ⟨2, ![128, 128]⟩ ⟨2, ![128, 512]⟩ 1 4 c Xw)
    (hW : ∀ l, l < 3 → ∀ c, W l c = Layout.block ⟨2, ![128, 256]⟩ ⟨2, ![512, 256]⟩ 0 4 c (Ww l))
    (hO : ∀ l, l < 3 → ∀ c, O l c = Layout.block ⟨2, ![256, 128]⟩ ⟨2, ![256, 512]⟩ 1 4 c (Ow l))
    (c : Dev nD) :
    outAt X W O c = Layout.block ⟨2, ![128, 128]⟩ ⟨2, ![128, 512]⟩ 1 4 c (refVal Xw Ww Ow) := by
  have h0 : IsPart Xw (Ww 0) (partL X W O 0) := part_first Xw (Ww 0) X (W 0) hX (hW 0 (by decide))
  have x1 := xn_eq h0 (O 0) (Ow 0) (hO 0 (by decide))
  have h1 : IsPart (refLayer Xw (Ww 0) (Ow 0)) (Ww 1) (partL X W O 1) :=
    part_next _ (Ww 1) (fun c p => xnOf O (partL X W O 0) 0 c p) (W 1) x1 (hW 1 (by decide))
  have x2 := xn_eq h1 (O 1) (Ow 1) (hO 1 (by decide))
  have h2 : IsPart (refLayer (refLayer Xw (Ww 0) (Ow 0)) (Ww 1) (Ow 1)) (Ww 2) (partL X W O 2) :=
    part_next _ (Ww 2) (fun c p => xnOf O (partL X W O 1) 1 c p) (W 2) x2 (hW 2 (by decide))
  have x3 := xn_eq h2 (O 2) (Ow 2) (hO 2 (by decide))
  funext j
  obtain ⟨a, b, rfl⟩ : ∃ (a : Fin 128) (b : Fin 128), j = ix2 (n0 := 128) (n1 := 128) a b := ⟨j 0, j 1, eq_ix2 j⟩
  have ha := a.isLt
  have hp : a.val / 32 < 4 := by omega
  have hr : a.val % 32 < 32 := Nat.mod_lt _ (by decide)
  rw [blockX_apply,
    outAt_piece X W O c ⟨a.val / 32, hp⟩ (ix2 (n0 := 32) (n1 := 128) ⟨a.val % 32, hr⟩ b) (ix2 (n0 := 128) (n1 := 128) a b)
      (by show a.val = 32 * (a.val / 32) + a.val % 32; omega) rfl]
  have e : rowIx ⟨a.val / 32, hp⟩ ⟨a.val % 32, hr⟩ = a :=
    Fin.ext (by show 32 * (a.val / 32) + a.val % 32 = a.val; omega)
  have h := x3 c ⟨a.val / 32, hp⟩ ⟨a.val % 32, hr⟩ b
  rw [e] at h
  exact h

/-- info: 'Cert.KernelIdeal.Spec.outAt_block' depends on axioms: [propext, Classical.choice, Quot.sound] -/
#guard_msgs in #print axioms outAt_block

end Cert.KernelIdeal.Spec

end
-- ==== Proof.Assemble.lean ====
/-
  The algebraic conjunct from the two runs.  The kernel's run names each device's result as the
  specification's value of that device's argument blocks; the reference's run names its result as
  the three layers on whole arrays; and where every device's blocks are its blocks of the whole
  arrays, the former is the device's block of the latter.
-/
import proofs.«900970_g7700000000000971_dist_mlpseq_tp1dT_cs_cs_b128_d128_h256_v7x_i4_f32_1_alg».proof.Defs
import proofs.«900970_g7700000000000971_dist_mlpseq_tp1dT_cs_cs_b128_d128_h256_v7x_i4_f32_1_alg».proof.Proof.KArgs
import proofs.«900970_g7700000000000971_dist_mlpseq_tp1dT_cs_cs_b128_d128_h256_v7x_i4_f32_1_alg».proof.Proof.Bridge
import proofs.«900970_g7700000000000971_dist_mlpseq_tp1dT_cs_cs_b128_d128_h256_v7x_i4_f32_1_alg».proof.Proof.Gen.KernelIdeal
import proofs.«900970_g7700000000000971_dist_mlpseq_tp1dT_cs_cs_b128_d128_h256_v7x_i4_f32_1_alg».proof.Proof.Gen.ReferenceIdeal
import proofs.«900970_g7700000000000971_dist_mlpseq_tp1dT_cs_cs_b128_d128_h256_v7x_i4_f32_1_alg».proof.Proof.Gen.Pre_finite_inputs_Kernel

noncomputable section

namespace Cert.KernelIdeal.Spec

open Idealize.ShloMosaic Idealize.SL.Sem

/-- The kernel's run with its result named is all the algebraic conjunct needs of the kernel. -/
theorem algebraic_of_run
    (hrun : ∀ (m : (ℓ : Loc nD τ sig) → Buf (Elt Ideal) ℓ) (g : Dev nD → PrngReg), Cert.Pre_KernelIdeal m →
      θ_run (defs (F := Ideal)) (onTc (τ := τ) (main (F := Ideal))) ⟨m, fun _ => 0, g⟩ (RunPost m)) :
    Cert.algebraic_KernelIdeal_ReferenceIdeal := by
  intro m g m' g' hpre hagree
  refine ⟨Cert.ReferenceIdeal.RefValue.refVal
      (m' (((0 : Dev Cert.ReferenceIdeal.nD).tc : Thread Cert.ReferenceIdeal.nD Cert.ReferenceIdeal.τ).loc Cert.ReferenceIdeal.main_arg0))
      (Cert.ReferenceIdeal.RefValue.wOf m' 0) (Cert.ReferenceIdeal.RefValue.oOf m' 0), ?_, ?_⟩
  · refine (θ_run _ _ _).mono (fun r h c => ?_) (hrun m g hpre)
    obtain ⟨hv, hrest⟩ := h c
    refine ⟨?_, hrest⟩
    rw [hv]
    refine outAt_block _ _ _ (xOf m) (wOf m) (oOf m) (fun c => (hagree c).1) ?_ ?_ c
    · intro l hl c
      match l, hl with
      | 0, _ => exact (hagree c).2.1
      | 1, _ => exact (hagree c).2.2.2.1
      | 2, _ => exact (hagree c).2.2.2.2.2.1
    · intro l hl c
      match l, hl with
      | 0, _ => exact (hagree c).2.2.1
      | 1, _ => exact (hagree c).2.2.2.2.1
      | 2, _ => exact (hagree c).2.2.2.2.2.2
  · exact (θ_run _ _ _).mono (fun r h => h 0) (Cert.ReferenceIdeal.RefValue.run m' g')

/-- info: 'Cert.KernelIdeal.Spec.algebraic_of_run' depends on axioms: [propext, Classical.choice, Quot.sound] -/
#guard_msgs in #print axioms algebraic_of_run

end Cert.KernelIdeal.Spec

end
-- ==== Proof.RefFrame.lean ====
/-
  The reference runs to the end, faults nowhere and leaves its seven arguments as they were: its
  run with the result's value forgotten.
-/
import proofs.«900970_g7700000000000971_dist_mlpseq_tp1dT_cs_cs_b128_d128_h256_v7x_i4_f32_1_alg».proof.Defs
import proofs.«900970_g7700000000000971_dist_mlpseq_tp1dT_cs_cs_b128_d128_h256_v7x_i4_f32_1_alg».proof.Proof.Gen.ReferenceIdeal.Run
import proofs.«900970_g7700000000000971_dist_mlpseq_tp1dT_cs_cs_b128_d128_h256_v7x_i4_f32_1_alg».proof.Proof.Gen.Pre_finite_inputs_ReferenceIdeal

noncomputable section

namespace Cert.ReferenceIdeal.RefValue

open Idealize.ShloMosaic Idealize.SL.Sem

theorem frame_ri : Cert.frame_ReferenceIdeal :=
  fun m ρ _ => (θ_run Cert.ReferenceIdeal.defs _ _).mono (fun _ h c => (h c).2)
    (Cert.ReferenceIdeal.Value.run (F := Ideal) m ρ)

end Cert.ReferenceIdeal.RefValue

end
-- ==== Proof.lean ====
/-
  The certificate of the four-device tensor-parallel MLP.

  Each device holds a column block of the activations and of every output weight matrix and a row
  block of every input weight matrix.  In each of three layers a device multiplies its blocks (a
  partial product over its 128 of the 512 contracted columns), sends the partial product, narrowed,
  to its three peers, adds the four partial products, rectifies the sum and multiplies by its columns
  of the output weights.  The frames say that every fair execution of the four devices' threads ends
  with the arguments as they were; the algebraic claim that, over the extended reals, each device's
  result block is its block of max (x · Win) 0 · Wout iterated three times on whole arrays: the
  four partial sums over 128 columns add up to the sum over all 512, in any order.
-/
import proofs.«900970_g7700000000000971_dist_mlpseq_tp1dT_cs_cs_b128_d128_h256_v7x_i4_f32_1_alg».proof.Defs
import proofs.«900970_g7700000000000971_dist_mlpseq_tp1dT_cs_cs_b128_d128_h256_v7x_i4_f32_1_alg».proof.Proof.Gen.Kernel
import proofs.«900970_g7700000000000971_dist_mlpseq_tp1dT_cs_cs_b128_d128_h256_v7x_i4_f32_1_alg».proof.Proof.Gen.KernelIdeal
import proofs.«900970_g7700000000000971_dist_mlpseq_tp1dT_cs_cs_b128_d128_h256_v7x_i4_f32_1_alg».proof.Proof.Gen.ReferenceIdeal
import proofs.«900970_g7700000000000971_dist_mlpseq_tp1dT_cs_cs_b128_d128_h256_v7x_i4_f32_1_alg».proof.Proof.Gen.Pre_finite_inputs_Kernel
import proofs.«900970_g7700000000000971_dist_mlpseq_tp1dT_cs_cs_b128_d128_h256_v7x_i4_f32_1_alg».proof.Proof.Gen.Pre_finite_inputs_ReferenceIdeal
import proofs.«900970_g7700000000000971_dist_mlpseq_tp1dT_cs_cs_b128_d128_h256_v7x_i4_f32_1_alg».proof.Proof.RunBody
import proofs.«900970_g7700000000000971_dist_mlpseq_tp1dT_cs_cs_b128_d128_h256_v7x_i4_f32_1_alg».proof.Proof.KRunBody
import proofs.«900970_g7700000000000971_dist_mlpseq_tp1dT_cs_cs_b128_d128_h256_v7x_i4_f32_1_alg».proof.Proof.Body
import proofs.«900970_g7700000000000971_dist_mlpseq_tp1dT_cs_cs_b128_d128_h256_v7x_i4_f32_1_alg».proof.Proof.KBody
import proofs.«900970_g7700000000000971_dist_mlpseq_tp1dT_cs_cs_b128_d128_h256_v7x_i4_f32_1_alg».proof.Proof.Assemble
import proofs.«900970_g7700000000000971_dist_mlpseq_tp1dT_cs_cs_b128_d128_h256_v7x_i4_f32_1_alg».proof.Proof.RefFrame
import Idealize.ShloMosaic.Adequacy
import Idealize.ShloMosaic.Init

noncomputable section

namespace Cert.Proof

open Idealize.ShloMosaic Idealize.SL.Sem

/-- The three frames, the trivial preservation and the algebraic claim, from the two instances of
    the kernel's run and the reference's run. -/
theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    fun m g _ => Cert.Kernel.Proto.frame_post m g (Cert.Kernel.Proto.sound_body m),
    fun m g _ => Cert.KernelIdeal.Proto.frame_post m g (Cert.KernelIdeal.Proto.sound_body m),
    Cert.ReferenceIdeal.RefValue.frame_ri,
    trivial,
    Cert.KernelIdeal.Spec.algebraic_of_run fun m g _ =>
      Cert.KernelIdeal.Proto.run_post m g (Cert.KernelIdeal.Proto.sound_body m)⟩

end Cert.Proof

end
